-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v222) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x3 : Shape := ⟨3, ![16, 512, 3]⟩
abbrev S4x4 : Shape := ⟨2, ![4, 4]⟩
abbrev S4x4x2 : Shape := ⟨3, ![4, 4, 2]⟩
abbrev S2048x256 : Shape := ⟨2, ![2048, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S16x512x3 : S_.BroadcastsInDim S16x512x3 (![] : Fin 0 → Fin S16x512x3.rank)
  reducesTo_S16x512x3_S_d0_1_2 : S16x512x3.ReducesTo [0, 1, 2] S_
  h_S_ : 0 < S_.numel
  bcast_S_S4x4 : S_.BroadcastsInDim S4x4 (![] : Fin 0 → Fin S4x4.rank)
  reducesTo_S4x4_S_d0_1 : S4x4.ReducesTo [0, 1] S_
  bcast_S_S4x4x2 : S_.BroadcastsInDim S4x4x2 (![] : Fin 0 → Fin S4x4x2.rank)
  reducesTo_S4x4x2_S_d0_1_2 : S4x4x2.ReducesTo [0, 1, 2] S_
  bcast_S_S2048x256 : S_.BroadcastsInDim S2048x256 (![] : Fin 0 → Fin S2048x256.rank)
  reducesTo_S2048x256_S_d0_1 : S2048x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S256 .f32) (main_arg5 : FVec F S256x1 .f32) (main_arg6 : FVec F S1 .f32) (main_v13 : IVec S_ 1) (main_v16 : IVec S2048x256 1) : IVec S_ 1 :=
  let main_c_5 : IVec S_ 1 := constantI S_ 1 1#1
  let main_v17 : IVec S_ 1 := (fun x v => Host.reduce IntOp.andi x v reducesTo_S2048x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x1 .f32 := Host.absf main_arg5
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S16x512x3 .f32) (main_arg1 : FVec F S4x4 .f32) (main_arg2 : FVec F S4x4x2 .f32) (main_arg3 : FVec F S2048x256 .f32) (main_arg4 : FVec F S256 .f32) (main_arg5 : FVec F S256x1 .f32) (main_arg6 : FVec F S1 .f32) : IVec S_ 1 :=
  let main_v0 : FVec F S16x512x3 .f32 := Host.absf main_arg0
  let main_cst : FVec F S_ .f32 := constant S_ .f32 0x7F800000#32
  let main_v1 : FVec F S16x512x3 .f32 := broadcastInDim S16x512x3 ![] bcast_S_S16x512x3 main_cst
  let main_v2 : IVec S16x512x3 1 := cmpf .olt main_v0 main_v1
  let main_c : IVec S_ 1 := constantI S_ 1 1#1
  let main_v3 : IVec S_ 1 := (fun x v => Host.reduce IntOp.andi x v reducesTo_S16x512x3_S_d0_1_2 h_S_) main_v2 main_c
  let main_v4 : FVec F S4x4 .f32 := Host.absf main_arg1
  let main_cst_0 : FVec F S_ .f32 := constant S_ .f32 0x7F800000#32
  let main_v5 : FVec F S4x4 .f32 := broadcastInDim S4x4 ![] bcast_S_S4x4 main_cst_0
  let main_v6 : IVec S4x4 1 := cmpf .olt main_v4 main_v5
  let main_c_1 : IVec S_ 1 := constantI S_ 1 1#1
  let main_v7 : IVec S_ 1 := (fun x v => Host.reduce IntOp.andi x v reducesTo_S4x4_S_d0_1 h_S_) main_v6 main_c_1
  let main_v8 : IVec S_ 1 := andi main_v3 main_v7
  let main_v9 : FVec F S4x4x2 .f32 := Host.absf main_arg2
  let main_cst_2 : FVec F S_ .f32 := constant S_ .f32 0x7F800000#32
  let main_v10 : FVec F S4x4x2 .f32 := broadcastInDim S4x4x2 ![] bcast_S_S4x4x2 main_cst_2
  let main_v11 : IVec S4x4x2 1 := cmpf .olt main_v9 main_v10
  let main_c_3 : IVec S_ 1 := constantI S_ 1 1#1
  let main_v12 : IVec S_ 1 := (fun x v => Host.reduce IntOp.andi x v reducesTo_S4x4x2_S_d0_1_2 h_S_) main_v11 main_c_3
  let main_v13 : IVec S_ 1 := andi main_v8 main_v12
  let main_v14 : FVec F S2048x256 .f32 := Host.absf main_arg3
  let main_cst_4 : FVec F S_ .f32 := constant S_ .f32 0x7F800000#32
  let main_v15 : FVec F S2048x256 .f32 := broadcastInDim S2048x256 ![] bcast_S_S2048x256 main_cst_4
  let main_v16 : IVec S2048x256 1 := cmpf .olt main_v14 main_v15
  fn_part1 (F := F) main_arg4 main_arg5 main_arg6 main_v13 main_v16
-- ==== Kernel.lean ====
abbrev S16x512x3 : Shape := ⟨3, ![16, 512, 3]⟩
abbrev S4x4 : Shape := ⟨2, ![4, 4]⟩
abbrev S4x4x2 : Shape := ⟨3, ![4, 4, 2]⟩
abbrev S2048x256 : Shape := ⟨2, ![2048, 256]⟩
abbrev S256 : Shape := ⟨1, ![256]⟩
abbrev S256x1 : Shape := ⟨2, ![256, 1]⟩
abbrev S1 : Shape := ⟨1, ![1]⟩
abbrev S16x3x512 : Shape := ⟨3, ![16, 3, 512]⟩
abbrev S16x4x512x512 : Shape := ⟨4, ![16, 4, 512, 512]⟩
abbrev S1x3x512 : Shape := ⟨3, ![1, 3, 512]⟩
abbrev S1x4x512x512 : Shape := ⟨4, ![1, 4, 512, 512]⟩
abbrev S3x512 : Shape := ⟨2, ![3, 512]⟩
abbrev S1x512 : Shape := ⟨2, ![1, 512]⟩
abbrev S512 : Shape := ⟨1, ![512]⟩
abbrev S512x1 : Shape := ⟨2, ![512, 1]⟩
abbrev S512x512 : Shape := ⟨2, ![512, 512]⟩
abbrev S1x512x512 : Shape := ⟨3, ![1, 512, 512]⟩
abbrev S4x512x512 : Shape := ⟨3, ![4, 512, 512]⟩
abbrev S4x1 : Shape := ⟨2, ![4, 1]⟩
abbrev S4 : Shape := ⟨1, ![4]⟩
abbrev S4x1x1 : Shape := ⟨3, ![4, 1, 1]⟩
abbrev S_ : Shape := ⟨0, ![]⟩
abbrev S512x512x1 : Shape := ⟨3, ![512, 512, 1]⟩
abbrev S512x512x2 : Shape := ⟨3, ![512, 512, 2]⟩
abbrev S16x4x512 : Shape := ⟨3, ![16, 4, 512]⟩
abbrev S16x2048 : Shape := ⟨2, ![16, 2048]⟩
abbrev S16x256 : Shape := ⟨2, ![16, 256]⟩
abbrev S1x256 : Shape := ⟨2, ![1, 256]⟩
abbrev S16x1 : Shape := ⟨2, ![16, 1]⟩
abbrev S1x1 : Shape := ⟨2, ![1, 1]⟩
abbrev S16 : Shape := ⟨1, ![16]⟩

abbrev nBuf : Space → Nat
  | .hbm => 85
  | .vmem => 6
  | .smem => 0
  | _ => 0

abbrev bufTy : (tb : Table) → Fin (tcTables nBuf tb) → BufTy
  | .hbm, ⟨0, _⟩ => ⟨S16x512x3, .f32⟩
  | .hbm, ⟨1, _⟩ => ⟨S4x4, .f32⟩
  | .hbm, ⟨2, _⟩ => ⟨S4x4x2, .f32⟩
  | .hbm, ⟨3, _⟩ => ⟨S2048x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S16x3x512, .f32⟩
  | .hbm, ⟨8, _⟩ => ⟨S16x4x512x512, .f32⟩
  | .hbm, ⟨9, _⟩ => ⟨S512, .i32⟩
  | .hbm, ⟨10, _⟩ => ⟨S512x1, .i32⟩
  | .hbm, ⟨11, _⟩ => ⟨S1x512, .i32⟩
  | .hbm, ⟨12, _⟩ => ⟨S512x512, .i32⟩
  | .hbm, ⟨13, _⟩ => ⟨S512x512, .i32⟩
  | .hbm, ⟨14, _⟩ => ⟨S512x512, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S512x512, .i32⟩
  | .hbm, ⟨22, _⟩ => ⟨S512x512, .i32⟩
  | .hbm, ⟨23, _⟩ => ⟨S_, .i32⟩
  | .hbm, ⟨24, _⟩ => ⟨S512x512, .i32⟩
  | .hbm, ⟨25, _⟩ => ⟨S512x512, .i1⟩
  | .hbm, ⟨26, _⟩ => ⟨S_, .i32⟩
  | .hbm, ⟨27, _⟩ => ⟨S512x512, .i32⟩
  | .hbm, ⟨28, _⟩ => ⟨S512x512, .i1⟩
  | .hbm, ⟨29, _⟩ => ⟨S_, .i32⟩
  | .hbm, ⟨30, _⟩ => ⟨S_, .i1⟩
  | .hbm, ⟨31, _⟩ => ⟨S512x512, .i1⟩
  | .hbm, ⟨32, _⟩ => ⟨S512x512, .i1⟩
  | .hbm, ⟨33, _⟩ => ⟨S512x512, .i1⟩
  | .hbm, ⟨34, _⟩ => ⟨S512x512, .i32⟩
  | .hbm, ⟨35, _⟩ => ⟨S512x512, .i32⟩
  | .hbm, ⟨36, _⟩ => ⟨S512x512, .i32⟩
  | .hbm, ⟨37, _⟩ => ⟨S512x1, .i32⟩
  | .hbm, ⟨38, _⟩ => ⟨S_, .i32⟩
  | .hbm, ⟨39, _⟩ => ⟨S512x1, .i32⟩
  | .hbm, ⟨40, _⟩ => ⟨S512x1, .i1⟩
  | .hbm, ⟨41, _⟩ => ⟨S_, .i32⟩
  | .hbm, ⟨42, _⟩ => ⟨S512x1, .i32⟩
  | .hbm, ⟨43, _⟩ => ⟨S512x1, .i32⟩
  | .hbm, ⟨44, _⟩ => ⟨S512x1, .i32⟩
  | .hbm, ⟨45, _⟩ => ⟨S_, .i32⟩
  | .hbm, ⟨46, _⟩ => ⟨S512x512, .i32⟩
  | .hbm, ⟨47, _⟩ => ⟨S512x512, .i1⟩
  | .hbm, ⟨48, _⟩ => ⟨S_, .i32⟩
  | .hbm, ⟨49, _⟩ => ⟨S512x512, .i32⟩
  | .hbm, ⟨50, _⟩ => ⟨S512x512, .i32⟩
  | .hbm, ⟨51, _⟩ => ⟨S512x512, .i32⟩
  | .hbm, ⟨52, _⟩ => ⟨S512x512, .i32⟩
  | .hbm, ⟨53, _⟩ => ⟨S512x512x1, .i32⟩
  | .hbm, ⟨54, _⟩ => ⟨S512x512x1, .i32⟩
  | .hbm, ⟨55, _⟩ => ⟨S512x512x2, .i32⟩
  | .hbm, ⟨56, _⟩ => ⟨S16x4x512x512, .f32⟩
  | .hbm, ⟨57, _⟩ => ⟨S_, .f32⟩
  | .hbm, ⟨58, _⟩ => ⟨S16x4x512, .f32⟩
  | .hbm, ⟨59, _⟩ => ⟨S16x2048, .f32⟩
  | .hbm, ⟨60, _⟩ => ⟨S16x256, .f32⟩
  | .hbm, ⟨61, _⟩ => ⟨S1x256, .f32⟩
  | .hbm, ⟨62, _⟩ => ⟨S16x256, .f32⟩
  | .hbm, ⟨63, _⟩ => ⟨S16x256, .f32⟩
  | .hbm, ⟨64, _⟩ => ⟨S_, .f32⟩
  | .hbm, ⟨65, _⟩ => ⟨S16x256, .f32⟩
  | .hbm, ⟨66, _⟩ => ⟨S16x256, .f32⟩
  | .hbm, ⟨67, _⟩ => ⟨S_, .f32⟩
  | .hbm, ⟨68, _⟩ => ⟨S16x256, .f32⟩
  | .hbm, ⟨69, _⟩ => ⟨S16x256, .f32⟩
  | .hbm, ⟨70, _⟩ => ⟨S_, .f32⟩
  | .hbm, ⟨71, _⟩ => ⟨S16x256, .f32⟩
  | .hbm, ⟨72, _⟩ => ⟨S16x256, .f32⟩
  | .hbm, ⟨73, _⟩ => ⟨S16x256, .f32⟩
  | .hbm, ⟨74, _⟩ => ⟨S_, .f32⟩
  | .hbm, ⟨75, _⟩ => ⟨S16x256, .f32⟩
  | .hbm, ⟨76, _⟩ => ⟨S16x256, .f32⟩
  | .hbm, ⟨77, _⟩ => ⟨S16x256, .f32⟩
  | .hbm, ⟨78, _⟩ => ⟨S16x1, .f32⟩
  | .hbm, ⟨79, _⟩ => ⟨S1x1, .f32⟩
  | .hbm, ⟨80, _⟩ => ⟨S16x1, .f32⟩
  | .hbm, ⟨81, _⟩ => ⟨S16x1, .f32⟩
  | .hbm, ⟨82, _⟩ => ⟨S16, .f32⟩
  | .hbm, ⟨83, _⟩ => ⟨S16, .f32⟩
  | .hbm, ⟨84, _⟩ => ⟨S16, .f32⟩
  | .local _ .vmem, ⟨0, _⟩ => ⟨S1x3x512, .f32⟩
  | .local _ .vmem, ⟨1, _⟩ => ⟨S1x3x512, .f32⟩
  | .local _ .vmem, ⟨2, _⟩ => ⟨S4x4, .f32⟩
  | .local _ .vmem, ⟨3, _⟩ => ⟨S4x4x2, .f32⟩
  | .local _ .vmem, ⟨4, _⟩ => ⟨S1x4x512x512, .f32⟩
  | .local _ .vmem, ⟨5, _⟩ => ⟨S1x4x512x512, .f32⟩
  | _, _ => ⟨S16x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_1 : Ref sig .tc := ⟨.hbm, 23, rfl⟩
abbrev main_call0_v5 : Ref sig .tc := ⟨.hbm, 24, rfl⟩
abbrev main_call0_v6 : Ref sig .tc := ⟨.hbm, 25, rfl⟩
abbrev main_call0_c_2 : Ref sig .tc := ⟨.hbm, 26, rfl⟩
abbrev main_call0_v7 : Ref sig .tc := ⟨.hbm, 27, rfl⟩
abbrev main_call0_v8 : Ref sig .tc := ⟨.hbm, 28, rfl⟩
abbrev main_call0_c_3 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_v8 : Ref sig .tc := ⟨.hbm, 36, rfl⟩
abbrev main_v9 : Ref sig .tc := ⟨.hbm, 37, rfl⟩
abbrev main_c_0 : Ref sig .tc := ⟨.hbm, 38, rfl⟩
abbrev main_v10 : Ref sig .tc := ⟨.hbm, 39, rfl⟩
abbrev main_v11 : Ref sig .tc := ⟨.hbm, 40, rfl⟩
abbrev main_c_1 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_c_2 : Ref sig .tc := ⟨.hbm, 45, rfl⟩
abbrev main_v15 : Ref sig .tc := ⟨.hbm, 46, rfl⟩
abbrev main_v16 : Ref sig .tc := ⟨.hbm, 47, rfl⟩
abbrev main_c_3 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_cst : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_call1_cst : Ref sig .tc := ⟨.hbm, 64, rfl⟩
abbrev main_call1_v0 : Ref sig .tc := ⟨.hbm, 65, rfl⟩
abbrev main_call1_v1 : Ref sig .tc := ⟨.hbm, 66, rfl⟩
abbrev main_call1_cst_0 : Ref sig .tc := ⟨.hbm, 67, rfl⟩
abbrev main_call1_v2 : Ref sig .tc := ⟨.hbm, 68, rfl⟩
abbrev main_call1_v3 : Ref sig .tc := ⟨.hbm, 69, rfl⟩
abbrev main_call1_cst_1 : Ref sig .tc := ⟨.hbm, 70, rfl⟩
abbrev main_call1_v4 : Ref sig .tc := ⟨.hbm, 71, rfl⟩
abbrev main_call1_v5 : Ref sig .tc := ⟨.hbm, 72, rfl⟩
abbrev main_call1_v6 : Ref sig .tc := ⟨.hbm, 73, rfl⟩
abbrev main_call1_cst_2 : Ref sig .tc := ⟨.hbm, 74, rfl⟩
abbrev main_call1_v7 : Ref sig .tc := ⟨.hbm, 75, rfl⟩
abbrev main_call1_v8 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x4x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x4x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S16x512x3_S16x3x512_0_2_1 : S16x512x3.Transposes [0, 2, 1] S16x3x512
  inb_S1x3x512_S1x3x512_0_0_0 : ∀ a, (![0, 0, 0] : Fin 3 → Nat) a + S1x3x512.size a ≤ S1x3x512.size a
  h_S1x3x512 : 0 < S1x3x512.numel
  shapeCasts_S1x3x512_S3x512 : S1x3x512.ShapeCasts S3x512
  slices_S3x512_o0_0_S1x512 : S3x512.Slices ![0, 0] S1x512
  shapeCasts_S1x512_S512 : S1x512.ShapeCasts S512
  slices_S3x512_o1_0_S1x512 : S3x512.Slices ![1, 0] S1x512
  slices_S3x512_o2_0_S1x512 : S3x512.Slices ![2, 0] S1x512
  shapeCasts_S512_S512x1 : S512.ShapeCasts S512x1
  shapeCasts_S512_S1x512 : S512.ShapeCasts S1x512
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  natLt_1_32 : 1 < 32
  shapeCasts_S512x512_S1x512x512 : S512x512.ShapeCasts S1x512x512
  shapeCasts_S1x512x512_S1x512x512 : S1x512x512.ShapeCasts S1x512x512
  broadcasts_S1x512x512_S4x512x512 : S1x512x512.Broadcasts S4x512x512
  inb_S4x4_S4x4_0_0 : ∀ a, (![0, 0] : Fin 2 → Nat) a + S4x4.size a ≤ S4x4.size a
  h_S4x4 : 0 < S4x4.numel
  inb_S4x4x2_S4x4x2_0_0_0 : ∀ a, (![0, 0, 0] : Fin 3 → Nat) a + S4x4x2.size a ≤ S4x4x2.size a
  h_S4x4x2 : 0 < S4x4x2.numel
  slices_S4x4_o0_0_S4x1 : S4x4.Slices ![0, 0] S4x1
  shapeCasts_S4x1_S4 : S4x1.ShapeCasts S4
  shapeCasts_S4_S4x1x1 : S4.ShapeCasts S4x1x1
  broadcasts_S4x1x1_S4x512x512 : S4x1x1.Broadcasts S4x512x512
  slices_S4x4x2_o0_0_0_S4x1x1 : S4x4x2.Slices ![0, 0, 0] S4x1x1
  shapeCasts_S4x1x1_S4 : S4x1x1.ShapeCasts S4
  rotates_S4x512x512_d2 : S4x512x512.Rotates 2 none
  rotates_S4x512x512_d1 : S4x512x512.Rotates 1 none
  slices_S4x4x2_o0_0_1_S4x1x1 : S4x4x2.Slices ![0, 0, 1] S4x1x1
  slices_S4x4_o0_1_S4x1 : S4x4.Slices ![0, 1] S4x1
  slices_S4x4x2_o0_1_0_S4x1x1 : S4x4x2.Slices ![0, 1, 0] S4x1x1
  slices_S4x4x2_o0_1_1_S4x1x1 : S4x4x2.Slices ![0, 1, 1] S4x1x1
  slices_S4x4_o0_2_S4x1 : S4x4.Slices ![0, 2] S4x1
  slices_S4x4x2_o0_2_0_S4x1x1 : S4x4x2.Slices ![0, 2, 0] S4x1x1
  slices_S4x4x2_o0_2_1_S4x1x1 : S4x4x2.Slices ![0, 2, 1] S4x1x1
  slices_S4x4_o0_3_S4x1 : S4x4.Slices ![0, 3] S4x1
  slices_S4x4x2_o0_3_0_S4x1x1 : S4x4x2.Slices ![0, 3, 0] S4x1x1
  slices_S4x4x2_o0_3_1_S4x1x1 : S4x4x2.Slices ![0, 3, 1] S4x1x1
  inb_S1x4x512x512_S1x4x512x512_0_0_0_0 : ∀ a, (![0, 0, 0, 0] : Fin 4 → Nat) a + S1x4x512x512.size a ≤ S1x4x512x512.size a
  h_S1x4x512x512 : 0 < S1x4x512x512.numel
  shapeCasts_S1x4x512x512_S4x512x512 : S1x4x512x512.ShapeCasts S4x512x512
  shapeCasts_S4x512x512_S1x4x512x512 : S4x512x512.ShapeCasts S1x4x512x512
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  bcast_S_S512x1 : S_.BroadcastsInDim S512x1 (![] : Fin 0 → Fin S512x1.rank)
  bcast_S512x512_S512x512x1_0_1 : S512x512.BroadcastsInDim S512x512x1 (![0, 1] : Fin 2 → Fin S512x512x1.rank)
  concatenates_S512x512x1_S512x512x1_S512x512x2_d2 : Shape.Concatenates [S512x512x1, S512x512x1] S512x512x2 2
  reducesTo_S16x4x512x512_S16x4x512_d2 : S16x4x512x512.ReducesTo [2] S16x4x512
  h_S_ : 0 < S_.numel
  shapeCasts_S16x4x512_S16x2048 : S16x4x512.ShapeCasts S16x2048
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  bcast_S_S16x256 : S_.BroadcastsInDim S16x256 (![] : Fin 0 → Fin S16x256.rank)
  bcast_S1_S1x1_1 : S1.BroadcastsInDim S1x1 (![1] : Fin 1 → Fin S1x1.rank)
  bcast_S1x1_S16x1_0_1 : S1x1.BroadcastsInDim S16x1 (![0, 1] : Fin 2 → Fin S16x1.rank)
  shapeCasts_S16x1_S16 : S16x1.ShapeCasts S16
  gather_S16x4x512x512_S512x512x2_S16x4x512x512_01_23_n_n_23_2_16411_wf : GatherDims.WF S16x4x512x512 S512x512x2 S16x4x512x512 [0, 1] [2, 3] [] [2, 3] [] 2 ![16, 4, 1, 1]
  dot_S16x2048_S2048x256_S16x256_1_0_0_1_n_n_wf : DotDims.WF S16x2048 S2048x256 S16x256 [1] [0] [0] [1] [] []
  dot_S16x256_S256x1_S16x1_1_0_0_1_n_n_wf : DotDims.WF S16x256 S256x1 S16x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512.size a ≤ S16x3x512.size a
  hwx0_0 : ∀ i : grid0.Coords, EltTy.bits .f32 = 32 ∨ (Rect.block (s := S16x3x512) S1x3x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x4.size a ≤ S4x4.size a
  hwx0_1 : ∀ i : grid0.Coords, EltTy.bits .f32 = 32 ∨ (Rect.block (s := S4x4) S4x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x4x2.size a ≤ S4x4x2.size a
  hwx0_2 : ∀ i : grid0.Coords, EltTy.bits .f32 = 32 ∨ (Rect.block (s := S4x4x2) S4x4x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x512x512.size a ≤ S16x4x512x512.size a
  hwx0_3 : ∀ i : grid0.Coords, EltTy.bits .f32 = 32 ∨ (Rect.block (s := S16x4x512x512) S1x4x512x512.size (cc0_transform_3 i) (hinb0_3 i)).WholeWords (EltTy.packing .f32)

variable [Facts₀]

def gather_S16x4x512x512_S512x512x2_S16x4x512x512_01_23_n_n_23_2_16411 : GatherDims S16x4x512x512 S512x512x2 S16x4x512x512 where
  offsetDims := [0, 1]
  collapsedSliceDims := [2, 3]
  operandBatchingDims := []
  startIndicesBatchingDims := []
  startIndexMap := [2, 3]
  indexVectorDim := 2
  sliceSizes := ![16, 4, 1, 1]
  wf := gather_S16x4x512x512_S512x512x2_S16x4x512x512_01_23_n_n_23_2_16411_wf
def dot_S16x2048_S2048x256_S16x256_1_0_0_1_n_n : DotDims S16x2048 S2048x256 S16x256 where
  lhsContracting := [1]
  rhsContracting := [0]
  lhsNonContracting := [0]
  rhsNonContracting := [1]
  lhsBatch := []
  rhsBatch := []
  wf := dot_S16x2048_S2048x256_S16x256_1_0_0_1_n_n_wf
def dot_S16x256_S256x1_S16x1_1_0_0_1_n_n : DotDims S16x256 S256x1 S16x1 where
  lhsContracting := [1]
  rhsContracting := [0]
  lhsNonContracting := [0]
  rhsNonContracting := [1]
  lhsBatch := []
  rhsBatch := []
  wf := dot_S16x256_S256x1_S16x1_1_0_0_1_n_n_wf

abbrev win0_0 : Pipeline.Window sig grid0 :=
  Pipeline.Window.ofSpec (Memref.whole main_v0) S1x3x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x4x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x4x512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x512x3 : Shape := ⟨3, ![16, 512, 3]⟩
abbrev S4x4 : Shape := ⟨2, ![4, 4]⟩
abbrev S4x4x2 : Shape := ⟨3, ![4, 4, 2]⟩
abbrev S2048x256 : Shape := ⟨2, ![2048, 256]⟩
abbrev S256 : Shape := ⟨1, ![256]⟩
abbrev S256x1 : Shape := ⟨2, ![256, 1]⟩
abbrev S1 : Shape := ⟨1, ![1]⟩
abbrev S16x512x512 : Shape := ⟨3, ![16, 512, 512]⟩
abbrev S512x512 : Shape := ⟨2, ![512, 512]⟩
abbrev S_ : Shape := ⟨0, ![]⟩
abbrev S1x512x512 : Shape := ⟨3, ![1, 512, 512]⟩
abbrev S16x1x512x512 : Shape := ⟨4, ![16, 1, 512, 512]⟩
abbrev S16x4x512x512 : Shape := ⟨4, ![16, 4, 512, 512]⟩
abbrev S4x1 : Shape := ⟨2, ![4, 1]⟩
abbrev S4 : Shape := ⟨1, ![4]⟩
abbrev S4x1x1 : Shape := ⟨3, ![4, 1, 1]⟩
abbrev S1x4x1x1 : Shape := ⟨4, ![1, 4, 1, 1]⟩
abbrev S16x4x512x1 : Shape := ⟨4, ![16, 4, 512, 1]⟩
abbrev S16x4x512x511 : Shape := ⟨4, ![16, 4, 512, 511]⟩
abbrev S16x4x1x512 : Shape := ⟨4, ![16, 4, 1, 512]⟩
abbrev S16x4x511x512 : Shape := ⟨4, ![16, 4, 511, 512]⟩
abbrev S16x4x512x2 : Shape := ⟨4, ![16, 4, 512, 2]⟩
abbrev S16x4x512x510 : Shape := ⟨4, ![16, 4, 512, 510]⟩
abbrev S16x4x2x512 : Shape := ⟨4, ![16, 4, 2, 512]⟩
abbrev S16x4x510x512 : Shape := ⟨4, ![16, 4, 510, 512]⟩
abbrev S1x1x512x512 : Shape := ⟨4, ![1, 1, 512, 512]⟩
abbrev S512 : Shape := ⟨1, ![512]⟩
abbrev S512x1 : Shape := ⟨2, ![512, 1]⟩
abbrev S1x512 : Shape := ⟨2, ![1, 512]⟩
abbrev S512x512x1 : Shape := ⟨3, ![512, 512, 1]⟩
abbrev S512x512x2 : Shape := ⟨3, ![512, 512, 2]⟩
abbrev S16x4x512 : Shape := ⟨3, ![16, 4, 512]⟩
abbrev S16x2048 : Shape := ⟨2, ![16, 2048]⟩
abbrev S16x256 : Shape := ⟨2, ![16, 256]⟩
abbrev S1x256 : Shape := ⟨2, ![1, 256]⟩
abbrev S16x1 : Shape := ⟨2, ![16, 1]⟩
abbrev S1x1 : Shape := ⟨2, ![1, 1]⟩
abbrev S16 : Shape := ⟨1, ![16]⟩

abbrev nBuf : Space → Nat
  | .hbm => 391
  | .vmem => 0
  | .smem => 0
  | _ => 0

abbrev hbmTy0_0 (i : Nat) : BufTy := match i % 128 with
  | 0 => ⟨S16x512x3, .f32⟩
  | 1 => ⟨S4x4, .f32⟩
  | 2 => ⟨S4x4x2, .f32⟩
  | 3 => ⟨S2048x256, .f32⟩
  | 4 => ⟨S256, .f32⟩
  | 5 => ⟨S256x1, .f32⟩
  | 6 => ⟨S1, .f32⟩
  | 7 => ⟨S16x512x512, .f32⟩
  | 8 => ⟨S512x512, .i32⟩
  | 9 => ⟨S512x512, .i32⟩
  | 10 => ⟨S_, .i32⟩
  | 11 => ⟨S512x512, .i32⟩
  | 12 => ⟨S512x512, .i32⟩
  | 13 => ⟨S512x512, .i1⟩
  | 14 => ⟨S512x512, .f32⟩
  | 15 => ⟨S_, .f32⟩
  | 16 => ⟨S512x512, .f32⟩
  | 17 => ⟨S512x512, .f32⟩
  | 18 => ⟨S1x512x512, .f32⟩
  | 19 => ⟨S16x512x512, .f32⟩
  | 20 => ⟨S16x512x512, .f32⟩
  | 21 => ⟨S16x1x512x512, .f32⟩
  | 22 => ⟨S16x4x512x512, .f32⟩
  | 23 => ⟨S4x1, .f32⟩
  | 24 => ⟨S4, .f32⟩
  | 25 => ⟨S4x1x1, .f32⟩
  | 26 => ⟨S1x4x1x1, .f32⟩
  | 27 => ⟨S16x4x512x512, .f32⟩
  | 28 => ⟨S16x4x512x512, .f32⟩
  | 29 => ⟨S16x4x512x1, .f32⟩
  | 30 => ⟨S16x4x512x511, .f32⟩
  | 31 => ⟨S16x4x512x512, .f32⟩
  | 32 => ⟨S16x4x512x511, .f32⟩
  | 33 => ⟨S16x4x512x1, .f32⟩
  | 34 => ⟨S16x4x512x512, .f32⟩
  | 35 => ⟨S16x4x512x512, .f32⟩
  | 36 => ⟨S16x4x1x512, .f32⟩
  | 37 => ⟨S16x4x511x512, .f32⟩
  | 38 => ⟨S16x4x512x512, .f32⟩
  | 39 => ⟨S16x4x512x512, .f32⟩
  | 40 => ⟨S16x4x511x512, .f32⟩
  | 41 => ⟨S16x4x1x512, .f32⟩
  | 42 => ⟨S16x4x512x512, .f32⟩
  | 43 => ⟨S16x4x512x512, .f32⟩
  | 44 => ⟨S4x1x1, .f32⟩
  | 45 => ⟨S4, .f32⟩
  | 46 => ⟨S4x1x1, .f32⟩
  | 47 => ⟨S1x4x1x1, .f32⟩
  | 48 => ⟨S16x4x512x512, .f32⟩
  | 49 => ⟨S16x4x512x512, .f32⟩
  | 50 => ⟨S16x4x512x512, .f32⟩
  | 51 => ⟨S16x4x512x2, .f32⟩
  | 52 => ⟨S16x4x512x510, .f32⟩
  | 53 => ⟨S16x4x512x512, .f32⟩
  | 54 => ⟨S16x4x512x510, .f32⟩
  | 55 => ⟨S16x4x512x2, .f32⟩
  | 56 => ⟨S16x4x512x512, .f32⟩
  | 57 => ⟨S16x4x512x512, .f32⟩
  | 58 => ⟨S16x4x2x512, .f32⟩
  | 59 => ⟨S16x4x510x512, .f32⟩
  | 60 => ⟨S16x4x512x512, .f32⟩
  | 61 => ⟨S16x4x512x512, .f32⟩
  | 62 => ⟨S16x4x510x512, .f32⟩
  | 63 => ⟨S16x4x2x512, .f32⟩
  | 64 => ⟨S16x4x512x512, .f32⟩
  | 65 => ⟨S16x4x512x512, .f32⟩
  | 66 => ⟨S4x1x1, .f32⟩
  | 67 => ⟨S4, .f32⟩
  | 68 => ⟨S4x1x1, .f32⟩
  | 69 => ⟨S1x4x1x1, .f32⟩
  | 70 => ⟨S16x4x512x512, .f32⟩
  | 71 => ⟨S16x4x512x512, .f32⟩
  | 72 => ⟨S16x4x512x512, .f32⟩
  | 73 => ⟨S_, .f32⟩
  | 74 => ⟨S16x4x512x512, .f32⟩
  | 75 => ⟨S16x4x512x512, .f32⟩
  | 76 => ⟨S_, .f32⟩
  | 77 => ⟨S16x4x512x512, .f32⟩
  | 78 => ⟨S16x4x512x512, .f32⟩
  | 79 => ⟨S_, .f32⟩
  | 80 => ⟨S16x4x512x512, .f32⟩
  | 81 => ⟨S16x4x512x512, .f32⟩
  | 82 => ⟨S16x4x512x512, .f32⟩
  | 83 => ⟨S_, .f32⟩
  | 84 => ⟨S16x4x512x512, .f32⟩
  | 85 => ⟨S16x4x512x512, .f32⟩
  | 86 => ⟨S16x4x512x512, .f32⟩
  | 87 => ⟨S16x4x512x512, .f32⟩
  | 88 => ⟨S16x4x512x512, .f32⟩
  | 89 => ⟨S16x4x512x512, .f32⟩
  | 90 => ⟨S_, .f32⟩
  | 91 => ⟨S16x4x512x512, .f32⟩
  | 92 => ⟨S16x4x512x512, .f32⟩
  | 93 => ⟨S1x1x512x512, .f32⟩
  | 94 => ⟨S16x4x512x512, .f32⟩
  | 95 => ⟨S16x4x512x512, .f32⟩
  | 96 => ⟨S4x1, .f32⟩
  | 97 => ⟨S4, .f32⟩
  | 98 => ⟨S4x1x1, .f32⟩
  | 99 => ⟨S1x4x1x1, .f32⟩
  | 100 => ⟨S16x4x512x512, .f32⟩
  | 101 => ⟨S16x4x512x512, .f32⟩
  | 102 => ⟨S16x4x512x1, .f32⟩
  | 103 => ⟨S16x4x512x511, .f32⟩
  | 104 => ⟨S16x4x512x512, .f32⟩
  | 105 => ⟨S16x4x512x511, .f32⟩
  | 106 => ⟨S16x4x512x1, .f32⟩
  | 107 => ⟨S16x4x512x512, .f32⟩
  | 108 => ⟨S16x4x512x512, .f32⟩
  | 109 => ⟨S16x4x1x512, .f32⟩
  | 110 => ⟨S16x4x511x512, .f32⟩
  | 111 => ⟨S16x4x512x512, .f32⟩
  | 112 => ⟨S16x4x512x512, .f32⟩
  | 113 => ⟨S16x4x511x512, .f32⟩
  | 114 => ⟨S16x4x1x512, .f32⟩
  | 115 => ⟨S16x4x512x512, .f32⟩
  | 116 => ⟨S16x4x512x512, .f32⟩
  | 117 => ⟨S4x1x1, .f32⟩
  | 118 => ⟨S4, .f32⟩
  | 119 => ⟨S4x1x1, .f32⟩
  | 120 => ⟨S1x4x1x1, .f32⟩
  | 121 => ⟨S16x4x512x512, .f32⟩
  | 122 => ⟨S16x4x512x512, .f32⟩
  | 123 => ⟨S16x4x512x512, .f32⟩
  | 124 => ⟨S16x4x512x2, .f32⟩
  | 125 => ⟨S16x4x512x510, .f32⟩
  | 126 => ⟨S16x4x512x512, .f32⟩
  | 127 => ⟨S16x4x512x510, .f32⟩
  | _ => ⟨S16x512x3, .f32⟩

abbrev hbmTy0_1 (i : Nat) : BufTy := match i % 128 with
  | 0 => ⟨S16x4x512x2, .f32⟩
  | 1 => ⟨S16x4x512x512, .f32⟩
  | 2 => ⟨S16x4x512x512, .f32⟩
  | 3 => ⟨S16x4x2x512, .f32⟩
  | 4 => ⟨S16x4x510x512, .f32⟩
  | 5 => ⟨S16x4x512x512, .f32⟩
  | 6 => ⟨S16x4x512x512, .f32⟩
  | 7 => ⟨S16x4x510x512, .f32⟩
  | 8 => ⟨S16x4x2x512, .f32⟩
  | 9 => ⟨S16x4x512x512, .f32⟩
  | 10 => ⟨S16x4x512x512, .f32⟩
  | 11 => ⟨S4x1x1, .f32⟩
  | 12 => ⟨S4, .f32⟩
  | 13 => ⟨S4x1x1, .f32⟩
  | 14 => ⟨S1x4x1x1, .f32⟩
  | 15 => ⟨S16x4x512x512, .f32⟩
  | 16 => ⟨S16x4x512x512, .f32⟩
  | 17 => ⟨S16x4x512x512, .f32⟩
  | 18 => ⟨S_, .f32⟩
  | 19 => ⟨S16x4x512x512, .f32⟩
  | 20 => ⟨S16x4x512x512, .f32⟩
  | 21 => ⟨S_, .f32⟩
  | 22 => ⟨S16x4x512x512, .f32⟩
  | 23 => ⟨S16x4x512x512, .f32⟩
  | 24 => ⟨S_, .f32⟩
  | 25 => ⟨S16x4x512x512, .f32⟩
  | 26 => ⟨S16x4x512x512, .f32⟩
  | 27 => ⟨S16x4x512x512, .f32⟩
  | 28 => ⟨S_, .f32⟩
  | 29 => ⟨S16x4x512x512, .f32⟩
  | 30 => ⟨S16x4x512x512, .f32⟩
  | 31 => ⟨S16x4x512x512, .f32⟩
  | 32 => ⟨S16x4x512x512, .f32⟩
  | 33 => ⟨S16x4x512x512, .f32⟩
  | 34 => ⟨S16x4x512x512, .f32⟩
  | 35 => ⟨S_, .f32⟩
  | 36 => ⟨S16x4x512x512, .f32⟩
  | 37 => ⟨S16x4x512x512, .f32⟩
  | 38 => ⟨S1x1x512x512, .f32⟩
  | 39 => ⟨S16x4x512x512, .f32⟩
  | 40 => ⟨S16x4x512x512, .f32⟩
  | 41 => ⟨S4x1, .f32⟩
  | 42 => ⟨S4, .f32⟩
  | 43 => ⟨S4x1x1, .f32⟩
  | 44 => ⟨S1x4x1x1, .f32⟩
  | 45 => ⟨S16x4x512x512, .f32⟩
  | 46 => ⟨S16x4x512x512, .f32⟩
  | 47 => ⟨S16x4x512x1, .f32⟩
  | 48 => ⟨S16x4x512x511, .f32⟩
  | 49 => ⟨S16x4x512x512, .f32⟩
  | 50 => ⟨S16x4x512x511, .f32⟩
  | 51 => ⟨S16x4x512x1, .f32⟩
  | 52 => ⟨S16x4x512x512, .f32⟩
  | 53 => ⟨S16x4x512x512, .f32⟩
  | 54 => ⟨S16x4x1x512, .f32⟩
  | 55 => ⟨S16x4x511x512, .f32⟩
  | 56 => ⟨S16x4x512x512, .f32⟩
  | 57 => ⟨S16x4x512x512, .f32⟩
  | 58 => ⟨S16x4x511x512, .f32⟩
  | 59 => ⟨S16x4x1x512, .f32⟩
  | 60 => ⟨S16x4x512x512, .f32⟩
  | 61 => ⟨S16x4x512x512, .f32⟩
  | 62 => ⟨S4x1x1, .f32⟩
  | 63 => ⟨S4, .f32⟩
  | 64 => ⟨S4x1x1, .f32⟩
  | 65 => ⟨S1x4x1x1, .f32⟩
  | 66 => ⟨S16x4x512x512, .f32⟩
  | 67 => ⟨S16x4x512x512, .f32⟩
  | 68 => ⟨S16x4x512x512, .f32⟩
  | 69 => ⟨S16x4x512x2, .f32⟩
  | 70 => ⟨S16x4x512x510, .f32⟩
  | 71 => ⟨S16x4x512x512, .f32⟩
  | 72 => ⟨S16x4x512x510, .f32⟩
  | 73 => ⟨S16x4x512x2, .f32⟩
  | 74 => ⟨S16x4x512x512, .f32⟩
  | 75 => ⟨S16x4x512x512, .f32⟩
  | 76 => ⟨S16x4x2x512, .f32⟩
  | 77 => ⟨S16x4x510x512, .f32⟩
  | 78 => ⟨S16x4x512x512, .f32⟩
  | 79 => ⟨S16x4x512x512, .f32⟩
  | 80 => ⟨S16x4x510x512, .f32⟩
  | 81 => ⟨S16x4x2x512, .f32⟩
  | 82 => ⟨S16x4x512x512, .f32⟩
  | 83 => ⟨S16x4x512x512, .f32⟩
  | 84 => ⟨S4x1x1, .f32⟩
  | 85 => ⟨S4, .f32⟩
  | 86 => ⟨S4x1x1, .f32⟩
  | 87 => ⟨S1x4x1x1, .f32⟩
  | 88 => ⟨S16x4x512x512, .f32⟩
  | 89 => ⟨S16x4x512x512, .f32⟩
  | 90 => ⟨S16x4x512x512, .f32⟩
  | 91 => ⟨S_, .f32⟩
  | 92 => ⟨S16x4x512x512, .f32⟩
  | 93 => ⟨S16x4x512x512, .f32⟩
  | 94 => ⟨S_, .f32⟩
  | 95 => ⟨S16x4x512x512, .f32⟩
  | 96 => ⟨S16x4x512x512, .f32⟩
  | 97 => ⟨S_, .f32⟩
  | 98 => ⟨S16x4x512x512, .f32⟩
  | 99 => ⟨S16x4x512x512, .f32⟩
  | 100 => ⟨S16x4x512x512, .f32⟩
  | 101 => ⟨S_, .f32⟩
  | 102 => ⟨S16x4x512x512, .f32⟩
  | 103 => ⟨S16x4x512x512, .f32⟩
  | 104 => ⟨S16x4x512x512, .f32⟩
  | 105 => ⟨S16x4x512x512, .f32⟩
  | 106 => ⟨S16x4x512x512, .f32⟩
  | 107 => ⟨S16x4x512x512, .f32⟩
  | 108 => ⟨S_, .f32⟩
  | 109 => ⟨S16x4x512x512, .f32⟩
  | 110 => ⟨S16x4x512x512, .f32⟩
  | 111 => ⟨S1x1x512x512, .f32⟩
  | 112 => ⟨S16x4x512x512, .f32⟩
  | 113 => ⟨S16x4x512x512, .f32⟩
  | 114 => ⟨S4x1, .f32⟩
  | 115 => ⟨S4, .f32⟩
  | 116 => ⟨S4x1x1, .f32⟩
  | 117 => ⟨S1x4x1x1, .f32⟩
  | 118 => ⟨S16x4x512x512, .f32⟩
  | 119 => ⟨S16x4x512x512, .f32⟩
  | 120 => ⟨S16x4x512x1, .f32⟩
  | 121 => ⟨S16x4x512x511, .f32⟩
  | 122 => ⟨S16x4x512x512, .f32⟩
  | 123 => ⟨S16x4x512x511, .f32⟩
  | 124 => ⟨S16x4x512x1, .f32⟩
  | 125 => ⟨S16x4x512x512, .f32⟩
  | 126 => ⟨S16x4x512x512, .f32⟩
  | 127 => ⟨S16x4x1x512, .f32⟩
  | _ => ⟨S16x512x3, .f32⟩

abbrev hbmTy0_2 (i : Nat) : BufTy := match i % 128 with
  | 0 => ⟨S16x4x511x512, .f32⟩
  | 1 => ⟨S16x4x512x512, .f32⟩
  | 2 => ⟨S16x4x512x512, .f32⟩
  | 3 => ⟨S16x4x511x512, .f32⟩
  | 4 => ⟨S16x4x1x512, .f32⟩
  | 5 => ⟨S16x4x512x512, .f32⟩
  | 6 => ⟨S16x4x512x512, .f32⟩
  | 7 => ⟨S4x1x1, .f32⟩
  | 8 => ⟨S4, .f32⟩
  | 9 => ⟨S4x1x1, .f32⟩
  | 10 => ⟨S1x4x1x1, .f32⟩
  | 11 => ⟨S16x4x512x512, .f32⟩
  | 12 => ⟨S16x4x512x512, .f32⟩
  | 13 => ⟨S16x4x512x512, .f32⟩
  | 14 => ⟨S16x4x512x2, .f32⟩
  | 15 => ⟨S16x4x512x510, .f32⟩
  | 16 => ⟨S16x4x512x512, .f32⟩
  | 17 => ⟨S16x4x512x510, .f32⟩
  | 18 => ⟨S16x4x512x2, .f32⟩
  | 19 => ⟨S16x4x512x512, .f32⟩
  | 20 => ⟨S16x4x512x512, .f32⟩
  | 21 => ⟨S16x4x2x512, .f32⟩
  | 22 => ⟨S16x4x510x512, .f32⟩
  | 23 => ⟨S16x4x512x512, .f32⟩
  | 24 => ⟨S16x4x512x512, .f32⟩
  | 25 => ⟨S16x4x510x512, .f32⟩
  | 26 => ⟨S16x4x2x512, .f32⟩
  | 27 => ⟨S16x4x512x512, .f32⟩
  | 28 => ⟨S16x4x512x512, .f32⟩
  | 29 => ⟨S4x1x1, .f32⟩
  | 30 => ⟨S4, .f32⟩
  | 31 => ⟨S4x1x1, .f32⟩
  | 32 => ⟨S1x4x1x1, .f32⟩
  | 33 => ⟨S16x4x512x512, .f32⟩
  | 34 => ⟨S16x4x512x512, .f32⟩
  | 35 => ⟨S16x4x512x512, .f32⟩
  | 36 => ⟨S_, .f32⟩
  | 37 => ⟨S16x4x512x512, .f32⟩
  | 38 => ⟨S16x4x512x512, .f32⟩
  | 39 => ⟨S_, .f32⟩
  | 40 => ⟨S16x4x512x512, .f32⟩
  | 41 => ⟨S16x4x512x512, .f32⟩
  | 42 => ⟨S_, .f32⟩
  | 43 => ⟨S16x4x512x512, .f32⟩
  | 44 => ⟨S16x4x512x512, .f32⟩
  | 45 => ⟨S16x4x512x512, .f32⟩
  | 46 => ⟨S_, .f32⟩
  | 47 => ⟨S16x4x512x512, .f32⟩
  | 48 => ⟨S16x4x512x512, .f32⟩
  | 49 => ⟨S16x4x512x512, .f32⟩
  | 50 => ⟨S16x4x512x512, .f32⟩
  | 51 => ⟨S16x4x512x512, .f32⟩
  | 52 => ⟨S16x4x512x512, .f32⟩
  | 53 => ⟨S_, .f32⟩
  | 54 => ⟨S16x4x512x512, .f32⟩
  | 55 => ⟨S16x4x512x512, .f32⟩
  | 56 => ⟨S1x1x512x512, .f32⟩
  | 57 => ⟨S16x4x512x512, .f32⟩
  | 58 => ⟨S16x4x512x512, .f32⟩
  | 59 => ⟨S512, .i32⟩
  | 60 => ⟨S512x1, .i32⟩
  | 61 => ⟨S1x512, .i32⟩
  | 62 => ⟨S512x512, .i32⟩
  | 63 => ⟨S512x512, .i32⟩
  | 64 => ⟨S512x512, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S512x512, .i32⟩
  | 72 => ⟨S512x512, .i32⟩
  | 73 => ⟨S_, .i32⟩
  | 74 => ⟨S512x512, .i32⟩
  | 75 => ⟨S512x512, .i1⟩
  | 76 => ⟨S_, .i32⟩
  | 77 => ⟨S512x512, .i32⟩
  | 78 => ⟨S512x512, .i1⟩
  | 79 => ⟨S_, .i32⟩
  | 80 => ⟨S_, .i1⟩
  | 81 => ⟨S512x512, .i1⟩
  | 82 => ⟨S512x512, .i1⟩
  | 83 => ⟨S512x512, .i1⟩
  | 84 => ⟨S512x512, .i32⟩
  | 85 => ⟨S512x512, .i32⟩
  | 86 => ⟨S512x512, .i32⟩
  | 87 => ⟨S512x1, .i32⟩
  | 88 => ⟨S_, .i32⟩
  | 89 => ⟨S512x1, .i32⟩
  | 90 => ⟨S512x1, .i1⟩
  | 91 => ⟨S_, .i32⟩
  | 92 => ⟨S512x1, .i32⟩
  | 93 => ⟨S512x1, .i32⟩
  | 94 => ⟨S512x1, .i32⟩
  | 95 => ⟨S_, .i32⟩
  | 96 => ⟨S512x512, .i32⟩
  | 97 => ⟨S512x512, .i1⟩
  | 98 => ⟨S_, .i32⟩
  | 99 => ⟨S512x512, .i32⟩
  | 100 => ⟨S512x512, .i32⟩
  | 101 => ⟨S512x512, .i32⟩
  | 102 => ⟨S512x512, .i32⟩
  | 103 => ⟨S512x512x1, .i32⟩
  | 104 => ⟨S512x512x1, .i32⟩
  | 105 => ⟨S512x512x2, .i32⟩
  | 106 => ⟨S16x4x512x512, .f32⟩
  | 107 => ⟨S_, .f32⟩
  | 108 => ⟨S16x4x512, .f32⟩
  | 109 => ⟨S16x2048, .f32⟩
  | 110 => ⟨S16x256, .f32⟩
  | 111 => ⟨S1x256, .f32⟩
  | 112 => ⟨S16x256, .f32⟩
  | 113 => ⟨S16x256, .f32⟩
  | 114 => ⟨S_, .f32⟩
  | 115 => ⟨S16x256, .f32⟩
  | 116 => ⟨S16x256, .f32⟩
  | 117 => ⟨S_, .f32⟩
  | 118 => ⟨S16x256, .f32⟩
  | 119 => ⟨S16x256, .f32⟩
  | 120 => ⟨S_, .f32⟩
  | 121 => ⟨S16x256, .f32⟩
  | 122 => ⟨S16x256, .f32⟩
  | 123 => ⟨S16x256, .f32⟩
  | 124 => ⟨S_, .f32⟩
  | 125 => ⟨S16x256, .f32⟩
  | 126 => ⟨S16x256, .f32⟩
  | 127 => ⟨S16x256, .f32⟩
  | _ => ⟨S16x512x3, .f32⟩

abbrev hbmTy0_3 (i : Nat) : BufTy := match i % 128 with
  | 0 => ⟨S16x1, .f32⟩
  | 1 => ⟨S1x1, .f32⟩
  | 2 => ⟨S16x1, .f32⟩
  | 3 => ⟨S16x1, .f32⟩
  | 4 => ⟨S16, .f32⟩
  | 5 => ⟨S16, .f32⟩
  | 6 => ⟨S16, .f32⟩
  | _ => ⟨S16x512x3, .f32⟩

abbrev hbmTy (i : Nat) : BufTy := match i / 128 with
  | 0 => hbmTy0_0 i
  | 1 => hbmTy0_1 i
  | 2 => hbmTy0_2 i
  | 3 => hbmTy0_3 i
  | _ => ⟨S16x512x3, .f32⟩

abbrev bufTy : (tb : Table) → Fin (tcTables nBuf tb) → BufTy
  | .hbm, ⟨i, _⟩ => hbmTy i
  | _, _ => ⟨S16x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_v20 : Ref sig .tc := ⟨.hbm, 31, rfl⟩
abbrev main_call1_v0 : Ref sig .tc := ⟨.hbm, 32, rfl⟩
abbrev main_call1_v1 : Ref sig .tc := ⟨.hbm, 33, rfl⟩
abbrev main_v21 : Ref sig .tc := ⟨.hbm, 34, rfl⟩
abbrev main_v22 : Ref sig .tc := ⟨.hbm, 35, rfl⟩
abbrev main_call2_v0 : Ref sig .tc := ⟨.hbm, 36, rfl⟩
abbrev main_call2_v1 : Ref sig .tc := ⟨.hbm, 37, rfl⟩
abbrev main_v23 : Ref sig .tc := ⟨.hbm, 38, rfl⟩
abbrev main_v24 : Ref sig .tc := ⟨.hbm, 39, rfl⟩
abbrev main_call3_v0 : Ref sig .tc := ⟨.hbm, 40, rfl⟩
abbrev main_call3_v1 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_call4_v0 : Ref sig .tc := ⟨.hbm, 51, rfl⟩
abbrev main_call4_v1 : Ref sig .tc := ⟨.hbm, 52, rfl⟩
abbrev main_v34 : Ref sig .tc := ⟨.hbm, 53, rfl⟩
abbrev main_call5_v0 : Ref sig .tc := ⟨.hbm, 54, rfl⟩
abbrev main_call5_v1 : Ref sig .tc := ⟨.hbm, 55, rfl⟩
abbrev main_v35 : Ref sig .tc := ⟨.hbm, 56, rfl⟩
abbrev main_v36 : Ref sig .tc := ⟨.hbm, 57, rfl⟩
abbrev main_call6_v0 : Ref sig .tc := ⟨.hbm, 58, rfl⟩
abbrev main_call6_v1 : Ref sig .tc := ⟨.hbm, 59, rfl⟩
abbrev main_v37 : Ref sig .tc := ⟨.hbm, 60, rfl⟩
abbrev main_v38 : Ref sig .tc := ⟨.hbm, 61, rfl⟩
abbrev main_call7_v0 : Ref sig .tc := ⟨.hbm, 62, rfl⟩
abbrev main_call7_v1 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_call8_cst : Ref sig .tc := ⟨.hbm, 73, rfl⟩
abbrev main_call8_v0 : Ref sig .tc := ⟨.hbm, 74, rfl⟩
abbrev main_call8_v1 : Ref sig .tc := ⟨.hbm, 75, rfl⟩
abbrev main_call8_cst_0 : Ref sig .tc := ⟨.hbm, 76, rfl⟩
abbrev main_call8_v2 : Ref sig .tc := ⟨.hbm, 77, rfl⟩
abbrev main_call8_v3 : Ref sig .tc := ⟨.hbm, 78, rfl⟩
abbrev main_call8_cst_1 : Ref sig .tc := ⟨.hbm, 79, rfl⟩
abbrev main_call8_v4 : Ref sig .tc := ⟨.hbm, 80, rfl⟩
abbrev main_call8_v5 : Ref sig .tc := ⟨.hbm, 81, rfl⟩
abbrev main_call8_v6 : Ref sig .tc := ⟨.hbm, 82, rfl⟩
abbrev main_call8_cst_2 : Ref sig .tc := ⟨.hbm, 83, rfl⟩
abbrev main_call8_v7 : Ref sig .tc := ⟨.hbm, 84, rfl⟩
abbrev main_call8_v8 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_cst_0 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_call9_v0 : Ref sig .tc := ⟨.hbm, 102, rfl⟩
abbrev main_call9_v1 : Ref sig .tc := ⟨.hbm, 103, rfl⟩
abbrev main_v63 : Ref sig .tc := ⟨.hbm, 104, rfl⟩
abbrev main_call10_v0 : Ref sig .tc := ⟨.hbm, 105, rfl⟩
abbrev main_call10_v1 : Ref sig .tc := ⟨.hbm, 106, rfl⟩
abbrev main_v64 : Ref sig .tc := ⟨.hbm, 107, rfl⟩
abbrev main_v65 : Ref sig .tc := ⟨.hbm, 108, rfl⟩
abbrev main_call11_v0 : Ref sig .tc := ⟨.hbm, 109, rfl⟩
abbrev main_call11_v1 : Ref sig .tc := ⟨.hbm, 110, rfl⟩
abbrev main_v66 : Ref sig .tc := ⟨.hbm, 111, rfl⟩
abbrev main_v67 : Ref sig .tc := ⟨.hbm, 112, rfl⟩
abbrev main_call12_v0 : Ref sig .tc := ⟨.hbm, 113, rfl⟩
abbrev main_call12_v1 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_call13_v0 : Ref sig .tc := ⟨.hbm, 124, rfl⟩
abbrev main_call13_v1 : Ref sig .tc := ⟨.hbm, 125, rfl⟩
abbrev main_v77 : Ref sig .tc := ⟨.hbm, 126, rfl⟩
abbrev main_call14_v0 : Ref sig .tc := ⟨.hbm, 127, rfl⟩
abbrev main_call14_v1 : Ref sig .tc := ⟨.hbm, 128, rfl⟩
abbrev main_v78 : Ref sig .tc := ⟨.hbm, 129, rfl⟩
abbrev main_v79 : Ref sig .tc := ⟨.hbm, 130, rfl⟩
abbrev main_call15_v0 : Ref sig .tc := ⟨.hbm, 131, rfl⟩
abbrev main_call15_v1 : Ref sig .tc := ⟨.hbm, 132, rfl⟩
abbrev main_v80 : Ref sig .tc := ⟨.hbm, 133, rfl⟩
abbrev main_v81 : Ref sig .tc := ⟨.hbm, 134, rfl⟩
abbrev main_call16_v0 : Ref sig .tc := ⟨.hbm, 135, rfl⟩
abbrev main_call16_v1 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_call17_cst : Ref sig .tc := ⟨.hbm, 146, rfl⟩
abbrev main_call17_v0 : Ref sig .tc := ⟨.hbm, 147, rfl⟩
abbrev main_call17_v1 : Ref sig .tc := ⟨.hbm, 148, rfl⟩
abbrev main_call17_cst_0 : Ref sig .tc := ⟨.hbm, 149, rfl⟩
abbrev main_call17_v2 : Ref sig .tc := ⟨.hbm, 150, rfl⟩
abbrev main_call17_v3 : Ref sig .tc := ⟨.hbm, 151, rfl⟩
abbrev main_call17_cst_1 : Ref sig .tc := ⟨.hbm, 152, rfl⟩
abbrev main_call17_v4 : Ref sig .tc := ⟨.hbm, 153, rfl⟩
abbrev main_call17_v5 : Ref sig .tc := ⟨.hbm, 154, rfl⟩
abbrev main_call17_v6 : Ref sig .tc := ⟨.hbm, 155, rfl⟩
abbrev main_call17_cst_2 : Ref sig .tc := ⟨.hbm, 156, rfl⟩
abbrev main_call17_v7 : Ref sig .tc := ⟨.hbm, 157, rfl⟩
abbrev main_call17_v8 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_cst_1 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩
abbrev main_v100 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_call18_v0 : Ref sig .tc := ⟨.hbm, 175, rfl⟩
abbrev main_call18_v1 : Ref sig .tc := ⟨.hbm, 176, rfl⟩
abbrev main_v106 : Ref sig .tc := ⟨.hbm, 177, rfl⟩
abbrev main_call19_v0 : Ref sig .tc := ⟨.hbm, 178, rfl⟩
abbrev main_call19_v1 : Ref sig .tc := ⟨.hbm, 179, rfl⟩
abbrev main_v107 : Ref sig .tc := ⟨.hbm, 180, rfl⟩
abbrev main_v108 : Ref sig .tc := ⟨.hbm, 181, rfl⟩
abbrev main_call20_v0 : Ref sig .tc := ⟨.hbm, 182, rfl⟩
abbrev main_call20_v1 : Ref sig .tc := ⟨.hbm, 183, rfl⟩
abbrev main_v109 : Ref sig .tc := ⟨.hbm, 184, rfl⟩
abbrev main_v110 : Ref sig .tc := ⟨.hbm, 185, rfl⟩
abbrev main_call21_v0 : Ref sig .tc := ⟨.hbm, 186, rfl⟩
abbrev main_call21_v1 : Ref sig .tc := ⟨.hbm, 187, rfl⟩
abbrev main_v111 : Ref sig .tc := ⟨.hbm, 188, rfl⟩
abbrev main_v112 : Ref sig .tc := ⟨.hbm, 189, rfl⟩
abbrev main_v113 : Ref sig .tc := ⟨.hbm, 190, rfl⟩
abbrev main_v114 : Ref sig .tc := ⟨.hbm, 191, rfl⟩
abbrev main_v115 : Ref sig .tc := ⟨.hbm, 192, rfl⟩
abbrev main_v116 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_call22_v0 : Ref sig .tc := ⟨.hbm, 197, rfl⟩
abbrev main_call22_v1 : Ref sig .tc := ⟨.hbm, 198, rfl⟩
abbrev main_v120 : Ref sig .tc := ⟨.hbm, 199, rfl⟩
abbrev main_call23_v0 : Ref sig .tc := ⟨.hbm, 200, rfl⟩
abbrev main_call23_v1 : Ref sig .tc := ⟨.hbm, 201, rfl⟩
abbrev main_v121 : Ref sig .tc := ⟨.hbm, 202, rfl⟩
abbrev main_v122 : Ref sig .tc := ⟨.hbm, 203, rfl⟩
abbrev main_call24_v0 : Ref sig .tc := ⟨.hbm, 204, rfl⟩
abbrev main_call24_v1 : Ref sig .tc := ⟨.hbm, 205, rfl⟩
abbrev main_v123 : Ref sig .tc := ⟨.hbm, 206, rfl⟩
abbrev main_v124 : Ref sig .tc := ⟨.hbm, 207, rfl⟩
abbrev main_call25_v0 : Ref sig .tc := ⟨.hbm, 208, rfl⟩
abbrev main_call25_v1 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_v131 : Ref sig .tc := ⟨.hbm, 216, rfl⟩
abbrev main_v132 : Ref sig .tc := ⟨.hbm, 217, rfl⟩
abbrev main_v133 : Ref sig .tc := ⟨.hbm, 218, rfl⟩
abbrev main_call26_cst : Ref sig .tc := ⟨.hbm, 219, rfl⟩
abbrev main_call26_v0 : Ref sig .tc := ⟨.hbm, 220, rfl⟩
abbrev main_call26_v1 : Ref sig .tc := ⟨.hbm, 221, rfl⟩
abbrev main_call26_cst_0 : Ref sig .tc := ⟨.hbm, 222, rfl⟩
abbrev main_call26_v2 : Ref sig .tc := ⟨.hbm, 223, rfl⟩
abbrev main_call26_v3 : Ref sig .tc := ⟨.hbm, 224, rfl⟩
abbrev main_call26_cst_1 : Ref sig .tc := ⟨.hbm, 225, rfl⟩
abbrev main_call26_v4 : Ref sig .tc := ⟨.hbm, 226, rfl⟩
abbrev main_call26_v5 : Ref sig .tc := ⟨.hbm, 227, rfl⟩
abbrev main_call26_v6 : Ref sig .tc := ⟨.hbm, 228, rfl⟩
abbrev main_call26_cst_2 : Ref sig .tc := ⟨.hbm, 229, rfl⟩
abbrev main_call26_v7 : Ref sig .tc := ⟨.hbm, 230, rfl⟩
abbrev main_call26_v8 : Ref sig .tc := ⟨.hbm, 231, rfl⟩
abbrev main_v134 : Ref sig .tc := ⟨.hbm, 232, rfl⟩
abbrev main_v135 : Ref sig .tc := ⟨.hbm, 233, rfl⟩
abbrev main_v136 : Ref sig .tc := ⟨.hbm, 234, rfl⟩
abbrev main_v137 : Ref sig .tc := ⟨.hbm, 235, rfl⟩
abbrev main_cst_2 : Ref sig .tc := ⟨.hbm, 236, rfl⟩
abbrev main_v138 : Ref sig .tc := ⟨.hbm, 237, rfl⟩
abbrev main_v139 : Ref sig .tc := ⟨.hbm, 238, rfl⟩
abbrev main_v140 : Ref sig .tc := ⟨.hbm, 239, rfl⟩
abbrev main_v141 : Ref sig .tc := ⟨.hbm, 240, rfl⟩
abbrev main_v142 : Ref sig .tc := ⟨.hbm, 241, rfl⟩
abbrev main_v143 : Ref sig .tc := ⟨.hbm, 242, rfl⟩
abbrev main_v144 : Ref sig .tc := ⟨.hbm, 243, rfl⟩
abbrev main_v145 : Ref sig .tc := ⟨.hbm, 244, rfl⟩
abbrev main_v146 : Ref sig .tc := ⟨.hbm, 245, rfl⟩
abbrev main_v147 : Ref sig .tc := ⟨.hbm, 246, rfl⟩
abbrev main_v148 : Ref sig .tc := ⟨.hbm, 247, rfl⟩
abbrev main_call27_v0 : Ref sig .tc := ⟨.hbm, 248, rfl⟩
abbrev main_call27_v1 : Ref sig .tc := ⟨.hbm, 249, rfl⟩
abbrev main_v149 : Ref sig .tc := ⟨.hbm, 250, rfl⟩
abbrev main_call28_v0 : Ref sig .tc := ⟨.hbm, 251, rfl⟩
abbrev main_call28_v1 : Ref sig .tc := ⟨.hbm, 252, rfl⟩
abbrev main_v150 : Ref sig .tc := ⟨.hbm, 253, rfl⟩
abbrev main_v151 : Ref sig .tc := ⟨.hbm, 254, rfl⟩
abbrev main_call29_v0 : Ref sig .tc := ⟨.hbm, 255, rfl⟩
abbrev main_call29_v1 : Ref sig .tc := ⟨.hbm, 256, rfl⟩
abbrev main_v152 : Ref sig .tc := ⟨.hbm, 257, rfl⟩
abbrev main_v153 : Ref sig .tc := ⟨.hbm, 258, rfl⟩
abbrev main_call30_v0 : Ref sig .tc := ⟨.hbm, 259, rfl⟩
abbrev main_call30_v1 : Ref sig .tc := ⟨.hbm, 260, rfl⟩
abbrev main_v154 : Ref sig .tc := ⟨.hbm, 261, rfl⟩
abbrev main_v155 : Ref sig .tc := ⟨.hbm, 262, rfl⟩
abbrev main_v156 : Ref sig .tc := ⟨.hbm, 263, rfl⟩
abbrev main_v157 : Ref sig .tc := ⟨.hbm, 264, rfl⟩
abbrev main_v158 : Ref sig .tc := ⟨.hbm, 265, rfl⟩
abbrev main_v159 : Ref sig .tc := ⟨.hbm, 266, rfl⟩
abbrev main_v160 : Ref sig .tc := ⟨.hbm, 267, rfl⟩
abbrev main_v161 : Ref sig .tc := ⟨.hbm, 268, rfl⟩
abbrev main_v162 : Ref sig .tc := ⟨.hbm, 269, rfl⟩
abbrev main_call31_v0 : Ref sig .tc := ⟨.hbm, 270, rfl⟩
abbrev main_call31_v1 : Ref sig .tc := ⟨.hbm, 271, rfl⟩
abbrev main_v163 : Ref sig .tc := ⟨.hbm, 272, rfl⟩
abbrev main_call32_v0 : Ref sig .tc := ⟨.hbm, 273, rfl⟩
abbrev main_call32_v1 : Ref sig .tc := ⟨.hbm, 274, rfl⟩
abbrev main_v164 : Ref sig .tc := ⟨.hbm, 275, rfl⟩
abbrev main_v165 : Ref sig .tc := ⟨.hbm, 276, rfl⟩
abbrev main_call33_v0 : Ref sig .tc := ⟨.hbm, 277, rfl⟩
abbrev main_call33_v1 : Ref sig .tc := ⟨.hbm, 278, rfl⟩
abbrev main_v166 : Ref sig .tc := ⟨.hbm, 279, rfl⟩
abbrev main_v167 : Ref sig .tc := ⟨.hbm, 280, rfl⟩
abbrev main_call34_v0 : Ref sig .tc := ⟨.hbm, 281, rfl⟩
abbrev main_call34_v1 : Ref sig .tc := ⟨.hbm, 282, rfl⟩
abbrev main_v168 : Ref sig .tc := ⟨.hbm, 283, rfl⟩
abbrev main_v169 : Ref sig .tc := ⟨.hbm, 284, rfl⟩
abbrev main_v170 : Ref sig .tc := ⟨.hbm, 285, rfl⟩
abbrev main_v171 : Ref sig .tc := ⟨.hbm, 286, rfl⟩
abbrev main_v172 : Ref sig .tc := ⟨.hbm, 287, rfl⟩
abbrev main_v173 : Ref sig .tc := ⟨.hbm, 288, rfl⟩
abbrev main_v174 : Ref sig .tc := ⟨.hbm, 289, rfl⟩
abbrev main_v175 : Ref sig .tc := ⟨.hbm, 290, rfl⟩
abbrev main_v176 : Ref sig .tc := ⟨.hbm, 291, rfl⟩
abbrev main_call35_cst : Ref sig .tc := ⟨.hbm, 292, rfl⟩
abbrev main_call35_v0 : Ref sig .tc := ⟨.hbm, 293, rfl⟩
abbrev main_call35_v1 : Ref sig .tc := ⟨.hbm, 294, rfl⟩
abbrev main_call35_cst_0 : Ref sig .tc := ⟨.hbm, 295, rfl⟩
abbrev main_call35_v2 : Ref sig .tc := ⟨.hbm, 296, rfl⟩
abbrev main_call35_v3 : Ref sig .tc := ⟨.hbm, 297, rfl⟩
abbrev main_call35_cst_1 : Ref sig .tc := ⟨.hbm, 298, rfl⟩
abbrev main_call35_v4 : Ref sig .tc := ⟨.hbm, 299, rfl⟩
abbrev main_call35_v5 : Ref sig .tc := ⟨.hbm, 300, rfl⟩
abbrev main_call35_v6 : Ref sig .tc := ⟨.hbm, 301, rfl⟩
abbrev main_call35_cst_2 : Ref sig .tc := ⟨.hbm, 302, rfl⟩
abbrev main_call35_v7 : Ref sig .tc := ⟨.hbm, 303, rfl⟩
abbrev main_call35_v8 : Ref sig .tc := ⟨.hbm, 304, rfl⟩
abbrev main_v177 : Ref sig .tc := ⟨.hbm, 305, rfl⟩
abbrev main_v178 : Ref sig .tc := ⟨.hbm, 306, rfl⟩
abbrev main_v179 : Ref sig .tc := ⟨.hbm, 307, rfl⟩
abbrev main_v180 : Ref sig .tc := ⟨.hbm, 308, rfl⟩
abbrev main_cst_3 : Ref sig .tc := ⟨.hbm, 309, rfl⟩
abbrev main_v181 : Ref sig .tc := ⟨.hbm, 310, rfl⟩
abbrev main_v182 : Ref sig .tc := ⟨.hbm, 311, rfl⟩
abbrev main_v183 : Ref sig .tc := ⟨.hbm, 312, rfl⟩
abbrev main_v184 : Ref sig .tc := ⟨.hbm, 313, rfl⟩
abbrev main_v185 : Ref sig .tc := ⟨.hbm, 314, rfl⟩
abbrev main_v186 : Ref sig .tc := ⟨.hbm, 315, rfl⟩
abbrev main_v187 : Ref sig .tc := ⟨.hbm, 316, rfl⟩
abbrev main_v188 : Ref sig .tc := ⟨.hbm, 317, rfl⟩
abbrev main_v189 : Ref sig .tc := ⟨.hbm, 318, rfl⟩
abbrev main_v190 : Ref sig .tc := ⟨.hbm, 319, rfl⟩
abbrev main_v191 : Ref sig .tc := ⟨.hbm, 320, rfl⟩
abbrev main_c_4 : Ref sig .tc := ⟨.hbm, 321, rfl⟩
abbrev main_call36_v0 : Ref sig .tc := ⟨.hbm, 322, rfl⟩
abbrev main_call36_c : Ref sig .tc := ⟨.hbm, 323, rfl⟩
abbrev main_call36_v1 : Ref sig .tc := ⟨.hbm, 324, rfl⟩
abbrev main_call36_c_0 : Ref sig .tc := ⟨.hbm, 325, rfl⟩
abbrev main_call36_v2 : Ref sig .tc := ⟨.hbm, 326, rfl⟩
abbrev main_call36_v3 : Ref sig .tc := ⟨.hbm, 327, rfl⟩
abbrev main_call36_v4 : Ref sig .tc := ⟨.hbm, 328, rfl⟩
abbrev main_call36_c_1 : Ref sig .tc := ⟨.hbm, 329, rfl⟩
abbrev main_call36_v5 : Ref sig .tc := ⟨.hbm, 330, rfl⟩
abbrev main_call36_v6 : Ref sig .tc := ⟨.hbm, 331, rfl⟩
abbrev main_call36_c_2 : Ref sig .tc := ⟨.hbm, 332, rfl⟩
abbrev main_call36_v7 : Ref sig .tc := ⟨.hbm, 333, rfl⟩
abbrev main_call36_v8 : Ref sig .tc := ⟨.hbm, 334, rfl⟩
abbrev main_call36_c_3 : Ref sig .tc := ⟨.hbm, 335, rfl⟩
abbrev main_call36_v9 : Ref sig .tc := ⟨.hbm, 336, rfl⟩
abbrev main_call36_v10 : Ref sig .tc := ⟨.hbm, 337, rfl⟩
abbrev main_call36_v11 : Ref sig .tc := ⟨.hbm, 338, rfl⟩
abbrev main_call36_v12 : Ref sig .tc := ⟨.hbm, 339, rfl⟩
abbrev main_call36_v13 : Ref sig .tc := ⟨.hbm, 340, rfl⟩
abbrev main_call36_v14 : Ref sig .tc := ⟨.hbm, 341, rfl⟩
abbrev main_v192 : Ref sig .tc := ⟨.hbm, 342, rfl⟩
abbrev main_v193 : Ref sig .tc := ⟨.hbm, 343, rfl⟩
abbrev main_c_5 : Ref sig .tc := ⟨.hbm, 344, rfl⟩
abbrev main_v194 : Ref sig .tc := ⟨.hbm, 345, rfl⟩
abbrev main_v195 : Ref sig .tc := ⟨.hbm, 346, rfl⟩
abbrev main_c_6 : Ref sig .tc := ⟨.hbm, 347, rfl⟩
abbrev main_v196 : Ref sig .tc := ⟨.hbm, 348, rfl⟩
abbrev main_v197 : Ref sig .tc := ⟨.hbm, 349, rfl⟩
abbrev main_v198 : Ref sig .tc := ⟨.hbm, 350, rfl⟩
abbrev main_c_7 : Ref sig .tc := ⟨.hbm, 351, rfl⟩
abbrev main_v199 : Ref sig .tc := ⟨.hbm, 352, rfl⟩
abbrev main_v200 : Ref sig .tc := ⟨.hbm, 353, rfl⟩
abbrev main_c_8 : Ref sig .tc := ⟨.hbm, 354, rfl⟩
abbrev main_v201 : Ref sig .tc := ⟨.hbm, 355, rfl⟩
abbrev main_v202 : Ref sig .tc := ⟨.hbm, 356, rfl⟩
abbrev main_v203 : Ref sig .tc := ⟨.hbm, 357, rfl⟩
abbrev main_v204 : Ref sig .tc := ⟨.hbm, 358, rfl⟩
abbrev main_v205 : Ref sig .tc := ⟨.hbm, 359, rfl⟩
abbrev main_v206 : Ref sig .tc := ⟨.hbm, 360, rfl⟩
abbrev main_v207 : Ref sig .tc := ⟨.hbm, 361, rfl⟩
abbrev main_v208 : Ref sig .tc := ⟨.hbm, 362, rfl⟩
abbrev main_cst_9 : Ref sig .tc := ⟨.hbm, 363, rfl⟩
abbrev main_v209 : Ref sig .tc := ⟨.hbm, 364, rfl⟩
abbrev main_v210 : Ref sig .tc := ⟨.hbm, 365, rfl⟩
abbrev main_v211 : Ref sig .tc := ⟨.hbm, 366, rfl⟩
abbrev main_v212 : Ref sig .tc := ⟨.hbm, 367, rfl⟩
abbrev main_v213 : Ref sig .tc := ⟨.hbm, 368, rfl⟩
abbrev main_v214 : Ref sig .tc := ⟨.hbm, 369, rfl⟩
abbrev main_call37_cst : Ref sig .tc := ⟨.hbm, 370, rfl⟩
abbrev main_call37_v0 : Ref sig .tc := ⟨.hbm, 371, rfl⟩
abbrev main_call37_v1 : Ref sig .tc := ⟨.hbm, 372, rfl⟩
abbrev main_call37_cst_0 : Ref sig .tc := ⟨.hbm, 373, rfl⟩
abbrev main_call37_v2 : Ref sig .tc := ⟨.hbm, 374, rfl⟩
abbrev main_call37_v3 : Ref sig .tc := ⟨.hbm, 375, rfl⟩
abbrev main_call37_cst_1 : Ref sig .tc := ⟨.hbm, 376, rfl⟩
abbrev main_call37_v4 : Ref sig .tc := ⟨.hbm, 377, rfl⟩
abbrev main_call37_v5 : Ref sig .tc := ⟨.hbm, 378, rfl⟩
abbrev main_call37_v6 : Ref sig .tc := ⟨.hbm, 379, rfl⟩
abbrev main_call37_cst_2 : Ref sig .tc := ⟨.hbm, 380, rfl⟩
abbrev main_call37_v7 : Ref sig .tc := ⟨.hbm, 381, rfl⟩
abbrev main_call37_v8 : Ref sig .tc := ⟨.hbm, 382, rfl⟩
abbrev main_v215 : Ref sig .tc := ⟨.hbm, 383, rfl⟩
abbrev main_v216 : Ref sig .tc := ⟨.hbm, 384, rfl⟩
abbrev main_v217 : Ref sig .tc := ⟨.hbm, 385, rfl⟩
abbrev main_v218 : Ref sig .tc := ⟨.hbm, 386, rfl⟩
abbrev main_v219 : Ref sig .tc := ⟨.hbm, 387, rfl⟩
abbrev main_v220 : Ref sig .tc := ⟨.hbm, 388, rfl⟩
abbrev main_v221 : Ref sig .tc := ⟨.hbm, 389, rfl⟩
abbrev main_v222 : Ref sig .tc := ⟨.hbm, 390, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  bcast_S512x512_S1x512x512_1_2 : S512x512.BroadcastsInDim S1x512x512 (![1, 2] : Fin 2 → Fin S1x512x512.rank)
  bcast_S1x512x512_S16x512x512_0_1_2 : S1x512x512.BroadcastsInDim S16x512x512 (![0, 1, 2] : Fin 3 → Fin S16x512x512.rank)
  bcast_S16x512x512_S16x1x512x512_0_2_3 : S16x512x512.BroadcastsInDim S16x1x512x512 (![0, 2, 3] : Fin 3 → Fin S16x1x512x512.rank)
  bcast_S16x1x512x512_S16x4x512x512_0_1_2_3 : S16x1x512x512.BroadcastsInDim S16x4x512x512 (![0, 1, 2, 3] : Fin 4 → Fin S16x4x512x512.rank)
  slices_S4x4_S4x1_0_0 : S4x4.Slices ![0, 0] S4x1
  shapeCasts_S4x1_S4 : S4x1.ShapeCasts S4
  bcast_S4_S4x1x1_0 : S4.BroadcastsInDim S4x1x1 (![0] : Fin 1 → Fin S4x1x1.rank)
  bcast_S4x1x1_S1x4x1x1_1_2_3 : S4x1x1.BroadcastsInDim S1x4x1x1 (![1, 2, 3] : Fin 3 → Fin S1x4x1x1.rank)
  bcast_S1x4x1x1_S16x4x512x512_0_1_2_3 : S1x4x1x1.BroadcastsInDim S16x4x512x512 (![0, 1, 2, 3] : Fin 4 → Fin S16x4x512x512.rank)
  slices_S16x4x512x512_S16x4x512x1_0_0_0_511 : S16x4x512x512.Slices ![0, 0, 0, 511] S16x4x512x1
  slices_S16x4x512x512_S16x4x512x511_0_0_0_0 : S16x4x512x512.Slices ![0, 0, 0, 0] S16x4x512x511
  concatenates_S16x4x512x1_S16x4x512x511_S16x4x512x512_d3 : Shape.Concatenates [S16x4x512x1, S16x4x512x511] S16x4x512x512 3
  slices_S16x4x512x512_S16x4x512x511_0_0_0_1 : S16x4x512x512.Slices ![0, 0, 0, 1] S16x4x512x511
  slices_S16x4x512x512_S16x4x512x1_0_0_0_0 : S16x4x512x512.Slices ![0, 0, 0, 0] S16x4x512x1
  concatenates_S16x4x512x511_S16x4x512x1_S16x4x512x512_d3 : Shape.Concatenates [S16x4x512x511, S16x4x512x1] S16x4x512x512 3
  slices_S16x4x512x512_S16x4x1x512_0_0_511_0 : S16x4x512x512.Slices ![0, 0, 511, 0] S16x4x1x512
  slices_S16x4x512x512_S16x4x511x512_0_0_0_0 : S16x4x512x512.Slices ![0, 0, 0, 0] S16x4x511x512
  concatenates_S16x4x1x512_S16x4x511x512_S16x4x512x512_d2 : Shape.Concatenates [S16x4x1x512, S16x4x511x512] S16x4x512x512 2
  slices_S16x4x512x512_S16x4x511x512_0_0_1_0 : S16x4x512x512.Slices ![0, 0, 1, 0] S16x4x511x512
  slices_S16x4x512x512_S16x4x1x512_0_0_0_0 : S16x4x512x512.Slices ![0, 0, 0, 0] S16x4x1x512
  concatenates_S16x4x511x512_S16x4x1x512_S16x4x512x512_d2 : Shape.Concatenates [S16x4x511x512, S16x4x1x512] S16x4x512x512 2
  slices_S4x4x2_S4x1x1_0_0_0 : S4x4x2.Slices ![0, 0, 0] S4x1x1
  shapeCasts_S4x1x1_S4 : S4x1x1.ShapeCasts S4
  slices_S16x4x512x512_S16x4x512x2_0_0_0_510 : S16x4x512x512.Slices ![0, 0, 0, 510] S16x4x512x2
  slices_S16x4x512x512_S16x4x512x510_0_0_0_0 : S16x4x512x512.Slices ![0, 0, 0, 0] S16x4x512x510
  concatenates_S16x4x512x2_S16x4x512x510_S16x4x512x512_d3 : Shape.Concatenates [S16x4x512x2, S16x4x512x510] S16x4x512x512 3
  slices_S16x4x512x512_S16x4x512x510_0_0_0_2 : S16x4x512x512.Slices ![0, 0, 0, 2] S16x4x512x510
  slices_S16x4x512x512_S16x4x512x2_0_0_0_0 : S16x4x512x512.Slices ![0, 0, 0, 0] S16x4x512x2
  concatenates_S16x4x512x510_S16x4x512x2_S16x4x512x512_d3 : Shape.Concatenates [S16x4x512x510, S16x4x512x2] S16x4x512x512 3
  slices_S16x4x512x512_S16x4x2x512_0_0_510_0 : S16x4x512x512.Slices ![0, 0, 510, 0] S16x4x2x512
  slices_S16x4x512x512_S16x4x510x512_0_0_0_0 : S16x4x512x512.Slices ![0, 0, 0, 0] S16x4x510x512
  concatenates_S16x4x2x512_S16x4x510x512_S16x4x512x512_d2 : Shape.Concatenates [S16x4x2x512, S16x4x510x512] S16x4x512x512 2
  slices_S16x4x512x512_S16x4x510x512_0_0_2_0 : S16x4x512x512.Slices ![0, 0, 2, 0] S16x4x510x512
  slices_S16x4x512x512_S16x4x2x512_0_0_0_0 : S16x4x512x512.Slices ![0, 0, 0, 0] S16x4x2x512
  concatenates_S16x4x510x512_S16x4x2x512_S16x4x512x512_d2 : Shape.Concatenates [S16x4x510x512, S16x4x2x512] S16x4x512x512 2
  slices_S4x4x2_S4x1x1_0_0_1 : S4x4x2.Slices ![0, 0, 1] S4x1x1
  bcast_S_S16x4x512x512 : S_.BroadcastsInDim S16x4x512x512 (![] : Fin 0 → Fin S16x4x512x512.rank)
  transposes_S16x4x512x512_S16x4x512x512_0_1_3_2 : S16x4x512x512.Transposes [0, 1, 3, 2] S16x4x512x512
  bcast_S512x512_S1x1x512x512_2_3 : S512x512.BroadcastsInDim S1x1x512x512 (![2, 3] : Fin 2 → Fin S1x1x512x512.rank)
  bcast_S1x1x512x512_S16x4x512x512_0_1_2_3 : S1x1x512x512.BroadcastsInDim S16x4x512x512 (![0, 1, 2, 3] : Fin 4 → Fin S16x4x512x512.rank)
  slices_S4x4_S4x1_0_1 : S4x4.Slices ![0, 1] S4x1
  slices_S4x4x2_S4x1x1_0_1_0 : S4x4x2.Slices ![0, 1, 0] S4x1x1
  slices_S4x4x2_S4x1x1_0_1_1 : S4x4x2.Slices ![0, 1, 1] S4x1x1
  slices_S4x4_S4x1_0_2 : S4x4.Slices ![0, 2] S4x1
  slices_S4x4x2_S4x1x1_0_2_0 : S4x4x2.Slices ![0, 2, 0] S4x1x1
  slices_S4x4x2_S4x1x1_0_2_1 : S4x4x2.Slices ![0, 2, 1] S4x1x1
  slices_S4x4_S4x1_0_3 : S4x4.Slices ![0, 3] S4x1
  slices_S4x4x2_S4x1x1_0_3_0 : S4x4x2.Slices ![0, 3, 0] S4x1x1
  slices_S4x4x2_S4x1x1_0_3_1 : S4x4x2.Slices ![0, 3, 1] S4x1x1
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S_S512x1 : S_.BroadcastsInDim S512x1 (![] : Fin 0 → Fin S512x1.rank)
  bcast_S512x512_S512x512x1_0_1 : S512x512.BroadcastsInDim S512x512x1 (![0, 1] : Fin 2 → Fin S512x512x1.rank)
  concatenates_S512x512x1_S512x512x1_S512x512x2_d2 : Shape.Concatenates [S512x512x1, S512x512x1] S512x512x2 2
  reducesTo_S16x4x512x512_S16x4x512_d2 : S16x4x512x512.ReducesTo [2] S16x4x512
  h_S_ : 0 < S_.numel
  shapeCasts_S16x4x512_S16x2048 : S16x4x512.ShapeCasts S16x2048
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  bcast_S_S16x256 : S_.BroadcastsInDim S16x256 (![] : Fin 0 → Fin S16x256.rank)
  bcast_S1_S1x1_1 : S1.BroadcastsInDim S1x1 (![1] : Fin 1 → Fin S1x1.rank)
  bcast_S1x1_S16x1_0_1 : S1x1.BroadcastsInDim S16x1 (![0, 1] : Fin 2 → Fin S16x1.rank)
  shapeCasts_S16x1_S16 : S16x1.ShapeCasts S16
  dot_S16x512x3_S16x512x3_S16x512x512_2_2_1_1_0_0_wf : DotDims.WF S16x512x3 S16x512x3 S16x512x512 [2] [2] [1] [1] [0] [0]
  gather_S16x4x512x512_S512x512x2_S16x4x512x512_01_23_n_n_23_2_16411_wf : GatherDims.WF S16x4x512x512 S512x512x2 S16x4x512x512 [0, 1] [2, 3] [] [2, 3] [] 2 ![16, 4, 1, 1]
  dot_S16x2048_S2048x256_S16x256_1_0_0_1_n_n_wf : DotDims.WF S16x2048 S2048x256 S16x256 [1] [0] [0] [1] [] []
  dot_S16x256_S256x1_S16x1_1_0_0_1_n_n_wf : DotDims.WF S16x256 S256x1 S16x1 [1] [0] [0] [1] [] []

variable [Facts₀]

def dot_S16x512x3_S16x512x3_S16x512x512_2_2_1_1_0_0 : DotDims S16x512x3 S16x512x3 S16x512x512 where
  lhsContracting := [2]
  rhsContracting := [2]
  lhsNonContracting := [1]
  rhsNonContracting := [1]
  lhsBatch := [0]
  rhsBatch := [0]
  wf := dot_S16x512x3_S16x512x3_S16x512x512_2_2_1_1_0_0_wf
def gather_S16x4x512x512_S512x512x2_S16x4x512x512_01_23_n_n_23_2_16411 : GatherDims S16x4x512x512 S512x512x2 S16x4x512x512 where
  offsetDims := [0, 1]
  collapsedSliceDims := [2, 3]
  operandBatchingDims := []
  startIndicesBatchingDims := []
  startIndexMap := [2, 3]
  indexVectorDim := 2
  sliceSizes := ![16, 4, 1, 1]
  wf := gather_S16x4x512x512_S512x512x2_S16x4x512x512_01_23_n_n_23_2_16411_wf
def dot_S16x2048_S2048x256_S16x256_1_0_0_1_n_n : DotDims S16x2048 S2048x256 S16x256 where
  lhsContracting := [1]
  rhsContracting := [0]
  lhsNonContracting := [0]
  rhsNonContracting := [1]
  lhsBatch := []
  rhsBatch := []
  wf := dot_S16x2048_S2048x256_S16x256_1_0_0_1_n_n_wf
def dot_S16x256_S256x1_S16x1_1_0_0_1_n_n : DotDims S16x256 S256x1 S16x1 where
  lhsContracting := [1]
  rhsContracting := [0]
  lhsNonContracting := [0]
  rhsNonContracting := [1]
  lhsBatch := []
  rhsBatch := []
  wf := dot_S16x256_S256x1_S16x1_1_0_0_1_n_n_wf

class Facts : Prop extends Facts₀ where

variable [Facts]
-- ==== Proof.Stencil.lean ====
/- The stencil both programs compute, written index by index over the extended reals.

   One batch element is an array `x c i j` (channel `c < 4`, row `i < 512`, column `j < 512`).
   It starts as the Gram matrix of the 512 three-vectors `n i`, with the diagonal zeroed, the same
   in every channel.  One layer forms, per channel,
     y = ws c · x + w1 c · (the four cyclic neighbours at distance 1) + w2 c · (those at distance 2),
   adds celu(y) to x and zeroes the diagonal again.  The kernel adds the eight neighbour terms one
   at a time, each already multiplied by its weight, uses celu(y) = y for y > 0 and exp y − 1
   otherwise, and never symmetrises.  The reference sums the four neighbours of one distance first
   and multiplies the sum by the weight, uses celu(y) = max y 0 + 1·(exp(min y 0 / 1) − 1), and
   replaces x by ½(x + xᵀ) before zeroing the diagonal.  On real (finite) inputs the two agree:
   distributivity holds in ℝ, the two forms of celu agree on ℝ, and x stays symmetric, so the
   symmetrisation is the identity.  None of these three steps holds at ±∞, which is why the
   statement is made for real inputs only. -/
import Idealize.ShloMosaic.PureOps.Ideal
import Idealize.ShloMosaic.PureOps.Ideal.Laws
import Idealize.ShloMosaic.Lib.IdealHost

noncomputable section

namespace Cert.Stencil

open Idealize.ShloMosaic

/-- One batch element: channel, row, column. -/
abbrev Arr := Fin 4 → Fin 512 → Fin 512 → EReal

/-- The index `d` places before `j` on the ring of 512. -/
def back (d : ℕ) (j : Fin 512) : Fin 512 := ⟨(j.val + (512 - d % 512)) % 512, Nat.mod_lt _ (by norm_num)⟩
/-- The index `d` places after `j` on the ring of 512. -/
def fwd (d : ℕ) (j : Fin 512) : Fin 512 := ⟨(j.val + d) % 512, Nat.mod_lt _ (by norm_num)⟩

/-- The float literals the two programs spell: 0, 1 and ½. -/
abbrev lit0 : EReal := Ideal.ofBits .f32 0x00000000#32
abbrev lit1 : EReal := Ideal.ofBits .f32 0x3F800000#32
abbrev litHalf : EReal := Ideal.ofBits .f32 0x3F000000#32

/-- The kernel's mask: 1 off the diagonal, 0 on it. -/
def maskK (i j : Fin 512) : EReal := if i = j then 0 else 1
/-- The reference's mask: 1 minus the identity matrix. -/
def maskR (i j : Fin 512) : EReal := lit1 - (if i = j then 1 else 0)

/-- The kernel's start: three rank-one products added left to right, times the mask. -/
def initK (n : Fin 512 → Fin 3 → EReal) : Arr := fun _ i j =>
  ((n i 0 * n j 0 + n i 1 * n j 1) + n i 2 * n j 2) * maskK i j
/-- The reference's start: the contraction over the three coordinates, times the mask. -/
def initR (n : Fin 512 → Fin 3 → EReal) : Arr := fun _ i j =>
  (∑ d : Fin 3, n i d * n j d) * maskR i j

/-- The kernel's celu. -/
def celuK (y : EReal) : EReal := if lit0 < y then y else Ideal.exp y - lit1
/-- The reference's celu. -/
def celuR (y : EReal) : EReal := max y lit0 + lit1 * (Ideal.exp (min y lit0 / lit1) - 1)

/-- The kernel's pre-activation: nine terms added left to right. -/
def preK (ws w1 w2 : Fin 4 → EReal) (x : Arr) : Arr := fun c i j =>
  ((((((((ws c * x c i j
    + w1 c * x c i (back 1 j)) + w1 c * x c i (fwd 1 j)) + w1 c * x c (back 1 i) j) + w1 c * x c (fwd 1 i) j)
    + w2 c * x c i (back 2 j)) + w2 c * x c i (fwd 2 j)) + w2 c * x c (back 2 i) j) + w2 c * x c (fwd 2 i) j)

/-- One layer of the kernel. -/
def layerK (ws w1 w2 : Fin 4 → EReal) (x : Arr) : Arr := fun c i j =>
  (x c i j + celuK (preK ws w1 w2 x c i j)) * maskK i j

/-- The reference's sum of the four neighbours at distance `d`. -/
def nbrR (d : ℕ) (x : Arr) : Arr := fun c i j =>
  ((x c i (back d j) + x c i (fwd d j)) + x c (back d i) j) + x c (fwd d i) j

/-- The reference's pre-activation. -/
def preR (ws w1 w2 : Fin 4 → EReal) (x : Arr) : Arr := fun c i j =>
  (ws c * x c i j + w1 c * nbrR 1 x c i j) + w2 c * nbrR 2 x c i j

/-- The reference's update before it symmetrises. -/
def stepR (ws w1 w2 : Fin 4 → EReal) (x : Arr) : Arr := fun c i j =>
  x c i j + celuR (preR ws w1 w2 x c i j)

/-- One layer of the reference: update, symmetrise, mask. -/
def layerR (ws w1 w2 : Fin 4 → EReal) (x : Arr) : Arr := fun c i j =>
  (litHalf * (stepR ws w1 w2 x c i j + stepR ws w1 w2 x c j i)) * maskR i j

/-- The kernel's four layers; layer `l` uses column `l` of `wself` and row `l` of `wnbr`. -/
def stencilK (n : Fin 512 → Fin 3 → EReal) (wself : Fin 4 → Fin 4 → EReal) (wnbr : Fin 4 → Fin 4 → Fin 2 → EReal) : Arr :=
  layerK (fun c => wself c 3) (fun c => wnbr c 3 0) (fun c => wnbr c 3 1)
   (layerK (fun c => wself c 2) (fun c => wnbr c 2 0) (fun c => wnbr c 2 1)
    (layerK (fun c => wself c 1) (fun c => wnbr c 1 0) (fun c => wnbr c 1 1)
     (layerK (fun c => wself c 0) (fun c => wnbr c 0 0) (fun c => wnbr c 0 1) (initK n))))

/-- The reference's four layers. -/
def stencilR (n : Fin 512 → Fin 3 → EReal) (wself : Fin 4 → Fin 4 → EReal) (wnbr : Fin 4 → Fin 4 → Fin 2 → EReal) : Arr :=
  layerR (fun c => wself c 3) (fun c => wnbr c 3 0) (fun c => wnbr c 3 1)
   (layerR (fun c => wself c 2) (fun c => wnbr c 2 0) (fun c => wnbr c 2 1)
    (layerR (fun c => wself c 1) (fun c => wnbr c 1 0) (fun c => wnbr c 1 1)
     (layerR (fun c => wself c 0) (fun c => wnbr c 0 0) (fun c => wnbr c 0 1) (initR n))))

/-! ## The same stencil over the reals

On real entries every operation above stays inside ℝ, so each array is the coercion of a real array.
The real array below is written in the kernel's form; the reference's form is shown equal to it. -/

/-- One batch element over the reals. -/
abbrev RArr := Fin 4 → Fin 512 → Fin 512 → ℝ

/-- The mask over the reals: 1 off the diagonal, 0 on it. -/
def maskT (i j : Fin 512) : ℝ := if i = j then 0 else 1

/-- The start over the reals. -/
def initT (n : Fin 512 → Fin 3 → ℝ) : RArr := fun _ i j =>
  ((n i 0 * n j 0 + n i 1 * n j 1) + n i 2 * n j 2) * maskT i j

/-- celu over the reals. -/
def celuT (y : ℝ) : ℝ := if 0 < y then y else Real.exp y - 1

/-- The pre-activation over the reals: nine terms added left to right. -/
def preT (ws w1 w2 : Fin 4 → ℝ) (x : RArr) : RArr := fun c i j =>
  ((((((((ws c * x c i j
    + w1 c * x c i (back 1 j)) + w1 c * x c i (fwd 1 j)) + w1 c * x c (back 1 i) j) + w1 c * x c (fwd 1 i) j)
    + w2 c * x c i (back 2 j)) + w2 c * x c i (fwd 2 j)) + w2 c * x c (back 2 i) j) + w2 c * x c (fwd 2 i) j)

/-- One layer over the reals. -/
def layerT (ws w1 w2 : Fin 4 → ℝ) (x : RArr) : RArr := fun c i j =>
  (x c i j + celuT (preT ws w1 w2 x c i j)) * maskT i j

/-! ### The three literals -/

theorem lit0_eq : lit0 = 0 := Ideal.ofBits_zero_f32
theorem lit1_eq : lit1 = 1 := Ideal.ofBits_one_f32
theorem litHalf_eq : litHalf = (((1 : ℝ) / 2 : ℝ) : EReal) := by
  simp [Ideal.ofBits, Ideal.ieee, -EReal.coe_mul]; norm_num

/-! ### The masks -/

theorem maskK_real (i j : Fin 512) : maskK i j = ((maskT i j : ℝ) : EReal) := by
  unfold maskK maskT; split_ifs <;> simp

theorem maskR_real (i j : Fin 512) : maskR i j = ((maskT i j : ℝ) : EReal) := by
  unfold maskR maskT; rw [lit1_eq]
  split_ifs
  · rw [← EReal.coe_one, ← EReal.coe_sub, sub_self]
  · rw [← EReal.coe_one, ← EReal.coe_zero, ← EReal.coe_sub, sub_zero]

theorem maskT_symm (i j : Fin 512) : maskT i j = maskT j i := by
  unfold maskT
  by_cases h : i = j
  · subst h; rfl
  · rw [if_neg h, if_neg (Ne.symm h)]

/-! ### celu: the two forms agree on a real -/

theorem celuK_real (y : ℝ) : celuK (y : EReal) = ((celuT y : ℝ) : EReal) := by
  unfold celuK celuT
  rw [lit0_eq, lit1_eq]
  by_cases h : 0 < y
  · rw [if_pos h, if_pos (EReal.coe_pos.mpr h)]
  · rw [if_neg h, if_neg (fun h' => h (EReal.coe_pos.mp h')), Ideal.exp_coe, EReal.coe_sub, EReal.coe_one]

theorem celuR_real (y : ℝ) : celuR (y : EReal) = ((celuT y : ℝ) : EReal) := by
  unfold celuR celuT
  rw [lit0_eq, lit1_eq, div_one, one_mul]
  by_cases h : 0 < y
  · have h' : (0 : EReal) ≤ (y : EReal) := EReal.coe_nonneg.mpr h.le
    have e : Ideal.exp 0 - 1 = 0 := by
      have e' : Ideal.exp ((0 : ℝ) : EReal) - ((1 : ℝ) : EReal) = ((0 : ℝ) : EReal) := by
        rw [Ideal.exp_coe, Real.exp_zero, ← EReal.coe_sub, sub_self]
      exact e'
    rw [if_pos h, max_eq_left h', min_eq_right h', e, add_zero]
  · have h' : (y : EReal) ≤ 0 := EReal.coe_nonpos.mpr (not_lt.mp h)
    rw [if_neg h, max_eq_right h', min_eq_left h', zero_add, Ideal.exp_coe, EReal.coe_sub, EReal.coe_one]

/-! ### Each definition at coerced reals is the coercion of its real twin -/

section Coe

variable {N : Fin 512 → Fin 3 → EReal} {n : Fin 512 → Fin 3 → ℝ}
variable {Ws W1 W2 : Fin 4 → EReal} {X : Arr} {ws w1 w2 : Fin 4 → ℝ} {x : RArr}

theorem initK_real (hn : ∀ i d, N i d = ((n i d : ℝ) : EReal)) (c : Fin 4) (i j : Fin 512) :
    initK N c i j = ((initT n c i j : ℝ) : EReal) := by
  simp only [initK, initT, hn, maskK_real, EReal.coe_add, EReal.coe_mul]

theorem initR_real (hn : ∀ i d, N i d = ((n i d : ℝ) : EReal)) (c : Fin 4) (i j : Fin 512) :
    initR N c i j = ((initT n c i j : ℝ) : EReal) := by
  simp only [initR, initT, Fin.sum_univ_three, hn, maskR_real, EReal.coe_add, EReal.coe_mul]

theorem preK_real (hs : ∀ c, Ws c = ((ws c : ℝ) : EReal)) (h1 : ∀ c, W1 c = ((w1 c : ℝ) : EReal))
    (h2 : ∀ c, W2 c = ((w2 c : ℝ) : EReal)) (hx : ∀ c i j, X c i j = ((x c i j : ℝ) : EReal))
    (c : Fin 4) (i j : Fin 512) :
    preK Ws W1 W2 X c i j = ((preT ws w1 w2 x c i j : ℝ) : EReal) := by
  simp only [preK, preT, hs, h1, h2, hx, EReal.coe_add, EReal.coe_mul]

theorem layerK_real (hs : ∀ c, Ws c = ((ws c : ℝ) : EReal)) (h1 : ∀ c, W1 c = ((w1 c : ℝ) : EReal))
    (h2 : ∀ c, W2 c = ((w2 c : ℝ) : EReal)) (hx : ∀ c i j, X c i j = ((x c i j : ℝ) : EReal))
    (c : Fin 4) (i j : Fin 512) :
    layerK Ws W1 W2 X c i j = ((layerT ws w1 w2 x c i j : ℝ) : EReal) := by
  simp only [layerK, layerT, preK_real hs h1 h2 hx, celuK_real, maskK_real, hx, EReal.coe_add, EReal.coe_mul]

/-- The reference's pre-activation: the weight times a sum of four is the four weighted terms (distributivity in ℝ). -/
theorem preR_real (hs : ∀ c, Ws c = ((ws c : ℝ) : EReal)) (h1 : ∀ c, W1 c = ((w1 c : ℝ) : EReal))
    (h2 : ∀ c, W2 c = ((w2 c : ℝ) : EReal)) (hx : ∀ c i j, X c i j = ((x c i j : ℝ) : EReal))
    (c : Fin 4) (i j : Fin 512) :
    preR Ws W1 W2 X c i j = ((preT ws w1 w2 x c i j : ℝ) : EReal) := by
  have e : preT ws w1 w2 x c i j
      = (ws c * x c i j
          + w1 c * (((x c i (back 1 j) + x c i (fwd 1 j)) + x c (back 1 i) j) + x c (fwd 1 i) j))
          + w2 c * (((x c i (back 2 j) + x c i (fwd 2 j)) + x c (back 2 i) j) + x c (fwd 2 i) j) := by
    simp only [preT]; ring
  rw [e]
  simp only [preR, nbrR, hs, h1, h2, hx, EReal.coe_add, EReal.coe_mul]

theorem stepR_real (hs : ∀ c, Ws c = ((ws c : ℝ) : EReal)) (h1 : ∀ c, W1 c = ((w1 c : ℝ) : EReal))
    (h2 : ∀ c, W2 c = ((w2 c : ℝ) : EReal)) (hx : ∀ c i j, X c i j = ((x c i j : ℝ) : EReal))
    (c : Fin 4) (i j : Fin 512) :
    stepR Ws W1 W2 X c i j = ((x c i j + celuT (preT ws w1 w2 x c i j) : ℝ) : EReal) := by
  simp only [stepR, preR_real hs h1 h2 hx, celuR_real, hx, EReal.coe_add]

end Coe

/-! ### Symmetry is kept by a layer -/

theorem initT_symm (n : Fin 512 → Fin 3 → ℝ) (c : Fin 4) (i j : Fin 512) : initT n c i j = initT n c j i := by
  simp only [initT]; rw [maskT_symm i j]; ring

/-- The pre-activation of a symmetric array is symmetric: the row neighbours of (i, j) are the column neighbours of (j, i). -/
theorem preT_symm {x : RArr} (hx : ∀ c i j, x c i j = x c j i) (ws w1 w2 : Fin 4 → ℝ) (c : Fin 4) (i j : Fin 512) :
    preT ws w1 w2 x c i j = preT ws w1 w2 x c j i := by
  simp only [preT]
  rw [hx c j i, hx c j (back 1 i), hx c j (fwd 1 i), hx c (back 1 j) i, hx c (fwd 1 j) i,
    hx c j (back 2 i), hx c j (fwd 2 i), hx c (back 2 j) i, hx c (fwd 2 j) i]
  ring

theorem layerT_symm {x : RArr} (hx : ∀ c i j, x c i j = x c j i) (ws w1 w2 : Fin 4 → ℝ) (c : Fin 4) (i j : Fin 512) :
    layerT ws w1 w2 x c i j = layerT ws w1 w2 x c j i := by
  simp only [layerT]
  rw [preT_symm hx ws w1 w2 c i j, hx c i j, maskT_symm i j]

/-- One layer of the reference on a symmetric real array: ½(a + a) = a, so the symmetrisation is the identity. -/
theorem layerR_real {Ws W1 W2 : Fin 4 → EReal} {X : Arr} {ws w1 w2 : Fin 4 → ℝ} {x : RArr}
    (hs : ∀ c, Ws c = ((ws c : ℝ) : EReal)) (h1 : ∀ c, W1 c = ((w1 c : ℝ) : EReal))
    (h2 : ∀ c, W2 c = ((w2 c : ℝ) : EReal)) (hx : ∀ c i j, X c i j = ((x c i j : ℝ) : EReal))
    (hsym : ∀ c i j, x c i j = x c j i) (c : Fin 4) (i j : Fin 512) :
    layerR Ws W1 W2 X c i j = ((layerT ws w1 w2 x c i j : ℝ) : EReal) := by
  have e : layerT ws w1 w2 x c i j
      = ((1 : ℝ) / 2 * ((x c i j + celuT (preT ws w1 w2 x c i j)) + (x c j i + celuT (preT ws w1 w2 x c j i))))
          * maskT i j := by
    simp only [layerT]
    rw [← preT_symm hsym ws w1 w2 c i j, ← hsym c i j]
    ring
  rw [e]
  simp only [layerR, stepR_real hs h1 h2 hx, litHalf_eq, maskR_real, EReal.coe_add, EReal.coe_mul]

/-- On real inputs the two programs compute the same array. -/
theorem stencilK_eq_stencilR (n : Fin 512 → Fin 3 → EReal) (wself : Fin 4 → Fin 4 → EReal) (wnbr : Fin 4 → Fin 4 → Fin 2 → EReal)
    (hn : ∀ i d, ∃ r : ℝ, n i d = (r : EReal)) (hs : ∀ c l, ∃ r : ℝ, wself c l = (r : EReal))
    (hw : ∀ c l k, ∃ r : ℝ, wnbr c l k = (r : EReal)) :
    stencilK n wself wnbr = stencilR n wself wnbr := by
  choose n' hn' using hn
  choose s' hs' using hs
  choose w' hw' using hw
  -- the start
  have k0 : ∀ c i j, initK n c i j = ((initT n' c i j : ℝ) : EReal) := initK_real hn'
  have r0 : ∀ c i j, initR n c i j = ((initT n' c i j : ℝ) : EReal) := initR_real hn'
  have y0 : ∀ c i j, initT n' c i j = initT n' c j i := initT_symm n'
  -- layer 0
  have k1 := layerK_real (ws := fun c => s' c 0) (w1 := fun c => w' c 0 0) (w2 := fun c => w' c 0 1)
    (fun c => hs' c 0) (fun c => hw' c 0 0) (fun c => hw' c 0 1) k0
  have r1 := layerR_real (ws := fun c => s' c 0) (w1 := fun c => w' c 0 0) (w2 := fun c => w' c 0 1)
    (fun c => hs' c 0) (fun c => hw' c 0 0) (fun c => hw' c 0 1) r0 y0
  have y1 := layerT_symm y0 (fun c => s' c 0) (fun c => w' c 0 0) (fun c => w' c 0 1)
  -- layer 1
  have k2 := layerK_real (ws := fun c => s' c 1) (w1 := fun c => w' c 1 0) (w2 := fun c => w' c 1 1)
    (fun c => hs' c 1) (fun c => hw' c 1 0) (fun c => hw' c 1 1) k1
  have r2 := layerR_real (ws := fun c => s' c 1) (w1 := fun c => w' c 1 0) (w2 := fun c => w' c 1 1)
    (fun c => hs' c 1) (fun c => hw' c 1 0) (fun c => hw' c 1 1) r1 y1
  have y2 := layerT_symm y1 (fun c => s' c 1) (fun c => w' c 1 0) (fun c => w' c 1 1)
  -- layer 2
  have k3 := layerK_real (ws := fun c => s' c 2) (w1 := fun c => w' c 2 0) (w2 := fun c => w' c 2 1)
    (fun c => hs' c 2) (fun c => hw' c 2 0) (fun c => hw' c 2 1) k2
  have r3 := layerR_real (ws := fun c => s' c 2) (w1 := fun c => w' c 2 0) (w2 := fun c => w' c 2 1)
    (fun c => hs' c 2) (fun c => hw' c 2 0) (fun c => hw' c 2 1) r2 y2
  have y3 := layerT_symm y2 (fun c => s' c 2) (fun c => w' c 2 0) (fun c => w' c 2 1)
  -- layer 3
  have k4 := layerK_real (ws := fun c => s' c 3) (w1 := fun c => w' c 3 0) (w2 := fun c => w' c 3 1)
    (fun c => hs' c 3) (fun c => hw' c 3 0) (fun c => hw' c 3 1) k3
  have r4 := layerR_real (ws := fun c => s' c 3) (w1 := fun c => w' c 3 0) (w2 := fun c => w' c 3 1)
    (fun c => hs' c 3) (fun c => hw' c 3 0) (fun c => hw' c 3 1) r3 y3
  funext c i j
  exact (k4 c i j).trans (r4 c i j).symm

end Cert.Stencil

end
-- ==== Proof.Pre.lean ====
/-
  The precondition read back. The printed predicate is the conjunction, over the seven argument arrays, of
  "every entry x has |x| < +∞" (the comparison is against the word 0x7F800000, the extended reals' top).
  When the predicate is 1, each conjunct is 1, so each entry of each array satisfies max x (−x) < ⊤,
  and an extended real with that property is neither ⊤ nor ⊥: it is a real number.
-/
import proofs.«412012_j25271587569863_4_alg».proof.Pre_finite_inputs
import Idealize.ShloMosaic.Lib.ReduceAll
import Idealize.ShloMosaic.PureOps.Ideal
import Idealize.ShloMosaic.PureOps.Ideal.Laws

namespace Cert.Pre_finite_inputs.Hand

open Idealize.ShloMosaic

variable [Cert.Pre_finite_inputs.Facts]

/-- The shape of rank 0 has exactly one index. -/
instance : Subsingleton S_.Idx := ⟨fun a b => funext fun d => d.elim0⟩

/-- An extended real x with max x (−x) < ⊤ is a real number: at ⊤ the maximum is ⊤, at ⊥ it is −⊥ = ⊤. -/
theorem real_of_abs_lt_top (x : EReal)
    (hx : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at hx
  induction x using EReal.rec with
  | bot => simp [Ideal.cmp] at hx
  | coe r => exact ⟨r, rfl⟩
  | top => simp [Ideal.cmp] at hx

/-- When the printed precondition holds, every entry of the first three argument arrays is a real number:
    the predicate is a seven-fold conjunction, each conjunct an "all entries" of |x| < ⊤. -/
theorem real_of_pre {a0 : FVec Ideal S16x512x3 .f32} {a1 : FVec Ideal S4x4 .f32} {a2 : FVec Ideal S4x4x2 .f32} {a3 a4 a5 a6}
    (h : Cert.Pre_finite_inputs.fn (F := Ideal) a0 a1 a2 a3 a4 a5 a6 = fun _ => 1#1) :
    (∀ j, ∃ r : ℝ, a0 j = (r : EReal)) ∧ (∀ j, ∃ r : ℝ, a1 j = (r : EReal)) ∧ (∀ j, ∃ r : ℝ, a2 j = (r : EReal)) := by
  have h0 := congrFun h (fun a => a.elim0)
  dsimp only [fn, fn_part1] at h0
  simp only [andi, IntOp.andi_eq_one] at h0
  obtain ⟨⟨⟨⟨⟨⟨e0, e1⟩, e2⟩, _⟩, _⟩, _⟩, _⟩ := h0
  refine ⟨fun j => ?_, fun j => ?_, fun j => ?_⟩
  · exact real_of_abs_lt_top (a0 j) (Host.reduce_andi_all _ _ _ _ _ e0 j)
  · exact real_of_abs_lt_top (a1 j) (Host.reduce_andi_all _ _ _ _ _ e1 j)
  · exact real_of_abs_lt_top (a2 j) (Host.reduce_andi_all _ _ _ _ _ e2 j)

end Cert.Pre_finite_inputs.Hand
-- ==== Proof.K.Body.lean ====
/- The value the kernel body stores, as a function of the three blocks it loads.

   The body reads one batch element's coordinates `x0` (1×3×512), the self weights `x1` (4×4) and the
   neighbour weights `x2` (4×4×2).  It forms the masked Gram matrix, the same in each of the four
   channels, and applies four layers; layer `l` uses column `l` of `x1` and row `l` of `x2`.  The
   value after each layer is named here; the stored value is the last of them, reshaped to
   1×4×512×512. -/
import proofs.«412012_j25271587569863_4_alg».proof.Proof.Gen.Kernel.Skeleton

set_option synthInstance.maxSize 4096

noncomputable section

namespace Cert.Kernel.Hand

open Idealize.ShloMosaic Idealize.SL.Sem
open Cert.Kernel.Gen

variable {F : FTy → Type} [FloatOps F]

/-- The mask: 1 off the diagonal, 0 on it. -/
noncomputable def maskV : FVec F S512x512 .f32 := k0_pay2 (F := F)

/-- The start: the masked Gram matrix of the coordinates, in every channel. -/
noncomputable def xs0 (x0 : Vec F S1x3x512 .f32) : FVec F S4x512x512 .f32 := k0_pay3 x0

/-- After layer 0: the first two terms of its sum, the neighbour one place on, and the rest. -/
noncomputable def xs1 (x0 : Vec F S1x3x512 .f32) (x1 : Vec F S4x4 .f32) (x2 : Vec F S4x4x2 .f32) :
    FVec F S4x512x512 .f32 :=
  k0_pay7 (maskV (F := F)) (xs0 x0) x2 (k0_pay4 x2) (k0_pay5 x0 x1 x2) (k0_pay6 x0)

/-- After layer 1: its first term, its second term, and the rest. -/
noncomputable def xs2 (x0 : Vec F S1x3x512 .f32) (x1 : Vec F S4x4 .f32) (x2 : Vec F S4x4x2 .f32) :
    FVec F S4x512x512 .f32 :=
  k0_pay11 (maskV (F := F)) x2 (xs1 x0 x1 x2)
    (k0_pay8 (maskV (F := F)) (xs0 x0) x1 x2 (k0_pay4 x2) (k0_pay5 x0 x1 x2) (k0_pay6 x0))
    (k0_pay9 x2)
    (k0_pay10 (maskV (F := F)) (xs0 x0) x2 (k0_pay4 x2) (k0_pay5 x0 x1 x2) (k0_pay6 x0))

/-- Layer 2's first term: the self weight times the value after layer 1. -/
noncomputable def self2 (x0 : Vec F S1x3x512 .f32) (x1 : Vec F S4x4 .f32) (x2 : Vec F S4x4x2 .f32) :
    FVec F S4x512x512 .f32 :=
  k0_pay12 (maskV (F := F)) x1 x2 (xs1 x0 x1 x2)
    (k0_pay8 (maskV (F := F)) (xs0 x0) x1 x2 (k0_pay4 x2) (k0_pay5 x0 x1 x2) (k0_pay6 x0))
    (k0_pay9 x2)
    (k0_pay10 (maskV (F := F)) (xs0 x0) x2 (k0_pay4 x2) (k0_pay5 x0 x1 x2) (k0_pay6 x0))

/-- After layer 2. -/
noncomputable def xs3 (x0 : Vec F S1x3x512 .f32) (x1 : Vec F S4x4 .f32) (x2 : Vec F S4x4x2 .f32) :
    FVec F S4x512x512 .f32 :=
  k0_pay14 (maskV (F := F)) x2 (xs2 x0 x1 x2) (self2 x0 x1 x2) (k0_pay13 x2) 1#32

/-- Layer 3's first term: the self weight times the value after layer 2. -/
noncomputable def self3 (x0 : Vec F S1x3x512 .f32) (x1 : Vec F S4x4 .f32) (x2 : Vec F S4x4x2 .f32) :
    FVec F S4x512x512 .f32 :=
  k0_pay15 (maskV (F := F)) x1 x2 (xs2 x0 x1 x2) (self2 x0 x1 x2) (k0_pay13 x2) 1#32

/-- After layer 3. -/
noncomputable def xs4 (x0 : Vec F S1x3x512 .f32) (x1 : Vec F S4x4 .f32) (x2 : Vec F S4x4x2 .f32) :
    FVec F S4x512x512 .f32 :=
  k0_pay17 (maskV (F := F)) x2 (xs3 x0 x1 x2) (self3 x0 x1 x2) (k0_pay16 x2)

/-- The stored value: the array after four layers, with a leading axis of length one. -/
noncomputable def bodyVal (x0 : Vec F S1x3x512 .f32) (x1 : Vec F S4x4 .f32) (x2 : Vec F S4x4x2 .f32) :
    FVec F S1x4x512x512 .f32 :=
  k0_pay1 (xs4 x0 x1 x2)

end Cert.Kernel.Hand

end
-- ==== Proof.K.TailOps.lean ====
/-
  The five stretches of host operations the kernel program runs after its region, in order, as one list of lists:
  the frame of the program and the value of its tail are both stated over it.
-/
import proofs.«412012_j25271587569863_4_alg».proof.Proof.Gen.Kernel.Launch

noncomputable section

namespace Cert.Kernel.Hand

open Idealize.ShloMosaic Idealize.ShloMosaic.TcCoe Idealize.SL.Sem
open Cert.Kernel Cert.Kernel.Gen

variable {F : FTy → Type} [FloatOps F]

/-- The five stretches of host operations after the region, in order. -/
abbrev tailOpss : List (List (HloOp τ sig (Elt F))) := [hostOps1, hostOps1_1, hostOps1_2, hostOps1_3, hostOps1_4]

end Cert.Kernel.Hand

end
-- ==== Proof.K.Frame.lean ====
/- The frame of the kernel program: @main is one host line (a transpose), the region (a grid of 16 points, one
   batch element each: three input windows, one output window), and 76 host lines after it.

   The body at a point loads its three input blocks whole, computes, and stores the output block whole.  So after
   the body the output window's buffer holds the body's value of the three input blocks, and each input window's
   buffer still holds its block.  With that as the proof data, the launch theorem for a region followed by host
   lines gives the run: every array of the pipeline ends at what the proof data say, every other buffer at what
   the later lines leave.  No later line writes an argument array, and none is an output of the region, so the
   seven argument arrays end as launched. -/
import proofs.«412012_j25271587569863_4_alg».proof.Proof.Gen.Kernel.Launch
import proofs.«412012_j25271587569863_4_alg».proof.Proof.Gen.Kernel.Skeleton
import proofs.«412012_j25271587569863_4_alg».proof.Proof.Gen.Kernel.Points
import proofs.«412012_j25271587569863_4_alg».proof.Proof.K.Body
import proofs.«412012_j25271587569863_4_alg».proof.Proof.K.TailOps
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the one line before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

/-- No host line allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main is the line before the region, the region, and the lines after it: it reduces to the region continued by
    the later lines, at the contents after the earlier one. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOpss (F := F)).map StableHlo.seq)) :=
  Pipeline.hmain_around cfgs 0 defs₀ 𝒱₀ m main [hostOps0] tailOpss (by simp only [List.Forall]; exact hostOps0_sub)
    (by simp only [List.Forall]; exact hostOps0_fresh) main_chain

/-- The lines after the region touch unscoped TensorCore buffers only: with nothing prefetched, each is an array of
    the pipeline or a buffer that bypasses it. -/
theorem sfx_sub : ∀ ops ∈ (tailOpss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOpss, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ (tailOpss : List (List (HloOp τ sig (Elt F)))), ∀ op ∈ ops, op.fresh = ∅ := by
  intro ops hops op hop
  simp only [tailOpss, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- The references that matter to the frame: the seven arguments, the transposed input and the region's output. -/
abbrev keptRefs : List (Ref sig .tc) :=
  [main_arg0, main_arg1, main_arg2, main_arg3, main_arg4, main_arg5, main_arg6, main_v0, main_v1]

/-- Each line after the region writes its own result buffer only, and none of those is a kept reference. -/
theorem tail_keeps (b : Ref sig .tc) (hb : b ∈ keptRefs) :
    ∀ op ∈ (tailOpss : List (List (HloOp τ sig (Elt F)))).flatten, Proc.devRef .tc b ∉ op.writes := by
  refine (List.forall_iff_forall_mem (p := fun op : HloOp τ sig (Elt F) => Proc.devRef .tc b ∉ op.writes)).mp ?_
  simp only [tailOpss, hostOps1, hostOps1_1, hostOps1_2, hostOps1_3, hostOps1_4, List.flatten_cons, List.flatten_nil,
    List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by rintro rfl; revert hb; decide)

/-- The line before the region writes the transposed input only. -/
theorem head_keeps (b : Ref sig .tc) (hb : b ≠ main_v0) :
    ∀ op ∈ (List.flatten [(hostOps0 : List (HloOp τ sig (Elt F)))]), Proc.devRef .tc b ∉ op.writes := by
  refine (List.forall_iff_forall_mem (p := fun op : HloOp τ sig (Elt F) => Proc.devRef .tc b ∉ op.writes)).mp ?_
  simp only [hostOps0, List.flatten_cons, List.flatten_nil, List.append_nil, List.cons_append, List.nil_append,
    List.Forall, StableHlo.nullary_writes, StableHlo.unary_writes, StableHlo.binary_writes, StableHlo.ternary_writes, StableHlo.quaternary_writes, StableHlo.reshape_writes, StableHlo.binaryIndexed_writes, Finset.mem_singleton]
  exact StableHlo.devRef_ne_of_ne hb

/-- The pipeline's four arrays: the transposed input, two arguments, the output. -/
theorem arrRef_cases (w : Fin 4) : Pipeline.arrRef spec0 w ∈ keptRefs := by
  fin_cases w <;> decide

/-- No line after the region writes an array of the pipeline. -/
theorem sfx_keeps : ∀ ops ∈ (tailOpss : List (List (HloOp τ sig (Elt F)))), ∀ op ∈ ops,
    ∀ w, Proc.devRef .tc (Pipeline.arrRef spec0 w) ∉ op.writes := fun ops hops op hop w =>
  tail_keeps _ (arrRef_cases w) op (List.mem_flatten.mpr ⟨ops, hops, hop⟩)

/-- An argument array is found by the region as launched. -/
theorem V_of_ne (c : Dev nD) (b : Ref sig .tc) (hb : b ≠ main_v0) : V m c b = m ((c : Thread nD τ).loc b) :=
  StableHlo.after_of_forall_not_mem (b := Proc.devRef .tc b) _ _ (head_keeps b hb)

theorem V_main_arg0 (c : Dev nD) : V m c main_arg0 = m ((c : Thread nD τ).loc main_arg0) := V_of_ne m c _ (by decide)
theorem V_main_arg1 (c : Dev nD) : V m c main_arg1 = m ((c : Thread nD τ).loc main_arg1) := V_of_ne m c _ (by decide)
theorem V_main_arg2 (c : Dev nD) : V m c main_arg2 = m ((c : Thread nD τ).loc main_arg2) := V_of_ne m c _ (by decide)
theorem V_main_arg3 (c : Dev nD) : V m c main_arg3 = m ((c : Thread nD τ).loc main_arg3) := V_of_ne m c _ (by decide)
theorem V_main_arg4 (c : Dev nD) : V m c main_arg4 = m ((c : Thread nD τ).loc main_arg4) := V_of_ne m c _ (by decide)
theorem V_main_arg5 (c : Dev nD) : V m c main_arg5 = m ((c : Thread nD τ).loc main_arg5) := V_of_ne m c _ (by decide)
theorem V_main_arg6 (c : Dev nD) : V m c main_arg6 = m ((c : Thread nD τ).loc main_arg6) := V_of_ne m c _ (by decide)

/-- The transposed input is the transpose of the first argument as launched. -/
theorem V_main_v0 (c : Dev nD) : V m c main_v0
    = transpose S16x3x512 [0, 2, 1] (m ((c : Thread nD τ).loc main_arg0)) transposes_S16x512x3_S16x3x512_0_2_1 := by
  show StableHlo.after (List.flatten [hostOps0]) (fun b => m (c, b)) (Proc.devRef .tc main_v0) = _
  simp only [hostOps0, List.flatten_cons, List.flatten_nil, List.append_nil, StableHlo.after_cons, StableHlo.after_nil]
  exact StableHlo.unary_result' _ _ _ _

/-- An argument array ends as launched: no line after the region writes it, it is no array of the pipeline, and the
    region found it as launched. -/
theorem W_of (dats : (p : Fin 1) → (c : Dev nD) → Dat τ (Elt F) Unit ℕ (UR sig nD τ) ℕ (cfgs p) c) (c : Dev nD)
    (b : Ref sig .tc) (hb : b ∈ keptRefs) (hv : b ≠ main_v0) (harr : ∀ w, Pipeline.arrRef spec0 w ≠ b) :
    Pipeline.afterTail₀ cfgs dats 0 (V0 m) tailOpss c b = m ((c : Thread nD τ).loc b) := by
  unfold Pipeline.afterTail₀
  rw [StableHlo.after_of_forall_not_mem (b := Proc.devRef .tc b) _ _ (tail_keeps b hb),
    Pipeline.withArrays_of_ne _ c (V0 m c) _ b harr]
  exact V_of_ne m c b hv

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: each buffer whole -/

abbrev r0_0 : Rect S1x3x512 := Rect.unit (s := S1x3x512) ![0, 0, 0] S1x3x512.size inb_S1x3x512_S1x3x512_0_0_0
abbrev r0_1 : Rect S4x4 := Rect.unit (s := S4x4) ![0, 0] S4x4.size inb_S4x4_S4x4_0_0
abbrev r0_2 : Rect S4x4x2 := Rect.unit (s := S4x4x2) ![0, 0, 0] S4x4x2.size inb_S4x4x2_S4x4x2_0_0_0
abbrev r0_3 : Rect S1x4x512x512 := Rect.unit (s := S1x4x512x512) ![0, 0, 0, 0] S1x4x512x512.size inb_S1x4x512x512_S1x4x512x512_0_0_0_0

/-! ## What the body leaves in the output window's buffer -/

/-- The output buffer after the body, from the input blocks: its one store, whose payload is the body's value of the
    three loads. -/
def out0_3 (x0 : Vec F S1x3x512 .f32) (x1 : Vec F S4x4 .f32) (x2 : Vec F S4x4x2 .f32) : Vec F S1x4x512x512 .f32 :=
  View.canon [⟨r0_3, bodyVal (View.ld x0 r0_0) (View.ld x1 r0_1) (View.ld x2 r0_2)⟩]

/-- Each access is through the whole buffer, so the loads read the blocks and the store leaves its payload. -/
theorem out0_3_eq (x0 : Vec F S1x3x512 .f32) (x1 : Vec F S4x4 .f32) (x2 : Vec F S4x4x2 .f32) :
    out0_3 (F := F) x0 x1 x2 = bodyVal x0 x1 x2 := by
  have hz3 : (![0, 0, 0] : Fin S1x3x512.rank → Nat) = fun _ => 0 := funext fun a => by fin_cases a <;> rfl
  have hz2 : (![0, 0] : Fin S4x4.rank → Nat) = fun _ => 0 := funext fun a => by fin_cases a <;> rfl
  have hz3' : (![0, 0, 0] : Fin S4x4x2.rank → Nat) = fun _ => 0 := funext fun a => by fin_cases a <;> rfl
  have hz4 : (![0, 0, 0, 0] : Fin S1x4x512x512.rank → Nat) = fun _ => 0 := funext fun a => by fin_cases a <;> rfl
  unfold out0_3
  rw [View.canon_unit_zero hz4, View.ld_unit_zero hz3, View.ld_unit_zero hz2, View.ld_unit_zero hz3']

/-- The one store covers the buffer. -/
theorem cover0_3 (p0 : Vec F S1x4x512x512 .f32) (y : S1x4x512x512.Idx) :
    ∃ pc ∈ ([⟨r0_3, p0⟩] : List (View.Piece (Elt F) S1x4x512x512 .f32)), y ∈ pc.1.set :=
  ⟨_, List.mem_singleton_self _, View.mem_set_unit_zero (funext fun a => by fin_cases a <;> rfl) inb_S1x4x512x512_S1x4x512x512_0_0_0_0 y⟩

/-! ## The body's triple -/

set_option maxHeartbeats 4000000 in
/-- The body on whole staging buffers, the inputs' at contents `x0 x1 x2` and the output's at anything, runs to the
    continuation holding the inputs' as they were and the output's at `out0_3` of the inputs'. -/
theorem sound_kernel (c : Dev nD) (E : Set ℕ) (i : grid0.Coords)
    (arg1 : Memref sig .tc .vmem S1x3x512 .f32) (harg1 : arg1.IsWhole) (arg2 : Memref sig .tc .vmem S4x4 .f32) (harg2 : arg2.IsWhole)
    (arg3 : Memref sig .tc .vmem S4x4x2 .f32) (harg3 : arg3.IsWhole) (arg4 : Memref sig .tc .vmem S1x4x512x512 .f32) (harg4 : arg4.IsWhole)
    (x0 : Vec F S1x3x512 .f32) (x1 : Vec F S4x4 .f32) (x2 : Vec F S4x4x2 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__stencil_kernel i arg1 harg1 arg2 harg2 arg3 harg3 arg4 harg4) K := by
  simp only [cc0__stencil_kernel_eq_skeleton]; unfold cc0__stencil_kernel_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the pipeline on core `c`: the arrays as the region finds them; after the body at point `t` each
    input's buffer at its block and the output's at `out0_3` of the input blocks; the invariant the class's; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

/-- Each input's current staging buffer holds its block at every point, fetched there or not: unfetched, the block
    index has not moved and the body left the block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and what
    is owed pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main on the TensorCores terminates, and every final state has every array of the
    pipeline at what the proof data give and every other unscoped buffer as the lines after the region leave it. -/
theorem run_main : θ_run defs (onTc (τ := τ) (main (F := F))) (s₀ m ρ) (Pipeline.FramePost cfgs (dats m) 0 (Pipeline.afterTail₀ cfgs (dats m) 0 (V0 m) tailOpss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss) (hsub := sfx_sub) (hfresh := sfx_fresh) (hkeep := sfx_keeps)
    (hmain := hmain m Variants.none) (hA := A_eq m) (hΦ := fun _ _ => rfl)

/-- Each argument array after the lines that follow the region is as launched. -/
theorem W_main_arg0 (c : Dev nD) : Pipeline.afterTail₀ cfgs (dats m) 0 (V0 m) tailOpss c main_arg0 = m ((c : Thread nD τ).loc main_arg0) :=
  W_of m (dats m) c main_arg0 (by decide) (by decide) (by decide)
theorem W_main_arg1 (c : Dev nD) : Pipeline.afterTail₀ cfgs (dats m) 0 (V0 m) tailOpss c main_arg1 = m ((c : Thread nD τ).loc main_arg1) := by
  unfold Pipeline.afterTail₀
  rw [StableHlo.after_of_forall_not_mem (b := Proc.devRef .tc main_arg1) _ _ (tail_keeps main_arg1 (by decide)),
    Pipeline.withArrays_arr spec0 launch0.win.arr_inj c _ _ 1, Dat.arrAt_in _ 1 rfl, A_eq]
  exact V_main_arg1 m c
theorem W_main_arg2 (c : Dev nD) : Pipeline.afterTail₀ cfgs (dats m) 0 (V0 m) tailOpss c main_arg2 = m ((c : Thread nD τ).loc main_arg2) := by
  unfold Pipeline.afterTail₀
  rw [StableHlo.after_of_forall_not_mem (b := Proc.devRef .tc main_arg2) _ _ (tail_keeps main_arg2 (by decide)),
    Pipeline.withArrays_arr spec0 launch0.win.arr_inj c _ _ 2, Dat.arrAt_in _ 2 rfl, A_eq]
  exact V_main_arg2 m c
theorem W_main_arg3 (c : Dev nD) : Pipeline.afterTail₀ cfgs (dats m) 0 (V0 m) tailOpss c main_arg3 = m ((c : Thread nD τ).loc main_arg3) :=
  W_of m (dats m) c main_arg3 (by decide) (by decide) (by decide)
theorem W_main_arg4 (c : Dev nD) : Pipeline.afterTail₀ cfgs (dats m) 0 (V0 m) tailOpss c main_arg4 = m ((c : Thread nD τ).loc main_arg4) :=
  W_of m (dats m) c main_arg4 (by decide) (by decide) (by decide)
theorem W_main_arg5 (c : Dev nD) : Pipeline.afterTail₀ cfgs (dats m) 0 (V0 m) tailOpss c main_arg5 = m ((c : Thread nD τ).loc main_arg5) :=
  W_of m (dats m) c main_arg5 (by decide) (by decide) (by decide)
theorem W_main_arg6 (c : Dev nD) : Pipeline.afterTail₀ cfgs (dats m) 0 (V0 m) tailOpss c main_arg6 = m ((c : Thread nD τ).loc main_arg6) :=
  W_of m (dats m) c main_arg6 (by decide) (by decide) (by decide)

/-- THE FRAME: @main runs and its seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Pipeline.mem_restRefs_of main_arg0 (by decide) (by decide))).trans (W_main_arg0 m c),
     ((h c).1 1).trans (by rw [Dat.arrAt_in _ 1 rfl, A_eq]; exact V_main_arg1 m c),
     ((h c).1 2).trans (by rw [Dat.arrAt_in _ 2 rfl, A_eq]; exact V_main_arg2 m c),
     ((h c).2 main_arg3 (Pipeline.mem_restRefs_of main_arg3 (by decide) (by decide))).trans (W_main_arg3 m c),
     ((h c).2 main_arg4 (Pipeline.mem_restRefs_of main_arg4 (by decide) (by decide))).trans (W_main_arg4 m c),
     ((h c).2 main_arg5 (Pipeline.mem_restRefs_of main_arg5 (by decide) (by decide))).trans (W_main_arg5 m c),
     ((h c).2 main_arg6 (Pipeline.mem_restRefs_of main_arg6 (by decide) (by decide))).trans (W_main_arg6 m c)⟩) (run_main m ρ)

end Cert.Kernel.Hand

end
-- ==== Proof.KI.Body.lean ====
/- The value the kernel body stores, as a function of the three blocks it loads.

   The body reads one batch element's coordinates `x0` (1×3×512), the self weights `x1` (4×4) and the
   neighbour weights `x2` (4×4×2).  It forms the masked Gram matrix, the same in each of the four
   channels, and applies four layers; layer `l` uses column `l` of `x1` and row `l` of `x2`.  The
   value after each layer is named here; the stored value is the last of them, reshaped to
   1×4×512×512. -/
import proofs.«412012_j25271587569863_4_alg».proof.Proof.Gen.KernelIdeal.Skeleton

set_option synthInstance.maxSize 4096

noncomputable section

namespace Cert.KernelIdeal.Hand

open Idealize.ShloMosaic Idealize.SL.Sem
open Cert.KernelIdeal.Gen

variable {F : FTy → Type} [FloatOps F]

/-- The mask: 1 off the diagonal, 0 on it. -/
noncomputable def maskV : FVec F S512x512 .f32 := k0_pay2 (F := F)

/-- The start: the masked Gram matrix of the coordinates, in every channel. -/
noncomputable def xs0 (x0 : Vec F S1x3x512 .f32) : FVec F S4x512x512 .f32 := k0_pay3 x0

/-- After layer 0: the first two terms of its sum, the neighbour one place on, and the rest. -/
noncomputable def xs1 (x0 : Vec F S1x3x512 .f32) (x1 : Vec F S4x4 .f32) (x2 : Vec F S4x4x2 .f32) :
    FVec F S4x512x512 .f32 :=
  k0_pay7 (maskV (F := F)) (xs0 x0) x2 (k0_pay4 x2) (k0_pay5 x0 x1 x2) (k0_pay6 x0)

/-- After layer 1: its first term, its second term, and the rest. -/
noncomputable def xs2 (x0 : Vec F S1x3x512 .f32) (x1 : Vec F S4x4 .f32) (x2 : Vec F S4x4x2 .f32) :
    FVec F S4x512x512 .f32 :=
  k0_pay11 (maskV (F := F)) x2 (xs1 x0 x1 x2)
    (k0_pay8 (maskV (F := F)) (xs0 x0) x1 x2 (k0_pay4 x2) (k0_pay5 x0 x1 x2) (k0_pay6 x0))
    (k0_pay9 x2)
    (k0_pay10 (maskV (F := F)) (xs0 x0) x2 (k0_pay4 x2) (k0_pay5 x0 x1 x2) (k0_pay6 x0))

/-- Layer 2's first term: the self weight times the value after layer 1. -/
noncomputable def self2 (x0 : Vec F S1x3x512 .f32) (x1 : Vec F S4x4 .f32) (x2 : Vec F S4x4x2 .f32) :
    FVec F S4x512x512 .f32 :=
  k0_pay12 (maskV (F := F)) x1 x2 (xs1 x0 x1 x2)
    (k0_pay8 (maskV (F := F)) (xs0 x0) x1 x2 (k0_pay4 x2) (k0_pay5 x0 x1 x2) (k0_pay6 x0))
    (k0_pay9 x2)
    (k0_pay10 (maskV (F := F)) (xs0 x0) x2 (k0_pay4 x2) (k0_pay5 x0 x1 x2) (k0_pay6 x0))

/-- After layer 2. -/
noncomputable def xs3 (x0 : Vec F S1x3x512 .f32) (x1 : Vec F S4x4 .f32) (x2 : Vec F S4x4x2 .f32) :
    FVec F S4x512x512 .f32 :=
  k0_pay14 (maskV (F := F)) x2 (xs2 x0 x1 x2) (self2 x0 x1 x2) (k0_pay13 x2) 1#32

/-- Layer 3's first term: the self weight times the value after layer 2. -/
noncomputable def self3 (x0 : Vec F S1x3x512 .f32) (x1 : Vec F S4x4 .f32) (x2 : Vec F S4x4x2 .f32) :
    FVec F S4x512x512 .f32 :=
  k0_pay15 (maskV (F := F)) x1 x2 (xs2 x0 x1 x2) (self2 x0 x1 x2) (k0_pay13 x2) 1#32

/-- After layer 3. -/
noncomputable def xs4 (x0 : Vec F S1x3x512 .f32) (x1 : Vec F S4x4 .f32) (x2 : Vec F S4x4x2 .f32) :
    FVec F S4x512x512 .f32 :=
  k0_pay17 (maskV (F := F)) x2 (xs3 x0 x1 x2) (self3 x0 x1 x2) (k0_pay16 x2)

/-- The stored value: the array after four layers, with a leading axis of length one. -/
noncomputable def bodyVal (x0 : Vec F S1x3x512 .f32) (x1 : Vec F S4x4 .f32) (x2 : Vec F S4x4x2 .f32) :
    FVec F S1x4x512x512 .f32 :=
  k0_pay1 (xs4 x0 x1 x2)

end Cert.KernelIdeal.Hand

end
-- ==== Proof.KI.TailOps.lean ====
/-
  The five stretches of host operations the kernel program runs after its region, in order, as one list of lists:
  the frame of the program and the value of its tail are both stated over it.
-/
import proofs.«412012_j25271587569863_4_alg».proof.Proof.Gen.KernelIdeal.Launch

noncomputable section

namespace Cert.KernelIdeal.Hand

open Idealize.ShloMosaic Idealize.ShloMosaic.TcCoe Idealize.SL.Sem
open Cert.KernelIdeal Cert.KernelIdeal.Gen

variable {F : FTy → Type} [FloatOps F]

/-- The five stretches of host operations after the region, in order. -/
abbrev tailOpss : List (List (HloOp τ sig (Elt F))) := [hostOps1, hostOps1_1, hostOps1_2, hostOps1_3, hostOps1_4]

end Cert.KernelIdeal.Hand

end
-- ==== Proof.KI.Frame.lean ====
/- The frame of the kernel program: @main is one host line (a transpose), the region (a grid of 16 points, one
   batch element each: three input windows, one output window), and 76 host lines after it.

   The body at a point loads its three input blocks whole, computes, and stores the output block whole.  So after
   the body the output window's buffer holds the body's value of the three input blocks, and each input window's
   buffer still holds its block.  With that as the proof data, the launch theorem for a region followed by host
   lines gives the run: every array of the pipeline ends at what the proof data say, every other buffer at what
   the later lines leave.  No later line writes an argument array, and none is an output of the region, so the
   seven argument arrays end as launched. -/
import proofs.«412012_j25271587569863_4_alg».proof.Proof.Gen.KernelIdeal.Launch
import proofs.«412012_j25271587569863_4_alg».proof.Proof.Gen.KernelIdeal.Skeleton
import proofs.«412012_j25271587569863_4_alg».proof.Proof.Gen.KernelIdeal.Points
import proofs.«412012_j25271587569863_4_alg».proof.Proof.KI.Body
import proofs.«412012_j25271587569863_4_alg».proof.Proof.KI.TailOps
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the one line before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

/-- No host line allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main is the line before the region, the region, and the lines after it: it reduces to the region continued by
    the later lines, at the contents after the earlier one. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOpss (F := F)).map StableHlo.seq)) :=
  Pipeline.hmain_around cfgs 0 defs₀ 𝒱₀ m main [hostOps0] tailOpss (by simp only [List.Forall]; exact hostOps0_sub)
    (by simp only [List.Forall]; exact hostOps0_fresh) main_chain

/-- The lines after the region touch unscoped TensorCore buffers only: with nothing prefetched, each is an array of
    the pipeline or a buffer that bypasses it. -/
theorem sfx_sub : ∀ ops ∈ (tailOpss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOpss, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ (tailOpss : List (List (HloOp τ sig (Elt F)))), ∀ op ∈ ops, op.fresh = ∅ := by
  intro ops hops op hop
  simp only [tailOpss, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- The references that matter to the frame: the seven arguments, the transposed input and the region's output. -/
abbrev keptRefs : List (Ref sig .tc) :=
  [main_arg0, main_arg1, main_arg2, main_arg3, main_arg4, main_arg5, main_arg6, main_v0, main_v1]

/-- Each line after the region writes its own result buffer only, and none of those is a kept reference. -/
theorem tail_keeps (b : Ref sig .tc) (hb : b ∈ keptRefs) :
    ∀ op ∈ (tailOpss : List (List (HloOp τ sig (Elt F)))).flatten, Proc.devRef .tc b ∉ op.writes := by
  refine (List.forall_iff_forall_mem (p := fun op : HloOp τ sig (Elt F) => Proc.devRef .tc b ∉ op.writes)).mp ?_
  simp only [tailOpss, hostOps1, hostOps1_1, hostOps1_2, hostOps1_3, hostOps1_4, List.flatten_cons, List.flatten_nil,
    List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by rintro rfl; revert hb; decide)

/-- The line before the region writes the transposed input only. -/
theorem head_keeps (b : Ref sig .tc) (hb : b ≠ main_v0) :
    ∀ op ∈ (List.flatten [(hostOps0 : List (HloOp τ sig (Elt F)))]), Proc.devRef .tc b ∉ op.writes := by
  refine (List.forall_iff_forall_mem (p := fun op : HloOp τ sig (Elt F) => Proc.devRef .tc b ∉ op.writes)).mp ?_
  simp only [hostOps0, List.flatten_cons, List.flatten_nil, List.append_nil, List.cons_append, List.nil_append,
    List.Forall, StableHlo.nullary_writes, StableHlo.unary_writes, StableHlo.binary_writes, StableHlo.ternary_writes, StableHlo.quaternary_writes, StableHlo.reshape_writes, StableHlo.binaryIndexed_writes, Finset.mem_singleton]
  exact StableHlo.devRef_ne_of_ne hb

/-- The pipeline's four arrays: the transposed input, two arguments, the output. -/
theorem arrRef_cases (w : Fin 4) : Pipeline.arrRef spec0 w ∈ keptRefs := by
  fin_cases w <;> decide

/-- No line after the region writes an array of the pipeline. -/
theorem sfx_keeps : ∀ ops ∈ (tailOpss : List (List (HloOp τ sig (Elt F)))), ∀ op ∈ ops,
    ∀ w, Proc.devRef .tc (Pipeline.arrRef spec0 w) ∉ op.writes := fun ops hops op hop w =>
  tail_keeps _ (arrRef_cases w) op (List.mem_flatten.mpr ⟨ops, hops, hop⟩)

/-- An argument array is found by the region as launched. -/
theorem V_of_ne (c : Dev nD) (b : Ref sig .tc) (hb : b ≠ main_v0) : V m c b = m ((c : Thread nD τ).loc b) :=
  StableHlo.after_of_forall_not_mem (b := Proc.devRef .tc b) _ _ (head_keeps b hb)

theorem V_main_arg0 (c : Dev nD) : V m c main_arg0 = m ((c : Thread nD τ).loc main_arg0) := V_of_ne m c _ (by decide)
theorem V_main_arg1 (c : Dev nD) : V m c main_arg1 = m ((c : Thread nD τ).loc main_arg1) := V_of_ne m c _ (by decide)
theorem V_main_arg2 (c : Dev nD) : V m c main_arg2 = m ((c : Thread nD τ).loc main_arg2) := V_of_ne m c _ (by decide)
theorem V_main_arg3 (c : Dev nD) : V m c main_arg3 = m ((c : Thread nD τ).loc main_arg3) := V_of_ne m c _ (by decide)
theorem V_main_arg4 (c : Dev nD) : V m c main_arg4 = m ((c : Thread nD τ).loc main_arg4) := V_of_ne m c _ (by decide)
theorem V_main_arg5 (c : Dev nD) : V m c main_arg5 = m ((c : Thread nD τ).loc main_arg5) := V_of_ne m c _ (by decide)
theorem V_main_arg6 (c : Dev nD) : V m c main_arg6 = m ((c : Thread nD τ).loc main_arg6) := V_of_ne m c _ (by decide)

/-- The transposed input is the transpose of the first argument as launched. -/
theorem V_main_v0 (c : Dev nD) : V m c main_v0
    = transpose S16x3x512 [0, 2, 1] (m ((c : Thread nD τ).loc main_arg0)) transposes_S16x512x3_S16x3x512_0_2_1 := by
  show StableHlo.after (List.flatten [hostOps0]) (fun b => m (c, b)) (Proc.devRef .tc main_v0) = _
  simp only [hostOps0, List.flatten_cons, List.flatten_nil, List.append_nil, StableHlo.after_cons, StableHlo.after_nil]
  exact StableHlo.unary_result' _ _ _ _

/-- An argument array ends as launched: no line after the region writes it, it is no array of the pipeline, and the
    region found it as launched. -/
theorem W_of (dats : (p : Fin 1) → (c : Dev nD) → Dat τ (Elt F) Unit ℕ (UR sig nD τ) ℕ (cfgs p) c) (c : Dev nD)
    (b : Ref sig .tc) (hb : b ∈ keptRefs) (hv : b ≠ main_v0) (harr : ∀ w, Pipeline.arrRef spec0 w ≠ b) :
    Pipeline.afterTail₀ cfgs dats 0 (V0 m) tailOpss c b = m ((c : Thread nD τ).loc b) := by
  unfold Pipeline.afterTail₀
  rw [StableHlo.after_of_forall_not_mem (b := Proc.devRef .tc b) _ _ (tail_keeps b hb),
    Pipeline.withArrays_of_ne _ c (V0 m c) _ b harr]
  exact V_of_ne m c b hv

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: each buffer whole -/

abbrev r0_0 : Rect S1x3x512 := Rect.unit (s := S1x3x512) ![0, 0, 0] S1x3x512.size inb_S1x3x512_S1x3x512_0_0_0
abbrev r0_1 : Rect S4x4 := Rect.unit (s := S4x4) ![0, 0] S4x4.size inb_S4x4_S4x4_0_0
abbrev r0_2 : Rect S4x4x2 := Rect.unit (s := S4x4x2) ![0, 0, 0] S4x4x2.size inb_S4x4x2_S4x4x2_0_0_0
abbrev r0_3 : Rect S1x4x512x512 := Rect.unit (s := S1x4x512x512) ![0, 0, 0, 0] S1x4x512x512.size inb_S1x4x512x512_S1x4x512x512_0_0_0_0

/-! ## What the body leaves in the output window's buffer -/

/-- The output buffer after the body, from the input blocks: its one store, whose payload is the body's value of the
    three loads. -/
def out0_3 (x0 : Vec F S1x3x512 .f32) (x1 : Vec F S4x4 .f32) (x2 : Vec F S4x4x2 .f32) : Vec F S1x4x512x512 .f32 :=
  View.canon [⟨r0_3, bodyVal (View.ld x0 r0_0) (View.ld x1 r0_1) (View.ld x2 r0_2)⟩]

/-- Each access is through the whole buffer, so the loads read the blocks and the store leaves its payload. -/
theorem out0_3_eq (x0 : Vec F S1x3x512 .f32) (x1 : Vec F S4x4 .f32) (x2 : Vec F S4x4x2 .f32) :
    out0_3 (F := F) x0 x1 x2 = bodyVal x0 x1 x2 := by
  have hz3 : (![0, 0, 0] : Fin S1x3x512.rank → Nat) = fun _ => 0 := funext fun a => by fin_cases a <;> rfl
  have hz2 : (![0, 0] : Fin S4x4.rank → Nat) = fun _ => 0 := funext fun a => by fin_cases a <;> rfl
  have hz3' : (![0, 0, 0] : Fin S4x4x2.rank → Nat) = fun _ => 0 := funext fun a => by fin_cases a <;> rfl
  have hz4 : (![0, 0, 0, 0] : Fin S1x4x512x512.rank → Nat) = fun _ => 0 := funext fun a => by fin_cases a <;> rfl
  unfold out0_3
  rw [View.canon_unit_zero hz4, View.ld_unit_zero hz3, View.ld_unit_zero hz2, View.ld_unit_zero hz3']

/-- The one store covers the buffer. -/
theorem cover0_3 (p0 : Vec F S1x4x512x512 .f32) (y : S1x4x512x512.Idx) :
    ∃ pc ∈ ([⟨r0_3, p0⟩] : List (View.Piece (Elt F) S1x4x512x512 .f32)), y ∈ pc.1.set :=
  ⟨_, List.mem_singleton_self _, View.mem_set_unit_zero (funext fun a => by fin_cases a <;> rfl) inb_S1x4x512x512_S1x4x512x512_0_0_0_0 y⟩

/-! ## The body's triple -/

set_option maxHeartbeats 4000000 in
/-- The body on whole staging buffers, the inputs' at contents `x0 x1 x2` and the output's at anything, runs to the
    continuation holding the inputs' as they were and the output's at `out0_3` of the inputs'. -/
theorem sound_kernel (c : Dev nD) (E : Set ℕ) (i : grid0.Coords)
    (arg1 : Memref sig .tc .vmem S1x3x512 .f32) (harg1 : arg1.IsWhole) (arg2 : Memref sig .tc .vmem S4x4 .f32) (harg2 : arg2.IsWhole)
    (arg3 : Memref sig .tc .vmem S4x4x2 .f32) (harg3 : arg3.IsWhole) (arg4 : Memref sig .tc .vmem S1x4x512x512 .f32) (harg4 : arg4.IsWhole)
    (x0 : Vec F S1x3x512 .f32) (x1 : Vec F S4x4 .f32) (x2 : Vec F S4x4x2 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__stencil_kernel i arg1 harg1 arg2 harg2 arg3 harg3 arg4 harg4) K := by
  simp only [cc0__stencil_kernel_eq_skeleton]; unfold cc0__stencil_kernel_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the pipeline on core `c`: the arrays as the region finds them; after the body at point `t` each
    input's buffer at its block and the output's at `out0_3` of the input blocks; the invariant the class's; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

/-- Each input's current staging buffer holds its block at every point, fetched there or not: unfetched, the block
    index has not moved and the body left the block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and what
    is owed pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main on the TensorCores terminates, and every final state has every array of the
    pipeline at what the proof data give and every other unscoped buffer as the lines after the region leave it. -/
theorem run_main : θ_run defs (onTc (τ := τ) (main (F := F))) (s₀ m ρ) (Pipeline.FramePost cfgs (dats m) 0 (Pipeline.afterTail₀ cfgs (dats m) 0 (V0 m) tailOpss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss) (hsub := sfx_sub) (hfresh := sfx_fresh) (hkeep := sfx_keeps)
    (hmain := hmain m Variants.none) (hA := A_eq m) (hΦ := fun _ _ => rfl)

/-- Each argument array after the lines that follow the region is as launched. -/
theorem W_main_arg0 (c : Dev nD) : Pipeline.afterTail₀ cfgs (dats m) 0 (V0 m) tailOpss c main_arg0 = m ((c : Thread nD τ).loc main_arg0) :=
  W_of m (dats m) c main_arg0 (by decide) (by decide) (by decide)
theorem W_main_arg1 (c : Dev nD) : Pipeline.afterTail₀ cfgs (dats m) 0 (V0 m) tailOpss c main_arg1 = m ((c : Thread nD τ).loc main_arg1) := by
  unfold Pipeline.afterTail₀
  rw [StableHlo.after_of_forall_not_mem (b := Proc.devRef .tc main_arg1) _ _ (tail_keeps main_arg1 (by decide)),
    Pipeline.withArrays_arr spec0 launch0.win.arr_inj c _ _ 1, Dat.arrAt_in _ 1 rfl, A_eq]
  exact V_main_arg1 m c
theorem W_main_arg2 (c : Dev nD) : Pipeline.afterTail₀ cfgs (dats m) 0 (V0 m) tailOpss c main_arg2 = m ((c : Thread nD τ).loc main_arg2) := by
  unfold Pipeline.afterTail₀
  rw [StableHlo.after_of_forall_not_mem (b := Proc.devRef .tc main_arg2) _ _ (tail_keeps main_arg2 (by decide)),
    Pipeline.withArrays_arr spec0 launch0.win.arr_inj c _ _ 2, Dat.arrAt_in _ 2 rfl, A_eq]
  exact V_main_arg2 m c
theorem W_main_arg3 (c : Dev nD) : Pipeline.afterTail₀ cfgs (dats m) 0 (V0 m) tailOpss c main_arg3 = m ((c : Thread nD τ).loc main_arg3) :=
  W_of m (dats m) c main_arg3 (by decide) (by decide) (by decide)
theorem W_main_arg4 (c : Dev nD) : Pipeline.afterTail₀ cfgs (dats m) 0 (V0 m) tailOpss c main_arg4 = m ((c : Thread nD τ).loc main_arg4) :=
  W_of m (dats m) c main_arg4 (by decide) (by decide) (by decide)
theorem W_main_arg5 (c : Dev nD) : Pipeline.afterTail₀ cfgs (dats m) 0 (V0 m) tailOpss c main_arg5 = m ((c : Thread nD τ).loc main_arg5) :=
  W_of m (dats m) c main_arg5 (by decide) (by decide) (by decide)
theorem W_main_arg6 (c : Dev nD) : Pipeline.afterTail₀ cfgs (dats m) 0 (V0 m) tailOpss c main_arg6 = m ((c : Thread nD τ).loc main_arg6) :=
  W_of m (dats m) c main_arg6 (by decide) (by decide) (by decide)

/-- THE FRAME: @main runs and its seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Pipeline.mem_restRefs_of main_arg0 (by decide) (by decide))).trans (W_main_arg0 m c),
     ((h c).1 1).trans (by rw [Dat.arrAt_in _ 1 rfl, A_eq]; exact V_main_arg1 m c),
     ((h c).1 2).trans (by rw [Dat.arrAt_in _ 2 rfl, A_eq]; exact V_main_arg2 m c),
     ((h c).2 main_arg3 (Pipeline.mem_restRefs_of main_arg3 (by decide) (by decide))).trans (W_main_arg3 m c),
     ((h c).2 main_arg4 (Pipeline.mem_restRefs_of main_arg4 (by decide) (by decide))).trans (W_main_arg4 m c),
     ((h c).2 main_arg5 (Pipeline.mem_restRefs_of main_arg5 (by decide) (by decide))).trans (W_main_arg5 m c),
     ((h c).2 main_arg6 (Pipeline.mem_restRefs_of main_arg6 (by decide) (by decide))).trans (W_main_arg6 m c)⟩) (run_main m ρ)

end Cert.KernelIdeal.Hand

end
-- ==== Proof.KI.BodyAt.lean ====
/- The stored value of the kernel body, read entry by entry at the ideal values: it is the
   index-level stencil `Cert.Stencil.stencilK` of the three loaded blocks. -/
import proofs.«412012_j25271587569863_4_alg».proof.Proof.KI.Body
import proofs.«412012_j25271587569863_4_alg».proof.Proof.Stencil
import Idealize.ShloMosaic.Lib.ValueIdx
import Idealize.ShloMosaic.Lib.Pipeline.Value
import Idealize.ShloMosaic.Lib.KernelVsHost
import Idealize.ShloMosaic.Lib.IdealHost

set_option synthInstance.maxSize 4096

noncomputable section

namespace Cert.KernelIdeal.Hand

open Idealize.ShloMosaic Idealize.SL.Sem
open Cert.KernelIdeal.Gen

open Idealize.ShloMosaic.ValueIdx
open Cert.Stencil (back fwd maskK celuK lit0 lit1)

/-! ## Each layout operation of the body, read at one entry -/

section Layout
variable {α : Type}

/-- A 4×1×1 vector spread over 4×512×512 reads its channel's entry everywhere. -/
theorem bc411_apply (w : S4x1x1.Idx → α) (c : Fin 4) (i j : Fin 512) :
    broadcastTo S4x512x512 w broadcasts_S4x1x1_S4x512x512 (ix3 c i j) = w (ix3 c 0 0) :=
  broadcastTo_apply w _ (ix3 c i j) (ix3 c 0 0) fun a => match a with
    | ⟨0, _⟩ => by show c.val = if (4 : Nat) = 1 then 0 else c.val; rfl
    | ⟨1, _⟩ => by show (0 : Nat) = if (1 : Nat) = 1 then 0 else i.val; rfl
    | ⟨2, _⟩ => by show (0 : Nat) = if (1 : Nat) = 1 then 0 else j.val; rfl

/-- A 512×512 matrix, given a leading unit axis and spread over the four channels, reads the matrix. -/
theorem bcMat_apply (m : S512x512.Idx → α) (c : Fin 4) (i j : Fin 512) :
    broadcastTo S4x512x512 (shapeCast S1x512x512 m shapeCasts_S512x512_S1x512x512)
      broadcasts_S1x512x512_S4x512x512 (ix3 c i j) = m (ix2 i j) := by
  refine (broadcastTo_apply _ _ (ix3 c i j) (ix3 (0 : Fin 1) i j) fun a => match a with
    | ⟨0, _⟩ => by show (0 : Nat) = if (1 : Nat) = 1 then 0 else c.val; rfl
    | ⟨1, _⟩ => by show i.val = if (512 : Nat) = 1 then 0 else i.val; rfl
    | ⟨2, _⟩ => by show j.val = if (512 : Nat) = 1 then 0 else j.val; rfl).trans ?_
  refine shapeCast_apply m _ (ix3 (0 : Fin 1) i j) (ix2 i j) ?_
  rw [Shape.rowMajor_val_two, Shape.rowMajor_val_three]
  show i.val * 512 + j.val = (0 * 512 + i.val) * 512 + j.val
  omega

/-- A rotation along the columns by `s` reads column `j − s` around the ring. -/
theorem rot2_apply (sb : BitVec 32) (x : S4x512x512.Idx → α) (c : Fin 4) (i j : Fin 512) :
    dynamicRotate 2 sb none x rotates_S4x512x512_d2 (ix3 c i j)
      = x (ix3 c i ⟨(j.val + 512 - sb.toNat % 512) % 512, Nat.mod_lt _ (by norm_num)⟩) :=
  dynamicRotate_apply 2 sb x _ (ix3 c i j) _ fun b => match b with
    | ⟨0, _⟩ => by rw [if_neg (Fin.ne_of_val_ne (by decide : (0 : Nat) ≠ 2))]
    | ⟨1, _⟩ => by rw [if_neg (Fin.ne_of_val_ne (by decide : (1 : Nat) ≠ 2))]
    | ⟨2, h2⟩ => by
      have e : (⟨2, h2⟩ : Fin S4x512x512.rank) = 2 := Fin.ext rfl
      rw [if_pos e]; rfl

/-- A rotation along the rows by `s` reads row `i − s` around the ring. -/
theorem rot1_apply (sb : BitVec 32) (x : S4x512x512.Idx → α) (c : Fin 4) (i j : Fin 512) :
    dynamicRotate 1 sb none x rotates_S4x512x512_d1 (ix3 c i j)
      = x (ix3 c ⟨(i.val + 512 - sb.toNat % 512) % 512, Nat.mod_lt _ (by norm_num)⟩ j) :=
  dynamicRotate_apply 1 sb x _ (ix3 c i j) _ fun b => match b with
    | ⟨0, _⟩ => by rw [if_neg (Fin.ne_of_val_ne (by decide : (0 : Nat) ≠ 1))]
    | ⟨1, h1⟩ => by
      have e : (⟨1, h1⟩ : Fin S4x512x512.rank) = 1 := Fin.ext rfl
      rw [if_pos e]; rfl
    | ⟨2, _⟩ => by rw [if_neg (Fin.ne_of_val_ne (by decide : (2 : Nat) ≠ 1))]

/-- The column a rotation by 1, 511, 2 or 510 reads is the one 1 back, 1 on, 2 back or 2 on around the ring. -/
theorem back_one (j : Fin 512) : (⟨(j.val + 512 - (1#32).toNat % 512) % 512, Nat.mod_lt _ (by norm_num)⟩ : Fin 512) = back 1 j :=
  Fin.ext (by show (j.val + 512 - 1 % 512) % 512 = (j.val + (512 - 1 % 512)) % 512; omega)
theorem fwd_one (j : Fin 512) : (⟨(j.val + 512 - (511#32).toNat % 512) % 512, Nat.mod_lt _ (by norm_num)⟩ : Fin 512) = fwd 1 j :=
  Fin.ext (by show (j.val + 512 - 511 % 512) % 512 = (j.val + 1) % 512; omega)
theorem back_two (j : Fin 512) : (⟨(j.val + 512 - (2#32).toNat % 512) % 512, Nat.mod_lt _ (by norm_num)⟩ : Fin 512) = back 2 j :=
  Fin.ext (by show (j.val + 512 - 2 % 512) % 512 = (j.val + (512 - 2 % 512)) % 512; omega)
theorem fwd_two (j : Fin 512) : (⟨(j.val + 512 - (510#32).toNat % 512) % 512, Nat.mod_lt _ (by norm_num)⟩ : Fin 512) = fwd 2 j :=
  Fin.ext (by show (j.val + 512 - 510 % 512) % 512 = (j.val + 2) % 512; omega)

end Layout

section Rotations
variable {α : Type}

/-- The eight rotations of one layer, each read at one entry: along the columns (axis 2) and along the
    rows (axis 1), by 1 and 2 places back and on. -/
theorem rot2_1 (x : S4x512x512.Idx → α) (c : Fin 4) (i j : Fin 512) :
    dynamicRotate 2 1#32 none x rotates_S4x512x512_d2 (ix3 c i j) = x (ix3 c i (back 1 j)) :=
  (rot2_apply 1#32 x c i j).trans (congrArg (fun t => x (ix3 c i t)) (back_one j))
theorem rot2_511 (x : S4x512x512.Idx → α) (c : Fin 4) (i j : Fin 512) :
    dynamicRotate 2 511#32 none x rotates_S4x512x512_d2 (ix3 c i j) = x (ix3 c i (fwd 1 j)) :=
  (rot2_apply 511#32 x c i j).trans (congrArg (fun t => x (ix3 c i t)) (fwd_one j))
theorem rot2_2 (x : S4x512x512.Idx → α) (c : Fin 4) (i j : Fin 512) :
    dynamicRotate 2 2#32 none x rotates_S4x512x512_d2 (ix3 c i j) = x (ix3 c i (back 2 j)) :=
  (rot2_apply 2#32 x c i j).trans (congrArg (fun t => x (ix3 c i t)) (back_two j))
theorem rot2_510 (x : S4x512x512.Idx → α) (c : Fin 4) (i j : Fin 512) :
    dynamicRotate 2 510#32 none x rotates_S4x512x512_d2 (ix3 c i j) = x (ix3 c i (fwd 2 j)) :=
  (rot2_apply 510#32 x c i j).trans (congrArg (fun t => x (ix3 c i t)) (fwd_two j))
theorem rot1_1 (x : S4x512x512.Idx → α) (c : Fin 4) (i j : Fin 512) :
    dynamicRotate 1 1#32 none x rotates_S4x512x512_d1 (ix3 c i j) = x (ix3 c (back 1 i) j) :=
  (rot1_apply 1#32 x c i j).trans (congrArg (fun t => x (ix3 c t j)) (back_one i))
theorem rot1_511 (x : S4x512x512.Idx → α) (c : Fin 4) (i j : Fin 512) :
    dynamicRotate 1 511#32 none x rotates_S4x512x512_d1 (ix3 c i j) = x (ix3 c (fwd 1 i) j) :=
  (rot1_apply 511#32 x c i j).trans (congrArg (fun t => x (ix3 c t j)) (fwd_one i))
theorem rot1_2 (x : S4x512x512.Idx → α) (c : Fin 4) (i j : Fin 512) :
    dynamicRotate 1 2#32 none x rotates_S4x512x512_d1 (ix3 c i j) = x (ix3 c (back 2 i) j) :=
  (rot1_apply 2#32 x c i j).trans (congrArg (fun t => x (ix3 c t j)) (back_two i))
theorem rot1_510 (x : S4x512x512.Idx → α) (c : Fin 4) (i j : Fin 512) :
    dynamicRotate 1 510#32 none x rotates_S4x512x512_d1 (ix3 c i j) = x (ix3 c (fwd 2 i) j) :=
  (rot1_apply 510#32 x c i j).trans (congrArg (fun t => x (ix3 c t j)) (fwd_two i))

end Rotations

/-! ## The weights and the coordinates, read at one entry -/

section Weights
variable {α : Type}

/-- Column `l` of the self weights, as a 4×1×1 vector, reads entry `(c, l)`. -/
theorem selfW_apply (x1 : S4x4.Idx → α) (l : Nat) (hl : l < 4) (h : S4x4.Slices ![0, l] S4x1) (c : Fin 4) :
    shapeCast S4x1x1 (shapeCast S4 (extractStridedSlice S4x1 ![0, l] x1 h) shapeCasts_S4x1_S4) shapeCasts_S4_S4x1x1
      (ix3 c 0 0) = x1 (ix2 c ⟨l, hl⟩) := by
  refine (shapeCast_apply _ _ (ix3 c (0 : Fin 1) (0 : Fin 1)) (ix1 c) ?_).trans ?_
  · rw [Shape.rowMajor_val_one, Shape.rowMajor_val_three]
    show c.val = (c.val * 1 + 0) * 1 + 0
    omega
  refine (shapeCast_apply _ _ (ix1 c) (ix2 c (0 : Fin 1)) ?_).trans ?_
  · rw [Shape.rowMajor_val_one, Shape.rowMajor_val_two]
    show c.val * 1 + 0 = c.val
    omega
  exact extractStridedSlice_apply _ x1 h (ix2 c (0 : Fin 1)) (ix2 c ⟨l, hl⟩) fun a => match a with
    | ⟨0, _⟩ => by show c.val = 0 + c.val; omega
    | ⟨1, _⟩ => by show l = l + 0; omega

/-- Entry `(l, k)` of the neighbour weights over the channels, sliced out as a 4×1×1 vector, reads `(c, l, k)`. -/
theorem nbrSlice_apply (x2 : S4x4x2.Idx → α) (l : Nat) (hl : l < 4) (k : Nat) (hk : k < 2)
    (h : S4x4x2.Slices ![0, l, k] S4x1x1) (c : Fin 4) :
    extractStridedSlice S4x1x1 ![0, l, k] x2 h (ix3 c 0 0) = x2 (ix3 c ⟨l, hl⟩ ⟨k, hk⟩) :=
  extractStridedSlice_apply _ x2 h (ix3 c (0 : Fin 1) (0 : Fin 1)) (ix3 c ⟨l, hl⟩ ⟨k, hk⟩) fun a => match a with
    | ⟨0, _⟩ => by show c.val = 0 + c.val; omega
    | ⟨1, _⟩ => by show l = l + 0; omega
    | ⟨2, _⟩ => by show k = k + 0; omega

/-- A 4×1×1 vector flattened to 4 entries and shaped back is itself. -/
theorem reshape411_apply (w : S4x1x1.Idx → α) (c : Fin 4) :
    shapeCast S4x1x1 (shapeCast S4 w shapeCasts_S4x1x1_S4) shapeCasts_S4_S4x1x1 (ix3 c 0 0) = w (ix3 c 0 0) := by
  rw [shapeCast_shapeCast]

/-- Coordinate `d` of the 512 points, as a vector of 512 entries. -/
theorem coord_apply (x0 : S1x3x512.Idx → α) (d : Nat) (hd : d < 3) (h : S3x512.Slices ![d, 0] S1x512) (i : Fin 512) :
    shapeCast S512 (extractStridedSlice S1x512 ![d, 0] (shapeCast S3x512 x0 shapeCasts_S1x3x512_S3x512) h)
      shapeCasts_S1x512_S512 (ix1 i) = x0 (ix3 0 ⟨d, hd⟩ i) := by
  refine (shapeCast_apply _ _ (ix1 i) (ix2 (0 : Fin 1) i) ?_).trans ?_
  · rw [Shape.rowMajor_val_one, Shape.rowMajor_val_two]
    show 0 * 512 + i.val = i.val
    omega
  refine (extractStridedSlice_apply _ _ h (ix2 (0 : Fin 1) i) (ix2 (⟨d, hd⟩ : Fin 3) i) fun a => match a with
    | ⟨0, _⟩ => by show d = d + 0; omega
    | ⟨1, _⟩ => by show i.val = 0 + i.val; omega).trans ?_
  refine shapeCast_apply x0 _ (ix2 (⟨d, hd⟩ : Fin 3) i) (ix3 (0 : Fin 1) (⟨d, hd⟩ : Fin 3) i) ?_
  rw [Shape.rowMajor_val_two, Shape.rowMajor_val_three]
  show (0 * 3 + d) * 512 + i.val = d * 512 + i.val
  omega

/-- A vector of 512 entries laid down the columns: entry `(i, j)` reads entry `i`. -/
theorem col_apply (v : S512.Idx → α) (i j : Fin 512) :
    broadcastTo S512x512 (shapeCast S512x1 v shapeCasts_S512_S512x1) broadcasts_S512x1_S512x512 (ix2 i j) = v (ix1 i) := by
  refine (broadcastTo_apply _ _ (ix2 i j) (ix2 i (0 : Fin 1)) fun a => match a with
    | ⟨0, _⟩ => by show i.val = if (512 : Nat) = 1 then 0 else i.val; rfl
    | ⟨1, _⟩ => by show (0 : Nat) = if (1 : Nat) = 1 then 0 else j.val; rfl).trans ?_
  refine shapeCast_apply v _ (ix2 i (0 : Fin 1)) (ix1 i) ?_
  rw [Shape.rowMajor_val_one, Shape.rowMajor_val_two]
  show i.val = i.val * 1 + 0
  omega

/-- A vector of 512 entries laid along the rows: entry `(i, j)` reads entry `j`. -/
theorem row_apply (v : S512.Idx → α) (i j : Fin 512) :
    broadcastTo S512x512 (shapeCast S1x512 v shapeCasts_S512_S1x512) broadcasts_S1x512_S512x512 (ix2 i j) = v (ix1 j) := by
  refine (broadcastTo_apply _ _ (ix2 i j) (ix2 (0 : Fin 1) j) fun a => match a with
    | ⟨0, _⟩ => by show (0 : Nat) = if (1 : Nat) = 1 then 0 else i.val; rfl
    | ⟨1, _⟩ => by show j.val = if (512 : Nat) = 1 then 0 else j.val; rfl).trans ?_
  refine shapeCast_apply v _ (ix2 (0 : Fin 1) j) (ix1 j) ?_
  rw [Shape.rowMajor_val_one, Shape.rowMajor_val_two]
  show j.val = 0 * 512 + j.val
  omega

end Weights

/-! ## The arithmetic at one entry -/

/-- The choice between `y` and `exp y − 1` on `y > 0` is the kernel's celu. -/
theorem celu_apply (y : FVec Ideal S4x512x512 .f32) (k : S4x512x512.Idx) :
    select (cmpf .ogt y (broadcast S4x512x512 (Scalar.ofBits .f32 0x00000000#32))) y
      (subf (exp y) (broadcast S4x512x512 (Scalar.ofBits .f32 0x3F800000#32))) k = celuK (y k) := by
  show Scalar.select (Ideal.cmp .ogt (y k) lit0) (y k) (Ideal.exp (y k) - lit1) = celuK (y k)
  unfold celuK
  by_cases h : lit0 < y k
  · have e : Ideal.cmp .ogt (y k) lit0 = 1#1 := by
      show BitVec.ofBool (decide (lit0 < y k)) = 1#1
      rw [decide_eq_true h]; rfl
    rw [e, select_one, if_pos h]
  · have e : Ideal.cmp .ogt (y k) lit0 = 0#1 := by
      show BitVec.ofBool (decide (lit0 < y k)) = 0#1
      rw [decide_eq_false h]; rfl
    rw [e, select_zero, if_neg h]

/-- The mask vector is 1 off the diagonal and 0 on it. -/
theorem maskV_apply (i j : Fin 512) : maskV (F := Ideal) (ix2 i j) = maskK i j := by
  show (sitofp .f32 (extui 32 (cmpi .ne (iota .tc S512x512 32 [0] iota_S512x512_d0_w32)
      (iota .tc S512x512 32 [1] iota_S512x512_d1_w32)) natLt_1_32) : FVec Ideal S512x512 .f32) (ix2 i j) = maskK i j
  rw [sitofp_extui_eq_uitofp]
  show (((IntOp.cmpi .ne (iota .tc S512x512 32 [0] iota_S512x512_d0_w32 (ix2 i j))
      (iota .tc S512x512 32 [1] iota_S512x512_d1_w32 (ix2 i j))).toNat : ℝ) : EReal) = maskK i j
  rw [iota_single_apply, iota_single_apply]
  show (((BitVec.ofBool (BitVec.ofNat 32 i.val != BitVec.ofNat 32 j.val)).toNat : ℝ) : EReal) = maskK i j
  unfold maskK
  by_cases h : i = j
  · subst h; simp
  · have hne : BitVec.ofNat 32 i.val ≠ BitVec.ofNat 32 j.val := by
      intro e
      have := congrArg BitVec.toNat e
      simp only [BitVec.toNat_ofNat] at this
      have hi := i.isLt; have hj := j.isLt
      apply h; apply Fin.ext; omega
    rw [if_neg h]
    simp [hne]

/-! ## One layer on vectors -/

/-- One layer as the body spells it: the self term, the eight weighted neighbours added one at a
    time, celu of the sum added to the input, and the mask. -/
noncomputable def layerV (mk : FVec Ideal S512x512 .f32) (ws w1 w2 : FVec Ideal S4x1x1 .f32)
    (x : FVec Ideal S4x512x512 .f32) : FVec Ideal S4x512x512 .f32 :=
  let y : FVec Ideal S4x512x512 .f32 :=
    addf (addf (addf (addf (addf (addf (addf (addf
      (mulf (broadcastTo S4x512x512 ws broadcasts_S4x1x1_S4x512x512) x)
      (mulf (broadcastTo S4x512x512 w1 broadcasts_S4x1x1_S4x512x512) (dynamicRotate 2 1#32 none x rotates_S4x512x512_d2)))
      (mulf (broadcastTo S4x512x512 w1 broadcasts_S4x1x1_S4x512x512) (dynamicRotate 2 511#32 none x rotates_S4x512x512_d2)))
      (mulf (broadcastTo S4x512x512 w1 broadcasts_S4x1x1_S4x512x512) (dynamicRotate 1 1#32 none x rotates_S4x512x512_d1)))
      (mulf (broadcastTo S4x512x512 w1 broadcasts_S4x1x1_S4x512x512) (dynamicRotate 1 511#32 none x rotates_S4x512x512_d1)))
      (mulf (broadcastTo S4x512x512 w2 broadcasts_S4x1x1_S4x512x512) (dynamicRotate 2 2#32 none x rotates_S4x512x512_d2)))
      (mulf (broadcastTo S4x512x512 w2 broadcasts_S4x1x1_S4x512x512) (dynamicRotate 2 510#32 none x rotates_S4x512x512_d2)))
      (mulf (broadcastTo S4x512x512 w2 broadcasts_S4x1x1_S4x512x512) (dynamicRotate 1 2#32 none x rotates_S4x512x512_d1)))
      (mulf (broadcastTo S4x512x512 w2 broadcasts_S4x1x1_S4x512x512) (dynamicRotate 1 510#32 none x rotates_S4x512x512_d1))
  mulf (addf x (select (cmpf .ogt y (broadcast S4x512x512 (Scalar.ofBits .f32 0x00000000#32))) y
      (subf (exp y) (broadcast S4x512x512 (Scalar.ofBits .f32 0x3F800000#32)))))
    (broadcastTo S4x512x512 (shapeCast S1x512x512 mk shapeCasts_S512x512_S1x512x512) broadcasts_S1x512x512_S4x512x512)

/-- One vector layer at one entry is one index-level layer of the entries. -/
theorem layerV_apply (mk : FVec Ideal S512x512 .f32) (hmk : ∀ i j, mk (ix2 i j) = maskK i j)
    (ws w1 w2 : FVec Ideal S4x1x1 .f32) (x : FVec Ideal S4x512x512 .f32) (c : Fin 4) (i j : Fin 512) :
    layerV mk ws w1 w2 x (ix3 c i j)
      = Cert.Stencil.layerK (fun c => ws (ix3 c 0 0)) (fun c => w1 (ix3 c 0 0)) (fun c => w2 (ix3 c 0 0))
          (fun c i j => x (ix3 c i j)) c i j := by
  unfold layerV Cert.Stencil.layerK Cert.Stencil.preK
  simp only [mulf_apply, addf_apply, celu_apply, bc411_apply, bcMat_apply, hmk]
  rw [rot2_1, rot2_511, rot1_1, rot1_511, rot2_2, rot2_510, rot1_2, rot1_510]

/-! ## The start and the four layers at one entry -/

/-- The mask payload is the mask vector. -/
theorem pay2_apply (i j : Fin 512) : k0_pay2 (F := Ideal) (ix2 i j) = maskK i j := maskV_apply i j

/-- The start at one entry is the kernel's masked Gram matrix. -/
theorem xs0_apply (x0 : Vec Ideal S1x3x512 .f32) (c : Fin 4) (i j : Fin 512) :
    xs0 (F := Ideal) x0 (ix3 c i j) = Cert.Stencil.initK (fun i d => x0 (ix3 0 d i)) c i j := by
  unfold xs0 k0_pay3 Cert.Stencil.initK
  simp only [shapeCast_self, bcMat_apply, mulf_apply, addf_apply, col_apply, row_apply, pay2_apply,
    coord_apply _ 0 (by norm_num), coord_apply _ 1 (by norm_num), coord_apply _ 2 (by norm_num)]
  rfl

/-- The value after layer 0 at one entry: one index-level layer of the start, with column 0 of the self
    weights and row 0 of the neighbour weights. -/
theorem xs1_apply (x0 : Vec Ideal S1x3x512 .f32) (x1 : Vec Ideal S4x4 .f32) (x2 : Vec Ideal S4x4x2 .f32)
    (c : Fin 4) (i j : Fin 512) :
    xs1 (F := Ideal) x0 x1 x2 (ix3 c i j)
      = Cert.Stencil.layerK (fun c => x1 (ix2 c 0)) (fun c => x2 (ix3 c 0 0)) (fun c => x2 (ix3 c 0 1))
          (fun c i j => xs0 x0 (ix3 c i j)) c i j := by
  have e : xs1 (F := Ideal) x0 x1 x2 = layerV maskV _ _ _ (xs0 x0) := rfl
  rw [e, layerV_apply _ maskV_apply]
  simp only [k0_pay4, selfW_apply _ 0 (by norm_num), reshape411_apply,
    nbrSlice_apply _ 0 (by norm_num) 0 (by norm_num), nbrSlice_apply _ 0 (by norm_num) 1 (by norm_num)]
  rfl

/-- The value after layer 1 at one entry: column 1 and row 1 of the weights. -/
theorem xs2_apply (x0 : Vec Ideal S1x3x512 .f32) (x1 : Vec Ideal S4x4 .f32) (x2 : Vec Ideal S4x4x2 .f32)
    (c : Fin 4) (i j : Fin 512) :
    xs2 (F := Ideal) x0 x1 x2 (ix3 c i j)
      = Cert.Stencil.layerK (fun c => x1 (ix2 c 1)) (fun c => x2 (ix3 c 1 0)) (fun c => x2 (ix3 c 1 1))
          (fun c i j => xs1 x0 x1 x2 (ix3 c i j)) c i j := by
  have e : xs2 (F := Ideal) x0 x1 x2 = layerV maskV _ _ _ (xs1 x0 x1 x2) := rfl
  rw [e, layerV_apply _ maskV_apply]
  simp only [k0_pay9, selfW_apply _ 1 (by norm_num), reshape411_apply,
    nbrSlice_apply _ 1 (by norm_num) 0 (by norm_num), nbrSlice_apply _ 1 (by norm_num) 1 (by norm_num)]
  rfl

/-- The value after layer 2 at one entry: column 2 and row 2 of the weights. -/
theorem xs3_apply (x0 : Vec Ideal S1x3x512 .f32) (x1 : Vec Ideal S4x4 .f32) (x2 : Vec Ideal S4x4x2 .f32)
    (c : Fin 4) (i j : Fin 512) :
    xs3 (F := Ideal) x0 x1 x2 (ix3 c i j)
      = Cert.Stencil.layerK (fun c => x1 (ix2 c 2)) (fun c => x2 (ix3 c 2 0)) (fun c => x2 (ix3 c 2 1))
          (fun c i j => xs2 x0 x1 x2 (ix3 c i j)) c i j := by
  have e : xs3 (F := Ideal) x0 x1 x2 = layerV maskV _ _ _ (xs2 x0 x1 x2) := rfl
  rw [e, layerV_apply _ maskV_apply]
  simp only [k0_pay13, selfW_apply _ 2 (by norm_num), reshape411_apply,
    nbrSlice_apply _ 2 (by norm_num) 0 (by norm_num), nbrSlice_apply _ 2 (by norm_num) 1 (by norm_num)]
  rfl

/-- The value after layer 3 at one entry: column 3 and row 3 of the weights. -/
theorem xs4_apply (x0 : Vec Ideal S1x3x512 .f32) (x1 : Vec Ideal S4x4 .f32) (x2 : Vec Ideal S4x4x2 .f32)
    (c : Fin 4) (i j : Fin 512) :
    xs4 (F := Ideal) x0 x1 x2 (ix3 c i j)
      = Cert.Stencil.layerK (fun c => x1 (ix2 c 3)) (fun c => x2 (ix3 c 3 0)) (fun c => x2 (ix3 c 3 1))
          (fun c i j => xs3 x0 x1 x2 (ix3 c i j)) c i j := by
  have e : xs4 (F := Ideal) x0 x1 x2 = layerV maskV _ _ _ (xs3 x0 x1 x2) := rfl
  rw [e, layerV_apply _ maskV_apply]
  simp only [k0_pay16, selfW_apply _ 3 (by norm_num), reshape411_apply,
    nbrSlice_apply _ 3 (by norm_num) 0 (by norm_num), nbrSlice_apply _ 3 (by norm_num) 1 (by norm_num)]
  rfl

/-- The stored value at channel `c`, row `i`, column `j` is the kernel's stencil of the loaded blocks. -/
theorem bodyVal_apply (x0 : Vec Ideal S1x3x512 .f32) (x1 : Vec Ideal S4x4 .f32) (x2 : Vec Ideal S4x4x2 .f32)
    (c : Fin 4) (i j : Fin 512) :
    bodyVal (F := Ideal) x0 x1 x2 (ValueIdx.ix4 0 c i j)
      = Cert.Stencil.stencilK (fun i d => x0 (ValueIdx.ix3 0 d i)) (fun c l => x1 (ValueIdx.ix2 c l))
          (fun c l k => x2 (ValueIdx.ix3 c l k)) c i j := by
  have h0 : (fun c i j => xs0 (F := Ideal) x0 (ix3 c i j)) = Cert.Stencil.initK (fun i d => x0 (ix3 0 d i)) := by
    funext c i j; exact xs0_apply x0 c i j
  have h1 : (fun c i j => xs1 (F := Ideal) x0 x1 x2 (ix3 c i j))
      = Cert.Stencil.layerK (fun c => x1 (ix2 c 0)) (fun c => x2 (ix3 c 0 0)) (fun c => x2 (ix3 c 0 1))
          (Cert.Stencil.initK (fun i d => x0 (ix3 0 d i))) := by
    funext c i j; rw [xs1_apply, h0]
  have h2 : (fun c i j => xs2 (F := Ideal) x0 x1 x2 (ix3 c i j))
      = Cert.Stencil.layerK (fun c => x1 (ix2 c 1)) (fun c => x2 (ix3 c 1 0)) (fun c => x2 (ix3 c 1 1))
         (Cert.Stencil.layerK (fun c => x1 (ix2 c 0)) (fun c => x2 (ix3 c 0 0)) (fun c => x2 (ix3 c 0 1))
          (Cert.Stencil.initK (fun i d => x0 (ix3 0 d i)))) := by
    funext c i j; rw [xs2_apply, h1]
  have h3 : (fun c i j => xs3 (F := Ideal) x0 x1 x2 (ix3 c i j))
      = Cert.Stencil.layerK (fun c => x1 (ix2 c 2)) (fun c => x2 (ix3 c 2 0)) (fun c => x2 (ix3 c 2 1))
         (Cert.Stencil.layerK (fun c => x1 (ix2 c 1)) (fun c => x2 (ix3 c 1 0)) (fun c => x2 (ix3 c 1 1))
          (Cert.Stencil.layerK (fun c => x1 (ix2 c 0)) (fun c => x2 (ix3 c 0 0)) (fun c => x2 (ix3 c 0 1))
           (Cert.Stencil.initK (fun i d => x0 (ix3 0 d i))))) := by
    funext c i j; rw [xs3_apply, h2]
  have hcast : bodyVal (F := Ideal) x0 x1 x2 (ix4 0 c i j) = xs4 (F := Ideal) x0 x1 x2 (ix3 c i j) := by
    unfold bodyVal k0_pay1
    refine shapeCast_apply _ _ (ix4 (0 : Fin 1) c i j) (ix3 c i j) ?_
    rw [Shape.rowMajor_val_three, Shape.rowMajor_val_four]
    show (c.val * 512 + i.val) * 512 + j.val = (((0 * 4 + c.val) * 512 + i.val) * 512 + j.val)
    omega
  rw [hcast, xs4_apply, h3]
  rfl

end Cert.KernelIdeal.Hand

end
-- ==== Proof.KI.Tail.lean ====
/-
  The host tail of the kernel program, as one function of the array the region leaves and the four weight arrays.

  After the region, @main runs seventy-six host operations in five stretches. They compute, from the
  16×4×512×512 array X the region wrote and the arguments W1 (2048×256), b1 (256), W2 (256×1), b2 (1):
    * an index table T : 512×512×2 of 32-bit integers, built from an iota alone: its first plane is the row
      index i (wrapped into [0, 512) by the select "i < 0 ? i + 512 : i"), its second plane the remainder of
      i + j by 512 (jnp's remainder: the host remainder, corrected by the divisor where signs differ), wrapped
      the same way;
    * the gather of X at T along its last two axes, summed over axis 2, reshaped to 16×2048;
    * one dense layer (contraction with W1, plus b1 broadcast), celu at α = 1
      (max(y, 0) + 1 · expm1(min(y, 0) / 1)), a second dense layer (W2, b2), the reshape to 16, and exp(−·).
  Each definition below is the composition of the operations of one such block, in the program's order and
  with the program's own side conditions, as a function of what the block reads. The fold of the five stretches
  is the fold of the last over the fold of the one before it, and so on (the fold of a concatenation); each
  stretch's fold is read at the one buffer the later stretches need from it, and at the buffers it leaves alone;
  `tail_after` chains these: the fold of the five stretches over any valuation, read at the result buffer, is the
  composition of the valuation's contents at the region's output and at the four arguments.
-/
import proofs.«412012_j25271587569863_4_alg».proof.Proof.KI.TailOps
import Idealize.ShloMosaic.Lib.StableHlo.Run
import Idealize.ShloMosaic.Lib.Pipeline.Frame

noncomputable section

namespace Cert.KernelIdeal.Hand

open Idealize.ShloMosaic Idealize.ShloMosaic.TcCoe Idealize.ShloMosaic.StableHlo Idealize.SL.Sem
open Cert.KernelIdeal Cert.KernelIdeal.Gen

variable {F : FTy → Type} [FloatOps F]

/-! ## The index table (integers only) -/

/-- The iota 0 … 511. -/
def tIota : IVec S512 32 := iotaInDim S512 32 0

/-- i + j over the 512×512 square: the iota as a column plus the iota as a row. -/
def sumOf (io : IVec S512 32) : IVec S512x512 32 :=
  addi (broadcastInDim S512x512 ![0, 1] bcast_S512x1_S512x512_0_1 (broadcastInDim S512x1 ![0] bcast_S512_S512x1_0 io))
    (broadcastInDim S512x512 ![0, 1] bcast_S1x512_S512x512_0_1 (broadcastInDim S1x512 ![1] bcast_S512_S1x512_1 io))

/-- The divisor the remainder uses: c, replaced by 1 were it 0. -/
def divOf (c : IVec S_ 32) : IVec S_ 32 :=
  select (cmpi .eq (id c) (constantI S_ 32 0#32)) (constantI S_ 32 1#32) (id c)

/-- The host remainder of x by that divisor. -/
def rem0Of (x : IVec S512x512 32) (c : IVec S_ 32) : IVec S512x512 32 :=
  Host.remsi x (broadcastInDim S512x512 ![] bcast_S_S512x512 (divOf c))

/-- jnp's remainder of x by c: the host remainder, plus the divisor where it is nonzero and its sign differs from
    the divisor's. -/
def remOf (x : IVec S512x512 32) (c : IVec S_ 32) : IVec S512x512 32 :=
  select
    (andi
      (cmpi .ne (cmpi .slt (rem0Of x c) (broadcastInDim S512x512 ![] bcast_S_S512x512 (constantI S_ 32 0#32)))
        (broadcastInDim S512x512 ![] bcast_S_S512x512 (cmpi .slt (divOf c) (constantI S_ 32 0#32))))
      (cmpi .ne (rem0Of x c) (broadcastInDim S512x512 ![] bcast_S_S512x512 (constantI S_ 32 0#32))))
    (addi (rem0Of x c) (broadcastInDim S512x512 ![] bcast_S_S512x512 (divOf c)))
    (rem0Of x c)

/-- The row index as a column, wrapped into [0, 512). -/
def rowOf (io : IVec S512 32) : IVec S512x1 32 :=
  select
    (cmpi .slt (broadcastInDim S512x1 ![0] bcast_S512_S512x1_0 io)
      (broadcastInDim S512x1 ![] bcast_S_S512x1 (constantI S_ 32 0#32)))
    (addi (broadcastInDim S512x1 ![0] bcast_S512_S512x1_0 io)
      (broadcastInDim S512x1 ![] bcast_S_S512x1 (constantI S_ 32 512#32)))
    (broadcastInDim S512x1 ![0] bcast_S512_S512x1_0 io)

/-- A 512×512 table wrapped into [0, 512). -/
def colOf (r : IVec S512x512 32) : IVec S512x512 32 :=
  select
    (cmpi .slt r (broadcastInDim S512x512 ![] bcast_S_S512x512 (constantI S_ 32 0#32)))
    (addi r (broadcastInDim S512x512 ![] bcast_S_S512x512 (constantI S_ 32 512#32)))
    r

/-- The index table: plane 0 the wrapped row index, plane 1 the wrapped table r. -/
def idxOf (io : IVec S512 32) (r : IVec S512x512 32) : IVec S512x512x2 32 :=
  concatenate S512x512x2 2
    [⟨S512x512x1, broadcastInDim S512x512x1 ![0, 1] bcast_S512x512_S512x512x1_0_1
        (broadcastInDim S512x512 ![0, 1] bcast_S512x1_S512x512_0_1 (rowOf io))⟩,
     ⟨S512x512x1, broadcastInDim S512x512x1 ![0, 1] bcast_S512x512_S512x512x1_0_1 (colOf r)⟩]
    concatenates_S512x512x1_S512x512x1_S512x512x2_d2

/-! ## The floating-point blocks -/

/-- X gathered at the index table, summed over axis 2, as 16 rows of 2048. -/
def featOf (X : FVec F S16x4x512x512 .f32) (io : IVec S512 32) (r : IVec S512x512 32) : FVec F S16x2048 .f32 :=
  shapeCast S16x2048
    (Host.reduceAdd (Host.gather gather_S16x4x512x512_S512x512x2_S16x4x512x512_01_23_n_n_23_2_16411 X (idxOf io r))
      (constant S_ .f32 0x00000000#32) reducesTo_S16x4x512x512_S16x4x512_d2 h_S_)
    shapeCasts_S16x4x512_S16x2048

/-- The first dense layer: the features contracted with W1, plus b1 along the rows. -/
def hidOf (X : FVec F S16x4x512x512 .f32) (io : IVec S512 32) (r : IVec S512x512 32) (W1 : FVec F S2048x256 .f32)
    (b1 : FVec F S256 .f32) : FVec F S16x256 .f32 :=
  addf (Host.dotGeneral dot_S16x2048_S2048x256_S16x256_1_0_0_1_n_n none (featOf X io r) W1)
    (broadcastInDim S16x256 ![0, 1] bcast_S1x256_S16x256_0_1 (broadcastInDim S1x256 ![1] bcast_S256_S1x256_1 b1))

/-- celu at α = 1: max(y, 0) + 1 · expm1(min(y, 0) / 1). -/
def tCelu (y : FVec F S16x256 .f32) : FVec F S16x256 .f32 :=
  addf (maximumf y (broadcastInDim S16x256 ![] bcast_S_S16x256 (constant S_ .f32 0x00000000#32)))
    (mulf (broadcastInDim S16x256 ![] bcast_S_S16x256 (constant S_ .f32 0x3F800000#32))
      (Host.expm1
        (Host.divf (minimumf y (broadcastInDim S16x256 ![] bcast_S_S16x256 (constant S_ .f32 0x00000000#32)))
          (broadcastInDim S16x256 ![] bcast_S_S16x256 (constant S_ .f32 0x3F800000#32)))))

/-- The second dense layer (W2, b2), the reshape to 16, exp of the negation. -/
def outOf (h : FVec F S16x256 .f32) (W2 : FVec F S256x1 .f32) (b2 : FVec F S1 .f32) : FVec F S16 .f32 :=
  Host.exp
    (Host.negf
      (shapeCast S16
        (addf (Host.dotGeneral dot_S16x256_S256x1_S16x1_1_0_0_1_n_n none h W2)
          (broadcastInDim S16x1 ![0, 1] bcast_S1x1_S16x1_0_1 (broadcastInDim S1x1 ![1] bcast_S1_S1x1_1 b2)))
        shapeCasts_S16x1_S16))

/-- The whole tail: the table of (i + j) mod 512 from the iota, the features of X at it, the dense layer, celu,
    the second dense layer, the reshape, exp of the negation. -/
def tailK (X : FVec F S16x4x512x512 .f32) (W1 : FVec F S2048x256 .f32) (b1 : FVec F S256 .f32) (W2 : FVec F S256x1 .f32)
    (b2 : FVec F S1 .f32) : FVec F S16 .f32 :=
  outOf (tCelu (hidOf X tIota (remOf (sumOf tIota) (constantI S_ 32 512#32)) W1 b1)) W2 b2

/-! ## The stretches, one at a time, over any valuation

Each lemma reads one stretch's fold at one buffer: at a buffer the stretch writes, the block above applied to the
valuation's contents at the buffers the stretch reads; at a buffer it does not write, what was there. -/

set_option maxRecDepth 4096 in
theorem s1_io (V : Valuation τ sig (Elt F)) : StableHlo.after (hostOps1 (F := F)) V (Proc.devRef .tc main_v2) = tIota := by
  after_results_simp
  try simp only [TRef.ofBuf, TRef.toBuf, cast_cast, cast_eq]
  first | rfl | done
set_option maxRecDepth 4096 in
theorem s1_sum (V : Valuation τ sig (Elt F)) : StableHlo.after (hostOps1 (F := F)) V (Proc.devRef .tc main_v7) = sumOf tIota := by
  after_results_simp
  try simp only [TRef.ofBuf, TRef.toBuf, cast_cast, cast_eq]
  first | rfl | done
set_option maxRecDepth 4096 in
theorem s1_c (V : Valuation τ sig (Elt F)) : StableHlo.after (hostOps1 (F := F)) V (Proc.devRef .tc main_c) = constantI S_ 32 512#32 := by
  after_results_simp
  try simp only [TRef.ofBuf, TRef.toBuf, cast_cast, cast_eq]
  first | rfl | done
theorem s1_X (V : Valuation τ sig (Elt F)) : StableHlo.after (hostOps1 (F := F)) V (Proc.devRef .tc main_v1) = V (Proc.devRef .tc main_v1) := by
  after_results_simp
theorem s1_arg3 (V : Valuation τ sig (Elt F)) : StableHlo.after (hostOps1 (F := F)) V (Proc.devRef .tc main_arg3) = V (Proc.devRef .tc main_arg3) := by
  after_results_simp
theorem s1_arg4 (V : Valuation τ sig (Elt F)) : StableHlo.after (hostOps1 (F := F)) V (Proc.devRef .tc main_arg4) = V (Proc.devRef .tc main_arg4) := by
  after_results_simp
theorem s1_arg5 (V : Valuation τ sig (Elt F)) : StableHlo.after (hostOps1 (F := F)) V (Proc.devRef .tc main_arg5) = V (Proc.devRef .tc main_arg5) := by
  after_results_simp
theorem s1_arg6 (V : Valuation τ sig (Elt F)) : StableHlo.after (hostOps1 (F := F)) V (Proc.devRef .tc main_arg6) = V (Proc.devRef .tc main_arg6) := by
  after_results_simp
set_option maxRecDepth 4096 in
theorem s2_rem (V : Valuation τ sig (Elt F)) :
    StableHlo.after (hostOps1_1 (F := F)) V (Proc.devRef .tc main_v8) = remOf (V (Proc.devRef .tc main_v7)) (V (Proc.devRef .tc main_c)) := by
  after_results_simp
  try simp only [TRef.ofBuf, TRef.toBuf, cast_cast, cast_eq]
  first | rfl | done
theorem s2_io (V : Valuation τ sig (Elt F)) : StableHlo.after (hostOps1_1 (F := F)) V (Proc.devRef .tc main_v2) = V (Proc.devRef .tc main_v2) := by
  after_results_simp
theorem s2_X (V : Valuation τ sig (Elt F)) : StableHlo.after (hostOps1_1 (F := F)) V (Proc.devRef .tc main_v1) = V (Proc.devRef .tc main_v1) := by
  after_results_simp
theorem s2_arg3 (V : Valuation τ sig (Elt F)) : StableHlo.after (hostOps1_1 (F := F)) V (Proc.devRef .tc main_arg3) = V (Proc.devRef .tc main_arg3) := by
  after_results_simp
theorem s2_arg4 (V : Valuation τ sig (Elt F)) : StableHlo.after (hostOps1_1 (F := F)) V (Proc.devRef .tc main_arg4) = V (Proc.devRef .tc main_arg4) := by
  after_results_simp
theorem s2_arg5 (V : Valuation τ sig (Elt F)) : StableHlo.after (hostOps1_1 (F := F)) V (Proc.devRef .tc main_arg5) = V (Proc.devRef .tc main_arg5) := by
  after_results_simp
theorem s2_arg6 (V : Valuation τ sig (Elt F)) : StableHlo.after (hostOps1_1 (F := F)) V (Proc.devRef .tc main_arg6) = V (Proc.devRef .tc main_arg6) := by
  after_results_simp
attribute [local irreducible] Host.gather Host.reduceAdd in
set_option maxRecDepth 4096 in
theorem s3_hid (V : Valuation τ sig (Elt F)) :
    StableHlo.after (hostOps1_2 (F := F)) V (Proc.devRef .tc main_v30)
      = hidOf (V (Proc.devRef .tc main_v1)) (V (Proc.devRef .tc main_v2)) (V (Proc.devRef .tc main_v8)) (V (Proc.devRef .tc main_arg3)) (V (Proc.devRef .tc main_arg4)) := by
  after_results_simp
  try simp only [TRef.ofBuf, TRef.toBuf, cast_cast, cast_eq]
  first | rfl | done
theorem s3_arg5 (V : Valuation τ sig (Elt F)) : StableHlo.after (hostOps1_2 (F := F)) V (Proc.devRef .tc main_arg5) = V (Proc.devRef .tc main_arg5) := by
  after_results_simp
theorem s3_arg6 (V : Valuation τ sig (Elt F)) : StableHlo.after (hostOps1_2 (F := F)) V (Proc.devRef .tc main_arg6) = V (Proc.devRef .tc main_arg6) := by
  after_results_simp
set_option maxRecDepth 4096 in
theorem s4_cel (V : Valuation τ sig (Elt F)) : StableHlo.after (hostOps1_3 (F := F)) V (Proc.devRef .tc main_v31) = tCelu (V (Proc.devRef .tc main_v30)) := by
  after_results_simp
  try simp only [TRef.ofBuf, TRef.toBuf, cast_cast, cast_eq]
  first | rfl | done
theorem s4_arg5 (V : Valuation τ sig (Elt F)) : StableHlo.after (hostOps1_3 (F := F)) V (Proc.devRef .tc main_arg5) = V (Proc.devRef .tc main_arg5) := by
  after_results_simp
theorem s4_arg6 (V : Valuation τ sig (Elt F)) : StableHlo.after (hostOps1_3 (F := F)) V (Proc.devRef .tc main_arg6) = V (Proc.devRef .tc main_arg6) := by
  after_results_simp
set_option maxRecDepth 4096 in
theorem s5_out (V : Valuation τ sig (Elt F)) :
    StableHlo.after (hostOps1_4 (F := F)) V (Proc.devRef .tc main_v38) = outOf (V (Proc.devRef .tc main_v31)) (V (Proc.devRef .tc main_arg5)) (V (Proc.devRef .tc main_arg6)) := by
  after_results_simp
  try simp only [TRef.ofBuf, TRef.toBuf, cast_cast, cast_eq]
  first | rfl | done

/-! ## The five stretches in a row -/

/-- The fold of the five stretches over any valuation, at the result buffer: the tail of the valuation's contents
    at the region's output and at the four weight arguments. The fold of the concatenation is the folds in turn;
    from the last stretch back, each is read at the buffer the next one needs and at the arguments it leaves
    alone, down to the valuation itself. -/
theorem tail_after (W : Valuation τ sig (Elt F)) :
    StableHlo.after (tailOpss (F := F)).flatten W (Proc.devRef .tc main_v38)
      = tailK (W (Proc.devRef .tc main_v1)) (W (Proc.devRef .tc main_arg3)) (W (Proc.devRef .tc main_arg4))
          (W (Proc.devRef .tc main_arg5)) (W (Proc.devRef .tc main_arg6)) := by
  rw [show (tailOpss (F := F)).flatten
        = hostOps1 ++ (hostOps1_1 ++ (hostOps1_2 ++ (hostOps1_3 ++ hostOps1_4))) from rfl]
  simp only [StableHlo.after_append]
  rw [s5_out, s4_cel, s4_arg5, s4_arg6, s3_hid, s3_arg5, s3_arg6, s2_rem, s2_io, s2_X, s2_arg3, s2_arg4, s2_arg5, s2_arg6,
    s1_sum, s1_c, s1_io, s1_X, s1_arg3, s1_arg4, s1_arg5, s1_arg6]
  rfl

end Cert.KernelIdeal.Hand

end
-- ==== Proof.KI.Value.lean ====
/- The kernel program's result as a function of its arguments.

   The region visits the sixteen batch elements in turn.  At batch element `b` it loads row block `b`
   of the transposed coordinates (so entry `(0, d, i)` of the block is entry `(b, i, d)` of the
   coordinate array), the whole self-weight matrix and the whole neighbour-weight array, and stores
   block `b` of the output: the four-layer stencil of those three, channel by row by column.  The
   sixteen blocks tile the output array, one per batch element, so after the region the output array
   is the stencil of each batch element's coordinates, index by index.  The lines after the region
   then compute the program's result from that array and the four remaining arguments, and write no
   argument. -/
import proofs.«412012_j25271587569863_4_alg».proof.Proof.KI.Frame
import proofs.«412012_j25271587569863_4_alg».proof.Proof.KI.BodyAt
import proofs.«412012_j25271587569863_4_alg».proof.Proof.KI.Tail
import proofs.«412012_j25271587569863_4_alg».proof.Proof.Stencil
import Idealize.ShloMosaic.Lib.Pipeline.Value
import Idealize.ShloMosaic.Lib.Pipeline.FrameSuffix

set_option synthInstance.maxSize 4096

noncomputable section

namespace Cert.KernelIdeal.Hand

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The output array after the region: at batch element `j 0`, channel `j 1`, row `j 2`, column `j 3`, the
    four-layer stencil of that batch element's coordinates and the two weight arrays. -/
def Xk (c : Dev nD) : FVec Ideal S16x4x512x512 .f32 := fun j =>
  Cert.Stencil.stencilK (fun i d => m ((c : Thread nD τ).loc main_arg0) (ValueIdx.ix3 (j 0) i d))
    (fun c' l => m ((c : Thread nD τ).loc main_arg1) (ValueIdx.ix2 c' l))
    (fun c' l k => m ((c : Thread nD τ).loc main_arg2) (ValueIdx.ix3 c' l k)) (j 1) (j 2) (j 3)

/-! ## The block indices over the grid -/

/-- At grid point `t` the coordinate window's block index is `(t, 0, 0)`, the two weight windows' are zero,
    and the output window's is `(t, 0, 0, 0)`. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 3) = 0 ∧ win0_2.index t (1 : Fin 3) = 0 ∧ win0_2.index t (2 : Fin 3) = 0)
    ∧ (win0_3.index t (0 : Fin 4) = t.val ∧ win0_3.index t (1 : Fin 4) = 0 ∧ win0_3.index t (2 : Fin 4) = 0 ∧ win0_3.index t (3 : Fin 4) = 0) :=
  (by decide +kernel : ∀ t : Fin grid0.N, _)

/-- A grid point as a batch index. -/
def bat (t : Fin cfg0.N) : Fin 16 := ⟨t.val, Nat.lt_of_lt_of_eq t.isLt N_0⟩

/-! ## The three input blocks at a grid point -/

/-- The coordinate block at point `t`: entry `(0, d, i)` is coordinate `d` of vector `i` of batch element `t`. -/
theorem iblk0_apply (c : Dev nD) (t : Fin cfg0.N) (d : Fin 3) (i : Fin 512) :
    (iblk m c 0 t : Vec Ideal S1x3x512 .f32) (ValueIdx.ix3 0 d i)
      = (m ((c : Thread nD τ).loc main_arg0) : S16x512x3.Idx → Elt Ideal .f32) (ValueIdx.ix3 (bat t) i d) := by
  obtain ⟨⟨e0, e1, e2⟩, -⟩ := idx_facts t
  unfold iblk
  rw [View.read_apply]
  show V m c main_v0 _ = _
  rw [V_main_v0]
  refine transpose_apply _ _ _ _ _ fun b => ?_
  match b with
  | ⟨0, _⟩ => show (bat t).val = win0_0.index t (0 : Fin 3) * 1 + 1 * 0; rw [e0]; show t.val = _; omega
  | ⟨1, _⟩ => show d.val = win0_0.index t (1 : Fin 3) * 3 + 1 * d.val; rw [e1]; omega
  | ⟨2, _⟩ => show i.val = win0_0.index t (2 : Fin 3) * 512 + 1 * i.val; rw [e2]; omega

/-- The self-weight block at any point is the whole self-weight matrix. -/
theorem iblk1_apply (c : Dev nD) (t : Fin cfg0.N) (a b : Fin 4) :
    (iblk m c 1 t : Vec Ideal S4x4 .f32) (ValueIdx.ix2 a b)
      = (m ((c : Thread nD τ).loc main_arg1) : S4x4.Idx → Elt Ideal .f32) (ValueIdx.ix2 a b) := by
  obtain ⟨-, ⟨e0, e1⟩, -⟩ := idx_facts t
  unfold iblk
  rw [View.read_apply]
  show V m c main_arg1 _ = _
  rw [V_main_arg1]
  refine congrArg _ (funext fun x => Fin.ext ?_)
  match x with
  | ⟨0, _⟩ => show win0_1.index t (0 : Fin 2) * 4 + 1 * a.val = a.val; rw [e0]; omega
  | ⟨1, _⟩ => show win0_1.index t (1 : Fin 2) * 4 + 1 * b.val = b.val; rw [e1]; omega

/-- The neighbour-weight block at any point is the whole neighbour-weight array. -/
theorem iblk2_apply (c : Dev nD) (t : Fin cfg0.N) (a b : Fin 4) (k : Fin 2) :
    (iblk m c 2 t : Vec Ideal S4x4x2 .f32) (ValueIdx.ix3 a b k)
      = (m ((c : Thread nD τ).loc main_arg2) : S4x4x2.Idx → Elt Ideal .f32) (ValueIdx.ix3 a b k) := by
  obtain ⟨-, -, ⟨e0, e1, e2⟩, -⟩ := idx_facts t
  unfold iblk
  rw [View.read_apply]
  show V m c main_arg2 _ = _
  rw [V_main_arg2]
  refine congrArg _ (funext fun x => Fin.ext ?_)
  match x with
  | ⟨0, _⟩ => show win0_2.index t (0 : Fin 3) * 4 + 1 * a.val = a.val; rw [e0]; omega
  | ⟨1, _⟩ => show win0_2.index t (1 : Fin 3) * 4 + 1 * b.val = b.val; rw [e1]; omega
  | ⟨2, _⟩ => show win0_2.index t (2 : Fin 3) * 2 + 1 * k.val = k.val; rw [e2]; omega

/-! ## The output block at a grid point -/

/-- Block `t` of an array over the output's shape, at `(0, b, i, j)`, is the array at `(t, b, i, j)`. -/
theorem read_blk3 (c : Dev nD) (G : Buf (Elt Ideal) ((c : Thread nD τ).loc main_v1)) (t : Fin cfg0.N) (b : Fin 4) (i j : Fin 512) :
    (((cfg0.win 3).blk t).view.read (Elt Ideal) G : S1x4x512x512.Idx → Elt Ideal .f32) (ValueIdx.ix4 0 b i j)
      = (G : S16x4x512x512.Idx → Elt Ideal .f32) (ValueIdx.ix4 (bat t) b i j) := by
  obtain ⟨-, -, -, e0, e1, e2, e3⟩ := idx_facts t
  rw [View.read_apply]
  show G _ = _
  refine congrArg _ (funext fun x => Fin.ext ?_)
  match x with
  | ⟨0, _⟩ => show win0_3.index t (0 : Fin 4) * 1 + 1 * 0 = t.val; rw [e0]; omega
  | ⟨1, _⟩ => show win0_3.index t (1 : Fin 4) * 4 + 1 * b.val = b.val; rw [e1]; omega
  | ⟨2, _⟩ => show win0_3.index t (2 : Fin 4) * 512 + 1 * i.val = i.val; rw [e2]; omega
  | ⟨3, _⟩ => show win0_3.index t (3 : Fin 4) * 512 + 1 * j.val = j.val; rw [e3]; omega

/-- An index of the one-batch block has batch coordinate zero. -/
theorem eq_ix4_zero (y : S1x4x512x512.Idx) : y = ValueIdx.ix4 (0 : Fin 1) (y 1) (y 2) (y 3) := by
  funext e
  match e with
  | ⟨0, _⟩ => exact Fin.ext (by have h : (y 0).val < 1 := (y 0).isLt; show (y 0).val = 0; omega)
  | ⟨1, _⟩ => rfl
  | ⟨2, _⟩ => rfl
  | ⟨3, _⟩ => rfl

/-- The body's value of the three input blocks at `t`, at `(0, b, i, j)`, is block `t` of `Xk` there: the stencil of
    batch element `t`'s coordinates and the two weight arrays. -/
theorem flushed3_apply (c : Dev nD) (t : Fin cfg0.N) (b : Fin 4) (i j : Fin 512) :
    bodyVal (F := Ideal) (iblk m c 0 t) (iblk m c 1 t) (iblk m c 2 t) (ValueIdx.ix4 0 b i j)
      = (((cfg0.win 3).blk t).view.read (Elt Ideal) (Xk m c) : S1x4x512x512.Idx → Elt Ideal .f32) (ValueIdx.ix4 0 b i j) := by
  rw [bodyVal_apply, read_blk3 c (Xk m c) t b i j]
  show _ = Cert.Stencil.stencilK _ _ _ b i j
  congr 1
  · funext i d; exact iblk0_apply m c t d i
  · funext c' l; exact iblk1_apply m c t c' l
  · funext c' l k; exact iblk2_apply m c t c' l k

/-- What point `t` writes back is block `t` of `Xk`. -/
theorem flushed3_eq (c : Dev nD) (t : Fin cfg0.N) (hf : (cfg0.win 3).flush t = true) :
    (dats (F := Ideal) m 0 c).flushed 3 t = ((cfg0.win 3).blk t).view.read (Elt Ideal) (Xk m c) := by
  show (cfg0.win 3).cut (grid0.coords t) ((dats (F := Ideal) m 0 c).after 3 t) = _
  rw [after0_3, out0_3_eq]
  funext y
  exact (congrArg (bodyVal (F := Ideal) (iblk m c 0 t) (iblk m c 1 t) (iblk m c 2 t)) (eq_ix4_zero y)).trans
    ((flushed3_apply m c t (y 1) (y 2) (y 3)).trans
      (congrArg (((cfg0.win 3).blk t).view.read (Elt Ideal) (Xk m c) : S1x4x512x512.Idx → Elt Ideal .f32) (eq_ix4_zero y)).symm)

/-- Every index of the output array lies in the block of its batch coordinate. -/
theorem cover3 (c : Dev nD) (i : ((cfg0.win 3).arr.view.loc (c.tc : Thread nD τ)).2.ty.Idx) :
    ∃ t : Fin cfg0.N, (cfg0.win 3).flush t = true ∧ i ∈ ((cfg0.win 3).blk t).view.set := by
  have h0 : (i 0).val < 16 := (i 0).isLt
  have h1 : (i 1).val < 4 := (i 1).isLt
  have h2 : (i 2).val < 512 := (i 2).isLt
  have h3 : (i 3).val < 512 := (i 3).isLt
  let t : Fin cfg0.N := ⟨(i 0).val, Nat.lt_of_lt_of_eq h0 N_0.symm⟩
  obtain ⟨-, -, -, e0, e1, e2, e3⟩ := idx_facts t
  refine ⟨t, flush0_3 t, ?_⟩
  show i ∈ ((View.whole main_v1).slice (win0_3.rect t)).set
  rw [View.set_slice_whole, Rect.mem_set_unit]
  intro a
  match a with
  | ⟨0, _⟩ => show win0_3.index t (0 : Fin 4) * 1 ≤ (i 0 : Nat) ∧ (i 0 : Nat) < win0_3.index t (0 : Fin 4) * 1 + 1; rw [e0]; show (i 0).val * 1 ≤ _ ∧ _ < (i 0).val * 1 + 1; omega
  | ⟨1, _⟩ => show win0_3.index t (1 : Fin 4) * 4 ≤ (i 1 : Nat) ∧ (i 1 : Nat) < win0_3.index t (1 : Fin 4) * 4 + 4; rw [e1]; omega
  | ⟨2, _⟩ => show win0_3.index t (2 : Fin 4) * 512 ≤ (i 2 : Nat) ∧ (i 2 : Nat) < win0_3.index t (2 : Fin 4) * 512 + 512; rw [e2]; omega
  | ⟨3, _⟩ => show win0_3.index t (3 : Fin 4) * 512 ≤ (i 3 : Nat) ∧ (i 3 : Nat) < win0_3.index t (3 : Fin 4) * 512 + 512; rw [e3]; omega

/-- The output array after the sixteen write-backs is `Xk`: block `t` is the stencil of batch element `t`,
    and the blocks tile the array. -/
theorem final3 (c : Dev nD) : (dats (F := Ideal) m 0 c).arrAt 3 cfg0.N = Xk m c :=
  (dats (F := Ideal) m 0 c).arrAt_eq_of_cover 3 (Xk m c) (flushed3_eq m c) (cover3 c)

/-! ## The lines after the region -/

/-- The program's result after the lines that follow the region: the tail's function of `Xk` and the four
    remaining arguments.  The lines start from the output array as the region leaves it and every other
    buffer as at the region's entry. -/
theorem tail_v38 (c : Dev nD) :
    Pipeline.afterTail₀ cfgs (dats (F := Ideal) m) 0 (V0 m) tailOpss c main_v38
      = tailK (Xk m c) (m ((c.tc : Thread nD τ).loc main_arg3)) (m ((c.tc : Thread nD τ).loc main_arg4)) (m ((c.tc : Thread nD τ).loc main_arg5)) (m ((c.tc : Thread nD τ).loc main_arg6)) := by
  have hX : Pipeline.withArrays spec0 c (V0 m c) (fun w => (dats (F := Ideal) m 0 c).arrAt w cfg0.N) (Proc.devRef .tc main_v1) = Xk m c :=
    (Pipeline.withArrays_arr spec0 winFacts0.arr_inj c (V0 m c) _ 3).trans (final3 m c)
  have h3 : Pipeline.withArrays spec0 c (V0 m c) (fun w => (dats (F := Ideal) m 0 c).arrAt w cfg0.N) (Proc.devRef .tc main_arg3) = m ((c.tc : Thread nD τ).loc main_arg3) :=
    (Pipeline.withArrays_of_ne spec0 c (V0 m c) _ main_arg3 (by decide)).trans (V_main_arg3 m c)
  have h4 : Pipeline.withArrays spec0 c (V0 m c) (fun w => (dats (F := Ideal) m 0 c).arrAt w cfg0.N) (Proc.devRef .tc main_arg4) = m ((c.tc : Thread nD τ).loc main_arg4) :=
    (Pipeline.withArrays_of_ne spec0 c (V0 m c) _ main_arg4 (by decide)).trans (V_main_arg4 m c)
  have h5 : Pipeline.withArrays spec0 c (V0 m c) (fun w => (dats (F := Ideal) m 0 c).arrAt w cfg0.N) (Proc.devRef .tc main_arg5) = m ((c.tc : Thread nD τ).loc main_arg5) :=
    (Pipeline.withArrays_of_ne spec0 c (V0 m c) _ main_arg5 (by decide)).trans (V_main_arg5 m c)
  have h6 : Pipeline.withArrays spec0 c (V0 m c) (fun w => (dats (F := Ideal) m 0 c).arrAt w cfg0.N) (Proc.devRef .tc main_arg6) = m ((c.tc : Thread nD τ).loc main_arg6) :=
    (Pipeline.withArrays_of_ne spec0 c (V0 m c) _ main_arg6 (by decide)).trans (V_main_arg6 m c)
  show StableHlo.after (tailOpss (F := Ideal)).flatten (Pipeline.withArrays spec0 c (V0 m c) (fun w => (dats (F := Ideal) m 0 c).arrAt w cfg0.N)) (Proc.devRef .tc main_v38) = _
  rw [tail_after, hX, h3, h4, h5, h6]

/-- The program runs; its result is the tail's function of `Xk` and the four remaining arguments, and the
    seven arguments end unchanged. -/
theorem run_value : θ_run defs (onTc (τ := τ) (main (F := Ideal))) ⟨m, fun _ => 0, ρ⟩ (fun r => ∀ c : Dev nD,
      r.2.mem ((c.tc : Thread nD τ).loc main_v38) = tailK (Xk m c) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨
      ((h c).2 main_v38 (Pipeline.mem_restRefs_of main_v38 (by decide) (by decide))).trans (tail_v38 m c),
      ((h c).2 main_arg0 (Pipeline.mem_restRefs_of main_arg0 (by decide) (by decide))).trans (W_main_arg0 m c),
      ((h c).1 1).trans (((dats (F := Ideal) m 0 c).arrAt_in 1 rfl _).trans ((A_eq m c 1).trans (V_main_arg1 m c))),
      ((h c).1 2).trans (((dats (F := Ideal) m 0 c).arrAt_in 2 rfl _).trans ((A_eq m c 2).trans (V_main_arg2 m c))),
      ((h c).2 main_arg3 (Pipeline.mem_restRefs_of main_arg3 (by decide) (by decide))).trans (W_main_arg3 m c),
      ((h c).2 main_arg4 (Pipeline.mem_restRefs_of main_arg4 (by decide) (by decide))).trans (W_main_arg4 m c),
      ((h c).2 main_arg5 (Pipeline.mem_restRefs_of main_arg5 (by decide) (by decide))).trans (W_main_arg5 m c),
      ((h c).2 main_arg6 (Pipeline.mem_restRefs_of main_arg6 (by decide) (by decide))).trans (W_main_arg6 m c)⟩)
    (run_main m ρ)

end Cert.KernelIdeal.Hand

end
-- ==== Proof.Ref.Ops.lean ====
import proofs.«412012_j25271587569863_4_alg».proof.Proof.Gen.ReferenceIdeal
import Idealize.ShloMosaic.Lib.StableHlo.Run

/-! The reference program's @main as a list of its operations, in order: each statement of the printed
    program is one entry, and a call is the callee's statements over the call's own buffers. The list is cut
    where the mathematics cuts: the start, the four layers, the tail. -/

set_option synthInstance.maxSize 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The start: the Gram matrix of the coordinates, the off-diagonal mask, their product, broadcast over the four channels. (16 operations) -/
abbrev opsInit : List (HloOp τ sig (Elt F)) :=
  [ StableHlo.binary main_arg0 main_arg0 main_v0 ((fun l r => Host.dotGeneral dot_S16x512x3_S16x512x3_S16x512x512_2_2_1_1_0_0 none l r) : (⟨S16x512x3, .f32⟩ : BufTy).Contents (Elt F) → (⟨S16x512x3, .f32⟩ : BufTy).Contents (Elt F) → (⟨S16x512x512, .f32⟩ : BufTy).Contents (Elt F)),
    StableHlo.nullary main_v1 (iotaInDim S512x512 32 0),
    StableHlo.nullary main_v2 (iotaInDim S512x512 32 1),
    StableHlo.nullary main_c (constantI S_ 32 0#32),
    StableHlo.unary main_c main_v3 (broadcastInDim S512x512 ![] bcast_S_S512x512 : (⟨S_, .i32⟩ : BufTy).Contents (Elt F) → (⟨S512x512, .i32⟩ : BufTy).Contents (Elt F)),
    StableHlo.binary main_v1 main_v3 main_v4 (addi : (⟨S512x512, .i32⟩ : BufTy).Contents (Elt F) → (⟨S512x512, .i32⟩ : BufTy).Contents (Elt F) → (⟨S512x512, .i32⟩ : BufTy).Contents (Elt F)),
    StableHlo.binary main_v4 main_v2 main_v5 (cmpi .eq : (⟨S512x512, .i32⟩ : BufTy).Contents (Elt F) → (⟨S512x512, .i32⟩ : BufTy).Contents (Elt F) → (⟨S512x512, .i1⟩ : BufTy).Contents (Elt F)),
    StableHlo.unary main_v5 main_v6 (uitofp .f32 : (⟨S512x512, .i1⟩ : BufTy).Contents (Elt F) → (⟨S512x512, .f32⟩ : BufTy).Contents (Elt F)),
    StableHlo.nullary main_cst (constant S_ .f32 0x3F800000#32),
    StableHlo.unary main_cst main_v7 (broadcastInDim S512x512 ![] bcast_S_S512x512 : (⟨S_, .f32⟩ : BufTy).Contents (Elt F) → (⟨S512x512, .f32⟩ : BufTy).Contents (Elt F)),
    StableHlo.binary main_v7 main_v6 main_v8 (subf : (⟨S512x512, .f32⟩ : BufTy).Contents (Elt F) → (⟨S512x512, .f32⟩ : BufTy).Contents (Elt F) → (⟨S512x512, .f32⟩ : BufTy).Contents (Elt F)),
    StableHlo.unary main_v8 main_v9 (broadcastInDim S1x512x512 ![1, 2] bcast_S512x512_S1x512x512_1_2 : (⟨S512x512, .f32⟩ : BufTy).Contents (Elt F) → (⟨S1x512x512, .f32⟩ : BufTy).Contents (Elt F)),
    StableHlo.unary main_v9 main_v10 (broadcastInDim S16x512x512 ![0, 1, 2] bcast_S1x512x512_S16x512x512_0_1_2 : (⟨S1x512x512, .f32⟩ : BufTy).Contents (Elt F) → (⟨S16x512x512, .f32⟩ : BufTy).Contents (Elt F)),
    StableHlo.binary main_v0 main_v10 main_v11 (mulf : (⟨S16x512x512, .f32⟩ : BufTy).Contents (Elt F) → (⟨S16x512x512, .f32⟩ : BufTy).Contents (Elt F) → (⟨S16x512x512, .f32⟩ : BufTy).Contents (Elt F)),
    StableHlo.unary main_v11 main_v12 (broadcastInDim S16x1x512x512 ![0, 2, 3] bcast_S16x512x512_S16x1x512x512_0_2_3 : (⟨S16x512x512, .f32⟩ : BufTy).Contents (Elt F) → (⟨S16x1x512x512, .f32⟩ : BufTy).Contents (Elt F)),
    StableHlo.unary main_v12 main_v13 (broadcastInDim S16x4x512x512 ![0, 1, 2, 3] bcast_S16x1x512x512_S16x4x512x512_0_1_2_3 : (⟨S16x1x512x512, .f32⟩ : BufTy).Contents (Elt F) → (⟨S16x4x512x512, .f32⟩ : BufTy).Contents (Elt F)) ]

/-- Layer 0: weights' column 0, the eight cyclic shifts, the two neighbour sums, celu, the residual, the symmetrisation, the mask. (73 operations) -/
abbrev opsL0 : List (HloOp τ sig (Elt F)) :=
  [ StableHlo.unary main_arg1 main_v14 ((extractStridedSlice S4x1 ![0, 0] · slices_S4x4_S4x1_0_0) : (⟨S4x4, .f32⟩ : BufTy).Contents (Elt F) → (⟨S4x1, .f32⟩ : BufTy).Contents (Elt F)),
    StableHlo.reshape main_v14 main_v15 rfl shapeCasts_S4x1_S4,
    StableHlo.unary main_v15 main_v16 (broadcastInDim S4x1x1 ![0] bcast_S4_S4x1x1_0 : (⟨S4, .f32⟩ : BufTy).Contents (Elt F) → (⟨S4x1x1, .f32⟩ : BufTy).Contents (Elt F)),
    StableHlo.unary main_v16 main_v17 (broadcastInDim S1x4x1x1 ![1, 2, 3] bcast_S4x1x1_S1x4x1x1_1_2_3 : (⟨S4x1x1, .f32⟩ : BufTy).Contents (Elt F) → (⟨S1x4x1x1, .f32⟩ : BufTy).Contents (Elt F)),
    StableHlo.unary main_v17 main_v18 (broadcastInDim S16x4x512x512 ![0, 1, 2, 3] bcast_S1x4x1x1_S16x4x512x512_0_1_2_3 : (⟨S1x4x1x1, .f32⟩ : BufTy).Contents (Elt F) → (⟨S16x4x512x512, .f32⟩ : BufTy).Contents (Elt F)),
    StableHlo.binary main_v18 main_v13 main_v19 (mulf : (⟨S16x4x512x512, .f32⟩ : BufTy).Contents (Elt F) → (⟨S16x4x512x512, .f32⟩ : BufTy).Contents (Elt F) → (⟨S16x4x512x512, .f32⟩ : BufTy).Contents (Elt F)),
    StableHlo.TRef.unary (.of main_v13 : StableHlo.TRef sig ⟨S16x4x512x512, .f32⟩) main_call0.v0 (extractStridedSlice S16x4x512x1 ![0, 0, 0, 511] · slices_S16x4x512x512_S16x4x512x1_0_0_0_511),
    StableHlo.TRef.unary (.of main_v13 : StableHlo.TRef sig ⟨S16x4x512x512, .f32⟩) main_call0.v1 (extractStridedSlice S16x4x512x511 ![0, 0, 0, 0] · slices_S16x4x512x512_S16x4x512x511_0_0_0_0),
    StableHlo.TRef.binary main_call0.v0 main_call0.v1 main_call0.v2 (fun a b => concatenate S16x4x512x512 3 [⟨S16x4x512x1, a⟩, ⟨S16x4x512x511, b⟩] concatenates_S16x4x512x1_S16x4x512x511_S16x4x512x512_d3),
    StableHlo.TRef.unary (.of main_v13 : StableHlo.TRef sig ⟨S16x4x512x512, .f32⟩) main_call1.v0 (extractStridedSlice S16x4x512x511 ![0, 0, 0, 1] · slices_S16x4x512x512_S16x4x512x511_0_0_0_1),
    StableHlo.TRef.unary (.of main_v13 : StableHlo.TRef sig ⟨S16x4x512x512, .f32⟩) main_call1.v1 (extractStridedSlice S16x4x512x1 ![0, 0, 0, 0] · slices_S16x4x512x512_S16x4x512x1_0_0_0_0),
    StableHlo.TRef.binary main_call1.v0 main_call1.v1 main_call1.v2 (fun a b => concatenate S16x4x512x512 3 [⟨S16x4x512x511, a⟩, ⟨S16x4x512x1, b⟩] concatenates_S16x4x512x511_S16x4x512x1_S16x4x512x512_d3),
    StableHlo.binary main_v20 main_v21 main_v22 (addf : (⟨S16x4x512x512, .f32⟩ : BufTy).Contents (Elt F) → (⟨S16x4x512x512, .f32⟩ : BufTy).Contents (Elt F) → (⟨S16x4x512x512, .f32⟩ : BufTy).Contents (Elt F)),
    StableHlo.TRef.unary (.of main_v13 : StableHlo.TRef sig ⟨S16x4x512x512, .f32⟩) main_call2.v0 (extractStridedSlice S16x4x1x512 ![0, 0, 511, 0] · slices_S16x4x512x512_S16x4x1x512_0_0_511_0),
    StableHlo.TRef.unary (.of main_v13 : StableHlo.TRef sig ⟨S16x4x512x512, .f32⟩) main_call2.v1 (extractStridedSlice S16x4x511x512 ![0, 0, 0, 0] · slices_S16x4x512x512_S16x4x511x512_0_0_0_0),
    StableHlo.TRef.binary main_call2.v0 main_call2.v1 main_call2.v2 (fun a b => concatenate S16x4x512x512 2 [⟨S16x4x1x512, a⟩, ⟨S16x4x511x512, b⟩] concatenates_S16x4x1x512_S16x4x511x512_S16x4x512x512_d2),
    StableHlo.binary main_v22 main_v23 main_v24 (addf : (⟨S16x4x512x512, .f32⟩ : BufTy).Contents (Elt F) → (⟨S16x4x512x512, .f32⟩ : BufTy).Contents (Elt F) → (⟨S16x4x512x512, .f32⟩ : BufTy).Contents (Elt F)),
    StableHlo.TRef.unary (.of main_v13 : StableHlo.TRef sig ⟨S16x4x512x512, .f32⟩) main_call3.v0 (extractStridedSlice S16x4x511x512 ![0, 0, 1, 0] · slices_S16x4x512x512_S16x4x511x512_0_0_1_0),
    StableHlo.TRef.unary (.of main_v13 : StableHlo.TRef sig ⟨S16x4x512x512, .f32⟩) main_call3.v1 (extractStridedSlice S16x4x1x512 ![0, 0, 0, 0] · slices_S16x4x512x512_S16x4x1x512_0_0_0_0),
    StableHlo.TRef.binary main_call3.v0 main_call3.v1 main_call3.v2 (fun a b => concatenate S16x4x512x512 2 [⟨S16x4x511x512, a⟩, ⟨S16x4x1x512, b⟩] concatenates_S16x4x511x512_S16x4x1x512_S16x4x512x512_d2),
    StableHlo.binary main_v24 main_v25 main_v26 (addf : (⟨S16x4x512x512, .f32⟩ : BufTy).Contents (Elt F) → (⟨S16x4x512x512, .f32⟩ : BufTy).Contents (Elt F) → (⟨S16x4x512x512, .f32⟩ : BufTy).Contents (Elt F)),
    StableHlo.unary main_arg2 main_v27 ((extractStridedSlice S4x1x1 ![0, 0, 0] · slices_S4x4x2_S4x1x1_0_0_0) : (⟨S4x4x2, .f32⟩ : BufTy).Contents (Elt F) → (⟨S4x1x1, .f32⟩ : BufTy).Contents (Elt F)),
    StableHlo.reshape main_v27 main_v28 rfl shapeCasts_S4x1x1_S4,
    StableHlo.unary main_v28 main_v29 (broadcastInDim S4x1x1 ![0] bcast_S4_S4x1x1_0 : (⟨S4, .f32⟩ : BufTy).Contents (Elt F) → (⟨S4x1x1, .f32⟩ : BufTy).Contents (Elt F)),
    StableHlo.unary main_v29 main_v30 (broadcastInDim S1x4x1x1 ![1, 2, 3] bcast_S4x1x1_S1x4x1x1_1_2_3 : (⟨S4x1x1, .f32⟩ : BufTy).Contents (Elt F) → (⟨S1x4x1x1, .f32⟩ : BufTy).Contents (Elt F)),
    StableHlo.unary main_v30 main_v31 (broadcastInDim S16x4x512x512 ![0, 1, 2, 3] bcast_S1x4x1x1_S16x4x512x512_0_1_2_3 : (⟨S1x4x1x1, .f32⟩ : BufTy).Contents (Elt F) → (⟨S16x4x512x512, .f32⟩ : BufTy).Contents (Elt F)),
    StableHlo.binary main_v31 main_v26 main_v32 (mulf : (⟨S16x4x512x512, .f32⟩ : BufTy).Contents (Elt F) → (⟨S16x4x512x512, .f32⟩ : BufTy).Contents (Elt F) → (⟨S16x4x512x512, .f32⟩ : BufTy).Contents (Elt F)),
    StableHlo.binary main_v19 main_v32 main_v33 (addf : (⟨S16x4x512x512, .f32⟩ : BufTy).Contents (Elt F) → (⟨S16x4x512x512, .f32⟩ : BufTy).Contents (Elt F) → (⟨S16x4x512x512, .f32⟩ : BufTy).Contents (Elt F)),
    StableHlo.TRef.unary (.of main_v13 : StableHlo.TRef sig ⟨S16x4x512x512, .f32⟩) main_call4.v0 (extractStridedSlice S16x4x512x2 ![0, 0, 0, 510] · slices_S16x4x512x512_S16x4x512x2_0_0_0_510),
    StableHlo.TRef.unary (.of main_v13 : StableHlo.TRef sig ⟨S16x4x512x512, .f32⟩) main_call4.v1 (extractStridedSlice S16x4x512x510 ![0, 0, 0, 0] · slices_S16x4x512x512_S16x4x512x510_0_0_0_0),
    StableHlo.TRef.binary main_call4.v0 main_call4.v1 main_call4.v2 (fun a b => concatenate S16x4x512x512 3 [⟨S16x4x512x2, a⟩, ⟨S16x4x512x510, b⟩] concatenates_S16x4x512x2_S16x4x512x510_S16x4x512x512_d3),
    StableHlo.TRef.unary (.of main_v13 : StableHlo.TRef sig ⟨S16x4x512x512, .f32⟩) main_call5.v0 (extractStridedSlice S16x4x512x510 ![0, 0, 0, 2] · slices_S16x4x512x512_S16x4x512x510_0_0_0_2),
    StableHlo.TRef.unary (.of main_v13 : StableHlo.TRef sig ⟨S16x4x512x512, .f32⟩) main_call5.v1 (extractStridedSlice S16x4x512x2 ![0, 0, 0, 0] · slices_S16x4x512x512_S16x4x512x2_0_0_0_0),
    StableHlo.TRef.binary main_call5.v0 main_call5.v1 main_call5.v2 (fun a b => concatenate S16x4x512x512 3 [⟨S16x4x512x510, a⟩, ⟨S16x4x512x2, b⟩] concatenates_S16x4x512x510_S16x4x512x2_S16x4x512x512_d3),
    StableHlo.binary main_v34 main_v35 main_v36 (addf : (⟨S16x4x512x512, .f32⟩ : BufTy).Contents (Elt F) → (⟨S16x4x512x512, .f32⟩ : BufTy).Contents (Elt F) → (⟨S16x4x512x512, .f32⟩ : BufTy).Contents (Elt F)),
    StableHlo.TRef.unary (.of main_v13 : StableHlo.TRef sig ⟨S16x4x512x512, .f32⟩) main_call6.v0 (extractStridedSlice S16x4x2x512 ![0, 0, 510, 0] · slices_S16x4x512x512_S16x4x2x512_0_0_510_0),
    StableHlo.TRef.unary (.of main_v13 : StableHlo.TRef sig ⟨S16x4x512x512, .f32⟩) main_call6.v1 (extractStridedSlice S16x4x510x512 ![0, 0, 0, 0] · slices_S16x4x512x512_S16x4x510x512_0_0_0_0),
    StableHlo.TRef.binary main_call6.v0 main_call6.v1 main_call6.v2 (fun a b => concatenate S16x4x512x512 2 [⟨S16x4x2x512, a⟩, ⟨S16x4x510x512, b⟩] concatenates_S16x4x2x512_S16x4x510x512_S16x4x512x512_d2),
    StableHlo.binary main_v36 main_v37 main_v38 (addf : (⟨S16x4x512x512, .f32⟩ : BufTy).Contents (Elt F) → (⟨S16x4x512x512, .f32⟩ : BufTy).Contents (Elt F) → (⟨S16x4x512x512, .f32⟩ : BufTy).Contents (Elt F)),
    StableHlo.TRef.unary (.of main_v13 : StableHlo.TRef sig ⟨S16x4x512x512, .f32⟩) main_call7.v0 (extractStridedSlice S16x4x510x512 ![0, 0, 2, 0] · slices_S16x4x512x512_S16x4x510x512_0_0_2_0),
    StableHlo.TRef.unary (.of main_v13 : StableHlo.TRef sig ⟨S16x4x512x512, .f32⟩) main_call7.v1 (extractStridedSlice S16x4x2x512 ![0, 0, 0, 0] · slices_S16x4x512x512_S16x4x2x512_0_0_0_0),
    StableHlo.TRef.binary main_call7.v0 main_call7.v1 main_call7.v2 (fun a b => concatenate S16x4x512x512 2 [⟨S16x4x510x512, a⟩, ⟨S16x4x2x512, b⟩] concatenates_S16x4x510x512_S16x4x2x512_S16x4x512x512_d2),
    StableHlo.binary main_v38 main_v39 main_v40 (addf : (⟨S16x4x512x512, .f32⟩ : BufTy).Contents (Elt F) → (⟨S16x4x512x512, .f32⟩ : BufTy).Contents (Elt F) → (⟨S16x4x512x512, .f32⟩ : BufTy).Contents (Elt F)),
    StableHlo.unary main_arg2 main_v41 ((extractStridedSlice S4x1x1 ![0, 0, 1] · slices_S4x4x2_S4x1x1_0_0_1) : (⟨S4x4x2, .f32⟩ : BufTy).Contents (Elt F) → (⟨S4x1x1, .f32⟩ : BufTy).Contents (Elt F)),
    StableHlo.reshape main_v41 main_v42 rfl shapeCasts_S4x1x1_S4,
    StableHlo.unary main_v42 main_v43 (broadcastInDim S4x1x1 ![0] bcast_S4_S4x1x1_0 : (⟨S4, .f32⟩ : BufTy).Contents (Elt F) → (⟨S4x1x1, .f32⟩ : BufTy).Contents (Elt F)),
    StableHlo.unary main_v43 main_v44 (broadcastInDim S1x4x1x1 ![1, 2, 3] bcast_S4x1x1_S1x4x1x1_1_2_3 : (⟨S4x1x1, .f32⟩ : BufTy).Contents (Elt F) → (⟨S1x4x1x1, .f32⟩ : BufTy).Contents (Elt F)),
    StableHlo.unary main_v44 main_v45 (broadcastInDim S16x4x512x512 ![0, 1, 2, 3] bcast_S1x4x1x1_S16x4x512x512_0_1_2_3 : (⟨S1x4x1x1, .f32⟩ : BufTy).Contents (Elt F) → (⟨S16x4x512x512, .f32⟩ : BufTy).Contents (Elt F)),
    StableHlo.binary main_v45 main_v40 main_v46 (mulf : (⟨S16x4x512x512, .f32⟩ : BufTy).Contents (Elt F) → (⟨S16x4x512x512, .f32⟩ : BufTy).Contents (Elt F) → (⟨S16x4x512x512, .f32⟩ : BufTy).Contents (Elt F)),
    StableHlo.binary main_v33 main_v46 main_v47 (addf : (⟨S16x4x512x512, .f32⟩ : BufTy).Contents (Elt F) → (⟨S16x4x512x512, .f32⟩ : BufTy).Contents (Elt F) → (⟨S16x4x512x512, .f32⟩ : BufTy).Contents (Elt F)),
    StableHlo.TRef.nullary main_call8.cst (constant S_ .f32 0x00000000#32),
    StableHlo.TRef.unary main_call8.cst main_call8.v0 (broadcastInDim S16x4x512x512 ![] bcast_S_S16x4x512x512),
    StableHlo.TRef.binary (.of main_v47 : StableHlo.TRef sig ⟨S16x4x512x512, .f32⟩) main_call8.v0 main_call8.v1 maximumf,
    StableHlo.TRef.nullary main_call8.cst_0 (constant S_ .f32 0x00000000#32),
    StableHlo.TRef.unary main_call8.cst_0 main_call8.v2 (broadcastInDim S16x4x512x512 ![] bcast_S_S16x4x512x512),
    StableHlo.TRef.binary (.of main_v47 : StableHlo.TRef sig ⟨S16x4x512x512, .f32⟩) main_call8.v2 main_call8.v3 minimumf,
    StableHlo.TRef.nullary main_call8.cst_1 (constant S_ .f32 0x3F800000#32),
    StableHlo.TRef.unary main_call8.cst_1 main_call8.v4 (broadcastInDim S16x4x512x512 ![] bcast_S_S16x4x512x512),
    StableHlo.TRef.binary main_call8.v3 main_call8.v4 main_call8.v5 Host.divf,
    StableHlo.TRef.unary main_call8.v5 main_call8.v6 Host.expm1,
    StableHlo.TRef.nullary main_call8.cst_2 (constant S_ .f32 0x3F800000#32),
    StableHlo.TRef.unary main_call8.cst_2 main_call8.v7 (broadcastInDim S16x4x512x512 ![] bcast_S_S16x4x512x512),
    StableHlo.TRef.binary main_call8.v7 main_call8.v6 main_call8.v8 mulf,
    StableHlo.TRef.binary main_call8.v1 main_call8.v8 main_call8.v9 addf,
    StableHlo.binary main_v13 main_v48 main_v49 (addf : (⟨S16x4x512x512, .f32⟩ : BufTy).Contents (Elt F) → (⟨S16x4x512x512, .f32⟩ : BufTy).Contents (Elt F) → (⟨S16x4x512x512, .f32⟩ : BufTy).Contents (Elt F)),
    StableHlo.unary main_v49 main_v50 ((transpose S16x4x512x512 [0, 1, 3, 2] · transposes_S16x4x512x512_S16x4x512x512_0_1_3_2) : (⟨S16x4x512x512, .f32⟩ : BufTy).Contents (Elt F) → (⟨S16x4x512x512, .f32⟩ : BufTy).Contents (Elt F)),
    StableHlo.binary main_v49 main_v50 main_v51 (addf : (⟨S16x4x512x512, .f32⟩ : BufTy).Contents (Elt F) → (⟨S16x4x512x512, .f32⟩ : BufTy).Contents (Elt F) → (⟨S16x4x512x512, .f32⟩ : BufTy).Contents (Elt F)),
    StableHlo.nullary main_cst_0 (constant S_ .f32 0x3F000000#32),
    StableHlo.unary main_cst_0 main_v52 (broadcastInDim S16x4x512x512 ![] bcast_S_S16x4x512x512 : (⟨S_, .f32⟩ : BufTy).Contents (Elt F) → (⟨S16x4x512x512, .f32⟩ : BufTy).Contents (Elt F)),
    StableHlo.binary main_v52 main_v51 main_v53 (mulf : (⟨S16x4x512x512, .f32⟩ : BufTy).Contents (Elt F) → (⟨S16x4x512x512, .f32⟩ : BufTy).Contents (Elt F) → (⟨S16x4x512x512, .f32⟩ : BufTy).Contents (Elt F)),
    StableHlo.unary main_v8 main_v54 (broadcastInDim S1x1x512x512 ![2, 3] bcast_S512x512_S1x1x512x512_2_3 : (⟨S512x512, .f32⟩ : BufTy).Contents (Elt F) → (⟨S1x1x512x512, .f32⟩ : BufTy).Contents (Elt F)),
    StableHlo.unary main_v54 main_v55 (broadcastInDim S16x4x512x512 ![0, 1, 2, 3] bcast_S1x1x512x512_S16x4x512x512_0_1_2_3 : (⟨S1x1x512x512, .f32⟩ : BufTy).Contents (Elt F) → (⟨S16x4x512x512, .f32⟩ : BufTy).Contents (Elt F)),
    StableHlo.binary main_v53 main_v55 main_v56 (mulf : (⟨S16x4x512x512, .f32⟩ : BufTy).Contents (Elt F) → (⟨S16x4x512x512, .f32⟩ : BufTy).Contents (Elt F) → (⟨S16x4x512x512, .f32⟩ : BufTy).Contents (Elt F)) ]

/-- Layer 1: the same operations with the weights' column 1, on layer 0's result. (73 operations) -/
abbrev opsL1 : List (HloOp τ sig (Elt F)) :=
  [ StableHlo.unary main_arg1 main_v57 ((extractStridedSlice S4x1 ![0, 1] · slices_S4x4_S4x1_0_1) : (⟨S4x4, .f32⟩ : BufTy).Contents (Elt F) → (⟨S4x1, .f32⟩ : BufTy).Contents (Elt F)),
    StableHlo.reshape main_v57 main_v58 rfl shapeCasts_S4x1_S4,
    StableHlo.unary main_v58 main_v59 (broadcastInDim S4x1x1 ![0] bcast_S4_S4x1x1_0 : (⟨S4, .f32⟩ : BufTy).Contents (Elt F) → (⟨S4x1x1, .f32⟩ : BufTy).Contents (Elt F)),
    StableHlo.unary main_v59 main_v60 (broadcastInDim S1x4x1x1 ![1, 2, 3] bcast_S4x1x1_S1x4x1x1_1_2_3 : (⟨S4x1x1, .f32⟩ : BufTy).Contents (Elt F) → (⟨S1x4x1x1, .f32⟩ : BufTy).Contents (Elt F)),
    StableHlo.unary main_v60 main_v61 (broadcastInDim S16x4x512x512 ![0, 1, 2, 3] bcast_S1x4x1x1_S16x4x512x512_0_1_2_3 : (⟨S1x4x1x1, .f32⟩ : BufTy).Contents (Elt F) → (⟨S16x4x512x512, .f32⟩ : BufTy).Contents (Elt F)),
    StableHlo.binary main_v61 main_v56 main_v62 (mulf : (⟨S16x4x512x512, .f32⟩ : BufTy).Contents (Elt F) → (⟨S16x4x512x512, .f32⟩ : BufTy).Contents (Elt F) → (⟨S16x4x512x512, .f32⟩ : BufTy).Contents (Elt F)),
    StableHlo.TRef.unary (.of main_v56 : StableHlo.TRef sig ⟨S16x4x512x512, .f32⟩) main_call9.v0 (extractStridedSlice S16x4x512x1 ![0, 0, 0, 511] · slices_S16x4x512x512_S16x4x512x1_0_0_0_511),
    StableHlo.TRef.unary (.of main_v56 : StableHlo.TRef sig ⟨S16x4x512x512, .f32⟩) main_call9.v1 (extractStridedSlice S16x4x512x511 ![0, 0, 0, 0] · slices_S16x4x512x512_S16x4x512x511_0_0_0_0),
    StableHlo.TRef.binary main_call9.v0 main_call9.v1 main_call9.v2 (fun a b => concatenate S16x4x512x512 3 [⟨S16x4x512x1, a⟩, ⟨S16x4x512x511, b⟩] concatenates_S16x4x512x1_S16x4x512x511_S16x4x512x512_d3),
    StableHlo.TRef.unary (.of main_v56 : StableHlo.TRef sig ⟨S16x4x512x512, .f32⟩) main_call10.v0 (extractStridedSlice S16x4x512x511 ![0, 0, 0, 1] · slices_S16x4x512x512_S16x4x512x511_0_0_0_1),
    StableHlo.TRef.unary (.of main_v56 : StableHlo.TRef sig ⟨S16x4x512x512, .f32⟩) main_call10.v1 (extractStridedSlice S16x4x512x1 ![0, 0, 0, 0] · slices_S16x4x512x512_S16x4x512x1_0_0_0_0),
    StableHlo.TRef.binary main_call10.v0 main_call10.v1 main_call10.v2 (fun a b => concatenate S16x4x512x512 3 [⟨S16x4x512x511, a⟩, ⟨S16x4x512x1, b⟩] concatenates_S16x4x512x511_S16x4x512x1_S16x4x512x512_d3),
    StableHlo.binary main_v63 main_v64 main_v65 (addf : (⟨S16x4x512x512, .f32⟩ : BufTy).Contents (Elt F) → (⟨S16x4x512x512, .f32⟩ : BufTy).Contents (Elt F) → (⟨S16x4x512x512, .f32⟩ : BufTy).Contents (Elt F)),
    StableHlo.TRef.unary (.of main_v56 : StableHlo.TRef sig ⟨S16x4x512x512, .f32⟩) main_call11.v0 (extractStridedSlice S16x4x1x512 ![0, 0, 511, 0] · slices_S16x4x512x512_S16x4x1x512_0_0_511_0),
    StableHlo.TRef.unary (.of main_v56 : StableHlo.TRef sig ⟨S16x4x512x512, .f32⟩) main_call11.v1 (extractStridedSlice S16x4x511x512 ![0, 0, 0, 0] · slices_S16x4x512x512_S16x4x511x512_0_0_0_0),
    StableHlo.TRef.binary main_call11.v0 main_call11.v1 main_call11.v2 (fun a b => concatenate S16x4x512x512 2 [⟨S16x4x1x512, a⟩, ⟨S16x4x511x512, b⟩] concatenates_S16x4x1x512_S16x4x511x512_S16x4x512x512_d2),
    StableHlo.binary main_v65 main_v66 main_v67 (addf : (⟨S16x4x512x512, .f32⟩ : BufTy).Contents (Elt F) → (⟨S16x4x512x512, .f32⟩ : BufTy).Contents (Elt F) → (⟨S16x4x512x512, .f32⟩ : BufTy).Contents (Elt F)),
    StableHlo.TRef.unary (.of main_v56 : StableHlo.TRef sig ⟨S16x4x512x512, .f32⟩) main_call12.v0 (extractStridedSlice S16x4x511x512 ![0, 0, 1, 0] · slices_S16x4x512x512_S16x4x511x512_0_0_1_0),
    StableHlo.TRef.unary (.of main_v56 : StableHlo.TRef sig ⟨S16x4x512x512, .f32⟩) main_call12.v1 (extractStridedSlice S16x4x1x512 ![0, 0, 0, 0] · slices_S16x4x512x512_S16x4x1x512_0_0_0_0),
    StableHlo.TRef.binary main_call12.v0 main_call12.v1 main_call12.v2 (fun a b => concatenate S16x4x512x512 2 [⟨S16x4x511x512, a⟩, ⟨S16x4x1x512, b⟩] concatenates_S16x4x511x512_S16x4x1x512_S16x4x512x512_d2),
    StableHlo.binary main_v67 main_v68 main_v69 (addf : (⟨S16x4x512x512, .f32⟩ : BufTy).Contents (Elt F) → (⟨S16x4x512x512, .f32⟩ : BufTy).Contents (Elt F) → (⟨S16x4x512x512, .f32⟩ : BufTy).Contents (Elt F)),
    StableHlo.unary main_arg2 main_v70 ((extractStridedSlice S4x1x1 ![0, 1, 0] · slices_S4x4x2_S4x1x1_0_1_0) : (⟨S4x4x2, .f32⟩ : BufTy).Contents (Elt F) → (⟨S4x1x1, .f32⟩ : BufTy).Contents (Elt F)),
    StableHlo.reshape main_v70 main_v71 rfl shapeCasts_S4x1x1_S4,
    StableHlo.unary main_v71 main_v72 (broadcastInDim S4x1x1 ![0] bcast_S4_S4x1x1_0 : (⟨S4, .f32⟩ : BufTy).Contents (Elt F) → (⟨S4x1x1, .f32⟩ : BufTy).Contents (Elt F)),
    StableHlo.unary main_v72 main_v73 (broadcastInDim S1x4x1x1 ![1, 2, 3] bcast_S4x1x1_S1x4x1x1_1_2_3 : (⟨S4x1x1, .f32⟩ : BufTy).Contents (Elt F) → (⟨S1x4x1x1, .f32⟩ : BufTy).Contents (Elt F)),
    StableHlo.unary main_v73 main_v74 (broadcastInDim S16x4x512x512 ![0, 1, 2, 3] bcast_S1x4x1x1_S16x4x512x512_0_1_2_3 : (⟨S1x4x1x1, .f32⟩ : BufTy).Contents (Elt F) → (⟨S16x4x512x512, .f32⟩ : BufTy).Contents (Elt F)),
    StableHlo.binary main_v74 main_v69 main_v75 (mulf : (⟨S16x4x512x512, .f32⟩ : BufTy).Contents (Elt F) → (⟨S16x4x512x512, .f32⟩ : BufTy).Contents (Elt F) → (⟨S16x4x512x512, .f32⟩ : BufTy).Contents (Elt F)),
    StableHlo.binary main_v62 main_v75 main_v76 (addf : (⟨S16x4x512x512, .f32⟩ : BufTy).Contents (Elt F) → (⟨S16x4x512x512, .f32⟩ : BufTy).Contents (Elt F) → (⟨S16x4x512x512, .f32⟩ : BufTy).Contents (Elt F)),
    StableHlo.TRef.unary (.of main_v56 : StableHlo.TRef sig ⟨S16x4x512x512, .f32⟩) main_call13.v0 (extractStridedSlice S16x4x512x2 ![0, 0, 0, 510] · slices_S16x4x512x512_S16x4x512x2_0_0_0_510),
    StableHlo.TRef.unary (.of main_v56 : StableHlo.TRef sig ⟨S16x4x512x512, .f32⟩) main_call13.v1 (extractStridedSlice S16x4x512x510 ![0, 0, 0, 0] · slices_S16x4x512x512_S16x4x512x510_0_0_0_0),
    StableHlo.TRef.binary main_call13.v0 main_call13.v1 main_call13.v2 (fun a b => concatenate S16x4x512x512 3 [⟨S16x4x512x2, a⟩, ⟨S16x4x512x510, b⟩] concatenates_S16x4x512x2_S16x4x512x510_S16x4x512x512_d3),
    StableHlo.TRef.unary (.of main_v56 : StableHlo.TRef sig ⟨S16x4x512x512, .f32⟩) main_call14.v0 (extractStridedSlice S16x4x512x510 ![0, 0, 0, 2] · slices_S16x4x512x512_S16x4x512x510_0_0_0_2),
    StableHlo.TRef.unary (.of main_v56 : StableHlo.TRef sig ⟨S16x4x512x512, .f32⟩) main_call14.v1 (extractStridedSlice S16x4x512x2 ![0, 0, 0, 0] · slices_S16x4x512x512_S16x4x512x2_0_0_0_0),
    StableHlo.TRef.binary main_call14.v0 main_call14.v1 main_call14.v2 (fun a b => concatenate S16x4x512x512 3 [⟨S16x4x512x510, a⟩, ⟨S16x4x512x2, b⟩] concatenates_S16x4x512x510_S16x4x512x2_S16x4x512x512_d3),
    StableHlo.binary main_v77 main_v78 main_v79 (addf : (⟨S16x4x512x512, .f32⟩ : BufTy).Contents (Elt F) → (⟨S16x4x512x512, .f32⟩ : BufTy).Contents (Elt F) → (⟨S16x4x512x512, .f32⟩ : BufTy).Contents (Elt F)),
    StableHlo.TRef.unary (.of main_v56 : StableHlo.TRef sig ⟨S16x4x512x512, .f32⟩) main_call15.v0 (extractStridedSlice S16x4x2x512 ![0, 0, 510, 0] · slices_S16x4x512x512_S16x4x2x512_0_0_510_0),
    StableHlo.TRef.unary (.of main_v56 : StableHlo.TRef sig ⟨S16x4x512x512, .f32⟩) main_call15.v1 (extractStridedSlice S16x4x510x512 ![0, 0, 0, 0] · slices_S16x4x512x512_S16x4x510x512_0_0_0_0),
    StableHlo.TRef.binary main_call15.v0 main_call15.v1 main_call15.v2 (fun a b => concatenate S16x4x512x512 2 [⟨S16x4x2x512, a⟩, ⟨S16x4x510x512, b⟩] concatenates_S16x4x2x512_S16x4x510x512_S16x4x512x512_d2),
    StableHlo.binary main_v79 main_v80 main_v81 (addf : (⟨S16x4x512x512, .f32⟩ : BufTy).Contents (Elt F) → (⟨S16x4x512x512, .f32⟩ : BufTy).Contents (Elt F) → (⟨S16x4x512x512, .f32⟩ : BufTy).Contents (Elt F)),
    StableHlo.TRef.unary (.of main_v56 : StableHlo.TRef sig ⟨S16x4x512x512, .f32⟩) main_call16.v0 (extractStridedSlice S16x4x510x512 ![0, 0, 2, 0] · slices_S16x4x512x512_S16x4x510x512_0_0_2_0),
    StableHlo.TRef.unary (.of main_v56 : StableHlo.TRef sig ⟨S16x4x512x512, .f32⟩) main_call16.v1 (extractStridedSlice S16x4x2x512 ![0, 0, 0, 0] · slices_S16x4x512x512_S16x4x2x512_0_0_0_0),
    StableHlo.TRef.binary main_call16.v0 main_call16.v1 main_call16.v2 (fun a b => concatenate S16x4x512x512 2 [⟨S16x4x510x512, a⟩, ⟨S16x4x2x512, b⟩] concatenates_S16x4x510x512_S16x4x2x512_S16x4x512x512_d2),
    StableHlo.binary main_v81 main_v82 main_v83 (addf : (⟨S16x4x512x512, .f32⟩ : BufTy).Contents (Elt F) → (⟨S16x4x512x512, .f32⟩ : BufTy).Contents (Elt F) → (⟨S16x4x512x512, .f32⟩ : BufTy).Contents (Elt F)),
    StableHlo.unary main_arg2 main_v84 ((extractStridedSlice S4x1x1 ![0, 1, 1] · slices_S4x4x2_S4x1x1_0_1_1) : (⟨S4x4x2, .f32⟩ : BufTy).Contents (Elt F) → (⟨S4x1x1, .f32⟩ : BufTy).Contents (Elt F)),
    StableHlo.reshape main_v84 main_v85 rfl shapeCasts_S4x1x1_S4,
    StableHlo.unary main_v85 main_v86 (broadcastInDim S4x1x1 ![0] bcast_S4_S4x1x1_0 : (⟨S4, .f32⟩ : BufTy).Contents (Elt F) → (⟨S4x1x1, .f32⟩ : BufTy).Contents (Elt F)),
    StableHlo.unary main_v86 main_v87 (broadcastInDim S1x4x1x1 ![1, 2, 3] bcast_S4x1x1_S1x4x1x1_1_2_3 : (⟨S4x1x1, .f32⟩ : BufTy).Contents (Elt F) → (⟨S1x4x1x1, .f32⟩ : BufTy).Contents (Elt F)),
    StableHlo.unary main_v87 main_v88 (broadcastInDim S16x4x512x512 ![0, 1, 2, 3] bcast_S1x4x1x1_S16x4x512x512_0_1_2_3 : (⟨S1x4x1x1, .f32⟩ : BufTy).Contents (Elt F) → (⟨S16x4x512x512, .f32⟩ : BufTy).Contents (Elt F)),
    StableHlo.binary main_v88 main_v83 main_v89 (mulf : (⟨S16x4x512x512, .f32⟩ : BufTy).Contents (Elt F) → (⟨S16x4x512x512, .f32⟩ : BufTy).Contents (Elt F) → (⟨S16x4x512x512, .f32⟩ : BufTy).Contents (Elt F)),
    StableHlo.binary main_v76 main_v89 main_v90 (addf : (⟨S16x4x512x512, .f32⟩ : BufTy).Contents (Elt F) → (⟨S16x4x512x512, .f32⟩ : BufTy).Contents (Elt F) → (⟨S16x4x512x512, .f32⟩ : BufTy).Contents (Elt F)),
    StableHlo.TRef.nullary main_call17.cst (constant S_ .f32 0x00000000#32),
    StableHlo.TRef.unary main_call17.cst main_call17.v0 (broadcastInDim S16x4x512x512 ![] bcast_S_S16x4x512x512),
    StableHlo.TRef.binary (.of main_v90 : StableHlo.TRef sig ⟨S16x4x512x512, .f32⟩) main_call17.v0 main_call17.v1 maximumf,
    StableHlo.TRef.nullary main_call17.cst_0 (constant S_ .f32 0x00000000#32),
    StableHlo.TRef.unary main_call17.cst_0 main_call17.v2 (broadcastInDim S16x4x512x512 ![] bcast_S_S16x4x512x512),
    StableHlo.TRef.binary (.of main_v90 : StableHlo.TRef sig ⟨S16x4x512x512, .f32⟩) main_call17.v2 main_call17.v3 minimumf,
    StableHlo.TRef.nullary main_call17.cst_1 (constant S_ .f32 0x3F800000#32),
    StableHlo.TRef.unary main_call17.cst_1 main_call17.v4 (broadcastInDim S16x4x512x512 ![] bcast_S_S16x4x512x512),
    StableHlo.TRef.binary main_call17.v3 main_call17.v4 main_call17.v5 Host.divf,
    StableHlo.TRef.unary main_call17.v5 main_call17.v6 Host.expm1,
    StableHlo.TRef.nullary main_call17.cst_2 (constant S_ .f32 0x3F800000#32),
    StableHlo.TRef.unary main_call17.cst_2 main_call17.v7 (broadcastInDim S16x4x512x512 ![] bcast_S_S16x4x512x512),
    StableHlo.TRef.binary main_call17.v7 main_call17.v6 main_call17.v8 mulf,
    StableHlo.TRef.binary main_call17.v1 main_call17.v8 main_call17.v9 addf,
    StableHlo.binary main_v56 main_v91 main_v92 (addf : (⟨S16x4x512x512, .f32⟩ : BufTy).Contents (Elt F) → (⟨S16x4x512x512, .f32⟩ : BufTy).Contents (Elt F) → (⟨S16x4x512x512, .f32⟩ : BufTy).Contents (Elt F)),
    StableHlo.unary main_v92 main_v93 ((transpose S16x4x512x512 [0, 1, 3, 2] · transposes_S16x4x512x512_S16x4x512x512_0_1_3_2) : (⟨S16x4x512x512, .f32⟩ : BufTy).Contents (Elt F) → (⟨S16x4x512x512, .f32⟩ : BufTy).Contents (Elt F)),
    StableHlo.binary main_v92 main_v93 main_v94 (addf : (⟨S16x4x512x512, .f32⟩ : BufTy).Contents (Elt F) → (⟨S16x4x512x512, .f32⟩ : BufTy).Contents (Elt F) → (⟨S16x4x512x512, .f32⟩ : BufTy).Contents (Elt F)),
    StableHlo.nullary main_cst_1 (constant S_ .f32 0x3F000000#32),
    StableHlo.unary main_cst_1 main_v95 (broadcastInDim S16x4x512x512 ![] bcast_S_S16x4x512x512 : (⟨S_, .f32⟩ : BufTy).Contents (Elt F) → (⟨S16x4x512x512, .f32⟩ : BufTy).Contents (Elt F)),
    StableHlo.binary main_v95 main_v94 main_v96 (mulf : (⟨S16x4x512x512, .f32⟩ : BufTy).Contents (Elt F) → (⟨S16x4x512x512, .f32⟩ : BufTy).Contents (Elt F) → (⟨S16x4x512x512, .f32⟩ : BufTy).Contents (Elt F)),
    StableHlo.unary main_v8 main_v97 (broadcastInDim S1x1x512x512 ![2, 3] bcast_S512x512_S1x1x512x512_2_3 : (⟨S512x512, .f32⟩ : BufTy).Contents (Elt F) → (⟨S1x1x512x512, .f32⟩ : BufTy).Contents (Elt F)),
    StableHlo.unary main_v97 main_v98 (broadcastInDim S16x4x512x512 ![0, 1, 2, 3] bcast_S1x1x512x512_S16x4x512x512_0_1_2_3 : (⟨S1x1x512x512, .f32⟩ : BufTy).Contents (Elt F) → (⟨S16x4x512x512, .f32⟩ : BufTy).Contents (Elt F)),
    StableHlo.binary main_v96 main_v98 main_v99 (mulf : (⟨S16x4x512x512, .f32⟩ : BufTy).Contents (Elt F) → (⟨S16x4x512x512, .f32⟩ : BufTy).Contents (Elt F) → (⟨S16x4x512x512, .f32⟩ : BufTy).Contents (Elt F)) ]

/-- Layer 2: the same operations with the weights' column 2, on layer 1's result. (73 operations) -/
abbrev opsL2 : List (HloOp τ sig (Elt F)) :=
  [ StableHlo.unary main_arg1 main_v100 ((extractStridedSlice S4x1 ![0, 2] · slices_S4x4_S4x1_0_2) : (⟨S4x4, .f32⟩ : BufTy).Contents (Elt F) → (⟨S4x1, .f32⟩ : BufTy).Contents (Elt F)),
    StableHlo.reshape main_v100 main_v101 rfl shapeCasts_S4x1_S4,
    StableHlo.unary main_v101 main_v102 (broadcastInDim S4x1x1 ![0] bcast_S4_S4x1x1_0 : (⟨S4, .f32⟩ : BufTy).Contents (Elt F) → (⟨S4x1x1, .f32⟩ : BufTy).Contents (Elt F)),
    StableHlo.unary main_v102 main_v103 (broadcastInDim S1x4x1x1 ![1, 2, 3] bcast_S4x1x1_S1x4x1x1_1_2_3 : (⟨S4x1x1, .f32⟩ : BufTy).Contents (Elt F) → (⟨S1x4x1x1, .f32⟩ : BufTy).Contents (Elt F)),
    StableHlo.unary main_v103 main_v104 (broadcastInDim S16x4x512x512 ![0, 1, 2, 3] bcast_S1x4x1x1_S16x4x512x512_0_1_2_3 : (⟨S1x4x1x1, .f32⟩ : BufTy).Contents (Elt F) → (⟨S16x4x512x512, .f32⟩ : BufTy).Contents (Elt F)),
    StableHlo.binary main_v104 main_v99 main_v105 (mulf : (⟨S16x4x512x512, .f32⟩ : BufTy).Contents (Elt F) → (⟨S16x4x512x512, .f32⟩ : BufTy).Contents (Elt F) → (⟨S16x4x512x512, .f32⟩ : BufTy).Contents (Elt F)),
    StableHlo.TRef.unary (.of main_v99 : StableHlo.TRef sig ⟨S16x4x512x512, .f32⟩) main_call18.v0 (extractStridedSlice S16x4x512x1 ![0, 0, 0, 511] · slices_S16x4x512x512_S16x4x512x1_0_0_0_511),
    StableHlo.TRef.unary (.of main_v99 : StableHlo.TRef sig ⟨S16x4x512x512, .f32⟩) main_call18.v1 (extractStridedSlice S16x4x512x511 ![0, 0, 0, 0] · slices_S16x4x512x512_S16x4x512x511_0_0_0_0),
    StableHlo.TRef.binary main_call18.v0 main_call18.v1 main_call18.v2 (fun a b => concatenate S16x4x512x512 3 [⟨S16x4x512x1, a⟩, ⟨S16x4x512x511, b⟩] concatenates_S16x4x512x1_S16x4x512x511_S16x4x512x512_d3),
    StableHlo.TRef.unary (.of main_v99 : StableHlo.TRef sig ⟨S16x4x512x512, .f32⟩) main_call19.v0 (extractStridedSlice S16x4x512x511 ![0, 0, 0, 1] · slices_S16x4x512x512_S16x4x512x511_0_0_0_1),
    StableHlo.TRef.unary (.of main_v99 : StableHlo.TRef sig ⟨S16x4x512x512, .f32⟩) main_call19.v1 (extractStridedSlice S16x4x512x1 ![0, 0, 0, 0] · slices_S16x4x512x512_S16x4x512x1_0_0_0_0),
    StableHlo.TRef.binary main_call19.v0 main_call19.v1 main_call19.v2 (fun a b => concatenate S16x4x512x512 3 [⟨S16x4x512x511, a⟩, ⟨S16x4x512x1, b⟩] concatenates_S16x4x512x511_S16x4x512x1_S16x4x512x512_d3),
    StableHlo.binary main_v106 main_v107 main_v108 (addf : (⟨S16x4x512x512, .f32⟩ : BufTy).Contents (Elt F) → (⟨S16x4x512x512, .f32⟩ : BufTy).Contents (Elt F) → (⟨S16x4x512x512, .f32⟩ : BufTy).Contents (Elt F)),
    StableHlo.TRef.unary (.of main_v99 : StableHlo.TRef sig ⟨S16x4x512x512, .f32⟩) main_call20.v0 (extractStridedSlice S16x4x1x512 ![0, 0, 511, 0] · slices_S16x4x512x512_S16x4x1x512_0_0_511_0),
    StableHlo.TRef.unary (.of main_v99 : StableHlo.TRef sig ⟨S16x4x512x512, .f32⟩) main_call20.v1 (extractStridedSlice S16x4x511x512 ![0, 0, 0, 0] · slices_S16x4x512x512_S16x4x511x512_0_0_0_0),
    StableHlo.TRef.binary main_call20.v0 main_call20.v1 main_call20.v2 (fun a b => concatenate S16x4x512x512 2 [⟨S16x4x1x512, a⟩, ⟨S16x4x511x512, b⟩] concatenates_S16x4x1x512_S16x4x511x512_S16x4x512x512_d2),
    StableHlo.binary main_v108 main_v109 main_v110 (addf : (⟨S16x4x512x512, .f32⟩ : BufTy).Contents (Elt F) → (⟨S16x4x512x512, .f32⟩ : BufTy).Contents (Elt F) → (⟨S16x4x512x512, .f32⟩ : BufTy).Contents (Elt F)),
    StableHlo.TRef.unary (.of main_v99 : StableHlo.TRef sig ⟨S16x4x512x512, .f32⟩) main_call21.v0 (extractStridedSlice S16x4x511x512 ![0, 0, 1, 0] · slices_S16x4x512x512_S16x4x511x512_0_0_1_0),
    StableHlo.TRef.unary (.of main_v99 : StableHlo.TRef sig ⟨S16x4x512x512, .f32⟩) main_call21.v1 (extractStridedSlice S16x4x1x512 ![0, 0, 0, 0] · slices_S16x4x512x512_S16x4x1x512_0_0_0_0),
    StableHlo.TRef.binary main_call21.v0 main_call21.v1 main_call21.v2 (fun a b => concatenate S16x4x512x512 2 [⟨S16x4x511x512, a⟩, ⟨S16x4x1x512, b⟩] concatenates_S16x4x511x512_S16x4x1x512_S16x4x512x512_d2),
    StableHlo.binary main_v110 main_v111 main_v112 (addf : (⟨S16x4x512x512, .f32⟩ : BufTy).Contents (Elt F) → (⟨S16x4x512x512, .f32⟩ : BufTy).Contents (Elt F) → (⟨S16x4x512x512, .f32⟩ : BufTy).Contents (Elt F)),
    StableHlo.unary main_arg2 main_v113 ((extractStridedSlice S4x1x1 ![0, 2, 0] · slices_S4x4x2_S4x1x1_0_2_0) : (⟨S4x4x2, .f32⟩ : BufTy).Contents (Elt F) → (⟨S4x1x1, .f32⟩ : BufTy).Contents (Elt F)),
    StableHlo.reshape main_v113 main_v114 rfl shapeCasts_S4x1x1_S4,
    StableHlo.unary main_v114 main_v115 (broadcastInDim S4x1x1 ![0] bcast_S4_S4x1x1_0 : (⟨S4, .f32⟩ : BufTy).Contents (Elt F) → (⟨S4x1x1, .f32⟩ : BufTy).Contents (Elt F)),
    StableHlo.unary main_v115 main_v116 (broadcastInDim S1x4x1x1 ![1, 2, 3] bcast_S4x1x1_S1x4x1x1_1_2_3 : (⟨S4x1x1, .f32⟩ : BufTy).Contents (Elt F) → (⟨S1x4x1x1, .f32⟩ : BufTy).Contents (Elt F)),
    StableHlo.unary main_v116 main_v117 (broadcastInDim S16x4x512x512 ![0, 1, 2, 3] bcast_S1x4x1x1_S16x4x512x512_0_1_2_3 : (⟨S1x4x1x1, .f32⟩ : BufTy).Contents (Elt F) → (⟨S16x4x512x512, .f32⟩ : BufTy).Contents (Elt F)),
    StableHlo.binary main_v117 main_v112 main_v118 (mulf : (⟨S16x4x512x512, .f32⟩ : BufTy).Contents (Elt F) → (⟨S16x4x512x512, .f32⟩ : BufTy).Contents (Elt F) → (⟨S16x4x512x512, .f32⟩ : BufTy).Contents (Elt F)),
    StableHlo.binary main_v105 main_v118 main_v119 (addf : (⟨S16x4x512x512, .f32⟩ : BufTy).Contents (Elt F) → (⟨S16x4x512x512, .f32⟩ : BufTy).Contents (Elt F) → (⟨S16x4x512x512, .f32⟩ : BufTy).Contents (Elt F)),
    StableHlo.TRef.unary (.of main_v99 : StableHlo.TRef sig ⟨S16x4x512x512, .f32⟩) main_call22.v0 (extractStridedSlice S16x4x512x2 ![0, 0, 0, 510] · slices_S16x4x512x512_S16x4x512x2_0_0_0_510),
    StableHlo.TRef.unary (.of main_v99 : StableHlo.TRef sig ⟨S16x4x512x512, .f32⟩) main_call22.v1 (extractStridedSlice S16x4x512x510 ![0, 0, 0, 0] · slices_S16x4x512x512_S16x4x512x510_0_0_0_0),
    StableHlo.TRef.binary main_call22.v0 main_call22.v1 main_call22.v2 (fun a b => concatenate S16x4x512x512 3 [⟨S16x4x512x2, a⟩, ⟨S16x4x512x510, b⟩] concatenates_S16x4x512x2_S16x4x512x510_S16x4x512x512_d3),
    StableHlo.TRef.unary (.of main_v99 : StableHlo.TRef sig ⟨S16x4x512x512, .f32⟩) main_call23.v0 (extractStridedSlice S16x4x512x510 ![0, 0, 0, 2] · slices_S16x4x512x512_S16x4x512x510_0_0_0_2),
    StableHlo.TRef.unary (.of main_v99 : StableHlo.TRef sig ⟨S16x4x512x512, .f32⟩) main_call23.v1 (extractStridedSlice S16x4x512x2 ![0, 0, 0, 0] · slices_S16x4x512x512_S16x4x512x2_0_0_0_0),
    StableHlo.TRef.binary main_call23.v0 main_call23.v1 main_call23.v2 (fun a b => concatenate S16x4x512x512 3 [⟨S16x4x512x510, a⟩, ⟨S16x4x512x2, b⟩] concatenates_S16x4x512x510_S16x4x512x2_S16x4x512x512_d3),
    StableHlo.binary main_v120 main_v121 main_v122 (addf : (⟨S16x4x512x512, .f32⟩ : BufTy).Contents (Elt F) → (⟨S16x4x512x512, .f32⟩ : BufTy).Contents (Elt F) → (⟨S16x4x512x512, .f32⟩ : BufTy).Contents (Elt F)),
    StableHlo.TRef.unary (.of main_v99 : StableHlo.TRef sig ⟨S16x4x512x512, .f32⟩) main_call24.v0 (extractStridedSlice S16x4x2x512 ![0, 0, 510, 0] · slices_S16x4x512x512_S16x4x2x512_0_0_510_0),
    StableHlo.TRef.unary (.of main_v99 : StableHlo.TRef sig ⟨S16x4x512x512, .f32⟩) main_call24.v1 (extractStridedSlice S16x4x510x512 ![0, 0, 0, 0] · slices_S16x4x512x512_S16x4x510x512_0_0_0_0),
    StableHlo.TRef.binary main_call24.v0 main_call24.v1 main_call24.v2 (fun a b => concatenate S16x4x512x512 2 [⟨S16x4x2x512, a⟩, ⟨S16x4x510x512, b⟩] concatenates_S16x4x2x512_S16x4x510x512_S16x4x512x512_d2),
    StableHlo.binary main_v122 main_v123 main_v124 (addf : (⟨S16x4x512x512, .f32⟩ : BufTy).Contents (Elt F) → (⟨S16x4x512x512, .f32⟩ : BufTy).Contents (Elt F) → (⟨S16x4x512x512, .f32⟩ : BufTy).Contents (Elt F)),
    StableHlo.TRef.unary (.of main_v99 : StableHlo.TRef sig ⟨S16x4x512x512, .f32⟩) main_call25.v0 (extractStridedSlice S16x4x510x512 ![0, 0, 2, 0] · slices_S16x4x512x512_S16x4x510x512_0_0_2_0),
    StableHlo.TRef.unary (.of main_v99 : StableHlo.TRef sig ⟨S16x4x512x512, .f32⟩) main_call25.v1 (extractStridedSlice S16x4x2x512 ![0, 0, 0, 0] · slices_S16x4x512x512_S16x4x2x512_0_0_0_0),
    StableHlo.TRef.binary main_call25.v0 main_call25.v1 main_call25.v2 (fun a b => concatenate S16x4x512x512 2 [⟨S16x4x510x512, a⟩, ⟨S16x4x2x512, b⟩] concatenates_S16x4x510x512_S16x4x2x512_S16x4x512x512_d2),
    StableHlo.binary main_v124 main_v125 main_v126 (addf : (⟨S16x4x512x512, .f32⟩ : BufTy).Contents (Elt F) → (⟨S16x4x512x512, .f32⟩ : BufTy).Contents (Elt F) → (⟨S16x4x512x512, .f32⟩ : BufTy).Contents (Elt F)),
    StableHlo.unary main_arg2 main_v127 ((extractStridedSlice S4x1x1 ![0, 2, 1] · slices_S4x4x2_S4x1x1_0_2_1) : (⟨S4x4x2, .f32⟩ : BufTy).Contents (Elt F) → (⟨S4x1x1, .f32⟩ : BufTy).Contents (Elt F)),
    StableHlo.reshape main_v127 main_v128 rfl shapeCasts_S4x1x1_S4,
    StableHlo.unary main_v128 main_v129 (broadcastInDim S4x1x1 ![0] bcast_S4_S4x1x1_0 : (⟨S4, .f32⟩ : BufTy).Contents (Elt F) → (⟨S4x1x1, .f32⟩ : BufTy).Contents (Elt F)),
    StableHlo.unary main_v129 main_v130 (broadcastInDim S1x4x1x1 ![1, 2, 3] bcast_S4x1x1_S1x4x1x1_1_2_3 : (⟨S4x1x1, .f32⟩ : BufTy).Contents (Elt F) → (⟨S1x4x1x1, .f32⟩ : BufTy).Contents (Elt F)),
    StableHlo.unary main_v130 main_v131 (broadcastInDim S16x4x512x512 ![0, 1, 2, 3] bcast_S1x4x1x1_S16x4x512x512_0_1_2_3 : (⟨S1x4x1x1, .f32⟩ : BufTy).Contents (Elt F) → (⟨S16x4x512x512, .f32⟩ : BufTy).Contents (Elt F)),
    StableHlo.binary main_v131 main_v126 main_v132 (mulf : (⟨S16x4x512x512, .f32⟩ : BufTy).Contents (Elt F) → (⟨S16x4x512x512, .f32⟩ : BufTy).Contents (Elt F) → (⟨S16x4x512x512, .f32⟩ : BufTy).Contents (Elt F)),
    StableHlo.binary main_v119 main_v132 main_v133 (addf : (⟨S16x4x512x512, .f32⟩ : BufTy).Contents (Elt F) → (⟨S16x4x512x512, .f32⟩ : BufTy).Contents (Elt F) → (⟨S16x4x512x512, .f32⟩ : BufTy).Contents (Elt F)),
    StableHlo.TRef.nullary main_call26.cst (constant S_ .f32 0x00000000#32),
    StableHlo.TRef.unary main_call26.cst main_call26.v0 (broadcastInDim S16x4x512x512 ![] bcast_S_S16x4x512x512),
    StableHlo.TRef.binary (.of main_v133 : StableHlo.TRef sig ⟨S16x4x512x512, .f32⟩) main_call26.v0 main_call26.v1 maximumf,
    StableHlo.TRef.nullary main_call26.cst_0 (constant S_ .f32 0x00000000#32),
    StableHlo.TRef.unary main_call26.cst_0 main_call26.v2 (broadcastInDim S16x4x512x512 ![] bcast_S_S16x4x512x512),
    StableHlo.TRef.binary (.of main_v133 : StableHlo.TRef sig ⟨S16x4x512x512, .f32⟩) main_call26.v2 main_call26.v3 minimumf,
    StableHlo.TRef.nullary main_call26.cst_1 (constant S_ .f32 0x3F800000#32),
    StableHlo.TRef.unary main_call26.cst_1 main_call26.v4 (broadcastInDim S16x4x512x512 ![] bcast_S_S16x4x512x512),
    StableHlo.TRef.binary main_call26.v3 main_call26.v4 main_call26.v5 Host.divf,
    StableHlo.TRef.unary main_call26.v5 main_call26.v6 Host.expm1,
    StableHlo.TRef.nullary main_call26.cst_2 (constant S_ .f32 0x3F800000#32),
    StableHlo.TRef.unary main_call26.cst_2 main_call26.v7 (broadcastInDim S16x4x512x512 ![] bcast_S_S16x4x512x512),
    StableHlo.TRef.binary main_call26.v7 main_call26.v6 main_call26.v8 mulf,
    StableHlo.TRef.binary main_call26.v1 main_call26.v8 main_call26.v9 addf,
    StableHlo.binary main_v99 main_v134 main_v135 (addf : (⟨S16x4x512x512, .f32⟩ : BufTy).Contents (Elt F) → (⟨S16x4x512x512, .f32⟩ : BufTy).Contents (Elt F) → (⟨S16x4x512x512, .f32⟩ : BufTy).Contents (Elt F)),
    StableHlo.unary main_v135 main_v136 ((transpose S16x4x512x512 [0, 1, 3, 2] · transposes_S16x4x512x512_S16x4x512x512_0_1_3_2) : (⟨S16x4x512x512, .f32⟩ : BufTy).Contents (Elt F) → (⟨S16x4x512x512, .f32⟩ : BufTy).Contents (Elt F)),
    StableHlo.binary main_v135 main_v136 main_v137 (addf : (⟨S16x4x512x512, .f32⟩ : BufTy).Contents (Elt F) → (⟨S16x4x512x512, .f32⟩ : BufTy).Contents (Elt F) → (⟨S16x4x512x512, .f32⟩ : BufTy).Contents (Elt F)),
    StableHlo.nullary main_cst_2 (constant S_ .f32 0x3F000000#32),
    StableHlo.unary main_cst_2 main_v138 (broadcastInDim S16x4x512x512 ![] bcast_S_S16x4x512x512 : (⟨S_, .f32⟩ : BufTy).Contents (Elt F) → (⟨S16x4x512x512, .f32⟩ : BufTy).Contents (Elt F)),
    StableHlo.binary main_v138 main_v137 main_v139 (mulf : (⟨S16x4x512x512, .f32⟩ : BufTy).Contents (Elt F) → (⟨S16x4x512x512, .f32⟩ : BufTy).Contents (Elt F) → (⟨S16x4x512x512, .f32⟩ : BufTy).Contents (Elt F)),
    StableHlo.unary main_v8 main_v140 (broadcastInDim S1x1x512x512 ![2, 3] bcast_S512x512_S1x1x512x512_2_3 : (⟨S512x512, .f32⟩ : BufTy).Contents (Elt F) → (⟨S1x1x512x512, .f32⟩ : BufTy).Contents (Elt F)),
    StableHlo.unary main_v140 main_v141 (broadcastInDim S16x4x512x512 ![0, 1, 2, 3] bcast_S1x1x512x512_S16x4x512x512_0_1_2_3 : (⟨S1x1x512x512, .f32⟩ : BufTy).Contents (Elt F) → (⟨S16x4x512x512, .f32⟩ : BufTy).Contents (Elt F)),
    StableHlo.binary main_v139 main_v141 main_v142 (mulf : (⟨S16x4x512x512, .f32⟩ : BufTy).Contents (Elt F) → (⟨S16x4x512x512, .f32⟩ : BufTy).Contents (Elt F) → (⟨S16x4x512x512, .f32⟩ : BufTy).Contents (Elt F)) ]

/-- Layer 3: the same operations with the weights' column 3, on layer 2's result. (73 operations) -/
abbrev opsL3 : List (HloOp τ sig (Elt F)) :=
  [ StableHlo.unary main_arg1 main_v143 ((extractStridedSlice S4x1 ![0, 3] · slices_S4x4_S4x1_0_3) : (⟨S4x4, .f32⟩ : BufTy).Contents (Elt F) → (⟨S4x1, .f32⟩ : BufTy).Contents (Elt F)),
    StableHlo.reshape main_v143 main_v144 rfl shapeCasts_S4x1_S4,
    StableHlo.unary main_v144 main_v145 (broadcastInDim S4x1x1 ![0] bcast_S4_S4x1x1_0 : (⟨S4, .f32⟩ : BufTy).Contents (Elt F) → (⟨S4x1x1, .f32⟩ : BufTy).Contents (Elt F)),
    StableHlo.unary main_v145 main_v146 (broadcastInDim S1x4x1x1 ![1, 2, 3] bcast_S4x1x1_S1x4x1x1_1_2_3 : (⟨S4x1x1, .f32⟩ : BufTy).Contents (Elt F) → (⟨S1x4x1x1, .f32⟩ : BufTy).Contents (Elt F)),
    StableHlo.unary main_v146 main_v147 (broadcastInDim S16x4x512x512 ![0, 1, 2, 3] bcast_S1x4x1x1_S16x4x512x512_0_1_2_3 : (⟨S1x4x1x1, .f32⟩ : BufTy).Contents (Elt F) → (⟨S16x4x512x512, .f32⟩ : BufTy).Contents (Elt F)),
    StableHlo.binary main_v147 main_v142 main_v148 (mulf : (⟨S16x4x512x512, .f32⟩ : BufTy).Contents (Elt F) → (⟨S16x4x512x512, .f32⟩ : BufTy).Contents (Elt F) → (⟨S16x4x512x512, .f32⟩ : BufTy).Contents (Elt F)),
    StableHlo.TRef.unary (.of main_v142 : StableHlo.TRef sig ⟨S16x4x512x512, .f32⟩) main_call27.v0 (extractStridedSlice S16x4x512x1 ![0, 0, 0, 511] · slices_S16x4x512x512_S16x4x512x1_0_0_0_511),
    StableHlo.TRef.unary (.of main_v142 : StableHlo.TRef sig ⟨S16x4x512x512, .f32⟩) main_call27.v1 (extractStridedSlice S16x4x512x511 ![0, 0, 0, 0] · slices_S16x4x512x512_S16x4x512x511_0_0_0_0),
    StableHlo.TRef.binary main_call27.v0 main_call27.v1 main_call27.v2 (fun a b => concatenate S16x4x512x512 3 [⟨S16x4x512x1, a⟩, ⟨S16x4x512x511, b⟩] concatenates_S16x4x512x1_S16x4x512x511_S16x4x512x512_d3),
    StableHlo.TRef.unary (.of main_v142 : StableHlo.TRef sig ⟨S16x4x512x512, .f32⟩) main_call28.v0 (extractStridedSlice S16x4x512x511 ![0, 0, 0, 1] · slices_S16x4x512x512_S16x4x512x511_0_0_0_1),
    StableHlo.TRef.unary (.of main_v142 : StableHlo.TRef sig ⟨S16x4x512x512, .f32⟩) main_call28.v1 (extractStridedSlice S16x4x512x1 ![0, 0, 0, 0] · slices_S16x4x512x512_S16x4x512x1_0_0_0_0),
    StableHlo.TRef.binary main_call28.v0 main_call28.v1 main_call28.v2 (fun a b => concatenate S16x4x512x512 3 [⟨S16x4x512x511, a⟩, ⟨S16x4x512x1, b⟩] concatenates_S16x4x512x511_S16x4x512x1_S16x4x512x512_d3),
    StableHlo.binary main_v149 main_v150 main_v151 (addf : (⟨S16x4x512x512, .f32⟩ : BufTy).Contents (Elt F) → (⟨S16x4x512x512, .f32⟩ : BufTy).Contents (Elt F) → (⟨S16x4x512x512, .f32⟩ : BufTy).Contents (Elt F)),
    StableHlo.TRef.unary (.of main_v142 : StableHlo.TRef sig ⟨S16x4x512x512, .f32⟩) main_call29.v0 (extractStridedSlice S16x4x1x512 ![0, 0, 511, 0] · slices_S16x4x512x512_S16x4x1x512_0_0_511_0),
    StableHlo.TRef.unary (.of main_v142 : StableHlo.TRef sig ⟨S16x4x512x512, .f32⟩) main_call29.v1 (extractStridedSlice S16x4x511x512 ![0, 0, 0, 0] · slices_S16x4x512x512_S16x4x511x512_0_0_0_0),
    StableHlo.TRef.binary main_call29.v0 main_call29.v1 main_call29.v2 (fun a b => concatenate S16x4x512x512 2 [⟨S16x4x1x512, a⟩, ⟨S16x4x511x512, b⟩] concatenates_S16x4x1x512_S16x4x511x512_S16x4x512x512_d2),
    StableHlo.binary main_v151 main_v152 main_v153 (addf : (⟨S16x4x512x512, .f32⟩ : BufTy).Contents (Elt F) → (⟨S16x4x512x512, .f32⟩ : BufTy).Contents (Elt F) → (⟨S16x4x512x512, .f32⟩ : BufTy).Contents (Elt F)),
    StableHlo.TRef.unary (.of main_v142 : StableHlo.TRef sig ⟨S16x4x512x512, .f32⟩) main_call30.v0 (extractStridedSlice S16x4x511x512 ![0, 0, 1, 0] · slices_S16x4x512x512_S16x4x511x512_0_0_1_0),
    StableHlo.TRef.unary (.of main_v142 : StableHlo.TRef sig ⟨S16x4x512x512, .f32⟩) main_call30.v1 (extractStridedSlice S16x4x1x512 ![0, 0, 0, 0] · slices_S16x4x512x512_S16x4x1x512_0_0_0_0),
    StableHlo.TRef.binary main_call30.v0 main_call30.v1 main_call30.v2 (fun a b => concatenate S16x4x512x512 2 [⟨S16x4x511x512, a⟩, ⟨S16x4x1x512, b⟩] concatenates_S16x4x511x512_S16x4x1x512_S16x4x512x512_d2),
    StableHlo.binary main_v153 main_v154 main_v155 (addf : (⟨S16x4x512x512, .f32⟩ : BufTy).Contents (Elt F) → (⟨S16x4x512x512, .f32⟩ : BufTy).Contents (Elt F) → (⟨S16x4x512x512, .f32⟩ : BufTy).Contents (Elt F)),
    StableHlo.unary main_arg2 main_v156 ((extractStridedSlice S4x1x1 ![0, 3, 0] · slices_S4x4x2_S4x1x1_0_3_0) : (⟨S4x4x2, .f32⟩ : BufTy).Contents (Elt F) → (⟨S4x1x1, .f32⟩ : BufTy).Contents (Elt F)),
    StableHlo.reshape main_v156 main_v157 rfl shapeCasts_S4x1x1_S4,
    StableHlo.unary main_v157 main_v158 (broadcastInDim S4x1x1 ![0] bcast_S4_S4x1x1_0 : (⟨S4, .f32⟩ : BufTy).Contents (Elt F) → (⟨S4x1x1, .f32⟩ : BufTy).Contents (Elt F)),
    StableHlo.unary main_v158 main_v159 (broadcastInDim S1x4x1x1 ![1, 2, 3] bcast_S4x1x1_S1x4x1x1_1_2_3 : (⟨S4x1x1, .f32⟩ : BufTy).Contents (Elt F) → (⟨S1x4x1x1, .f32⟩ : BufTy).Contents (Elt F)),
    StableHlo.unary main_v159 main_v160 (broadcastInDim S16x4x512x512 ![0, 1, 2, 3] bcast_S1x4x1x1_S16x4x512x512_0_1_2_3 : (⟨S1x4x1x1, .f32⟩ : BufTy).Contents (Elt F) → (⟨S16x4x512x512, .f32⟩ : BufTy).Contents (Elt F)),
    StableHlo.binary main_v160 main_v155 main_v161 (mulf : (⟨S16x4x512x512, .f32⟩ : BufTy).Contents (Elt F) → (⟨S16x4x512x512, .f32⟩ : BufTy).Contents (Elt F) → (⟨S16x4x512x512, .f32⟩ : BufTy).Contents (Elt F)),
    StableHlo.binary main_v148 main_v161 main_v162 (addf : (⟨S16x4x512x512, .f32⟩ : BufTy).Contents (Elt F) → (⟨S16x4x512x512, .f32⟩ : BufTy).Contents (Elt F) → (⟨S16x4x512x512, .f32⟩ : BufTy).Contents (Elt F)),
    StableHlo.TRef.unary (.of main_v142 : StableHlo.TRef sig ⟨S16x4x512x512, .f32⟩) main_call31.v0 (extractStridedSlice S16x4x512x2 ![0, 0, 0, 510] · slices_S16x4x512x512_S16x4x512x2_0_0_0_510),
    StableHlo.TRef.unary (.of main_v142 : StableHlo.TRef sig ⟨S16x4x512x512, .f32⟩) main_call31.v1 (extractStridedSlice S16x4x512x510 ![0, 0, 0, 0] · slices_S16x4x512x512_S16x4x512x510_0_0_0_0),
    StableHlo.TRef.binary main_call31.v0 main_call31.v1 main_call31.v2 (fun a b => concatenate S16x4x512x512 3 [⟨S16x4x512x2, a⟩, ⟨S16x4x512x510, b⟩] concatenates_S16x4x512x2_S16x4x512x510_S16x4x512x512_d3),
    StableHlo.TRef.unary (.of main_v142 : StableHlo.TRef sig ⟨S16x4x512x512, .f32⟩) main_call32.v0 (extractStridedSlice S16x4x512x510 ![0, 0, 0, 2] · slices_S16x4x512x512_S16x4x512x510_0_0_0_2),
    StableHlo.TRef.unary (.of main_v142 : StableHlo.TRef sig ⟨S16x4x512x512, .f32⟩) main_call32.v1 (extractStridedSlice S16x4x512x2 ![0, 0, 0, 0] · slices_S16x4x512x512_S16x4x512x2_0_0_0_0),
    StableHlo.TRef.binary main_call32.v0 main_call32.v1 main_call32.v2 (fun a b => concatenate S16x4x512x512 3 [⟨S16x4x512x510, a⟩, ⟨S16x4x512x2, b⟩] concatenates_S16x4x512x510_S16x4x512x2_S16x4x512x512_d3),
    StableHlo.binary main_v163 main_v164 main_v165 (addf : (⟨S16x4x512x512, .f32⟩ : BufTy).Contents (Elt F) → (⟨S16x4x512x512, .f32⟩ : BufTy).Contents (Elt F) → (⟨S16x4x512x512, .f32⟩ : BufTy).Contents (Elt F)),
    StableHlo.TRef.unary (.of main_v142 : StableHlo.TRef sig ⟨S16x4x512x512, .f32⟩) main_call33.v0 (extractStridedSlice S16x4x2x512 ![0, 0, 510, 0] · slices_S16x4x512x512_S16x4x2x512_0_0_510_0),
    StableHlo.TRef.unary (.of main_v142 : StableHlo.TRef sig ⟨S16x4x512x512, .f32⟩) main_call33.v1 (extractStridedSlice S16x4x510x512 ![0, 0, 0, 0] · slices_S16x4x512x512_S16x4x510x512_0_0_0_0),
    StableHlo.TRef.binary main_call33.v0 main_call33.v1 main_call33.v2 (fun a b => concatenate S16x4x512x512 2 [⟨S16x4x2x512, a⟩, ⟨S16x4x510x512, b⟩] concatenates_S16x4x2x512_S16x4x510x512_S16x4x512x512_d2),
    StableHlo.binary main_v165 main_v166 main_v167 (addf : (⟨S16x4x512x512, .f32⟩ : BufTy).Contents (Elt F) → (⟨S16x4x512x512, .f32⟩ : BufTy).Contents (Elt F) → (⟨S16x4x512x512, .f32⟩ : BufTy).Contents (Elt F)),
    StableHlo.TRef.unary (.of main_v142 : StableHlo.TRef sig ⟨S16x4x512x512, .f32⟩) main_call34.v0 (extractStridedSlice S16x4x510x512 ![0, 0, 2, 0] · slices_S16x4x512x512_S16x4x510x512_0_0_2_0),
    StableHlo.TRef.unary (.of main_v142 : StableHlo.TRef sig ⟨S16x4x512x512, .f32⟩) main_call34.v1 (extractStridedSlice S16x4x2x512 ![0, 0, 0, 0] · slices_S16x4x512x512_S16x4x2x512_0_0_0_0),
    StableHlo.TRef.binary main_call34.v0 main_call34.v1 main_call34.v2 (fun a b => concatenate S16x4x512x512 2 [⟨S16x4x510x512, a⟩, ⟨S16x4x2x512, b⟩] concatenates_S16x4x510x512_S16x4x2x512_S16x4x512x512_d2),
    StableHlo.binary main_v167 main_v168 main_v169 (addf : (⟨S16x4x512x512, .f32⟩ : BufTy).Contents (Elt F) → (⟨S16x4x512x512, .f32⟩ : BufTy).Contents (Elt F) → (⟨S16x4x512x512, .f32⟩ : BufTy).Contents (Elt F)),
    StableHlo.unary main_arg2 main_v170 ((extractStridedSlice S4x1x1 ![0, 3, 1] · slices_S4x4x2_S4x1x1_0_3_1) : (⟨S4x4x2, .f32⟩ : BufTy).Contents (Elt F) → (⟨S4x1x1, .f32⟩ : BufTy).Contents (Elt F)),
    StableHlo.reshape main_v170 main_v171 rfl shapeCasts_S4x1x1_S4,
    StableHlo.unary main_v171 main_v172 (broadcastInDim S4x1x1 ![0] bcast_S4_S4x1x1_0 : (⟨S4, .f32⟩ : BufTy).Contents (Elt F) → (⟨S4x1x1, .f32⟩ : BufTy).Contents (Elt F)),
    StableHlo.unary main_v172 main_v173 (broadcastInDim S1x4x1x1 ![1, 2, 3] bcast_S4x1x1_S1x4x1x1_1_2_3 : (⟨S4x1x1, .f32⟩ : BufTy).Contents (Elt F) → (⟨S1x4x1x1, .f32⟩ : BufTy).Contents (Elt F)),
    StableHlo.unary main_v173 main_v174 (broadcastInDim S16x4x512x512 ![0, 1, 2, 3] bcast_S1x4x1x1_S16x4x512x512_0_1_2_3 : (⟨S1x4x1x1, .f32⟩ : BufTy).Contents (Elt F) → (⟨S16x4x512x512, .f32⟩ : BufTy).Contents (Elt F)),
    StableHlo.binary main_v174 main_v169 main_v175 (mulf : (⟨S16x4x512x512, .f32⟩ : BufTy).Contents (Elt F) → (⟨S16x4x512x512, .f32⟩ : BufTy).Contents (Elt F) → (⟨S16x4x512x512, .f32⟩ : BufTy).Contents (Elt F)),
    StableHlo.binary main_v162 main_v175 main_v176 (addf : (⟨S16x4x512x512, .f32⟩ : BufTy).Contents (Elt F) → (⟨S16x4x512x512, .f32⟩ : BufTy).Contents (Elt F) → (⟨S16x4x512x512, .f32⟩ : BufTy).Contents (Elt F)),
    StableHlo.TRef.nullary main_call35.cst (constant S_ .f32 0x00000000#32),
    StableHlo.TRef.unary main_call35.cst main_call35.v0 (broadcastInDim S16x4x512x512 ![] bcast_S_S16x4x512x512),
    StableHlo.TRef.binary (.of main_v176 : StableHlo.TRef sig ⟨S16x4x512x512, .f32⟩) main_call35.v0 main_call35.v1 maximumf,
    StableHlo.TRef.nullary main_call35.cst_0 (constant S_ .f32 0x00000000#32),
    StableHlo.TRef.unary main_call35.cst_0 main_call35.v2 (broadcastInDim S16x4x512x512 ![] bcast_S_S16x4x512x512),
    StableHlo.TRef.binary (.of main_v176 : StableHlo.TRef sig ⟨S16x4x512x512, .f32⟩) main_call35.v2 main_call35.v3 minimumf,
    StableHlo.TRef.nullary main_call35.cst_1 (constant S_ .f32 0x3F800000#32),
    StableHlo.TRef.unary main_call35.cst_1 main_call35.v4 (broadcastInDim S16x4x512x512 ![] bcast_S_S16x4x512x512),
    StableHlo.TRef.binary main_call35.v3 main_call35.v4 main_call35.v5 Host.divf,
    StableHlo.TRef.unary main_call35.v5 main_call35.v6 Host.expm1,
    StableHlo.TRef.nullary main_call35.cst_2 (constant S_ .f32 0x3F800000#32),
    StableHlo.TRef.unary main_call35.cst_2 main_call35.v7 (broadcastInDim S16x4x512x512 ![] bcast_S_S16x4x512x512),
    StableHlo.TRef.binary main_call35.v7 main_call35.v6 main_call35.v8 mulf,
    StableHlo.TRef.binary main_call35.v1 main_call35.v8 main_call35.v9 addf,
    StableHlo.binary main_v142 main_v177 main_v178 (addf : (⟨S16x4x512x512, .f32⟩ : BufTy).Contents (Elt F) → (⟨S16x4x512x512, .f32⟩ : BufTy).Contents (Elt F) → (⟨S16x4x512x512, .f32⟩ : BufTy).Contents (Elt F)),
    StableHlo.unary main_v178 main_v179 ((transpose S16x4x512x512 [0, 1, 3, 2] · transposes_S16x4x512x512_S16x4x512x512_0_1_3_2) : (⟨S16x4x512x512, .f32⟩ : BufTy).Contents (Elt F) → (⟨S16x4x512x512, .f32⟩ : BufTy).Contents (Elt F)),
    StableHlo.binary main_v178 main_v179 main_v180 (addf : (⟨S16x4x512x512, .f32⟩ : BufTy).Contents (Elt F) → (⟨S16x4x512x512, .f32⟩ : BufTy).Contents (Elt F) → (⟨S16x4x512x512, .f32⟩ : BufTy).Contents (Elt F)),
    StableHlo.nullary main_cst_3 (constant S_ .f32 0x3F000000#32),
    StableHlo.unary main_cst_3 main_v181 (broadcastInDim S16x4x512x512 ![] bcast_S_S16x4x512x512 : (⟨S_, .f32⟩ : BufTy).Contents (Elt F) → (⟨S16x4x512x512, .f32⟩ : BufTy).Contents (Elt F)),
    StableHlo.binary main_v181 main_v180 main_v182 (mulf : (⟨S16x4x512x512, .f32⟩ : BufTy).Contents (Elt F) → (⟨S16x4x512x512, .f32⟩ : BufTy).Contents (Elt F) → (⟨S16x4x512x512, .f32⟩ : BufTy).Contents (Elt F)),
    StableHlo.unary main_v8 main_v183 (broadcastInDim S1x1x512x512 ![2, 3] bcast_S512x512_S1x1x512x512_2_3 : (⟨S512x512, .f32⟩ : BufTy).Contents (Elt F) → (⟨S1x1x512x512, .f32⟩ : BufTy).Contents (Elt F)),
    StableHlo.unary main_v183 main_v184 (broadcastInDim S16x4x512x512 ![0, 1, 2, 3] bcast_S1x1x512x512_S16x4x512x512_0_1_2_3 : (⟨S1x1x512x512, .f32⟩ : BufTy).Contents (Elt F) → (⟨S16x4x512x512, .f32⟩ : BufTy).Contents (Elt F)),
    StableHlo.binary main_v182 main_v184 main_v185 (mulf : (⟨S16x4x512x512, .f32⟩ : BufTy).Contents (Elt F) → (⟨S16x4x512x512, .f32⟩ : BufTy).Contents (Elt F) → (⟨S16x4x512x512, .f32⟩ : BufTy).Contents (Elt F)) ]

/-- The tail: the anti-diagonal gather, the sum over one axis, the two affine maps with celu between, exp of the negation. (76 operations) -/
abbrev opsTail : List (HloOp τ sig (Elt F)) :=
  [ StableHlo.nullary main_v186 (iotaInDim S512 32 0),
    StableHlo.unary main_v186 main_v187 (broadcastInDim S512x1 ![0] bcast_S512_S512x1_0 : (⟨S512, .i32⟩ : BufTy).Contents (Elt F) → (⟨S512x1, .i32⟩ : BufTy).Contents (Elt F)),
    StableHlo.unary main_v186 main_v188 (broadcastInDim S1x512 ![1] bcast_S512_S1x512_1 : (⟨S512, .i32⟩ : BufTy).Contents (Elt F) → (⟨S1x512, .i32⟩ : BufTy).Contents (Elt F)),
    StableHlo.unary main_v187 main_v189 (broadcastInDim S512x512 ![0, 1] bcast_S512x1_S512x512_0_1 : (⟨S512x1, .i32⟩ : BufTy).Contents (Elt F) → (⟨S512x512, .i32⟩ : BufTy).Contents (Elt F)),
    StableHlo.unary main_v188 main_v190 (broadcastInDim S512x512 ![0, 1] bcast_S1x512_S512x512_0_1 : (⟨S1x512, .i32⟩ : BufTy).Contents (Elt F) → (⟨S512x512, .i32⟩ : BufTy).Contents (Elt F)),
    StableHlo.binary main_v189 main_v190 main_v191 (addi : (⟨S512x512, .i32⟩ : BufTy).Contents (Elt F) → (⟨S512x512, .i32⟩ : BufTy).Contents (Elt F) → (⟨S512x512, .i32⟩ : BufTy).Contents (Elt F)),
    StableHlo.nullary main_c_4 (constantI S_ 32 512#32),
    StableHlo.TRef.unary (.of main_c_4 : StableHlo.TRef sig ⟨S_, .i32⟩) main_call36.v0 id,
    StableHlo.TRef.nullary main_call36.c (constantI S_ 32 0#32),
    StableHlo.TRef.binary main_call36.v0 main_call36.c main_call36.v1 (cmpi .eq),
    StableHlo.TRef.nullary main_call36.c_0 (constantI S_ 32 1#32),
    StableHlo.TRef.ternary main_call36.v1 main_call36.c_0 main_call36.v0 main_call36.call0.v0 select,
    StableHlo.TRef.unary main_call36.call0.v0 main_call36.v3 (broadcastInDim S512x512 ![] bcast_S_S512x512),
    StableHlo.TRef.binary (.of main_v191 : StableHlo.TRef sig ⟨S512x512, .i32⟩) main_call36.v3 main_call36.v4 Host.remsi,
    StableHlo.TRef.nullary main_call36.c_1 (constantI S_ 32 0#32),
    StableHlo.TRef.unary main_call36.c_1 main_call36.v5 (broadcastInDim S512x512 ![] bcast_S_S512x512),
    StableHlo.TRef.binary main_call36.v4 main_call36.v5 main_call36.v6 (cmpi .ne),
    StableHlo.TRef.nullary main_call36.c_2 (constantI S_ 32 0#32),
    StableHlo.TRef.unary main_call36.c_2 main_call36.v7 (broadcastInDim S512x512 ![] bcast_S_S512x512),
    StableHlo.TRef.binary main_call36.v4 main_call36.v7 main_call36.v8 (cmpi .slt),
    StableHlo.TRef.nullary main_call36.c_3 (constantI S_ 32 0#32),
    StableHlo.TRef.binary main_call36.call0.v0 main_call36.c_3 main_call36.v9 (cmpi .slt),
    StableHlo.TRef.unary main_call36.v9 main_call36.v10 (broadcastInDim S512x512 ![] bcast_S_S512x512),
    StableHlo.TRef.binary main_call36.v8 main_call36.v10 main_call36.v11 (cmpi .ne),
    StableHlo.TRef.binary main_call36.v11 main_call36.v6 main_call36.v12 andi,
    StableHlo.TRef.unary main_call36.call0.v0 main_call36.v13 (broadcastInDim S512x512 ![] bcast_S_S512x512),
    StableHlo.TRef.binary main_call36.v4 main_call36.v13 main_call36.v14 addi,
    StableHlo.TRef.ternary main_call36.v12 main_call36.v14 main_call36.v4 main_call36.v15 select,
    StableHlo.unary main_v186 main_v193 (broadcastInDim S512x1 ![0] bcast_S512_S512x1_0 : (⟨S512, .i32⟩ : BufTy).Contents (Elt F) → (⟨S512x1, .i32⟩ : BufTy).Contents (Elt F)),
    StableHlo.nullary main_c_5 (constantI S_ 32 0#32),
    StableHlo.unary main_c_5 main_v194 (broadcastInDim S512x1 ![] bcast_S_S512x1 : (⟨S_, .i32⟩ : BufTy).Contents (Elt F) → (⟨S512x1, .i32⟩ : BufTy).Contents (Elt F)),
    StableHlo.binary main_v193 main_v194 main_v195 (cmpi .slt : (⟨S512x1, .i32⟩ : BufTy).Contents (Elt F) → (⟨S512x1, .i32⟩ : BufTy).Contents (Elt F) → (⟨S512x1, .i1⟩ : BufTy).Contents (Elt F)),
    StableHlo.nullary main_c_6 (constantI S_ 32 512#32),
    StableHlo.unary main_c_6 main_v196 (broadcastInDim S512x1 ![] bcast_S_S512x1 : (⟨S_, .i32⟩ : BufTy).Contents (Elt F) → (⟨S512x1, .i32⟩ : BufTy).Contents (Elt F)),
    StableHlo.binary main_v193 main_v196 main_v197 (addi : (⟨S512x1, .i32⟩ : BufTy).Contents (Elt F) → (⟨S512x1, .i32⟩ : BufTy).Contents (Elt F) → (⟨S512x1, .i32⟩ : BufTy).Contents (Elt F)),
    StableHlo.ternary main_v195 main_v197 main_v193 main_v198 (select : (⟨S512x1, .i1⟩ : BufTy).Contents (Elt F) → (⟨S512x1, .i32⟩ : BufTy).Contents (Elt F) → (⟨S512x1, .i32⟩ : BufTy).Contents (Elt F) → (⟨S512x1, .i32⟩ : BufTy).Contents (Elt F)),
    StableHlo.nullary main_c_7 (constantI S_ 32 0#32),
    StableHlo.unary main_c_7 main_v199 (broadcastInDim S512x512 ![] bcast_S_S512x512 : (⟨S_, .i32⟩ : BufTy).Contents (Elt F) → (⟨S512x512, .i32⟩ : BufTy).Contents (Elt F)),
    StableHlo.binary main_v192 main_v199 main_v200 (cmpi .slt : (⟨S512x512, .i32⟩ : BufTy).Contents (Elt F) → (⟨S512x512, .i32⟩ : BufTy).Contents (Elt F) → (⟨S512x512, .i1⟩ : BufTy).Contents (Elt F)),
    StableHlo.nullary main_c_8 (constantI S_ 32 512#32),
    StableHlo.unary main_c_8 main_v201 (broadcastInDim S512x512 ![] bcast_S_S512x512 : (⟨S_, .i32⟩ : BufTy).Contents (Elt F) → (⟨S512x512, .i32⟩ : BufTy).Contents (Elt F)),
    StableHlo.binary main_v192 main_v201 main_v202 (addi : (⟨S512x512, .i32⟩ : BufTy).Contents (Elt F) → (⟨S512x512, .i32⟩ : BufTy).Contents (Elt F) → (⟨S512x512, .i32⟩ : BufTy).Contents (Elt F)),
    StableHlo.ternary main_v200 main_v202 main_v192 main_v203 (select : (⟨S512x512, .i1⟩ : BufTy).Contents (Elt F) → (⟨S512x512, .i32⟩ : BufTy).Contents (Elt F) → (⟨S512x512, .i32⟩ : BufTy).Contents (Elt F) → (⟨S512x512, .i32⟩ : BufTy).Contents (Elt F)),
    StableHlo.unary main_v198 main_v204 (broadcastInDim S512x512 ![0, 1] bcast_S512x1_S512x512_0_1 : (⟨S512x1, .i32⟩ : BufTy).Contents (Elt F) → (⟨S512x512, .i32⟩ : BufTy).Contents (Elt F)),
    StableHlo.unary main_v204 main_v205 (broadcastInDim S512x512x1 ![0, 1] bcast_S512x512_S512x512x1_0_1 : (⟨S512x512, .i32⟩ : BufTy).Contents (Elt F) → (⟨S512x512x1, .i32⟩ : BufTy).Contents (Elt F)),
    StableHlo.unary main_v203 main_v206 (broadcastInDim S512x512x1 ![0, 1] bcast_S512x512_S512x512x1_0_1 : (⟨S512x512, .i32⟩ : BufTy).Contents (Elt F) → (⟨S512x512x1, .i32⟩ : BufTy).Contents (Elt F)),
    StableHlo.binary main_v205 main_v206 main_v207 ((fun a b => concatenate S512x512x2 2 [⟨S512x512x1, a⟩, ⟨S512x512x1, b⟩] concatenates_S512x512x1_S512x512x1_S512x512x2_d2) : (⟨S512x512x1, .i32⟩ : BufTy).Contents (Elt F) → (⟨S512x512x1, .i32⟩ : BufTy).Contents (Elt F) → (⟨S512x512x2, .i32⟩ : BufTy).Contents (Elt F)),
    StableHlo.binary main_v185 main_v207 main_v208 ((fun x i => Host.gather gather_S16x4x512x512_S512x512x2_S16x4x512x512_01_23_n_n_23_2_16411 x i) : (⟨S16x4x512x512, .f32⟩ : BufTy).Contents (Elt F) → (⟨S512x512x2, .i32⟩ : BufTy).Contents (Elt F) → (⟨S16x4x512x512, .f32⟩ : BufTy).Contents (Elt F)),
    StableHlo.nullary main_cst_9 (constant S_ .f32 0x00000000#32),
    StableHlo.binary main_v208 main_cst_9 main_v209 ((fun x v => Host.reduceAdd x v reducesTo_S16x4x512x512_S16x4x512_d2 h_S_) : (⟨S16x4x512x512, .f32⟩ : BufTy).Contents (Elt F) → (⟨S_, .f32⟩ : BufTy).Contents (Elt F) → (⟨S16x4x512, .f32⟩ : BufTy).Contents (Elt F)),
    StableHlo.reshape main_v209 main_v210 rfl shapeCasts_S16x4x512_S16x2048,
    StableHlo.binary main_v210 main_arg3 main_v211 ((fun l r => Host.dotGeneral dot_S16x2048_S2048x256_S16x256_1_0_0_1_n_n none l r) : (⟨S16x2048, .f32⟩ : BufTy).Contents (Elt F) → (⟨S2048x256, .f32⟩ : BufTy).Contents (Elt F) → (⟨S16x256, .f32⟩ : BufTy).Contents (Elt F)),
    StableHlo.unary main_arg4 main_v212 (broadcastInDim S1x256 ![1] bcast_S256_S1x256_1 : (⟨S256, .f32⟩ : BufTy).Contents (Elt F) → (⟨S1x256, .f32⟩ : BufTy).Contents (Elt F)),
    StableHlo.unary main_v212 main_v213 (broadcastInDim S16x256 ![0, 1] bcast_S1x256_S16x256_0_1 : (⟨S1x256, .f32⟩ : BufTy).Contents (Elt F) → (⟨S16x256, .f32⟩ : BufTy).Contents (Elt F)),
    StableHlo.binary main_v211 main_v213 main_v214 (addf : (⟨S16x256, .f32⟩ : BufTy).Contents (Elt F) → (⟨S16x256, .f32⟩ : BufTy).Contents (Elt F) → (⟨S16x256, .f32⟩ : BufTy).Contents (Elt F)),
    StableHlo.TRef.nullary main_call37.cst (constant S_ .f32 0x00000000#32),
    StableHlo.TRef.unary main_call37.cst main_call37.v0 (broadcastInDim S16x256 ![] bcast_S_S16x256),
    StableHlo.TRef.binary (.of main_v214 : StableHlo.TRef sig ⟨S16x256, .f32⟩) main_call37.v0 main_call37.v1 maximumf,
    StableHlo.TRef.nullary main_call37.cst_0 (constant S_ .f32 0x00000000#32),
    StableHlo.TRef.unary main_call37.cst_0 main_call37.v2 (broadcastInDim S16x256 ![] bcast_S_S16x256),
    StableHlo.TRef.binary (.of main_v214 : StableHlo.TRef sig ⟨S16x256, .f32⟩) main_call37.v2 main_call37.v3 minimumf,
    StableHlo.TRef.nullary main_call37.cst_1 (constant S_ .f32 0x3F800000#32),
    StableHlo.TRef.unary main_call37.cst_1 main_call37.v4 (broadcastInDim S16x256 ![] bcast_S_S16x256),
    StableHlo.TRef.binary main_call37.v3 main_call37.v4 main_call37.v5 Host.divf,
    StableHlo.TRef.unary main_call37.v5 main_call37.v6 Host.expm1,
    StableHlo.TRef.nullary main_call37.cst_2 (constant S_ .f32 0x3F800000#32),
    StableHlo.TRef.unary main_call37.cst_2 main_call37.v7 (broadcastInDim S16x256 ![] bcast_S_S16x256),
    StableHlo.TRef.binary main_call37.v7 main_call37.v6 main_call37.v8 mulf,
    StableHlo.TRef.binary main_call37.v1 main_call37.v8 main_call37.v9 addf,
    StableHlo.binary main_v215 main_arg5 main_v216 ((fun l r => Host.dotGeneral dot_S16x256_S256x1_S16x1_1_0_0_1_n_n none l r) : (⟨S16x256, .f32⟩ : BufTy).Contents (Elt F) → (⟨S256x1, .f32⟩ : BufTy).Contents (Elt F) → (⟨S16x1, .f32⟩ : BufTy).Contents (Elt F)),
    StableHlo.unary main_arg6 main_v217 (broadcastInDim S1x1 ![1] bcast_S1_S1x1_1 : (⟨S1, .f32⟩ : BufTy).Contents (Elt F) → (⟨S1x1, .f32⟩ : BufTy).Contents (Elt F)),
    StableHlo.unary main_v217 main_v218 (broadcastInDim S16x1 ![0, 1] bcast_S1x1_S16x1_0_1 : (⟨S1x1, .f32⟩ : BufTy).Contents (Elt F) → (⟨S16x1, .f32⟩ : BufTy).Contents (Elt F)),
    StableHlo.binary main_v216 main_v218 main_v219 (addf : (⟨S16x1, .f32⟩ : BufTy).Contents (Elt F) → (⟨S16x1, .f32⟩ : BufTy).Contents (Elt F) → (⟨S16x1, .f32⟩ : BufTy).Contents (Elt F)),
    StableHlo.reshape main_v219 main_v220 rfl shapeCasts_S16x1_S16,
    StableHlo.unary main_v220 main_v221 (Host.negf : (⟨S16, .f32⟩ : BufTy).Contents (Elt F) → (⟨S16, .f32⟩ : BufTy).Contents (Elt F)),
    StableHlo.unary main_v221 main_v222 (Host.exp : (⟨S16, .f32⟩ : BufTy).Contents (Elt F) → (⟨S16, .f32⟩ : BufTy).Contents (Elt F)) ]

/-- @main's 384 operations, in order. -/
abbrev ops : List (HloOp τ sig (Elt F)) := opsInit ++ opsL0 ++ opsL1 ++ opsL2 ++ opsL3 ++ opsTail

end Cert.ReferenceIdeal.Hand

end
-- ==== Proof.Ref.Run.lean ====
import proofs.«412012_j25271587569863_4_alg».proof.Proof.Ref.Ops

/-! The reference program's run: @main is the straight line of its operations, so every execution ends with each
    buffer at the fold of the operations' results over the launch contents. -/

set_option synthInstance.maxSize 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## @main is the line

The printed @main is four consecutive windows cut by count; the list is cut by meaning. A window is the line of
the operations it covers (sequencing is associative and a call unfolds to its callee's statements), and the two
cuttings of one list agree because a list is its first k entries followed by the rest. -/

set_option maxRecDepth 8192 in
set_option maxHeartbeats 4000000 in
/-- Statements 1 … 60: the start and layer 0. -/
theorem part0_eq (c : Dev nD) : main_part0 (F := F) c = StableHlo.seq (opsInit ++ opsL0) := rfl

set_option maxRecDepth 8192 in
set_option maxHeartbeats 4000000 in
/-- Statements 61 … 120: layer 1 and the first 24 operations of layer 2. -/
theorem part1_eq (c : Dev nD) : main_part1 (F := F) c = StableHlo.seq (opsL1 ++ opsL2.take 24) := rfl

set_option maxRecDepth 8192 in
set_option maxHeartbeats 4000000 in
/-- Statements 121 … 180: the rest of layer 2 and the first 48 operations of layer 3. -/
theorem part2_eq (c : Dev nD) : main_part2 (F := F) c = StableHlo.seq (opsL2.drop 24 ++ opsL3.take 48) := rfl

set_option maxRecDepth 8192 in
set_option maxHeartbeats 4000000 in
/-- Statements 181 … 236: the rest of layer 3 and the tail. -/
theorem part3_eq (c : Dev nD) : main_part3 (F := F) c = StableHlo.seq (opsL3.drop 48 ++ opsTail) := rfl

/-- Six lists in a row, regrouped as four with the fourth and fifth each cut in two. -/
private theorem split6 {α : Type} (a b c d e f : List α) (i j : Nat) :
    a ++ b ++ c ++ d ++ e ++ f = (a ++ b) ++ ((c ++ d.take i) ++ ((d.drop i ++ e.take j) ++ (e.drop j ++ f))) := by
  conv_lhs => rw [← List.take_append_drop i d, ← List.take_append_drop j e]
  simp only [List.append_assoc]

/-- @main is the straight line of its operations. -/
theorem main_eq (c : Dev nD) : main (F := F) c = StableHlo.seq ops := by
  show main (F := F) c = StableHlo.seq (opsInit ++ opsL0 ++ opsL1 ++ opsL2 ++ opsL3 ++ opsTail)
  rw [split6 _ _ _ _ _ _ 24 48, seq_append (opsInit ++ opsL0), seq_append (opsL1 ++ opsL2.take 24),
    seq_append (opsL2.drop 24 ++ opsL3.take 48), ← part0_eq c, ← part1_eq c, ← part2_eq c, ← part3_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only, and determines what it writes -/

theorem opsInit_sub : (opsInit : List (HloOp τ sig (Elt F))).Forall fun op => op.bufs ⊆ tcRefs τ sig := by
  simp only [List.Forall, nullary_bufs_sub, unary_bufs_sub, binary_bufs_sub, ternary_bufs_sub, reshape_bufs_sub, and_self]
theorem opsL0_sub : (opsL0 : List (HloOp τ sig (Elt F))).Forall fun op => op.bufs ⊆ tcRefs τ sig := by
  simp only [List.Forall, nullary_bufs_sub, unary_bufs_sub, binary_bufs_sub, ternary_bufs_sub, reshape_bufs_sub, and_self]
theorem opsL1_sub : (opsL1 : List (HloOp τ sig (Elt F))).Forall fun op => op.bufs ⊆ tcRefs τ sig := by
  simp only [List.Forall, nullary_bufs_sub, unary_bufs_sub, binary_bufs_sub, ternary_bufs_sub, reshape_bufs_sub, and_self]
theorem opsL2_sub : (opsL2 : List (HloOp τ sig (Elt F))).Forall fun op => op.bufs ⊆ tcRefs τ sig := by
  simp only [List.Forall, nullary_bufs_sub, unary_bufs_sub, binary_bufs_sub, ternary_bufs_sub, reshape_bufs_sub, and_self]
theorem opsL3_sub : (opsL3 : List (HloOp τ sig (Elt F))).Forall fun op => op.bufs ⊆ tcRefs τ sig := by
  simp only [List.Forall, nullary_bufs_sub, unary_bufs_sub, binary_bufs_sub, ternary_bufs_sub, reshape_bufs_sub, and_self]
theorem opsTail_sub : (opsTail : List (HloOp τ sig (Elt F))).Forall fun op => op.bufs ⊆ tcRefs τ sig := by
  simp only [List.Forall, nullary_bufs_sub, unary_bufs_sub, binary_bufs_sub, ternary_bufs_sub, reshape_bufs_sub, and_self]

/-- Every operation touches TensorCore buffers only. -/
theorem ops_sub : (ops : List (HloOp τ sig (Elt F))).Forall fun op => op.bufs ⊆ tcRefs τ sig :=
  List.forall_append.2 ⟨List.forall_append.2 ⟨List.forall_append.2 ⟨List.forall_append.2 ⟨List.forall_append.2
    ⟨opsInit_sub, opsL0_sub⟩, opsL1_sub⟩, opsL2_sub⟩, opsL3_sub⟩, opsTail_sub⟩

theorem opsInit_fresh : (opsInit : List (HloOp τ sig (Elt F))).Forall fun op => op.fresh = ∅ := by
  simp only [List.Forall]; (repeat' apply And.intro) <;> rfl
theorem opsL0_fresh : (opsL0 : List (HloOp τ sig (Elt F))).Forall fun op => op.fresh = ∅ := by
  simp only [List.Forall]; (repeat' apply And.intro) <;> rfl
theorem opsL1_fresh : (opsL1 : List (HloOp τ sig (Elt F))).Forall fun op => op.fresh = ∅ := by
  simp only [List.Forall]; (repeat' apply And.intro) <;> rfl
theorem opsL2_fresh : (opsL2 : List (HloOp τ sig (Elt F))).Forall fun op => op.fresh = ∅ := by
  simp only [List.Forall]; (repeat' apply And.intro) <;> rfl
theorem opsL3_fresh : (opsL3 : List (HloOp τ sig (Elt F))).Forall fun op => op.fresh = ∅ := by
  simp only [List.Forall]; (repeat' apply And.intro) <;> rfl
theorem opsTail_fresh : (opsTail : List (HloOp τ sig (Elt F))).Forall fun op => op.fresh = ∅ := by
  simp only [List.Forall]; (repeat' apply And.intro) <;> rfl

/-- No operation leaves a buffer's contents undetermined. -/
theorem ops_fresh : ∀ op ∈ (ops : List (HloOp τ sig (Elt F))), op.fresh = ∅ :=
  List.forall_iff_forall_mem.1 (List.forall_append.2 ⟨List.forall_append.2 ⟨List.forall_append.2 ⟨List.forall_append.2
    ⟨List.forall_append.2 ⟨opsInit_fresh, opsL0_fresh⟩, opsL1_fresh⟩, opsL2_fresh⟩, opsL3_fresh⟩, opsTail_fresh⟩)

/-! ## The run -/

/-- From any memory with zero counters every weakly fair execution of @main terminates, each buffer at the fold of
    the operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  run_seq scopedRefs_eq scopedSems_eq defs main (fun _ => ops) main_eq (fun _ => ops_sub) m ρ (fun _ => ops_fresh)

end Cert.ReferenceIdeal.Hand

end
-- ==== Proof.Ref.Init.lean ====
/- The reference's start and its per-layer weights, read index by index.

   The start is the Gram matrix of the 512 three-vectors of one batch element (a contraction over the
   three coordinates), times the mask 1 − identity, copied to the four channels.  A layer's weights are
   one column of the 4×4 self weights, or one entry per channel of the 4×4×2 neighbour weights, spread
   over batch, row and column: at every (batch, row, column) they read the channel's entry. -/
import proofs.«412012_j25271587569863_4_alg».proof.ReferenceIdeal
import proofs.«412012_j25271587569863_4_alg».proof.Proof.Gen.ReferenceIdeal
import proofs.«412012_j25271587569863_4_alg».proof.Proof.Stencil
import Idealize.ShloMosaic.Lib.ValueIdx
import Idealize.ShloMosaic.Lib.IdealHost
import Idealize.ShloMosaic.Lib.Pipeline.Value
import Idealize.ShloMosaic.PureOps.Ideal.Laws

noncomputable section

namespace Cert.ReferenceIdeal.Hand

open Idealize.ShloMosaic Idealize.ShloMosaic.ValueIdx
open Cert.ReferenceIdeal
open Facts₀ Facts

/-- The mask 1 − identity: the constant one less the indicator of the diagonal. -/
def mask8 : FVec Ideal S512x512 .f32 :=
  subf (broadcastInDim S512x512 ![] bcast_S_S512x512 (constant S_ .f32 0x3F800000#32))
    (uitofp .f32 (cmpi .eq (addi (iotaInDim S512x512 32 0) (broadcastInDim S512x512 ![] bcast_S_S512x512 (constantI S_ 32 0#32)))
      (iotaInDim S512x512 32 1)))

/-- The start: the batched Gram matrix times the mask, copied to the four channels. -/
def x0R (n : FVec Ideal S16x512x3 .f32) : FVec Ideal S16x4x512x512 .f32 :=
  broadcastInDim S16x4x512x512 ![0, 1, 2, 3] bcast_S16x1x512x512_S16x4x512x512_0_1_2_3
    (broadcastInDim S16x1x512x512 ![0, 2, 3] bcast_S16x512x512_S16x1x512x512_0_2_3
      (mulf (Host.dotGeneral dot_S16x512x3_S16x512x3_S16x512x512_2_2_1_1_0_0 none n n)
        (broadcastInDim S16x512x512 ![0, 1, 2] bcast_S1x512x512_S16x512x512_0_1_2
          (broadcastInDim S1x512x512 ![1, 2] bcast_S512x512_S1x512x512_1_2 mask8))))

/-- A vector of four channel values spread over batch, row and column. -/
def spread4 (v : FVec Ideal S4 .f32) : FVec Ideal S16x4x512x512 .f32 :=
  broadcastInDim S16x4x512x512 ![0, 1, 2, 3] bcast_S1x4x1x1_S16x4x512x512_0_1_2_3
    (broadcastInDim S1x4x1x1 ![1, 2, 3] bcast_S4x1x1_S1x4x1x1_1_2_3
      (broadcastInDim S4x1x1 ![0] bcast_S4_S4x1x1_0 v))

/-- Every column of the self weights is a slice. -/
theorem slices_col (l : Fin 4) : S4x4.Slices ![0, l.val] S4x1 :=
  match l with
  | ⟨0, _⟩ => slices_S4x4_S4x1_0_0
  | ⟨1, _⟩ => slices_S4x4_S4x1_0_1
  | ⟨2, _⟩ => slices_S4x4_S4x1_0_2
  | ⟨3, _⟩ => slices_S4x4_S4x1_0_3

/-- Every (layer, distance) entry of the neighbour weights is a slice. -/
theorem slices_ent (l : Fin 4) (k : Fin 2) : S4x4x2.Slices ![0, l.val, k.val] S4x1x1 :=
  match l, k with
  | ⟨0, _⟩, ⟨0, _⟩ => slices_S4x4x2_S4x1x1_0_0_0
  | ⟨0, _⟩, ⟨1, _⟩ => slices_S4x4x2_S4x1x1_0_0_1
  | ⟨1, _⟩, ⟨0, _⟩ => slices_S4x4x2_S4x1x1_0_1_0
  | ⟨1, _⟩, ⟨1, _⟩ => slices_S4x4x2_S4x1x1_0_1_1
  | ⟨2, _⟩, ⟨0, _⟩ => slices_S4x4x2_S4x1x1_0_2_0
  | ⟨2, _⟩, ⟨1, _⟩ => slices_S4x4x2_S4x1x1_0_2_1
  | ⟨3, _⟩, ⟨0, _⟩ => slices_S4x4x2_S4x1x1_0_3_0
  | ⟨3, _⟩, ⟨1, _⟩ => slices_S4x4x2_S4x1x1_0_3_1

/-- Column `l` of the self weights, spread. -/
def wsB (l : Fin 4) (w : FVec Ideal S4x4 .f32) : FVec Ideal S16x4x512x512 .f32 :=
  spread4 (shapeCast S4 (extractStridedSlice S4x1 ![0, l.val] w (slices_col l)) shapeCasts_S4x1_S4)

/-- Entry `(l, k)` of the neighbour weights per channel, spread. -/
def wnB (l : Fin 4) (k : Fin 2) (w : FVec Ideal S4x4x2 .f32) : FVec Ideal S16x4x512x512 .f32 :=
  spread4 (shapeCast S4 (extractStridedSlice S4x1x1 ![0, l.val, k.val] w (slices_ent l k)) shapeCasts_S4x1x1_S4)

/-- The comparison of the two coordinates, as one bit: set exactly on the diagonal. -/
theorem diag_bit (i j : Fin 512) :
    cmpi .eq (addi (iotaInDim S512x512 32 0) (broadcastInDim S512x512 ![] bcast_S_S512x512 (constantI S_ 32 0#32)))
      (iotaInDim S512x512 32 1) (ix2 i j) = BitVec.ofBool (decide (i = j)) := by
  show IntOp.cmpi .eq (IntOp.addi (BitVec.ofNat 32 i.val) 0#32) (BitVec.ofNat 32 j.val) = _
  unfold IntOp.cmpi IntOp.addi
  simp only [BitVec.add_zero]
  congr 1
  rw [Bool.eq_iff_iff]
  simp only [beq_iff_eq, decide_eq_true_eq]
  constructor
  · intro h
    have h' := congrArg BitVec.toNat h
    simp only [BitVec.toNat_ofNat] at h'
    apply Fin.ext
    have := i.isLt
    have := j.isLt
    omega
  · rintro rfl
    rfl

theorem mask8_apply (i j : Fin 512) : mask8 (ix2 i j) = Cert.Stencil.maskR i j := by
  unfold mask8 Cert.Stencil.maskR
  rw [subf_apply, broadcastInDim_scalar_apply, constant_apply]
  congr 1
  show (((cmpi .eq (addi (iotaInDim S512x512 32 0) (broadcastInDim S512x512 ![] bcast_S_S512x512 (constantI S_ 32 0#32)))
      (iotaInDim S512x512 32 1) (ix2 i j)).toNat : ℝ) : EReal) = _
  rw [diag_bit]
  by_cases h : i = j
  · simp [h]
  · simp [h]

/-- A spread vector reads the channel's value at every batch, row and column. -/
theorem spread4_apply (v : FVec Ideal S4 .f32) (b : Fin 16) (c : Fin 4) (i j : Fin 512) :
    spread4 v (ix4 b c i j) = v (ix1 c) := by
  unfold spread4
  refine (broadcastInDim_apply _ _ _ (ix4 b c i j) (ix4 (0 : Fin 1) c (0 : Fin 1) (0 : Fin 1)) (fun a => ?_)).trans ?_
  · match a with
    | ⟨0, _⟩ => rfl
    | ⟨1, _⟩ => rfl
    | ⟨2, _⟩ => rfl
    | ⟨3, _⟩ => rfl
  refine (broadcastInDim_apply _ _ _ (ix4 (0 : Fin 1) c (0 : Fin 1) (0 : Fin 1)) (ix3 c (0 : Fin 1) (0 : Fin 1)) (fun a => ?_)).trans ?_
  · match a with
    | ⟨0, _⟩ => rfl
    | ⟨1, _⟩ => rfl
    | ⟨2, _⟩ => rfl
  exact broadcastInDim_apply _ _ _ (ix3 c (0 : Fin 1) (0 : Fin 1)) (ix1 c) (fun a => by
    match a with
    | ⟨0, _⟩ => rfl)

/-- The batched Gram matrix at (batch, row, column): the sum over the three coordinates of the products. -/
theorem gram_apply (n : FVec Ideal S16x512x3 .f32) (b : Fin 16) (i j : Fin 512) :
    Host.dotGeneral dot_S16x512x3_S16x512x3_S16x512x512_2_2_1_1_0_0 none n n (ix3 b i j)
      = ∑ d : Fin 3, n (ix3 b i d) * n (ix3 b j d) := by
  show FloatOps.dotGeneral _ none _ n n (ix3 b i j) = _
  rw [Ideal.dotGeneral_apply,
    ← Equiv.sum_comp (contrEquiv1 dot_S16x512x3_S16x512x3_S16x512x512_2_2_1_1_0_0 3 rfl rfl).symm]
  refine Finset.sum_congr rfl fun d _ => ?_
  have c3 := contrEquiv1_symm_val dot_S16x512x3_S16x512x3_S16x512x512_2_2_1_1_0_0 3 rfl rfl d
  have l3 : dot_S16x512x3_S16x512x3_S16x512x512_2_2_1_1_0_0.lhsIdx (ix3 b i j)
      ((contrEquiv1 _ 3 rfl rfl).symm d) = ix3 b i d := by
    funext ax; apply Fin.ext
    match ax with
    | ⟨0, _⟩ => simp [DotDims.lhsIdx, dot_S16x512x3_S16x512x3_S16x512x512_2_2_1_1_0_0]; rfl
    | ⟨1, _⟩ => simp [DotDims.lhsIdx, dot_S16x512x3_S16x512x3_S16x512x512_2_2_1_1_0_0]; rfl
    | ⟨2, _⟩ => simp [DotDims.lhsIdx, dot_S16x512x3_S16x512x3_S16x512x512_2_2_1_1_0_0]; exact c3
  have r3 : dot_S16x512x3_S16x512x3_S16x512x512_2_2_1_1_0_0.rhsIdx (ix3 b i j)
      ((contrEquiv1 _ 3 rfl rfl).symm d) = ix3 b j d := by
    funext ax; apply Fin.ext
    match ax with
    | ⟨0, _⟩ => simp [DotDims.rhsIdx, dot_S16x512x3_S16x512x3_S16x512x512_2_2_1_1_0_0]; rfl
    | ⟨1, _⟩ => simp [DotDims.rhsIdx, dot_S16x512x3_S16x512x3_S16x512x512_2_2_1_1_0_0]; rfl
    | ⟨2, _⟩ => simp [DotDims.rhsIdx, dot_S16x512x3_S16x512x3_S16x512x512_2_2_1_1_0_0]; exact c3
  rw [l3, r3]

theorem x0R_apply (n : FVec Ideal S16x512x3 .f32) (b : Fin 16) (c : Fin 4) (i j : Fin 512) :
    x0R n (ix4 b c i j) = Cert.Stencil.initR (fun i d => n (ix3 b i d)) c i j := by
  unfold x0R
  refine (broadcastInDim_apply _ _ _ (ix4 b c i j) (ix4 b (0 : Fin 1) i j) (fun a => ?_)).trans ?_
  · match a with
    | ⟨0, _⟩ => rfl
    | ⟨1, _⟩ => rfl
    | ⟨2, _⟩ => rfl
    | ⟨3, _⟩ => rfl
  refine (broadcastInDim_apply _ _ _ (ix4 b (0 : Fin 1) i j) (ix3 b i j) (fun a => ?_)).trans ?_
  · match a with
    | ⟨0, _⟩ => rfl
    | ⟨1, _⟩ => rfl
    | ⟨2, _⟩ => rfl
  rw [mulf_apply, gram_apply]
  have hm : broadcastInDim S16x512x512 ![0, 1, 2] bcast_S1x512x512_S16x512x512_0_1_2
      (broadcastInDim S1x512x512 ![1, 2] bcast_S512x512_S1x512x512_1_2 mask8) (ix3 b i j) = Cert.Stencil.maskR i j := by
    refine (broadcastInDim_apply _ _ _ (ix3 b i j) (ix3 (0 : Fin 1) i j) (fun a => ?_)).trans ?_
    · match a with
      | ⟨0, _⟩ => rfl
      | ⟨1, _⟩ => rfl
      | ⟨2, _⟩ => rfl
    refine (broadcastInDim_apply _ _ _ (ix3 (0 : Fin 1) i j) (ix2 i j) (fun a => ?_)).trans (mask8_apply i j)
    match a with
    | ⟨0, _⟩ => rfl
    | ⟨1, _⟩ => rfl
  rw [hm]
  rfl

theorem wsB_apply (l : Fin 4) (w : FVec Ideal S4x4 .f32) (b : Fin 16) (c : Fin 4) (i j : Fin 512) :
    wsB l w (ix4 b c i j) = w (ix2 c l) := by
  unfold wsB
  rw [spread4_apply]
  refine (shapeCast_apply _ _ (ix1 c) (ix2 c (0 : Fin 1)) ?_).trans ?_
  · rw [Shape.rowMajor_val_two, Shape.rowMajor_val_one]
    show c.val * 1 + 0 = c.val
    omega
  exact extractStridedSlice_apply _ _ _ (ix2 c (0 : Fin 1)) (ix2 c l) (fun a => by
    match a with
    | ⟨0, _⟩ => show c.val = 0 + c.val; omega
    | ⟨1, _⟩ => show l.val = l.val + 0; omega)

theorem wnB_apply (l : Fin 4) (k : Fin 2) (w : FVec Ideal S4x4x2 .f32) (b : Fin 16) (c : Fin 4) (i j : Fin 512) :
    wnB l k w (ix4 b c i j) = w (ix3 c l k) := by
  unfold wnB
  rw [spread4_apply]
  refine (shapeCast_apply _ _ (ix1 c) (ix3 c (0 : Fin 1) (0 : Fin 1)) ?_).trans ?_
  · rw [Shape.rowMajor_val_three, Shape.rowMajor_val_one]
    show (c.val * 1 + 0) * 1 + 0 = c.val
    omega
  exact extractStridedSlice_apply _ _ _ (ix3 c (0 : Fin 1) (0 : Fin 1)) (ix3 c l k) (fun a => by
    match a with
    | ⟨0, _⟩ => show c.val = 0 + c.val; omega
    | ⟨1, _⟩ => show l.val = l.val + 0; omega
    | ⟨2, _⟩ => show k.val = k.val + 0; omega)

/-- At a literal layer (and distance) the slice offsets are the literal ones. -/
example (w : FVec Ideal S4x4 .f32) : wsB 3 w = spread4 (shapeCast S4 (extractStridedSlice S4x1 ![0, 3] w slices_S4x4_S4x1_0_3) shapeCasts_S4x1_S4) := rfl
example (w : FVec Ideal S4x4x2 .f32) : wnB 2 1 w = spread4 (shapeCast S4 (extractStridedSlice S4x1x1 ![0, 2, 1] w slices_S4x4x2_S4x1x1_0_2_1) shapeCasts_S4x1x1_S4) := rfl

end Cert.ReferenceIdeal.Hand

end
-- ==== Proof.Ref.Layer.lean ====
/- One layer of the reference on whole arrays, and what it reads index by index.

   The layer takes the self weight, the two neighbour weights (already broadcast to the array's
   shape), the mask and the array x.  A cyclic shift of x along the last or the last-but-one axis
   is a concatenation of two slices: the trailing d columns followed by the leading 512 − d (the
   entry d places BEFORE), or the trailing 512 − d followed by the leading d (the entry d places
   AFTER).  The four shifts of one distance are summed left to right, the sum multiplied by its
   weight, the three products added, celu applied as max(y,0) + 1·(expm1(min(y,0)/1)), the result
   added to x, the sum averaged with its transpose in the last two axes and multiplied by the mask.
   Read at an index (b, c, i, j) this is Cert.Stencil.layerR of the index-level reading of x. -/
import proofs.«412012_j25271587569863_4_alg».proof.Proof.Gen.ReferenceIdeal
import proofs.«412012_j25271587569863_4_alg».proof.Proof.Stencil
import Idealize.ShloMosaic.Lib.Pipeline.Value
import Idealize.ShloMosaic.Lib.ValueIdx
import Idealize.ShloMosaic.Lib.IdealHost

noncomputable section

namespace Cert.ReferenceIdeal.Hand

open Idealize.ShloMosaic Idealize.ShloMosaic.ValueIdx
open Cert.ReferenceIdeal Cert.ReferenceIdeal.Facts₀ Cert.ReferenceIdeal.Facts

variable [Facts]

/-- The array type of one layer. -/
abbrev A4 := FVec Ideal S16x4x512x512 .f32

/-! ## The eight cyclic shifts, each two slices and a concatenation -/

/-- Last axis, one place before: column 511, then columns 0 … 510. -/
def rollC1b (x : A4) : A4 :=
  concatenate S16x4x512x512 3 [⟨S16x4x512x1, extractStridedSlice S16x4x512x1 ![0, 0, 0, 511] x slices_S16x4x512x512_S16x4x512x1_0_0_0_511⟩,
    ⟨S16x4x512x511, extractStridedSlice S16x4x512x511 ![0, 0, 0, 0] x slices_S16x4x512x512_S16x4x512x511_0_0_0_0⟩]
    concatenates_S16x4x512x1_S16x4x512x511_S16x4x512x512_d3

/-- Last axis, one place after: columns 1 … 511, then column 0. -/
def rollC1f (x : A4) : A4 :=
  concatenate S16x4x512x512 3 [⟨S16x4x512x511, extractStridedSlice S16x4x512x511 ![0, 0, 0, 1] x slices_S16x4x512x512_S16x4x512x511_0_0_0_1⟩,
    ⟨S16x4x512x1, extractStridedSlice S16x4x512x1 ![0, 0, 0, 0] x slices_S16x4x512x512_S16x4x512x1_0_0_0_0⟩]
    concatenates_S16x4x512x511_S16x4x512x1_S16x4x512x512_d3

/-- Row axis, one place before: row 511, then rows 0 … 510. -/
def rollR1b (x : A4) : A4 :=
  concatenate S16x4x512x512 2 [⟨S16x4x1x512, extractStridedSlice S16x4x1x512 ![0, 0, 511, 0] x slices_S16x4x512x512_S16x4x1x512_0_0_511_0⟩,
    ⟨S16x4x511x512, extractStridedSlice S16x4x511x512 ![0, 0, 0, 0] x slices_S16x4x512x512_S16x4x511x512_0_0_0_0⟩]
    concatenates_S16x4x1x512_S16x4x511x512_S16x4x512x512_d2

/-- Row axis, one place after: rows 1 … 511, then row 0. -/
def rollR1f (x : A4) : A4 :=
  concatenate S16x4x512x512 2 [⟨S16x4x511x512, extractStridedSlice S16x4x511x512 ![0, 0, 1, 0] x slices_S16x4x512x512_S16x4x511x512_0_0_1_0⟩,
    ⟨S16x4x1x512, extractStridedSlice S16x4x1x512 ![0, 0, 0, 0] x slices_S16x4x512x512_S16x4x1x512_0_0_0_0⟩]
    concatenates_S16x4x511x512_S16x4x1x512_S16x4x512x512_d2

/-- Last axis, two places before: columns 510, 511, then columns 0 … 509. -/
def rollC2b (x : A4) : A4 :=
  concatenate S16x4x512x512 3 [⟨S16x4x512x2, extractStridedSlice S16x4x512x2 ![0, 0, 0, 510] x slices_S16x4x512x512_S16x4x512x2_0_0_0_510⟩,
    ⟨S16x4x512x510, extractStridedSlice S16x4x512x510 ![0, 0, 0, 0] x slices_S16x4x512x512_S16x4x512x510_0_0_0_0⟩]
    concatenates_S16x4x512x2_S16x4x512x510_S16x4x512x512_d3

/-- Last axis, two places after: columns 2 … 511, then columns 0, 1. -/
def rollC2f (x : A4) : A4 :=
  concatenate S16x4x512x512 3 [⟨S16x4x512x510, extractStridedSlice S16x4x512x510 ![0, 0, 0, 2] x slices_S16x4x512x512_S16x4x512x510_0_0_0_2⟩,
    ⟨S16x4x512x2, extractStridedSlice S16x4x512x2 ![0, 0, 0, 0] x slices_S16x4x512x512_S16x4x512x2_0_0_0_0⟩]
    concatenates_S16x4x512x510_S16x4x512x2_S16x4x512x512_d3

/-- Row axis, two places before: rows 510, 511, then rows 0 … 509. -/
def rollR2b (x : A4) : A4 :=
  concatenate S16x4x512x512 2 [⟨S16x4x2x512, extractStridedSlice S16x4x2x512 ![0, 0, 510, 0] x slices_S16x4x512x512_S16x4x2x512_0_0_510_0⟩,
    ⟨S16x4x510x512, extractStridedSlice S16x4x510x512 ![0, 0, 0, 0] x slices_S16x4x512x512_S16x4x510x512_0_0_0_0⟩]
    concatenates_S16x4x2x512_S16x4x510x512_S16x4x512x512_d2

/-- Row axis, two places after: rows 2 … 511, then rows 0, 1. -/
def rollR2f (x : A4) : A4 :=
  concatenate S16x4x512x512 2 [⟨S16x4x510x512, extractStridedSlice S16x4x510x512 ![0, 0, 2, 0] x slices_S16x4x512x512_S16x4x510x512_0_0_2_0⟩,
    ⟨S16x4x2x512, extractStridedSlice S16x4x2x512 ![0, 0, 0, 0] x slices_S16x4x512x512_S16x4x2x512_0_0_0_0⟩]
    concatenates_S16x4x510x512_S16x4x2x512_S16x4x512x512_d2

/-! ## celu, the pre-activation and the layer -/

/-- celu on arrays: max(y, 0) + 1 · expm1(min(y, 0) / 1), every literal broadcast from a scalar. -/
def celuVec (y : A4) : A4 :=
  addf (maximumf y (broadcastInDim S16x4x512x512 ![] bcast_S_S16x4x512x512 (constant S_ .f32 0x00000000#32)))
    (mulf (broadcastInDim S16x4x512x512 ![] bcast_S_S16x4x512x512 (constant S_ .f32 0x3F800000#32))
      (Host.expm1 (Host.divf (minimumf y (broadcastInDim S16x4x512x512 ![] bcast_S_S16x4x512x512 (constant S_ .f32 0x00000000#32)))
        (broadcastInDim S16x4x512x512 ![] bcast_S_S16x4x512x512 (constant S_ .f32 0x3F800000#32)))))

/-- The pre-activation: ws·x + w1·(sum of the four shifts by one) + w2·(sum of the four shifts by two). -/
def preVec (ws w1 w2 x : A4) : A4 :=
  addf (addf (mulf ws x) (mulf w1 (addf (addf (addf (rollC1b x) (rollC1f x)) (rollR1b x)) (rollR1f x))))
    (mulf w2 (addf (addf (addf (rollC2b x) (rollC2f x)) (rollR2b x)) (rollR2f x)))

/-- The update before it is symmetrised: x + celu(pre-activation). -/
def stepVec (ws w1 w2 x : A4) : A4 := addf x (celuVec (preVec ws w1 w2 x))

/-- One layer: ½ · (u + uᵀ) · mask, u the update; the same term for every layer. -/
def layerVecR (ws w1 w2 : FVec Ideal S16x4x512x512 .f32) (mk : FVec Ideal S512x512 .f32) (x : FVec Ideal S16x4x512x512 .f32) :
    FVec Ideal S16x4x512x512 .f32 :=
  mulf (mulf (broadcastInDim S16x4x512x512 ![] bcast_S_S16x4x512x512 (constant S_ .f32 0x3F000000#32))
      (addf (stepVec ws w1 w2 x) (transpose S16x4x512x512 [0, 1, 3, 2] (stepVec ws w1 w2 x) transposes_S16x4x512x512_S16x4x512x512_0_1_3_2)))
    (broadcastInDim S16x4x512x512 ![0, 1, 2, 3] bcast_S1x1x512x512_S16x4x512x512_0_1_2_3
      (broadcastInDim S1x1x512x512 ![2, 3] bcast_S512x512_S1x1x512x512_2_3 mk))

/-! ## The shifts read at an index -/

/-- The shift read at an index: the entry of the column 1 before, on the ring of 512. -/
theorem rollC1b_apply (x : A4) (b : Fin 16) (c : Fin 4) (i j : Fin 512) :
    rollC1b x (ix4 b c i j) = x (ix4 b c i (Cert.Stencil.back 1 j)) := by
  unfold rollC1b
  by_cases hq : j.val < 1
  · refine (concatenate_pair_apply_left (t := S16x4x512x512) (s₁ := S16x4x512x1) (s₂ := S16x4x512x511) 3 _ _ _ (ix4 b c i j) rfl
      (ix4 b c i (⟨j.val, hq⟩ : Fin 1)) (fun a => by
      match a with
      | ⟨0, _⟩ => rfl
      | ⟨1, _⟩ => rfl
      | ⟨2, _⟩ => rfl
      | ⟨3, _⟩ => rfl)).trans ?_
    refine extractStridedSlice_apply _ x _ _ (ix4 b c i (Cert.Stencil.back 1 j)) (fun a => ?_)
    match a with
    | ⟨0, _⟩ => show b.val = 0 + b.val; omega
    | ⟨1, _⟩ => show c.val = 0 + c.val; omega
    | ⟨2, _⟩ => show i.val = 0 + i.val; omega
    | ⟨3, _⟩ => show (j.val + (512 - 1 % 512)) % 512 = 511 + j.val; have := j.isLt; omega
  · have hq : j.val - 1 < 511 := by have := j.isLt; omega
    refine (concatenate_pair_apply_right (t := S16x4x512x512) (s₁ := S16x4x512x1) (s₂ := S16x4x512x511) 3 _ _ _ (ix4 b c i j) rfl rfl
      (ix4 b c i (⟨j.val - 1, hq⟩ : Fin 511)) (fun a ha => by
      match a with
      | ⟨0, _⟩ => rfl
      | ⟨1, _⟩ => rfl
      | ⟨2, _⟩ => rfl
      | ⟨3, _⟩ => exact absurd rfl ha) (by show j.val - 1 + 1 = j.val; omega)).trans ?_
    refine extractStridedSlice_apply _ x _ _ (ix4 b c i (Cert.Stencil.back 1 j)) (fun a => ?_)
    match a with
    | ⟨0, _⟩ => show b.val = 0 + b.val; omega
    | ⟨1, _⟩ => show c.val = 0 + c.val; omega
    | ⟨2, _⟩ => show i.val = 0 + i.val; omega
    | ⟨3, _⟩ => show (j.val + (512 - 1 % 512)) % 512 = 0 + (j.val - 1); have := j.isLt; omega

/-- The shift read at an index: the entry of the column 1 after, on the ring of 512. -/
theorem rollC1f_apply (x : A4) (b : Fin 16) (c : Fin 4) (i j : Fin 512) :
    rollC1f x (ix4 b c i j) = x (ix4 b c i (Cert.Stencil.fwd 1 j)) := by
  unfold rollC1f
  by_cases hq : j.val < 511
  · refine (concatenate_pair_apply_left (t := S16x4x512x512) (s₁ := S16x4x512x511) (s₂ := S16x4x512x1) 3 _ _ _ (ix4 b c i j) rfl
      (ix4 b c i (⟨j.val, hq⟩ : Fin 511)) (fun a => by
      match a with
      | ⟨0, _⟩ => rfl
      | ⟨1, _⟩ => rfl
      | ⟨2, _⟩ => rfl
      | ⟨3, _⟩ => rfl)).trans ?_
    refine extractStridedSlice_apply _ x _ _ (ix4 b c i (Cert.Stencil.fwd 1 j)) (fun a => ?_)
    match a with
    | ⟨0, _⟩ => show b.val = 0 + b.val; omega
    | ⟨1, _⟩ => show c.val = 0 + c.val; omega
    | ⟨2, _⟩ => show i.val = 0 + i.val; omega
    | ⟨3, _⟩ => show (j.val + 1) % 512 = 1 + j.val; have := j.isLt; omega
  · have hq : j.val - 511 < 1 := by have := j.isLt; omega
    refine (concatenate_pair_apply_right (t := S16x4x512x512) (s₁ := S16x4x512x511) (s₂ := S16x4x512x1) 3 _ _ _ (ix4 b c i j) rfl rfl
      (ix4 b c i (⟨j.val - 511, hq⟩ : Fin 1)) (fun a ha => by
      match a with
      | ⟨0, _⟩ => rfl
      | ⟨1, _⟩ => rfl
      | ⟨2, _⟩ => rfl
      | ⟨3, _⟩ => exact absurd rfl ha) (by show j.val - 511 + 511 = j.val; omega)).trans ?_
    refine extractStridedSlice_apply _ x _ _ (ix4 b c i (Cert.Stencil.fwd 1 j)) (fun a => ?_)
    match a with
    | ⟨0, _⟩ => show b.val = 0 + b.val; omega
    | ⟨1, _⟩ => show c.val = 0 + c.val; omega
    | ⟨2, _⟩ => show i.val = 0 + i.val; omega
    | ⟨3, _⟩ => show (j.val + 1) % 512 = 0 + (j.val - 511); have := j.isLt; omega

/-- The shift read at an index: the entry of the row 1 before, on the ring of 512. -/
theorem rollR1b_apply (x : A4) (b : Fin 16) (c : Fin 4) (i j : Fin 512) :
    rollR1b x (ix4 b c i j) = x (ix4 b c (Cert.Stencil.back 1 i) j) := by
  unfold rollR1b
  by_cases hq : i.val < 1
  · refine (concatenate_pair_apply_left (t := S16x4x512x512) (s₁ := S16x4x1x512) (s₂ := S16x4x511x512) 2 _ _ _ (ix4 b c i j) rfl
      (ix4 b c (⟨i.val, hq⟩ : Fin 1) j) (fun a => by
      match a with
      | ⟨0, _⟩ => rfl
      | ⟨1, _⟩ => rfl
      | ⟨2, _⟩ => rfl
      | ⟨3, _⟩ => rfl)).trans ?_
    refine extractStridedSlice_apply _ x _ _ (ix4 b c (Cert.Stencil.back 1 i) j) (fun a => ?_)
    match a with
    | ⟨0, _⟩ => show b.val = 0 + b.val; omega
    | ⟨1, _⟩ => show c.val = 0 + c.val; omega
    | ⟨2, _⟩ => show (i.val + (512 - 1 % 512)) % 512 = 511 + i.val; have := i.isLt; omega
    | ⟨3, _⟩ => show j.val = 0 + j.val; omega
  · have hq : i.val - 1 < 511 := by have := i.isLt; omega
    refine (concatenate_pair_apply_right (t := S16x4x512x512) (s₁ := S16x4x1x512) (s₂ := S16x4x511x512) 2 _ _ _ (ix4 b c i j) rfl rfl
      (ix4 b c (⟨i.val - 1, hq⟩ : Fin 511) j) (fun a ha => by
      match a with
      | ⟨0, _⟩ => rfl
      | ⟨1, _⟩ => rfl
      | ⟨2, _⟩ => exact absurd rfl ha
      | ⟨3, _⟩ => rfl) (by show i.val - 1 + 1 = i.val; omega)).trans ?_
    refine extractStridedSlice_apply _ x _ _ (ix4 b c (Cert.Stencil.back 1 i) j) (fun a => ?_)
    match a with
    | ⟨0, _⟩ => show b.val = 0 + b.val; omega
    | ⟨1, _⟩ => show c.val = 0 + c.val; omega
    | ⟨2, _⟩ => show (i.val + (512 - 1 % 512)) % 512 = 0 + (i.val - 1); have := i.isLt; omega
    | ⟨3, _⟩ => show j.val = 0 + j.val; omega

/-- The shift read at an index: the entry of the row 1 after, on the ring of 512. -/
theorem rollR1f_apply (x : A4) (b : Fin 16) (c : Fin 4) (i j : Fin 512) :
    rollR1f x (ix4 b c i j) = x (ix4 b c (Cert.Stencil.fwd 1 i) j) := by
  unfold rollR1f
  by_cases hq : i.val < 511
  · refine (concatenate_pair_apply_left (t := S16x4x512x512) (s₁ := S16x4x511x512) (s₂ := S16x4x1x512) 2 _ _ _ (ix4 b c i j) rfl
      (ix4 b c (⟨i.val, hq⟩ : Fin 511) j) (fun a => by
      match a with
      | ⟨0, _⟩ => rfl
      | ⟨1, _⟩ => rfl
      | ⟨2, _⟩ => rfl
      | ⟨3, _⟩ => rfl)).trans ?_
    refine extractStridedSlice_apply _ x _ _ (ix4 b c (Cert.Stencil.fwd 1 i) j) (fun a => ?_)
    match a with
    | ⟨0, _⟩ => show b.val = 0 + b.val; omega
    | ⟨1, _⟩ => show c.val = 0 + c.val; omega
    | ⟨2, _⟩ => show (i.val + 1) % 512 = 1 + i.val; have := i.isLt; omega
    | ⟨3, _⟩ => show j.val = 0 + j.val; omega
  · have hq : i.val - 511 < 1 := by have := i.isLt; omega
    refine (concatenate_pair_apply_right (t := S16x4x512x512) (s₁ := S16x4x511x512) (s₂ := S16x4x1x512) 2 _ _ _ (ix4 b c i j) rfl rfl
      (ix4 b c (⟨i.val - 511, hq⟩ : Fin 1) j) (fun a ha => by
      match a with
      | ⟨0, _⟩ => rfl
      | ⟨1, _⟩ => rfl
      | ⟨2, _⟩ => exact absurd rfl ha
      | ⟨3, _⟩ => rfl) (by show i.val - 511 + 511 = i.val; omega)).trans ?_
    refine extractStridedSlice_apply _ x _ _ (ix4 b c (Cert.Stencil.fwd 1 i) j) (fun a => ?_)
    match a with
    | ⟨0, _⟩ => show b.val = 0 + b.val; omega
    | ⟨1, _⟩ => show c.val = 0 + c.val; omega
    | ⟨2, _⟩ => show (i.val + 1) % 512 = 0 + (i.val - 511); have := i.isLt; omega
    | ⟨3, _⟩ => show j.val = 0 + j.val; omega

/-- The shift read at an index: the entry of the column 2 before, on the ring of 512. -/
theorem rollC2b_apply (x : A4) (b : Fin 16) (c : Fin 4) (i j : Fin 512) :
    rollC2b x (ix4 b c i j) = x (ix4 b c i (Cert.Stencil.back 2 j)) := by
  unfold rollC2b
  by_cases hq : j.val < 2
  · refine (concatenate_pair_apply_left (t := S16x4x512x512) (s₁ := S16x4x512x2) (s₂ := S16x4x512x510) 3 _ _ _ (ix4 b c i j) rfl
      (ix4 b c i (⟨j.val, hq⟩ : Fin 2)) (fun a => by
      match a with
      | ⟨0, _⟩ => rfl
      | ⟨1, _⟩ => rfl
      | ⟨2, _⟩ => rfl
      | ⟨3, _⟩ => rfl)).trans ?_
    refine extractStridedSlice_apply _ x _ _ (ix4 b c i (Cert.Stencil.back 2 j)) (fun a => ?_)
    match a with
    | ⟨0, _⟩ => show b.val = 0 + b.val; omega
    | ⟨1, _⟩ => show c.val = 0 + c.val; omega
    | ⟨2, _⟩ => show i.val = 0 + i.val; omega
    | ⟨3, _⟩ => show (j.val + (512 - 2 % 512)) % 512 = 510 + j.val; have := j.isLt; omega
  · have hq : j.val - 2 < 510 := by have := j.isLt; omega
    refine (concatenate_pair_apply_right (t := S16x4x512x512) (s₁ := S16x4x512x2) (s₂ := S16x4x512x510) 3 _ _ _ (ix4 b c i j) rfl rfl
      (ix4 b c i (⟨j.val - 2, hq⟩ : Fin 510)) (fun a ha => by
      match a with
      | ⟨0, _⟩ => rfl
      | ⟨1, _⟩ => rfl
      | ⟨2, _⟩ => rfl
      | ⟨3, _⟩ => exact absurd rfl ha) (by show j.val - 2 + 2 = j.val; omega)).trans ?_
    refine extractStridedSlice_apply _ x _ _ (ix4 b c i (Cert.Stencil.back 2 j)) (fun a => ?_)
    match a with
    | ⟨0, _⟩ => show b.val = 0 + b.val; omega
    | ⟨1, _⟩ => show c.val = 0 + c.val; omega
    | ⟨2, _⟩ => show i.val = 0 + i.val; omega
    | ⟨3, _⟩ => show (j.val + (512 - 2 % 512)) % 512 = 0 + (j.val - 2); have := j.isLt; omega

/-- The shift read at an index: the entry of the column 2 after, on the ring of 512. -/
theorem rollC2f_apply (x : A4) (b : Fin 16) (c : Fin 4) (i j : Fin 512) :
    rollC2f x (ix4 b c i j) = x (ix4 b c i (Cert.Stencil.fwd 2 j)) := by
  unfold rollC2f
  by_cases hq : j.val < 510
  · refine (concatenate_pair_apply_left (t := S16x4x512x512) (s₁ := S16x4x512x510) (s₂ := S16x4x512x2) 3 _ _ _ (ix4 b c i j) rfl
      (ix4 b c i (⟨j.val, hq⟩ : Fin 510)) (fun a => by
      match a with
      | ⟨0, _⟩ => rfl
      | ⟨1, _⟩ => rfl
      | ⟨2, _⟩ => rfl
      | ⟨3, _⟩ => rfl)).trans ?_
    refine extractStridedSlice_apply _ x _ _ (ix4 b c i (Cert.Stencil.fwd 2 j)) (fun a => ?_)
    match a with
    | ⟨0, _⟩ => show b.val = 0 + b.val; omega
    | ⟨1, _⟩ => show c.val = 0 + c.val; omega
    | ⟨2, _⟩ => show i.val = 0 + i.val; omega
    | ⟨3, _⟩ => show (j.val + 2) % 512 = 2 + j.val; have := j.isLt; omega
  · have hq : j.val - 510 < 2 := by have := j.isLt; omega
    refine (concatenate_pair_apply_right (t := S16x4x512x512) (s₁ := S16x4x512x510) (s₂ := S16x4x512x2) 3 _ _ _ (ix4 b c i j) rfl rfl
      (ix4 b c i (⟨j.val - 510, hq⟩ : Fin 2)) (fun a ha => by
      match a with
      | ⟨0, _⟩ => rfl
      | ⟨1, _⟩ => rfl
      | ⟨2, _⟩ => rfl
      | ⟨3, _⟩ => exact absurd rfl ha) (by show j.val - 510 + 510 = j.val; omega)).trans ?_
    refine extractStridedSlice_apply _ x _ _ (ix4 b c i (Cert.Stencil.fwd 2 j)) (fun a => ?_)
    match a with
    | ⟨0, _⟩ => show b.val = 0 + b.val; omega
    | ⟨1, _⟩ => show c.val = 0 + c.val; omega
    | ⟨2, _⟩ => show i.val = 0 + i.val; omega
    | ⟨3, _⟩ => show (j.val + 2) % 512 = 0 + (j.val - 510); have := j.isLt; omega

/-- The shift read at an index: the entry of the row 2 before, on the ring of 512. -/
theorem rollR2b_apply (x : A4) (b : Fin 16) (c : Fin 4) (i j : Fin 512) :
    rollR2b x (ix4 b c i j) = x (ix4 b c (Cert.Stencil.back 2 i) j) := by
  unfold rollR2b
  by_cases hq : i.val < 2
  · refine (concatenate_pair_apply_left (t := S16x4x512x512) (s₁ := S16x4x2x512) (s₂ := S16x4x510x512) 2 _ _ _ (ix4 b c i j) rfl
      (ix4 b c (⟨i.val, hq⟩ : Fin 2) j) (fun a => by
      match a with
      | ⟨0, _⟩ => rfl
      | ⟨1, _⟩ => rfl
      | ⟨2, _⟩ => rfl
      | ⟨3, _⟩ => rfl)).trans ?_
    refine extractStridedSlice_apply _ x _ _ (ix4 b c (Cert.Stencil.back 2 i) j) (fun a => ?_)
    match a with
    | ⟨0, _⟩ => show b.val = 0 + b.val; omega
    | ⟨1, _⟩ => show c.val = 0 + c.val; omega
    | ⟨2, _⟩ => show (i.val + (512 - 2 % 512)) % 512 = 510 + i.val; have := i.isLt; omega
    | ⟨3, _⟩ => show j.val = 0 + j.val; omega
  · have hq : i.val - 2 < 510 := by have := i.isLt; omega
    refine (concatenate_pair_apply_right (t := S16x4x512x512) (s₁ := S16x4x2x512) (s₂ := S16x4x510x512) 2 _ _ _ (ix4 b c i j) rfl rfl
      (ix4 b c (⟨i.val - 2, hq⟩ : Fin 510) j) (fun a ha => by
      match a with
      | ⟨0, _⟩ => rfl
      | ⟨1, _⟩ => rfl
      | ⟨2, _⟩ => exact absurd rfl ha
      | ⟨3, _⟩ => rfl) (by show i.val - 2 + 2 = i.val; omega)).trans ?_
    refine extractStridedSlice_apply _ x _ _ (ix4 b c (Cert.Stencil.back 2 i) j) (fun a => ?_)
    match a with
    | ⟨0, _⟩ => show b.val = 0 + b.val; omega
    | ⟨1, _⟩ => show c.val = 0 + c.val; omega
    | ⟨2, _⟩ => show (i.val + (512 - 2 % 512)) % 512 = 0 + (i.val - 2); have := i.isLt; omega
    | ⟨3, _⟩ => show j.val = 0 + j.val; omega

/-- The shift read at an index: the entry of the row 2 after, on the ring of 512. -/
theorem rollR2f_apply (x : A4) (b : Fin 16) (c : Fin 4) (i j : Fin 512) :
    rollR2f x (ix4 b c i j) = x (ix4 b c (Cert.Stencil.fwd 2 i) j) := by
  unfold rollR2f
  by_cases hq : i.val < 510
  · refine (concatenate_pair_apply_left (t := S16x4x512x512) (s₁ := S16x4x510x512) (s₂ := S16x4x2x512) 2 _ _ _ (ix4 b c i j) rfl
      (ix4 b c (⟨i.val, hq⟩ : Fin 510) j) (fun a => by
      match a with
      | ⟨0, _⟩ => rfl
      | ⟨1, _⟩ => rfl
      | ⟨2, _⟩ => rfl
      | ⟨3, _⟩ => rfl)).trans ?_
    refine extractStridedSlice_apply _ x _ _ (ix4 b c (Cert.Stencil.fwd 2 i) j) (fun a => ?_)
    match a with
    | ⟨0, _⟩ => show b.val = 0 + b.val; omega
    | ⟨1, _⟩ => show c.val = 0 + c.val; omega
    | ⟨2, _⟩ => show (i.val + 2) % 512 = 2 + i.val; have := i.isLt; omega
    | ⟨3, _⟩ => show j.val = 0 + j.val; omega
  · have hq : i.val - 510 < 2 := by have := i.isLt; omega
    refine (concatenate_pair_apply_right (t := S16x4x512x512) (s₁ := S16x4x510x512) (s₂ := S16x4x2x512) 2 _ _ _ (ix4 b c i j) rfl rfl
      (ix4 b c (⟨i.val - 510, hq⟩ : Fin 2) j) (fun a ha => by
      match a with
      | ⟨0, _⟩ => rfl
      | ⟨1, _⟩ => rfl
      | ⟨2, _⟩ => exact absurd rfl ha
      | ⟨3, _⟩ => rfl) (by show i.val - 510 + 510 = i.val; omega)).trans ?_
    refine extractStridedSlice_apply _ x _ _ (ix4 b c (Cert.Stencil.fwd 2 i) j) (fun a => ?_)
    match a with
    | ⟨0, _⟩ => show b.val = 0 + b.val; omega
    | ⟨1, _⟩ => show c.val = 0 + c.val; omega
    | ⟨2, _⟩ => show (i.val + 2) % 512 = 0 + (i.val - 510); have := i.isLt; omega
    | ⟨3, _⟩ => show j.val = 0 + j.val; omega

/-! ## celu, the pre-activation, the update and the layer read at an index -/

/-- A scalar literal broadcast to the array reads as the literal everywhere. -/
theorem bcastLit_apply (w : BitVec 32) (k : S16x4x512x512.Idx) :
    broadcastInDim S16x4x512x512 ![] bcast_S_S16x4x512x512 (constant (F := Ideal) S_ .f32 w) k = Ideal.ofBits .f32 w := rfl

/-- Division by the literal one, in the corner-aware quotient, is the extended reals' division: one is not zero. -/
theorem div_lit1 (z : EReal) : Ideal.div z Cert.Stencil.lit1 = z / Cert.Stencil.lit1 := by
  have h1 : Cert.Stencil.lit1 = 1 := Ideal.ofBits_one_f32
  rw [h1]
  unfold Ideal.div
  rw [if_neg one_ne_zero]
  rfl

/-- celu on arrays is the reference's scalar celu at every index. -/
theorem celuVec_apply (y : A4) (k : S16x4x512x512.Idx) : celuVec y k = Cert.Stencil.celuR (y k) := by
  show max (y k) Cert.Stencil.lit0 + Cert.Stencil.lit1 * (Ideal.exp (Ideal.div (min (y k) Cert.Stencil.lit0) Cert.Stencil.lit1) - 1) = _
  rw [div_lit1]
  rfl

section Readings
variable (ws w1 w2 : A4) (x : A4) (a : Fin 16 → Cert.Stencil.Arr) (s w1' w2' : Fin 4 → EReal)
  (hx : ∀ b c i j, x (ix4 b c i j) = a b c i j)
  (hs : ∀ b c i j, ws (ix4 b c i j) = s c) (h1 : ∀ b c i j, w1 (ix4 b c i j) = w1' c) (h2 : ∀ b c i j, w2 (ix4 b c i j) = w2' c)
include hx hs h1 h2

/-- The pre-activation at an index: the weights times x and the two sums of four neighbours. -/
theorem preVec_apply (b : Fin 16) (c : Fin 4) (i j : Fin 512) :
    preVec ws w1 w2 x (ix4 b c i j) = Cert.Stencil.preR s w1' w2' (a b) c i j := by
  show (ws (ix4 b c i j) * x (ix4 b c i j)
      + w1 (ix4 b c i j) * (((rollC1b x (ix4 b c i j) + rollC1f x (ix4 b c i j)) + rollR1b x (ix4 b c i j)) + rollR1f x (ix4 b c i j)))
      + w2 (ix4 b c i j) * (((rollC2b x (ix4 b c i j) + rollC2f x (ix4 b c i j)) + rollR2b x (ix4 b c i j)) + rollR2f x (ix4 b c i j)) = _
  rw [rollC1b_apply, rollC1f_apply, rollR1b_apply, rollR1f_apply, rollC2b_apply, rollC2f_apply, rollR2b_apply, rollR2f_apply]
  simp only [hx, hs, h1, h2]
  rfl

/-- The update at an index. -/
theorem stepVec_apply (b : Fin 16) (c : Fin 4) (i j : Fin 512) :
    stepVec ws w1 w2 x (ix4 b c i j) = Cert.Stencil.stepR s w1' w2' (a b) c i j := by
  show x (ix4 b c i j) + celuVec (preVec ws w1 w2 x) (ix4 b c i j) = _
  rw [celuVec_apply, preVec_apply ws w1 w2 x a s w1' w2' hx hs h1 h2, hx]
  rfl

end Readings

/-- The transpose of the last two axes read at (b, c, i, j) is the operand at (b, c, j, i). -/
theorem transpose_last_apply (y : A4) (b : Fin 16) (c : Fin 4) (i j : Fin 512) :
    transpose S16x4x512x512 [0, 1, 3, 2] y transposes_S16x4x512x512_S16x4x512x512_0_1_3_2 (ix4 b c i j) = y (ix4 b c j i) :=
  transpose_apply _ y _ (ix4 b c i j) (ix4 b c j i) (fun d => by
    match d with
    | ⟨0, _⟩ => rfl
    | ⟨1, _⟩ => rfl
    | ⟨2, _⟩ => rfl
    | ⟨3, _⟩ => rfl)

/-- The mask broadcast over batch and channel reads as the mask at (i, j). -/
theorem maskB_apply (mk : FVec Ideal S512x512 .f32) (b : Fin 16) (c : Fin 4) (i j : Fin 512) :
    broadcastInDim S16x4x512x512 ![0, 1, 2, 3] bcast_S1x1x512x512_S16x4x512x512_0_1_2_3
      (broadcastInDim S1x1x512x512 ![2, 3] bcast_S512x512_S1x1x512x512_2_3 mk) (ix4 b c i j) = mk (ix2 i j) := by
  refine (broadcastInDim_apply _ _ _ (ix4 b c i j) (ix4 (0 : Fin 1) (0 : Fin 1) i j) (fun d => by
    match d with
    | ⟨0, _⟩ => rfl
    | ⟨1, _⟩ => rfl
    | ⟨2, _⟩ => rfl
    | ⟨3, _⟩ => rfl)).trans ?_
  exact broadcastInDim_apply _ _ mk _ (ix2 i j) (fun d => by
    match d with
    | ⟨0, _⟩ => rfl
    | ⟨1, _⟩ => rfl)

/-- One layer read at an index: Cert.Stencil.layerR of the readings of its arguments. -/
theorem layerVecR_apply (ws w1 w2 : FVec Ideal S16x4x512x512 .f32) (mk : FVec Ideal S512x512 .f32) (x : FVec Ideal S16x4x512x512 .f32)
    (a : Fin 16 → Cert.Stencil.Arr) (s w1' w2' : Fin 4 → EReal)
    (hx : ∀ b c i j, x (ix4 b c i j) = a b c i j)
    (hs : ∀ b c i j, ws (ix4 b c i j) = s c) (h1 : ∀ b c i j, w1 (ix4 b c i j) = w1' c) (h2 : ∀ b c i j, w2 (ix4 b c i j) = w2' c)
    (hm : ∀ i j, mk (ix2 i j) = Cert.Stencil.maskR i j)
    (b : Fin 16) (c : Fin 4) (i j : Fin 512) :
    layerVecR ws w1 w2 mk x (ix4 b c i j) = Cert.Stencil.layerR s w1' w2' (a b) c i j := by
  show (Cert.Stencil.litHalf * (stepVec ws w1 w2 x (ix4 b c i j)
      + transpose S16x4x512x512 [0, 1, 3, 2] (stepVec ws w1 w2 x) transposes_S16x4x512x512_S16x4x512x512_0_1_3_2 (ix4 b c i j)))
    * broadcastInDim S16x4x512x512 ![0, 1, 2, 3] bcast_S1x1x512x512_S16x4x512x512_0_1_2_3
        (broadcastInDim S1x1x512x512 ![2, 3] bcast_S512x512_S1x1x512x512_2_3 mk) (ix4 b c i j) = _
  rw [transpose_last_apply, maskB_apply, hm, stepVec_apply ws w1 w2 x a s w1' w2' hx hs h1 h2,
    stepVec_apply ws w1 w2 x a s w1' w2' hx hs h1 h2]
  rfl

end Cert.ReferenceIdeal.Hand

end
-- ==== Proof.Ref.Value.lean ====
/- The reference's array after its four layers.

   The first stretches of the reference's operations (the start, then one stretch per layer) leave in
   the buffer of `%185` a function `XrVec` of the arguments `%arg0`, `%arg2`, `%arg1` alone: each
   stretch, from any contents, writes one layer of what it reads, and writes none of the arguments,
   nor the mask `%8`, nor what an earlier stretch left for it.  Index by index `XrVec` is the
   reference's stencil `Cert.Stencil.stencilR`: the start reads as `initR`, the weights' broadcasts
   as the weights, and a layer of arrays that read as `a` reads as `layerR` of `a`. -/
import proofs.«412012_j25271587569863_4_alg».proof.Proof.Ref.Ops
import proofs.«412012_j25271587569863_4_alg».proof.Proof.Ref.Init
import proofs.«412012_j25271587569863_4_alg».proof.Proof.Ref.Layer
import proofs.«412012_j25271587569863_4_alg».proof.Proof.Stencil
import Idealize.ShloMosaic.Lib.StableHlo.Run
import Idealize.ShloMosaic.Lib.Pipeline.Frame
import Idealize.ShloMosaic.Lib.ValueIdx

noncomputable section

namespace Cert.ReferenceIdeal.Hand

open Idealize.ShloMosaic Idealize.ShloMosaic.TcCoe Idealize.ShloMosaic.StableHlo Idealize.ShloMosaic.ValueIdx Idealize.SL.Sem
open Cert.ReferenceIdeal Cert.ReferenceIdeal.Gen

/-- The reference's array after its four layers, as a function of the three arguments it reads:
    the start from the points `n`, then layer `l` with column `l` of `s` and row `l` of `w`. -/
def XrVec (n : FVec Ideal S16x512x3 .f32) (w : FVec Ideal S4x4x2 .f32) (s : FVec Ideal S4x4 .f32) :
    FVec Ideal S16x4x512x512 .f32 :=
  layerVecR (wsB 3 s) (wnB 3 0 w) (wnB 3 1 w) mask8
   (layerVecR (wsB 2 s) (wnB 2 0 w) (wnB 2 1 w) mask8
    (layerVecR (wsB 1 s) (wnB 1 0 w) (wnB 1 1 w) mask8
     (layerVecR (wsB 0 s) (wnB 0 0 w) (wnB 0 1 w) mask8 (x0R n))))

/-! ## Each stretch from any contents

Every statement below is a computation: the stretch is a literal list of operations over literal
buffers, so what a buffer holds after it is read off the list. -/

namespace Stretch

/-- The start's stretch leaves the start in the buffer of `%13`. -/
theorem init_x (V : Valuation τ sig (Elt Ideal)) :
    StableHlo.after opsInit V (Proc.devRef .tc main_v13) = x0R (V (Proc.devRef .tc main_arg0)) := by
  simp only [after_cons, after_nil]; rfl

/-- The start's stretch leaves the mask in the buffer of `%8`. -/
theorem init_mask (V : Valuation τ sig (Elt Ideal)) :
    StableHlo.after opsInit V (Proc.devRef .tc main_v8) = mask8 := by
  simp only [after_cons, after_nil]; rfl

/-- Layer 0's stretch, from any contents, leaves in its last buffer one layer of what it reads. -/
theorem layer0_x (V : Valuation τ sig (Elt Ideal)) :
    StableHlo.after opsL0 V (Proc.devRef .tc main_v56)
      = layerVecR (wsB 0 (V (Proc.devRef .tc main_arg1))) (wnB 0 0 (V (Proc.devRef .tc main_arg2))) (wnB 0 1 (V (Proc.devRef .tc main_arg2)))
          (V (Proc.devRef .tc main_v8)) (V (Proc.devRef .tc main_v13)) := by
  simp only [after_cons, after_nil]; rfl

/-- Layer 1's stretch, from any contents, leaves in its last buffer one layer of what it reads. -/
theorem layer1_x (V : Valuation τ sig (Elt Ideal)) :
    StableHlo.after opsL1 V (Proc.devRef .tc main_v99)
      = layerVecR (wsB 1 (V (Proc.devRef .tc main_arg1))) (wnB 1 0 (V (Proc.devRef .tc main_arg2))) (wnB 1 1 (V (Proc.devRef .tc main_arg2)))
          (V (Proc.devRef .tc main_v8)) (V (Proc.devRef .tc main_v56)) := by
  simp only [after_cons, after_nil]; rfl

/-- Layer 2's stretch, from any contents, leaves in its last buffer one layer of what it reads. -/
theorem layer2_x (V : Valuation τ sig (Elt Ideal)) :
    StableHlo.after opsL2 V (Proc.devRef .tc main_v142)
      = layerVecR (wsB 2 (V (Proc.devRef .tc main_arg1))) (wnB 2 0 (V (Proc.devRef .tc main_arg2))) (wnB 2 1 (V (Proc.devRef .tc main_arg2)))
          (V (Proc.devRef .tc main_v8)) (V (Proc.devRef .tc main_v99)) := by
  simp only [after_cons, after_nil]; rfl

/-- Layer 3's stretch, from any contents, leaves in its last buffer one layer of what it reads. -/
theorem layer3_x (V : Valuation τ sig (Elt Ideal)) :
    StableHlo.after opsL3 V (Proc.devRef .tc main_v185)
      = layerVecR (wsB 3 (V (Proc.devRef .tc main_arg1))) (wnB 3 0 (V (Proc.devRef .tc main_arg2))) (wnB 3 1 (V (Proc.devRef .tc main_arg2)))
          (V (Proc.devRef .tc main_v8)) (V (Proc.devRef .tc main_v142)) := by
  simp only [after_cons, after_nil]; rfl

/-! Buffers a stretch does not write keep their contents. -/

theorem keepInit_arg0 (V : Valuation τ sig (Elt Ideal)) :
    StableHlo.after opsInit V (Proc.devRef .tc main_arg0) = V (Proc.devRef .tc main_arg0) := by
  simp only [after_cons, after_nil]; rfl
theorem keepInit_arg1 (V : Valuation τ sig (Elt Ideal)) :
    StableHlo.after opsInit V (Proc.devRef .tc main_arg1) = V (Proc.devRef .tc main_arg1) := by
  simp only [after_cons, after_nil]; rfl
theorem keepInit_arg2 (V : Valuation τ sig (Elt Ideal)) :
    StableHlo.after opsInit V (Proc.devRef .tc main_arg2) = V (Proc.devRef .tc main_arg2) := by
  simp only [after_cons, after_nil]; rfl
theorem keepInit_arg3 (V : Valuation τ sig (Elt Ideal)) :
    StableHlo.after opsInit V (Proc.devRef .tc main_arg3) = V (Proc.devRef .tc main_arg3) := by
  simp only [after_cons, after_nil]; rfl
theorem keepInit_arg4 (V : Valuation τ sig (Elt Ideal)) :
    StableHlo.after opsInit V (Proc.devRef .tc main_arg4) = V (Proc.devRef .tc main_arg4) := by
  simp only [after_cons, after_nil]; rfl
theorem keepInit_arg5 (V : Valuation τ sig (Elt Ideal)) :
    StableHlo.after opsInit V (Proc.devRef .tc main_arg5) = V (Proc.devRef .tc main_arg5) := by
  simp only [after_cons, after_nil]; rfl
theorem keepInit_arg6 (V : Valuation τ sig (Elt Ideal)) :
    StableHlo.after opsInit V (Proc.devRef .tc main_arg6) = V (Proc.devRef .tc main_arg6) := by
  simp only [after_cons, after_nil]; rfl
theorem keepL0_arg0 (V : Valuation τ sig (Elt Ideal)) :
    StableHlo.after opsL0 V (Proc.devRef .tc main_arg0) = V (Proc.devRef .tc main_arg0) := by
  simp only [after_cons, after_nil]; rfl
theorem keepL0_arg1 (V : Valuation τ sig (Elt Ideal)) :
    StableHlo.after opsL0 V (Proc.devRef .tc main_arg1) = V (Proc.devRef .tc main_arg1) := by
  simp only [after_cons, after_nil]; rfl
theorem keepL0_arg2 (V : Valuation τ sig (Elt Ideal)) :
    StableHlo.after opsL0 V (Proc.devRef .tc main_arg2) = V (Proc.devRef .tc main_arg2) := by
  simp only [after_cons, after_nil]; rfl
theorem keepL0_arg3 (V : Valuation τ sig (Elt Ideal)) :
    StableHlo.after opsL0 V (Proc.devRef .tc main_arg3) = V (Proc.devRef .tc main_arg3) := by
  simp only [after_cons, after_nil]; rfl
theorem keepL0_arg4 (V : Valuation τ sig (Elt Ideal)) :
    StableHlo.after opsL0 V (Proc.devRef .tc main_arg4) = V (Proc.devRef .tc main_arg4) := by
  simp only [after_cons, after_nil]; rfl
theorem keepL0_arg5 (V : Valuation τ sig (Elt Ideal)) :
    StableHlo.after opsL0 V (Proc.devRef .tc main_arg5) = V (Proc.devRef .tc main_arg5) := by
  simp only [after_cons, after_nil]; rfl
theorem keepL0_arg6 (V : Valuation τ sig (Elt Ideal)) :
    StableHlo.after opsL0 V (Proc.devRef .tc main_arg6) = V (Proc.devRef .tc main_arg6) := by
  simp only [after_cons, after_nil]; rfl
theorem keepL0_v8 (V : Valuation τ sig (Elt Ideal)) :
    StableHlo.after opsL0 V (Proc.devRef .tc main_v8) = V (Proc.devRef .tc main_v8) := by
  simp only [after_cons, after_nil]; rfl
theorem keepL1_arg0 (V : Valuation τ sig (Elt Ideal)) :
    StableHlo.after opsL1 V (Proc.devRef .tc main_arg0) = V (Proc.devRef .tc main_arg0) := by
  simp only [after_cons, after_nil]; rfl
theorem keepL1_arg1 (V : Valuation τ sig (Elt Ideal)) :
    StableHlo.after opsL1 V (Proc.devRef .tc main_arg1) = V (Proc.devRef .tc main_arg1) := by
  simp only [after_cons, after_nil]; rfl
theorem keepL1_arg2 (V : Valuation τ sig (Elt Ideal)) :
    StableHlo.after opsL1 V (Proc.devRef .tc main_arg2) = V (Proc.devRef .tc main_arg2) := by
  simp only [after_cons, after_nil]; rfl
theorem keepL1_arg3 (V : Valuation τ sig (Elt Ideal)) :
    StableHlo.after opsL1 V (Proc.devRef .tc main_arg3) = V (Proc.devRef .tc main_arg3) := by
  simp only [after_cons, after_nil]; rfl
theorem keepL1_arg4 (V : Valuation τ sig (Elt Ideal)) :
    StableHlo.after opsL1 V (Proc.devRef .tc main_arg4) = V (Proc.devRef .tc main_arg4) := by
  simp only [after_cons, after_nil]; rfl
theorem keepL1_arg5 (V : Valuation τ sig (Elt Ideal)) :
    StableHlo.after opsL1 V (Proc.devRef .tc main_arg5) = V (Proc.devRef .tc main_arg5) := by
  simp only [after_cons, after_nil]; rfl
theorem keepL1_arg6 (V : Valuation τ sig (Elt Ideal)) :
    StableHlo.after opsL1 V (Proc.devRef .tc main_arg6) = V (Proc.devRef .tc main_arg6) := by
  simp only [after_cons, after_nil]; rfl
theorem keepL1_v8 (V : Valuation τ sig (Elt Ideal)) :
    StableHlo.after opsL1 V (Proc.devRef .tc main_v8) = V (Proc.devRef .tc main_v8) := by
  simp only [after_cons, after_nil]; rfl
theorem keepL2_arg0 (V : Valuation τ sig (Elt Ideal)) :
    StableHlo.after opsL2 V (Proc.devRef .tc main_arg0) = V (Proc.devRef .tc main_arg0) := by
  simp only [after_cons, after_nil]; rfl
theorem keepL2_arg1 (V : Valuation τ sig (Elt Ideal)) :
    StableHlo.after opsL2 V (Proc.devRef .tc main_arg1) = V (Proc.devRef .tc main_arg1) := by
  simp only [after_cons, after_nil]; rfl
theorem keepL2_arg2 (V : Valuation τ sig (Elt Ideal)) :
    StableHlo.after opsL2 V (Proc.devRef .tc main_arg2) = V (Proc.devRef .tc main_arg2) := by
  simp only [after_cons, after_nil]; rfl
theorem keepL2_arg3 (V : Valuation τ sig (Elt Ideal)) :
    StableHlo.after opsL2 V (Proc.devRef .tc main_arg3) = V (Proc.devRef .tc main_arg3) := by
  simp only [after_cons, after_nil]; rfl
theorem keepL2_arg4 (V : Valuation τ sig (Elt Ideal)) :
    StableHlo.after opsL2 V (Proc.devRef .tc main_arg4) = V (Proc.devRef .tc main_arg4) := by
  simp only [after_cons, after_nil]; rfl
theorem keepL2_arg5 (V : Valuation τ sig (Elt Ideal)) :
    StableHlo.after opsL2 V (Proc.devRef .tc main_arg5) = V (Proc.devRef .tc main_arg5) := by
  simp only [after_cons, after_nil]; rfl
theorem keepL2_arg6 (V : Valuation τ sig (Elt Ideal)) :
    StableHlo.after opsL2 V (Proc.devRef .tc main_arg6) = V (Proc.devRef .tc main_arg6) := by
  simp only [after_cons, after_nil]; rfl
theorem keepL2_v8 (V : Valuation τ sig (Elt Ideal)) :
    StableHlo.after opsL2 V (Proc.devRef .tc main_v8) = V (Proc.devRef .tc main_v8) := by
  simp only [after_cons, after_nil]; rfl
theorem keepL3_arg0 (V : Valuation τ sig (Elt Ideal)) :
    StableHlo.after opsL3 V (Proc.devRef .tc main_arg0) = V (Proc.devRef .tc main_arg0) := by
  simp only [after_cons, after_nil]; rfl
theorem keepL3_arg1 (V : Valuation τ sig (Elt Ideal)) :
    StableHlo.after opsL3 V (Proc.devRef .tc main_arg1) = V (Proc.devRef .tc main_arg1) := by
  simp only [after_cons, after_nil]; rfl
theorem keepL3_arg2 (V : Valuation τ sig (Elt Ideal)) :
    StableHlo.after opsL3 V (Proc.devRef .tc main_arg2) = V (Proc.devRef .tc main_arg2) := by
  simp only [after_cons, after_nil]; rfl
theorem keepL3_arg3 (V : Valuation τ sig (Elt Ideal)) :
    StableHlo.after opsL3 V (Proc.devRef .tc main_arg3) = V (Proc.devRef .tc main_arg3) := by
  simp only [after_cons, after_nil]; rfl
theorem keepL3_arg4 (V : Valuation τ sig (Elt Ideal)) :
    StableHlo.after opsL3 V (Proc.devRef .tc main_arg4) = V (Proc.devRef .tc main_arg4) := by
  simp only [after_cons, after_nil]; rfl
theorem keepL3_arg5 (V : Valuation τ sig (Elt Ideal)) :
    StableHlo.after opsL3 V (Proc.devRef .tc main_arg5) = V (Proc.devRef .tc main_arg5) := by
  simp only [after_cons, after_nil]; rfl
theorem keepL3_arg6 (V : Valuation τ sig (Elt Ideal)) :
    StableHlo.after opsL3 V (Proc.devRef .tc main_arg6) = V (Proc.devRef .tc main_arg6) := by
  simp only [after_cons, after_nil]; rfl
theorem keepL3_v8 (V : Valuation τ sig (Elt Ideal)) :
    StableHlo.after opsL3 V (Proc.devRef .tc main_v8) = V (Proc.devRef .tc main_v8) := by
  simp only [after_cons, after_nil]; rfl
theorem keepTail_arg0 (V : Valuation τ sig (Elt Ideal)) :
    StableHlo.after opsTail V (Proc.devRef .tc main_arg0) = V (Proc.devRef .tc main_arg0) := by
  simp only [after_cons, after_nil]; rfl
theorem keepTail_arg1 (V : Valuation τ sig (Elt Ideal)) :
    StableHlo.after opsTail V (Proc.devRef .tc main_arg1) = V (Proc.devRef .tc main_arg1) := by
  simp only [after_cons, after_nil]; rfl
theorem keepTail_arg2 (V : Valuation τ sig (Elt Ideal)) :
    StableHlo.after opsTail V (Proc.devRef .tc main_arg2) = V (Proc.devRef .tc main_arg2) := by
  simp only [after_cons, after_nil]; rfl
theorem keepTail_arg3 (V : Valuation τ sig (Elt Ideal)) :
    StableHlo.after opsTail V (Proc.devRef .tc main_arg3) = V (Proc.devRef .tc main_arg3) := by
  simp only [after_cons, after_nil]; rfl
theorem keepTail_arg4 (V : Valuation τ sig (Elt Ideal)) :
    StableHlo.after opsTail V (Proc.devRef .tc main_arg4) = V (Proc.devRef .tc main_arg4) := by
  simp only [after_cons, after_nil]; rfl
theorem keepTail_arg5 (V : Valuation τ sig (Elt Ideal)) :
    StableHlo.after opsTail V (Proc.devRef .tc main_arg5) = V (Proc.devRef .tc main_arg5) := by
  simp only [after_cons, after_nil]; rfl
theorem keepTail_arg6 (V : Valuation τ sig (Elt Ideal)) :
    StableHlo.after opsTail V (Proc.devRef .tc main_arg6) = V (Proc.devRef .tc main_arg6) := by
  simp only [after_cons, after_nil]; rfl

end Stretch

open Stretch

/-! ## The stretches in order -/

/-- After the start and the four layers the buffer of `%185` holds `XrVec` of the three arguments:
    each layer's stretch writes one layer of what the stretches before it left, and the arguments
    and the mask reach it unchanged. -/
theorem after_x (W : Valuation τ sig (Elt Ideal)) :
    StableHlo.after (opsInit ++ opsL0 ++ opsL1 ++ opsL2 ++ opsL3) W (Proc.devRef .tc main_v185)
      = XrVec (W (Proc.devRef .tc main_arg0)) (W (Proc.devRef .tc main_arg2)) (W (Proc.devRef .tc main_arg1)) := by
  rw [StableHlo.after_append, StableHlo.after_append, StableHlo.after_append, StableHlo.after_append,
    layer3_x, layer2_x, layer1_x, layer0_x, init_x]
  rw [keepL2_arg1, keepL2_arg2, keepL2_v8, keepL1_arg1, keepL1_arg2, keepL1_v8, keepL0_arg1, keepL0_arg2, keepL0_v8,
    keepInit_arg1, keepInit_arg2, init_mask]
  rfl

/-! No operation of the program writes an argument. -/

theorem after_args0 (W : Valuation τ sig (Elt Ideal)) :
    StableHlo.after ops W (Proc.devRef .tc main_arg0) = W (Proc.devRef .tc main_arg0) := by
  show StableHlo.after (opsInit ++ opsL0 ++ opsL1 ++ opsL2 ++ opsL3 ++ opsTail) W (Proc.devRef .tc main_arg0) = W (Proc.devRef .tc main_arg0)
  rw [StableHlo.after_append, StableHlo.after_append, StableHlo.after_append, StableHlo.after_append, StableHlo.after_append,
    keepTail_arg0, keepL3_arg0, keepL2_arg0, keepL1_arg0, keepL0_arg0, keepInit_arg0]

theorem after_args1 (W : Valuation τ sig (Elt Ideal)) :
    StableHlo.after ops W (Proc.devRef .tc main_arg1) = W (Proc.devRef .tc main_arg1) := by
  show StableHlo.after (opsInit ++ opsL0 ++ opsL1 ++ opsL2 ++ opsL3 ++ opsTail) W (Proc.devRef .tc main_arg1) = W (Proc.devRef .tc main_arg1)
  rw [StableHlo.after_append, StableHlo.after_append, StableHlo.after_append, StableHlo.after_append, StableHlo.after_append,
    keepTail_arg1, keepL3_arg1, keepL2_arg1, keepL1_arg1, keepL0_arg1, keepInit_arg1]

theorem after_args2 (W : Valuation τ sig (Elt Ideal)) :
    StableHlo.after ops W (Proc.devRef .tc main_arg2) = W (Proc.devRef .tc main_arg2) := by
  show StableHlo.after (opsInit ++ opsL0 ++ opsL1 ++ opsL2 ++ opsL3 ++ opsTail) W (Proc.devRef .tc main_arg2) = W (Proc.devRef .tc main_arg2)
  rw [StableHlo.after_append, StableHlo.after_append, StableHlo.after_append, StableHlo.after_append, StableHlo.after_append,
    keepTail_arg2, keepL3_arg2, keepL2_arg2, keepL1_arg2, keepL0_arg2, keepInit_arg2]

theorem after_args3 (W : Valuation τ sig (Elt Ideal)) :
    StableHlo.after ops W (Proc.devRef .tc main_arg3) = W (Proc.devRef .tc main_arg3) := by
  show StableHlo.after (opsInit ++ opsL0 ++ opsL1 ++ opsL2 ++ opsL3 ++ opsTail) W (Proc.devRef .tc main_arg3) = W (Proc.devRef .tc main_arg3)
  rw [StableHlo.after_append, StableHlo.after_append, StableHlo.after_append, StableHlo.after_append, StableHlo.after_append,
    keepTail_arg3, keepL3_arg3, keepL2_arg3, keepL1_arg3, keepL0_arg3, keepInit_arg3]

theorem after_args4 (W : Valuation τ sig (Elt Ideal)) :
    StableHlo.after ops W (Proc.devRef .tc main_arg4) = W (Proc.devRef .tc main_arg4) := by
  show StableHlo.after (opsInit ++ opsL0 ++ opsL1 ++ opsL2 ++ opsL3 ++ opsTail) W (Proc.devRef .tc main_arg4) = W (Proc.devRef .tc main_arg4)
  rw [StableHlo.after_append, StableHlo.after_append, StableHlo.after_append, StableHlo.after_append, StableHlo.after_append,
    keepTail_arg4, keepL3_arg4, keepL2_arg4, keepL1_arg4, keepL0_arg4, keepInit_arg4]

theorem after_args5 (W : Valuation τ sig (Elt Ideal)) :
    StableHlo.after ops W (Proc.devRef .tc main_arg5) = W (Proc.devRef .tc main_arg5) := by
  show StableHlo.after (opsInit ++ opsL0 ++ opsL1 ++ opsL2 ++ opsL3 ++ opsTail) W (Proc.devRef .tc main_arg5) = W (Proc.devRef .tc main_arg5)
  rw [StableHlo.after_append, StableHlo.after_append, StableHlo.after_append, StableHlo.after_append, StableHlo.after_append,
    keepTail_arg5, keepL3_arg5, keepL2_arg5, keepL1_arg5, keepL0_arg5, keepInit_arg5]

theorem after_args6 (W : Valuation τ sig (Elt Ideal)) :
    StableHlo.after ops W (Proc.devRef .tc main_arg6) = W (Proc.devRef .tc main_arg6) := by
  show StableHlo.after (opsInit ++ opsL0 ++ opsL1 ++ opsL2 ++ opsL3 ++ opsTail) W (Proc.devRef .tc main_arg6) = W (Proc.devRef .tc main_arg6)
  rw [StableHlo.after_append, StableHlo.after_append, StableHlo.after_append, StableHlo.after_append, StableHlo.after_append,
    keepTail_arg6, keepL3_arg6, keepL2_arg6, keepL1_arg6, keepL0_arg6, keepInit_arg6]

/-! The tail's four arguments pass through the start and the four layers unchanged. -/

theorem after_pre_args3 (W : Valuation τ sig (Elt Ideal)) :
    StableHlo.after (opsInit ++ opsL0 ++ opsL1 ++ opsL2 ++ opsL3) W (Proc.devRef .tc main_arg3) = W (Proc.devRef .tc main_arg3) := by
  rw [StableHlo.after_append, StableHlo.after_append, StableHlo.after_append, StableHlo.after_append,
    keepL3_arg3, keepL2_arg3, keepL1_arg3, keepL0_arg3, keepInit_arg3]

theorem after_pre_args4 (W : Valuation τ sig (Elt Ideal)) :
    StableHlo.after (opsInit ++ opsL0 ++ opsL1 ++ opsL2 ++ opsL3) W (Proc.devRef .tc main_arg4) = W (Proc.devRef .tc main_arg4) := by
  rw [StableHlo.after_append, StableHlo.after_append, StableHlo.after_append, StableHlo.after_append,
    keepL3_arg4, keepL2_arg4, keepL1_arg4, keepL0_arg4, keepInit_arg4]

theorem after_pre_args5 (W : Valuation τ sig (Elt Ideal)) :
    StableHlo.after (opsInit ++ opsL0 ++ opsL1 ++ opsL2 ++ opsL3) W (Proc.devRef .tc main_arg5) = W (Proc.devRef .tc main_arg5) := by
  rw [StableHlo.after_append, StableHlo.after_append, StableHlo.after_append, StableHlo.after_append,
    keepL3_arg5, keepL2_arg5, keepL1_arg5, keepL0_arg5, keepInit_arg5]

theorem after_pre_args6 (W : Valuation τ sig (Elt Ideal)) :
    StableHlo.after (opsInit ++ opsL0 ++ opsL1 ++ opsL2 ++ opsL3) W (Proc.devRef .tc main_arg6) = W (Proc.devRef .tc main_arg6) := by
  rw [StableHlo.after_append, StableHlo.after_append, StableHlo.after_append, StableHlo.after_append,
    keepL3_arg6, keepL2_arg6, keepL1_arg6, keepL0_arg6, keepInit_arg6]

/-! ## Index by index -/

/-- Index by index, `XrVec` is the reference's stencil of the index-level readings of its arguments:
    the start reads as `initR`, and a layer of an array that reads as `a`, with weights that read as
    the channel's entries and the mask as `maskR`, reads as `layerR` of `a`; four times. -/
theorem XrVec_apply (n : FVec Ideal S16x512x3 .f32) (w : FVec Ideal S4x4x2 .f32) (s : FVec Ideal S4x4 .f32)
    (b : Fin 16) (c : Fin 4) (i j : Fin 512) :
    XrVec n w s (ix4 b c i j)
      = Cert.Stencil.stencilR (fun i d => n (ix3 b i d)) (fun c l => s (ix2 c l)) (fun c l k => w (ix3 c l k)) c i j := by
  have h0 : ∀ b c i j, x0R n (ix4 b c i j) = (fun b => Cert.Stencil.initR (fun i d => n (ix3 b i d))) b c i j := fun b c i j => x0R_apply n b c i j
  have h1 : ∀ b c i j, (layerVecR (wsB 0 s) (wnB 0 0 w) (wnB 0 1 w) mask8 (x0R n)) (ix4 b c i j) = (fun b => Cert.Stencil.layerR (fun c => s (ix2 c 0)) (fun c => w (ix3 c 0 0)) (fun c => w (ix3 c 0 1)) ((fun b => Cert.Stencil.initR (fun i d => n (ix3 b i d))) b)) b c i j := fun b c i j =>
    layerVecR_apply _ _ _ _ _ (fun b => Cert.Stencil.initR (fun i d => n (ix3 b i d))) (fun c => s (ix2 c 0)) (fun c => w (ix3 c 0 0)) (fun c => w (ix3 c 0 1))
      h0 (fun b c i j => wsB_apply 0 s b c i j) (fun b c i j => wnB_apply 0 0 w b c i j) (fun b c i j => wnB_apply 0 1 w b c i j)
      mask8_apply b c i j
  have h2 : ∀ b c i j, (layerVecR (wsB 1 s) (wnB 1 0 w) (wnB 1 1 w) mask8 (layerVecR (wsB 0 s) (wnB 0 0 w) (wnB 0 1 w) mask8 (x0R n))) (ix4 b c i j) = (fun b => Cert.Stencil.layerR (fun c => s (ix2 c 1)) (fun c => w (ix3 c 1 0)) (fun c => w (ix3 c 1 1)) ((fun b => Cert.Stencil.layerR (fun c => s (ix2 c 0)) (fun c => w (ix3 c 0 0)) (fun c => w (ix3 c 0 1)) ((fun b => Cert.Stencil.initR (fun i d => n (ix3 b i d))) b)) b)) b c i j := fun b c i j =>
    layerVecR_apply _ _ _ _ _ (fun b => Cert.Stencil.layerR (fun c => s (ix2 c 0)) (fun c => w (ix3 c 0 0)) (fun c => w (ix3 c 0 1)) ((fun b => Cert.Stencil.initR (fun i d => n (ix3 b i d))) b)) (fun c => s (ix2 c 1)) (fun c => w (ix3 c 1 0)) (fun c => w (ix3 c 1 1))
      h1 (fun b c i j => wsB_apply 1 s b c i j) (fun b c i j => wnB_apply 1 0 w b c i j) (fun b c i j => wnB_apply 1 1 w b c i j)
      mask8_apply b c i j
  have h3 : ∀ b c i j, (layerVecR (wsB 2 s) (wnB 2 0 w) (wnB 2 1 w) mask8 (layerVecR (wsB 1 s) (wnB 1 0 w) (wnB 1 1 w) mask8 (layerVecR (wsB 0 s) (wnB 0 0 w) (wnB 0 1 w) mask8 (x0R n)))) (ix4 b c i j) = (fun b => Cert.Stencil.layerR (fun c => s (ix2 c 2)) (fun c => w (ix3 c 2 0)) (fun c => w (ix3 c 2 1)) ((fun b => Cert.Stencil.layerR (fun c => s (ix2 c 1)) (fun c => w (ix3 c 1 0)) (fun c => w (ix3 c 1 1)) ((fun b => Cert.Stencil.layerR (fun c => s (ix2 c 0)) (fun c => w (ix3 c 0 0)) (fun c => w (ix3 c 0 1)) ((fun b => Cert.Stencil.initR (fun i d => n (ix3 b i d))) b)) b)) b)) b c i j := fun b c i j =>
    layerVecR_apply _ _ _ _ _ (fun b => Cert.Stencil.layerR (fun c => s (ix2 c 1)) (fun c => w (ix3 c 1 0)) (fun c => w (ix3 c 1 1)) ((fun b => Cert.Stencil.layerR (fun c => s (ix2 c 0)) (fun c => w (ix3 c 0 0)) (fun c => w (ix3 c 0 1)) ((fun b => Cert.Stencil.initR (fun i d => n (ix3 b i d))) b)) b)) (fun c => s (ix2 c 2)) (fun c => w (ix3 c 2 0)) (fun c => w (ix3 c 2 1))
      h2 (fun b c i j => wsB_apply 2 s b c i j) (fun b c i j => wnB_apply 2 0 w b c i j) (fun b c i j => wnB_apply 2 1 w b c i j)
      mask8_apply b c i j
  exact layerVecR_apply _ _ _ _ _ (fun b => Cert.Stencil.layerR (fun c => s (ix2 c 2)) (fun c => w (ix3 c 2 0)) (fun c => w (ix3 c 2 1)) ((fun b => Cert.Stencil.layerR (fun c => s (ix2 c 1)) (fun c => w (ix3 c 1 0)) (fun c => w (ix3 c 1 1)) ((fun b => Cert.Stencil.layerR (fun c => s (ix2 c 0)) (fun c => w (ix3 c 0 0)) (fun c => w (ix3 c 0 1)) ((fun b => Cert.Stencil.initR (fun i d => n (ix3 b i d))) b)) b)) b)) (fun c => s (ix2 c 3)) (fun c => w (ix3 c 3 0)) (fun c => w (ix3 c 3 1))
      h3 (fun b c i j => wsB_apply 3 s b c i j) (fun b c i j => wnB_apply 3 0 w b c i j) (fun b c i j => wnB_apply 3 1 w b c i j)
      mask8_apply b c i j

end Cert.ReferenceIdeal.Hand

end
-- ==== Proof.Ref.Tail.lean ====
/-
  The host tail of the reference program, as one function of its array after four layers and the four weight
  arrays: the same seventy-six operations as the kernel program's tail, in the same order (the index table built
  from an iota; the gather of the array at it, summed over axis 2 and reshaped to 16×2048; the dense layer with
  W1 and b1; celu at α = 1; the dense layer with W2 and b2; the reshape to 16; exp of the negation), over this
  program's own buffers and side conditions. The stretch is cut where its blocks end, into five lists whose
  concatenation it is; each list's fold is read at the one buffer the later lists need from it, and at the buffers
  it leaves alone; `tailR_after` chains these: the fold of the stretch over any valuation, read at the result
  buffer, is the composition of the valuation's contents at the array after four layers and at the four arguments.
-/
import proofs.«412012_j25271587569863_4_alg».proof.Proof.Ref.Ops
import Idealize.ShloMosaic.Lib.StableHlo.Run
import Idealize.ShloMosaic.Lib.Pipeline.Frame

noncomputable section

namespace Cert.ReferenceIdeal.Hand

open Idealize.ShloMosaic Idealize.ShloMosaic.TcCoe Idealize.ShloMosaic.StableHlo Idealize.SL.Sem
open Cert.ReferenceIdeal Cert.ReferenceIdeal.Gen

variable {F : FTy → Type} [FloatOps F]

/-! ## The index table (integers only) -/

/-- The iota 0 … 511. -/
def tIota : IVec S512 32 := iotaInDim S512 32 0

/-- i + j over the 512×512 square: the iota as a column plus the iota as a row. -/
def sumOf (io : IVec S512 32) : IVec S512x512 32 :=
  addi (broadcastInDim S512x512 ![0, 1] bcast_S512x1_S512x512_0_1 (broadcastInDim S512x1 ![0] bcast_S512_S512x1_0 io))
    (broadcastInDim S512x512 ![0, 1] bcast_S1x512_S512x512_0_1 (broadcastInDim S1x512 ![1] bcast_S512_S1x512_1 io))

/-- The divisor the remainder uses: c, replaced by 1 were it 0. -/
def divOf (c : IVec S_ 32) : IVec S_ 32 :=
  select (cmpi .eq (id c) (constantI S_ 32 0#32)) (constantI S_ 32 1#32) (id c)

/-- The host remainder of x by that divisor. -/
def rem0Of (x : IVec S512x512 32) (c : IVec S_ 32) : IVec S512x512 32 :=
  Host.remsi x (broadcastInDim S512x512 ![] bcast_S_S512x512 (divOf c))

/-- jnp's remainder of x by c: the host remainder, plus the divisor where it is nonzero and its sign differs from
    the divisor's. -/
def remOf (x : IVec S512x512 32) (c : IVec S_ 32) : IVec S512x512 32 :=
  select
    (andi
      (cmpi .ne (cmpi .slt (rem0Of x c) (broadcastInDim S512x512 ![] bcast_S_S512x512 (constantI S_ 32 0#32)))
        (broadcastInDim S512x512 ![] bcast_S_S512x512 (cmpi .slt (divOf c) (constantI S_ 32 0#32))))
      (cmpi .ne (rem0Of x c) (broadcastInDim S512x512 ![] bcast_S_S512x512 (constantI S_ 32 0#32))))
    (addi (rem0Of x c) (broadcastInDim S512x512 ![] bcast_S_S512x512 (divOf c)))
    (rem0Of x c)

/-- The row index as a column, wrapped into [0, 512). -/
def rowOf (io : IVec S512 32) : IVec S512x1 32 :=
  select
    (cmpi .slt (broadcastInDim S512x1 ![0] bcast_S512_S512x1_0 io)
      (broadcastInDim S512x1 ![] bcast_S_S512x1 (constantI S_ 32 0#32)))
    (addi (broadcastInDim S512x1 ![0] bcast_S512_S512x1_0 io)
      (broadcastInDim S512x1 ![] bcast_S_S512x1 (constantI S_ 32 512#32)))
    (broadcastInDim S512x1 ![0] bcast_S512_S512x1_0 io)

/-- A 512×512 table wrapped into [0, 512). -/
def colOf (r : IVec S512x512 32) : IVec S512x512 32 :=
  select
    (cmpi .slt r (broadcastInDim S512x512 ![] bcast_S_S512x512 (constantI S_ 32 0#32)))
    (addi r (broadcastInDim S512x512 ![] bcast_S_S512x512 (constantI S_ 32 512#32)))
    r

/-- The index table: plane 0 the wrapped row index, plane 1 the wrapped table r. -/
def idxOf (io : IVec S512 32) (r : IVec S512x512 32) : IVec S512x512x2 32 :=
  concatenate S512x512x2 2
    [⟨S512x512x1, broadcastInDim S512x512x1 ![0, 1] bcast_S512x512_S512x512x1_0_1
        (broadcastInDim S512x512 ![0, 1] bcast_S512x1_S512x512_0_1 (rowOf io))⟩,
     ⟨S512x512x1, broadcastInDim S512x512x1 ![0, 1] bcast_S512x512_S512x512x1_0_1 (colOf r)⟩]
    concatenates_S512x512x1_S512x512x1_S512x512x2_d2

/-! ## The floating-point blocks -/

/-- X gathered at the index table, summed over axis 2, as 16 rows of 2048. -/
def featOf (X : FVec F S16x4x512x512 .f32) (io : IVec S512 32) (r : IVec S512x512 32) : FVec F S16x2048 .f32 :=
  shapeCast S16x2048
    (Host.reduceAdd (Host.gather gather_S16x4x512x512_S512x512x2_S16x4x512x512_01_23_n_n_23_2_16411 X (idxOf io r))
      (constant S_ .f32 0x00000000#32) reducesTo_S16x4x512x512_S16x4x512_d2 h_S_)
    shapeCasts_S16x4x512_S16x2048

/-- The first dense layer: the features contracted with W1, plus b1 along the rows. -/
def hidOf (X : FVec F S16x4x512x512 .f32) (io : IVec S512 32) (r : IVec S512x512 32) (W1 : FVec F S2048x256 .f32)
    (b1 : FVec F S256 .f32) : FVec F S16x256 .f32 :=
  addf (Host.dotGeneral dot_S16x2048_S2048x256_S16x256_1_0_0_1_n_n none (featOf X io r) W1)
    (broadcastInDim S16x256 ![0, 1] bcast_S1x256_S16x256_0_1 (broadcastInDim S1x256 ![1] bcast_S256_S1x256_1 b1))

/-- celu at α = 1: max(y, 0) + 1 · expm1(min(y, 0) / 1). -/
def tCelu (y : FVec F S16x256 .f32) : FVec F S16x256 .f32 :=
  addf (maximumf y (broadcastInDim S16x256 ![] bcast_S_S16x256 (constant S_ .f32 0x00000000#32)))
    (mulf (broadcastInDim S16x256 ![] bcast_S_S16x256 (constant S_ .f32 0x3F800000#32))
      (Host.expm1
        (Host.divf (minimumf y (broadcastInDim S16x256 ![] bcast_S_S16x256 (constant S_ .f32 0x00000000#32)))
          (broadcastInDim S16x256 ![] bcast_S_S16x256 (constant S_ .f32 0x3F800000#32)))))

/-- The second dense layer (W2, b2), the reshape to 16, exp of the negation. -/
def outOf (h : FVec F S16x256 .f32) (W2 : FVec F S256x1 .f32) (b2 : FVec F S1 .f32) : FVec F S16 .f32 :=
  Host.exp
    (Host.negf
      (shapeCast S16
        (addf (Host.dotGeneral dot_S16x256_S256x1_S16x1_1_0_0_1_n_n none h W2)
          (broadcastInDim S16x1 ![0, 1] bcast_S1x1_S16x1_0_1 (broadcastInDim S1x1 ![1] bcast_S1_S1x1_1 b2)))
        shapeCasts_S16x1_S16))

/-- The whole tail: the table of (i + j) mod 512 from the iota, the features of X at it, the dense layer, celu,
    the second dense layer, the reshape, exp of the negation. -/
def tailR (X : FVec F S16x4x512x512 .f32) (W1 : FVec F S2048x256 .f32) (b1 : FVec F S256 .f32) (W2 : FVec F S256x1 .f32)
    (b2 : FVec F S1 .f32) : FVec F S16 .f32 :=
  outOf (tCelu (hidOf X tIota (remOf (sumOf tIota) (constantI S_ 32 512#32)) W1 b1)) W2 b2

/-! ## The stretch, cut in five -/

/-- The iota, i + j over the square, and the divisor 512. (7 operations) -/
abbrev tl1 : List (HloOp τ sig (Elt F)) :=
  [ StableHlo.nullary main_v186 (iotaInDim S512 32 0),
    StableHlo.unary main_v186 main_v187 (broadcastInDim S512x1 ![0] bcast_S512_S512x1_0 : (⟨S512, .i32⟩ : BufTy).Contents (Elt F) → (⟨S512x1, .i32⟩ : BufTy).Contents (Elt F)),
    StableHlo.unary main_v186 main_v188 (broadcastInDim S1x512 ![1] bcast_S512_S1x512_1 : (⟨S512, .i32⟩ : BufTy).Contents (Elt F) → (⟨S1x512, .i32⟩ : BufTy).Contents (Elt F)),
    StableHlo.unary main_v187 main_v189 (broadcastInDim S512x512 ![0, 1] bcast_S512x1_S512x512_0_1 : (⟨S512x1, .i32⟩ : BufTy).Contents (Elt F) → (⟨S512x512, .i32⟩ : BufTy).Contents (Elt F)),
    StableHlo.unary main_v188 main_v190 (broadcastInDim S512x512 ![0, 1] bcast_S1x512_S512x512_0_1 : (⟨S1x512, .i32⟩ : BufTy).Contents (Elt F) → (⟨S512x512, .i32⟩ : BufTy).Contents (Elt F)),
    StableHlo.binary main_v189 main_v190 main_v191 (addi : (⟨S512x512, .i32⟩ : BufTy).Contents (Elt F) → (⟨S512x512, .i32⟩ : BufTy).Contents (Elt F) → (⟨S512x512, .i32⟩ : BufTy).Contents (Elt F)),
    StableHlo.nullary main_c_4 (constantI S_ 32 512#32) ]

/-- jnp's remainder of i + j by 512: the call of @remainder, its select through @_where. (21 operations) -/
abbrev tl2 : List (HloOp τ sig (Elt F)) :=
  [ StableHlo.TRef.unary (.of main_c_4 : StableHlo.TRef sig ⟨S_, .i32⟩) main_call36.v0 id,
    StableHlo.TRef.nullary main_call36.c (constantI S_ 32 0#32),
    StableHlo.TRef.binary main_call36.v0 main_call36.c main_call36.v1 (cmpi .eq),
    StableHlo.TRef.nullary main_call36.c_0 (constantI S_ 32 1#32),
    StableHlo.TRef.ternary main_call36.v1 main_call36.c_0 main_call36.v0 main_call36.call0.v0 select,
    StableHlo.TRef.unary main_call36.call0.v0 main_call36.v3 (broadcastInDim S512x512 ![] bcast_S_S512x512),
    StableHlo.TRef.binary (.of main_v191 : StableHlo.TRef sig ⟨S512x512, .i32⟩) main_call36.v3 main_call36.v4 Host.remsi,
    StableHlo.TRef.nullary main_call36.c_1 (constantI S_ 32 0#32),
    StableHlo.TRef.unary main_call36.c_1 main_call36.v5 (broadcastInDim S512x512 ![] bcast_S_S512x512),
    StableHlo.TRef.binary main_call36.v4 main_call36.v5 main_call36.v6 (cmpi .ne),
    StableHlo.TRef.nullary main_call36.c_2 (constantI S_ 32 0#32),
    StableHlo.TRef.unary main_call36.c_2 main_call36.v7 (broadcastInDim S512x512 ![] bcast_S_S512x512),
    StableHlo.TRef.binary main_call36.v4 main_call36.v7 main_call36.v8 (cmpi .slt),
    StableHlo.TRef.nullary main_call36.c_3 (constantI S_ 32 0#32),
    StableHlo.TRef.binary main_call36.call0.v0 main_call36.c_3 main_call36.v9 (cmpi .slt),
    StableHlo.TRef.unary main_call36.v9 main_call36.v10 (broadcastInDim S512x512 ![] bcast_S_S512x512),
    StableHlo.TRef.binary main_call36.v8 main_call36.v10 main_call36.v11 (cmpi .ne),
    StableHlo.TRef.binary main_call36.v11 main_call36.v6 main_call36.v12 andi,
    StableHlo.TRef.unary main_call36.call0.v0 main_call36.v13 (broadcastInDim S512x512 ![] bcast_S_S512x512),
    StableHlo.TRef.binary main_call36.v4 main_call36.v13 main_call36.v14 addi,
    StableHlo.TRef.ternary main_call36.v12 main_call36.v14 main_call36.v4 main_call36.v15 select ]

/-- The wrapped index table, the gather, the sum over axis 2, the reshape, the first dense layer. (27 operations) -/
abbrev tl3 : List (HloOp τ sig (Elt F)) :=
  [ StableHlo.unary main_v186 main_v193 (broadcastInDim S512x1 ![0] bcast_S512_S512x1_0 : (⟨S512, .i32⟩ : BufTy).Contents (Elt F) → (⟨S512x1, .i32⟩ : BufTy).Contents (Elt F)),
    StableHlo.nullary main_c_5 (constantI S_ 32 0#32),
    StableHlo.unary main_c_5 main_v194 (broadcastInDim S512x1 ![] bcast_S_S512x1 : (⟨S_, .i32⟩ : BufTy).Contents (Elt F) → (⟨S512x1, .i32⟩ : BufTy).Contents (Elt F)),
    StableHlo.binary main_v193 main_v194 main_v195 (cmpi .slt : (⟨S512x1, .i32⟩ : BufTy).Contents (Elt F) → (⟨S512x1, .i32⟩ : BufTy).Contents (Elt F) → (⟨S512x1, .i1⟩ : BufTy).Contents (Elt F)),
    StableHlo.nullary main_c_6 (constantI S_ 32 512#32),
    StableHlo.unary main_c_6 main_v196 (broadcastInDim S512x1 ![] bcast_S_S512x1 : (⟨S_, .i32⟩ : BufTy).Contents (Elt F) → (⟨S512x1, .i32⟩ : BufTy).Contents (Elt F)),
    StableHlo.binary main_v193 main_v196 main_v197 (addi : (⟨S512x1, .i32⟩ : BufTy).Contents (Elt F) → (⟨S512x1, .i32⟩ : BufTy).Contents (Elt F) → (⟨S512x1, .i32⟩ : BufTy).Contents (Elt F)),
    StableHlo.ternary main_v195 main_v197 main_v193 main_v198 (select : (⟨S512x1, .i1⟩ : BufTy).Contents (Elt F) → (⟨S512x1, .i32⟩ : BufTy).Contents (Elt F) → (⟨S512x1, .i32⟩ : BufTy).Contents (Elt F) → (⟨S512x1, .i32⟩ : BufTy).Contents (Elt F)),
    StableHlo.nullary main_c_7 (constantI S_ 32 0#32),
    StableHlo.unary main_c_7 main_v199 (broadcastInDim S512x512 ![] bcast_S_S512x512 : (⟨S_, .i32⟩ : BufTy).Contents (Elt F) → (⟨S512x512, .i32⟩ : BufTy).Contents (Elt F)),
    StableHlo.binary main_v192 main_v199 main_v200 (cmpi .slt : (⟨S512x512, .i32⟩ : BufTy).Contents (Elt F) → (⟨S512x512, .i32⟩ : BufTy).Contents (Elt F) → (⟨S512x512, .i1⟩ : BufTy).Contents (Elt F)),
    StableHlo.nullary main_c_8 (constantI S_ 32 512#32),
    StableHlo.unary main_c_8 main_v201 (broadcastInDim S512x512 ![] bcast_S_S512x512 : (⟨S_, .i32⟩ : BufTy).Contents (Elt F) → (⟨S512x512, .i32⟩ : BufTy).Contents (Elt F)),
    StableHlo.binary main_v192 main_v201 main_v202 (addi : (⟨S512x512, .i32⟩ : BufTy).Contents (Elt F) → (⟨S512x512, .i32⟩ : BufTy).Contents (Elt F) → (⟨S512x512, .i32⟩ : BufTy).Contents (Elt F)),
    StableHlo.ternary main_v200 main_v202 main_v192 main_v203 (select : (⟨S512x512, .i1⟩ : BufTy).Contents (Elt F) → (⟨S512x512, .i32⟩ : BufTy).Contents (Elt F) → (⟨S512x512, .i32⟩ : BufTy).Contents (Elt F) → (⟨S512x512, .i32⟩ : BufTy).Contents (Elt F)),
    StableHlo.unary main_v198 main_v204 (broadcastInDim S512x512 ![0, 1] bcast_S512x1_S512x512_0_1 : (⟨S512x1, .i32⟩ : BufTy).Contents (Elt F) → (⟨S512x512, .i32⟩ : BufTy).Contents (Elt F)),
    StableHlo.unary main_v204 main_v205 (broadcastInDim S512x512x1 ![0, 1] bcast_S512x512_S512x512x1_0_1 : (⟨S512x512, .i32⟩ : BufTy).Contents (Elt F) → (⟨S512x512x1, .i32⟩ : BufTy).Contents (Elt F)),
    StableHlo.unary main_v203 main_v206 (broadcastInDim S512x512x1 ![0, 1] bcast_S512x512_S512x512x1_0_1 : (⟨S512x512, .i32⟩ : BufTy).Contents (Elt F) → (⟨S512x512x1, .i32⟩ : BufTy).Contents (Elt F)),
    StableHlo.binary main_v205 main_v206 main_v207 ((fun a b => concatenate S512x512x2 2 [⟨S512x512x1, a⟩, ⟨S512x512x1, b⟩] concatenates_S512x512x1_S512x512x1_S512x512x2_d2) : (⟨S512x512x1, .i32⟩ : BufTy).Contents (Elt F) → (⟨S512x512x1, .i32⟩ : BufTy).Contents (Elt F) → (⟨S512x512x2, .i32⟩ : BufTy).Contents (Elt F)),
    StableHlo.binary main_v185 main_v207 main_v208 ((fun x i => Host.gather gather_S16x4x512x512_S512x512x2_S16x4x512x512_01_23_n_n_23_2_16411 x i) : (⟨S16x4x512x512, .f32⟩ : BufTy).Contents (Elt F) → (⟨S512x512x2, .i32⟩ : BufTy).Contents (Elt F) → (⟨S16x4x512x512, .f32⟩ : BufTy).Contents (Elt F)),
    StableHlo.nullary main_cst_9 (constant S_ .f32 0x00000000#32),
    StableHlo.binary main_v208 main_cst_9 main_v209 ((fun x v => Host.reduceAdd x v reducesTo_S16x4x512x512_S16x4x512_d2 h_S_) : (⟨S16x4x512x512, .f32⟩ : BufTy).Contents (Elt F) → (⟨S_, .f32⟩ : BufTy).Contents (Elt F) → (⟨S16x4x512, .f32⟩ : BufTy).Contents (Elt F)),
    StableHlo.reshape main_v209 main_v210 rfl shapeCasts_S16x4x512_S16x2048,
    StableHlo.binary main_v210 main_arg3 main_v211 ((fun l r => Host.dotGeneral dot_S16x2048_S2048x256_S16x256_1_0_0_1_n_n none l r) : (⟨S16x2048, .f32⟩ : BufTy).Contents (Elt F) → (⟨S2048x256, .f32⟩ : BufTy).Contents (Elt F) → (⟨S16x256, .f32⟩ : BufTy).Contents (Elt F)),
    StableHlo.unary main_arg4 main_v212 (broadcastInDim S1x256 ![1] bcast_S256_S1x256_1 : (⟨S256, .f32⟩ : BufTy).Contents (Elt F) → (⟨S1x256, .f32⟩ : BufTy).Contents (Elt F)),
    StableHlo.unary main_v212 main_v213 (broadcastInDim S16x256 ![0, 1] bcast_S1x256_S16x256_0_1 : (⟨S1x256, .f32⟩ : BufTy).Contents (Elt F) → (⟨S16x256, .f32⟩ : BufTy).Contents (Elt F)),
    StableHlo.binary main_v211 main_v213 main_v214 (addf : (⟨S16x256, .f32⟩ : BufTy).Contents (Elt F) → (⟨S16x256, .f32⟩ : BufTy).Contents (Elt F) → (⟨S16x256, .f32⟩ : BufTy).Contents (Elt F)) ]

/-- celu at α = 1: the call of @celu_7. (14 operations) -/
abbrev tl4 : List (HloOp τ sig (Elt F)) :=
  [ StableHlo.TRef.nullary main_call37.cst (constant S_ .f32 0x00000000#32),
    StableHlo.TRef.unary main_call37.cst main_call37.v0 (broadcastInDim S16x256 ![] bcast_S_S16x256),
    StableHlo.TRef.binary (.of main_v214 : StableHlo.TRef sig ⟨S16x256, .f32⟩) main_call37.v0 main_call37.v1 maximumf,
    StableHlo.TRef.nullary main_call37.cst_0 (constant S_ .f32 0x00000000#32),
    StableHlo.TRef.unary main_call37.cst_0 main_call37.v2 (broadcastInDim S16x256 ![] bcast_S_S16x256),
    StableHlo.TRef.binary (.of main_v214 : StableHlo.TRef sig ⟨S16x256, .f32⟩) main_call37.v2 main_call37.v3 minimumf,
    StableHlo.TRef.nullary main_call37.cst_1 (constant S_ .f32 0x3F800000#32),
    StableHlo.TRef.unary main_call37.cst_1 main_call37.v4 (broadcastInDim S16x256 ![] bcast_S_S16x256),
    StableHlo.TRef.binary main_call37.v3 main_call37.v4 main_call37.v5 Host.divf,
    StableHlo.TRef.unary main_call37.v5 main_call37.v6 Host.expm1,
    StableHlo.TRef.nullary main_call37.cst_2 (constant S_ .f32 0x3F800000#32),
    StableHlo.TRef.unary main_call37.cst_2 main_call37.v7 (broadcastInDim S16x256 ![] bcast_S_S16x256),
    StableHlo.TRef.binary main_call37.v7 main_call37.v6 main_call37.v8 mulf,
    StableHlo.TRef.binary main_call37.v1 main_call37.v8 main_call37.v9 addf ]

/-- The second dense layer, the reshape to 16, exp of the negation. (7 operations) -/
abbrev tl5 : List (HloOp τ sig (Elt F)) :=
  [ StableHlo.binary main_v215 main_arg5 main_v216 ((fun l r => Host.dotGeneral dot_S16x256_S256x1_S16x1_1_0_0_1_n_n none l r) : (⟨S16x256, .f32⟩ : BufTy).Contents (Elt F) → (⟨S256x1, .f32⟩ : BufTy).Contents (Elt F) → (⟨S16x1, .f32⟩ : BufTy).Contents (Elt F)),
    StableHlo.unary main_arg6 main_v217 (broadcastInDim S1x1 ![1] bcast_S1_S1x1_1 : (⟨S1, .f32⟩ : BufTy).Contents (Elt F) → (⟨S1x1, .f32⟩ : BufTy).Contents (Elt F)),
    StableHlo.unary main_v217 main_v218 (broadcastInDim S16x1 ![0, 1] bcast_S1x1_S16x1_0_1 : (⟨S1x1, .f32⟩ : BufTy).Contents (Elt F) → (⟨S16x1, .f32⟩ : BufTy).Contents (Elt F)),
    StableHlo.binary main_v216 main_v218 main_v219 (addf : (⟨S16x1, .f32⟩ : BufTy).Contents (Elt F) → (⟨S16x1, .f32⟩ : BufTy).Contents (Elt F) → (⟨S16x1, .f32⟩ : BufTy).Contents (Elt F)),
    StableHlo.reshape main_v219 main_v220 rfl shapeCasts_S16x1_S16,
    StableHlo.unary main_v220 main_v221 (Host.negf : (⟨S16, .f32⟩ : BufTy).Contents (Elt F) → (⟨S16, .f32⟩ : BufTy).Contents (Elt F)),
    StableHlo.unary main_v221 main_v222 (Host.exp : (⟨S16, .f32⟩ : BufTy).Contents (Elt F) → (⟨S16, .f32⟩ : BufTy).Contents (Elt F)) ]

/-- The tail's operations are the five lists in a row (the same operations, entry by entry). -/
theorem opsTail_cut : opsTail (F := F) = tl1 ++ (tl2 ++ (tl3 ++ (tl4 ++ tl5))) := rfl

/-! ## The stretches, one at a time, over any valuation

Each lemma reads one stretch's fold at one buffer: at a buffer the stretch writes, the block above applied to the
valuation's contents at the buffers the stretch reads; at a buffer it does not write, what was there. -/

set_option maxRecDepth 4096 in
theorem s1_io (V : Valuation τ sig (Elt F)) : StableHlo.after (tl1 (F := F)) V (Proc.devRef .tc main_v186) = tIota := by
  after_results_simp
  try simp only [TRef.ofBuf, TRef.toBuf, cast_cast, cast_eq]
  first | rfl | done
set_option maxRecDepth 4096 in
theorem s1_sum (V : Valuation τ sig (Elt F)) : StableHlo.after (tl1 (F := F)) V (Proc.devRef .tc main_v191) = sumOf tIota := by
  after_results_simp
  try simp only [TRef.ofBuf, TRef.toBuf, cast_cast, cast_eq]
  first | rfl | done
set_option maxRecDepth 4096 in
theorem s1_c (V : Valuation τ sig (Elt F)) : StableHlo.after (tl1 (F := F)) V (Proc.devRef .tc main_c_4) = constantI S_ 32 512#32 := by
  after_results_simp
  try simp only [TRef.ofBuf, TRef.toBuf, cast_cast, cast_eq]
  first | rfl | done
theorem s1_X (V : Valuation τ sig (Elt F)) : StableHlo.after (tl1 (F := F)) V (Proc.devRef .tc main_v185) = V (Proc.devRef .tc main_v185) := by
  after_results_simp
theorem s1_arg3 (V : Valuation τ sig (Elt F)) : StableHlo.after (tl1 (F := F)) V (Proc.devRef .tc main_arg3) = V (Proc.devRef .tc main_arg3) := by
  after_results_simp
theorem s1_arg4 (V : Valuation τ sig (Elt F)) : StableHlo.after (tl1 (F := F)) V (Proc.devRef .tc main_arg4) = V (Proc.devRef .tc main_arg4) := by
  after_results_simp
theorem s1_arg5 (V : Valuation τ sig (Elt F)) : StableHlo.after (tl1 (F := F)) V (Proc.devRef .tc main_arg5) = V (Proc.devRef .tc main_arg5) := by
  after_results_simp
theorem s1_arg6 (V : Valuation τ sig (Elt F)) : StableHlo.after (tl1 (F := F)) V (Proc.devRef .tc main_arg6) = V (Proc.devRef .tc main_arg6) := by
  after_results_simp
set_option maxRecDepth 4096 in
theorem s2_rem (V : Valuation τ sig (Elt F)) :
    StableHlo.after (tl2 (F := F)) V (Proc.devRef .tc main_v192) = remOf (V (Proc.devRef .tc main_v191)) (V (Proc.devRef .tc main_c_4)) := by
  after_results_simp
  try simp only [TRef.ofBuf, TRef.toBuf, cast_cast, cast_eq]
  first | rfl | done
theorem s2_io (V : Valuation τ sig (Elt F)) : StableHlo.after (tl2 (F := F)) V (Proc.devRef .tc main_v186) = V (Proc.devRef .tc main_v186) := by
  after_results_simp
theorem s2_X (V : Valuation τ sig (Elt F)) : StableHlo.after (tl2 (F := F)) V (Proc.devRef .tc main_v185) = V (Proc.devRef .tc main_v185) := by
  after_results_simp
theorem s2_arg3 (V : Valuation τ sig (Elt F)) : StableHlo.after (tl2 (F := F)) V (Proc.devRef .tc main_arg3) = V (Proc.devRef .tc main_arg3) := by
  after_results_simp
theorem s2_arg4 (V : Valuation τ sig (Elt F)) : StableHlo.after (tl2 (F := F)) V (Proc.devRef .tc main_arg4) = V (Proc.devRef .tc main_arg4) := by
  after_results_simp
theorem s2_arg5 (V : Valuation τ sig (Elt F)) : StableHlo.after (tl2 (F := F)) V (Proc.devRef .tc main_arg5) = V (Proc.devRef .tc main_arg5) := by
  after_results_simp
theorem s2_arg6 (V : Valuation τ sig (Elt F)) : StableHlo.after (tl2 (F := F)) V (Proc.devRef .tc main_arg6) = V (Proc.devRef .tc main_arg6) := by
  after_results_simp
attribute [local irreducible] Host.gather Host.reduceAdd in
set_option maxRecDepth 4096 in
theorem s3_hid (V : Valuation τ sig (Elt F)) :
    StableHlo.after (tl3 (F := F)) V (Proc.devRef .tc main_v214)
      = hidOf (V (Proc.devRef .tc main_v185)) (V (Proc.devRef .tc main_v186)) (V (Proc.devRef .tc main_v192)) (V (Proc.devRef .tc main_arg3)) (V (Proc.devRef .tc main_arg4)) := by
  after_results_simp
  try simp only [TRef.ofBuf, TRef.toBuf, cast_cast, cast_eq]
  first | rfl | done
theorem s3_arg5 (V : Valuation τ sig (Elt F)) : StableHlo.after (tl3 (F := F)) V (Proc.devRef .tc main_arg5) = V (Proc.devRef .tc main_arg5) := by
  after_results_simp
theorem s3_arg6 (V : Valuation τ sig (Elt F)) : StableHlo.after (tl3 (F := F)) V (Proc.devRef .tc main_arg6) = V (Proc.devRef .tc main_arg6) := by
  after_results_simp
set_option maxRecDepth 4096 in
theorem s4_cel (V : Valuation τ sig (Elt F)) : StableHlo.after (tl4 (F := F)) V (Proc.devRef .tc main_v215) = tCelu (V (Proc.devRef .tc main_v214)) := by
  after_results_simp
  try simp only [TRef.ofBuf, TRef.toBuf, cast_cast, cast_eq]
  first | rfl | done
theorem s4_arg5 (V : Valuation τ sig (Elt F)) : StableHlo.after (tl4 (F := F)) V (Proc.devRef .tc main_arg5) = V (Proc.devRef .tc main_arg5) := by
  after_results_simp
theorem s4_arg6 (V : Valuation τ sig (Elt F)) : StableHlo.after (tl4 (F := F)) V (Proc.devRef .tc main_arg6) = V (Proc.devRef .tc main_arg6) := by
  after_results_simp
set_option maxRecDepth 4096 in
theorem s5_out (V : Valuation τ sig (Elt F)) :
    StableHlo.after (tl5 (F := F)) V (Proc.devRef .tc main_v222) = outOf (V (Proc.devRef .tc main_v215)) (V (Proc.devRef .tc main_arg5)) (V (Proc.devRef .tc main_arg6)) := by
  after_results_simp
  try simp only [TRef.ofBuf, TRef.toBuf, cast_cast, cast_eq]
  first | rfl | done

/-! ## The five lists in a row -/

/-- The fold of the tail's seventy-six operations over any valuation, at the result buffer: the tail of the
    valuation's contents at the array after four layers and at the four weight arguments. The fold of the
    concatenation is the folds in turn; from the last list back, each is read at the buffer the next one needs and
    at the arguments it leaves alone, down to the valuation itself. -/
theorem tailR_after (W : Valuation τ sig (Elt F)) :
    StableHlo.after (opsTail (F := F)) W (Proc.devRef .tc main_v222)
      = tailR (W (Proc.devRef .tc main_v185)) (W (Proc.devRef .tc main_arg3)) (W (Proc.devRef .tc main_arg4))
          (W (Proc.devRef .tc main_arg5)) (W (Proc.devRef .tc main_arg6)) := by
  rw [opsTail_cut]
  simp only [StableHlo.after_append]
  rw [s5_out, s4_cel, s4_arg5, s4_arg6, s3_hid, s3_arg5, s3_arg6, s2_rem, s2_io, s2_X, s2_arg3, s2_arg4, s2_arg5, s2_arg6,
    s1_sum, s1_c, s1_io, s1_X, s1_arg3, s1_arg4, s1_arg5, s1_arg6]
  rfl

end Cert.ReferenceIdeal.Hand

end
-- ==== Proof.TailEq.lean ====
/-
  The two programs' host tails are one function.

  Each side's tail is the composition of the same seventy-six operations in the same order — the index table
  from an iota, the gather, the sum over axis 2, the reshape, the dense layer, celu at α = 1, the second dense
  layer, the reshape, exp of the negation — stated over its own program's shapes and side conditions. The
  shapes of the two programs are the same literals, the gather's and the contractions' dimension numbers the
  same lists, and a side condition is a proposition, so the two compositions agree field by field: the
  equation holds by the two definitions alone, and nothing inside the gather, the sum or the contractions
  is read.
-/
import proofs.«412012_j25271587569863_4_alg».proof.Proof.KI.Tail
import proofs.«412012_j25271587569863_4_alg».proof.Proof.Ref.Tail
import Idealize.ShloMosaic.PureOps.Ideal

noncomputable section

namespace Cert.Proof

open Idealize.ShloMosaic

attribute [local irreducible] Host.gather Host.reduceAdd concatenate broadcastInDim shapeCast in
set_option maxRecDepth 8192 in
/-- At the ideal instance, the kernel program's tail and the reference's are the same function of the array
    and the four weight arrays. -/
theorem tail_eq (X : FVec Ideal Cert.KernelIdeal.S16x4x512x512 .f32) (W1 : FVec Ideal Cert.KernelIdeal.S2048x256 .f32)
    (b1 : FVec Ideal Cert.KernelIdeal.S256 .f32) (W2 : FVec Ideal Cert.KernelIdeal.S256x1 .f32)
    (b2 : FVec Ideal Cert.KernelIdeal.S1 .f32) :
    Cert.KernelIdeal.Hand.tailK (F := Ideal) X W1 b1 W2 b2 = Cert.ReferenceIdeal.Hand.tailR (F := Ideal) X W1 b1 W2 b2 := by
  rfl

end Cert.Proof

end
-- ==== Proof.lean ====
/- The five claims about the stencil kernel and its reference.

   Both programs compute x ↦ tail (stencil x).  The stencil is four layers of a cyclic
   nearest-neighbour update of a masked Gram matrix; the tail is a cyclic-diagonal sum followed by
   a two-layer perceptron and exp(−y).  The kernel program computes the stencil in its one region,
   one batch element per grid point, and the tail on the host; the reference computes both on the
   host.  The kernel programs' frames are the launch theorem for a region followed by host lines,
   the reference's frame is the run of a straight line of host operations.  The algebraic claim
   joins the two stencils index by index on real inputs (the precondition makes every entry of the
   three arrays the stencil reads a real number) and carries the common tail as one function
   applied to equal arrays: the tail is never opened. -/
import proofs.«412012_j25271587569863_4_alg».proof.Defs
import proofs.«412012_j25271587569863_4_alg».proof.Proof.Gen.Kernel
import proofs.«412012_j25271587569863_4_alg».proof.Proof.Gen.KernelIdeal
import proofs.«412012_j25271587569863_4_alg».proof.Proof.Gen.ReferenceIdeal
import proofs.«412012_j25271587569863_4_alg».proof.Proof.Gen.Pre_finite_inputs
import proofs.«412012_j25271587569863_4_alg».proof.Proof.Stencil
import proofs.«412012_j25271587569863_4_alg».proof.Proof.Pre
import proofs.«412012_j25271587569863_4_alg».proof.Proof.K.Frame
import proofs.«412012_j25271587569863_4_alg».proof.Proof.KI.Frame
import proofs.«412012_j25271587569863_4_alg».proof.Proof.KI.Value
import proofs.«412012_j25271587569863_4_alg».proof.Proof.Ref.Run
import proofs.«412012_j25271587569863_4_alg».proof.Proof.Ref.Value
import proofs.«412012_j25271587569863_4_alg».proof.Proof.Ref.Tail
import proofs.«412012_j25271587569863_4_alg».proof.Proof.TailEq
import Idealize.ShloMosaic.Adequacy
import Idealize.ShloMosaic.Init

noncomputable section

namespace Cert.Proof

open Idealize.ShloMosaic Idealize.ShloMosaic.TcCoe Idealize.SL.Sem

/-- The word-level kernel program runs and leaves its seven arguments as they were. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

open Cert.ReferenceIdeal Cert.ReferenceIdeal.Hand in
/-- The reference is a straight line of host operations none of which writes an argument. -/
theorem frame_ri : Cert.frame_ReferenceIdeal := fun m ρ _ =>
  (θ_run Cert.ReferenceIdeal.defs _ _).mono (fun _ h c =>
    ⟨(h c main_arg0).trans (after_args0 _), (h c main_arg1).trans (after_args1 _), (h c main_arg2).trans (after_args2 _),
     (h c main_arg3).trans (after_args3 _), (h c main_arg4).trans (after_args4 _), (h c main_arg5).trans (after_args5 _),
     (h c main_arg6).trans (after_args6 _)⟩)
    (Cert.ReferenceIdeal.Hand.run_after (F := Ideal) m ρ)

open Cert.ReferenceIdeal Cert.ReferenceIdeal.Hand in
/-- From memories that agree on the arguments both programs end with the tail of the same array:
    the reference's array after four layers is, index by index, the reference's stencil of the
    arguments, the kernel's output array the kernel's stencil, and on real arguments the two
    stencils are one function. -/
theorem algebraic : Cert.algebraic_KernelIdeal_ReferenceIdeal := by
  intro m ρ m' ρ' hpre hagree
  refine ⟨_, Cert.KernelIdeal.Hand.run_value m ρ, ?_⟩
  refine (θ_run Cert.ReferenceIdeal.defs _ _).mono (fun r h c =>
    ⟨?_, (h c main_arg0).trans (after_args0 _), (h c main_arg1).trans (after_args1 _), (h c main_arg2).trans (after_args2 _),
     (h c main_arg3).trans (after_args3 _), (h c main_arg4).trans (after_args4 _), (h c main_arg5).trans (after_args5 _),
     (h c main_arg6).trans (after_args6 _)⟩)
    (Cert.ReferenceIdeal.Hand.run_after (F := Ideal) m' ρ')
  obtain ⟨e0, e1, e2, e3, e4, e5, e6⟩ := hagree c
  obtain ⟨hn, hs, hw⟩ := Cert.Pre_finite_inputs.Hand.real_of_pre (hpre c)
  refine (h c main_v222).trans ?_
  show StableHlo.after ((opsInit ++ opsL0 ++ opsL1 ++ opsL2 ++ opsL3) ++ opsTail) (StableHlo.launchContents m' c)
      (Proc.devRef .tc main_v222) = _
  rw [StableHlo.after_append, tailR_after, after_x, after_pre_args3, after_pre_args4, after_pre_args5, after_pre_args6]
  have hX : XrVec (m' ((c.tc : Thread nD τ).loc main_arg0)) (m' ((c.tc : Thread nD τ).loc main_arg2)) (m' ((c.tc : Thread nD τ).loc main_arg1))
      = Cert.KernelIdeal.Hand.Xk m c := by
    funext j
    obtain ⟨b, c', i, k, rfl⟩ : ∃ (b : Fin 16) (c' : Fin 4) (i k : Fin 512), j = ValueIdx.ix4 b c' i k :=
      ⟨j 0, j 1, j 2, j 3, ValueIdx.eq_ix4 j⟩
    rw [XrVec_apply, e0, e1, e2]
    exact (congrFun (congrFun (congrFun (Cert.Stencil.stencilK_eq_stencilR
      (fun i d => m ((c.tc : Thread Cert.KernelIdeal.nD Cert.KernelIdeal.τ).loc Cert.KernelIdeal.main_arg0) (ValueIdx.ix3 b i d))
      (fun c1 l => m ((c.tc : Thread Cert.KernelIdeal.nD Cert.KernelIdeal.τ).loc Cert.KernelIdeal.main_arg1) (ValueIdx.ix2 c1 l))
      (fun c1 l k' => m ((c.tc : Thread Cert.KernelIdeal.nD Cert.KernelIdeal.τ).loc Cert.KernelIdeal.main_arg2) (ValueIdx.ix3 c1 l k'))
      (fun i d => hn _) (fun c1 l => hs _) (fun c1 l k' => hw _)) c') i) k).symm
  show tailR (XrVec (m' ((c.tc : Thread nD τ).loc main_arg0)) (m' ((c.tc : Thread nD τ).loc main_arg2)) (m' ((c.tc : Thread nD τ).loc main_arg1)))
      (m' ((c.tc : Thread nD τ).loc main_arg3)) (m' ((c.tc : Thread nD τ).loc main_arg4)) (m' ((c.tc : Thread nD τ).loc main_arg5))
      (m' ((c.tc : Thread nD τ).loc main_arg6)) = _
  rw [hX, e3, e4, e5, e6]
  exact (Cert.Proof.tail_eq _ _ _ _ _).symm

/-- The five claims. -/
theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
